-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v83)) (v3 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_v116) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S1024x256 : Shape := ⟨2, ![1024, 256]⟩
abbrev S8192x256 : Shape := ⟨2, ![8192, 256]⟩
abbrev S1x256 : Shape := ⟨2, ![1, 256]⟩
abbrev S_ : Shape := ⟨0, ![]⟩
abbrev S256x128 : Shape := ⟨2, ![256, 128]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S128x64 : Shape := ⟨2, ![128, 64]⟩
abbrev S8192x64 : Shape := ⟨2, ![8192, 64]⟩

class Facts : Prop where
  transposes_S256x1024_S1024x256_1_0 : S256x1024.Transposes [1, 0] S1024x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S256x1024 : S_.BroadcastsInDim S256x1024 (![] : Fin 0 → Fin S256x1024.rank)
  reducesTo_S256x1024_S_d0_1 : S256x1024.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S1000x64 : S_.BroadcastsInDim S1000x64 (![] : Fin 0 → Fin S1000x64.rank)
  reducesTo_S1000x64_S_d0_1 : S1000x64.ReducesTo [0, 1] S_
  bcast_S_S1000 : S_.BroadcastsInDim S1000 (![] : Fin 0 → Fin S1000.rank)
  reducesTo_S1000_S_d0 : S1000.ReducesTo [0] S_
  reducesTo_S8192x1024_S8192_d1 : S8192x1024.ReducesTo [1] S8192
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  reducesTo_S8192x256_S8192_d1 : S8192x256.ReducesTo [1] S8192
  bcast_S_S8192x1 : S_.BroadcastsInDim S8192x1 (![] : Fin 0 → Fin S8192x1.rank)
  reducesTo_S8192x1_S_d0_1 : S8192x1.ReducesTo [0, 1] S_
  bcast_S8192x1_S8192x256_0_1 : S8192x1.BroadcastsInDim S8192x256 (![0, 1] : Fin 2 → Fin S8192x256.rank)
  reducesTo_S8192x128_S8192_d1 : S8192x128.ReducesTo [1] S8192
  bcast_S8192x1_S8192x128_0_1 : S8192x1.BroadcastsInDim S8192x128 (![0, 1] : Fin 2 → Fin S8192x128.rank)
  transposes_S64x128_S128x64_1_0 : S64x128.Transposes [1, 0] S128x64
  reducesTo_S8192x64_S8192_d1 : S8192x64.ReducesTo [1] S8192
  dot_S8192x1024_S1024x256_S8192x256_1_0_0_1_n_n_wf : DotDims.WF S8192x1024 S1024x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []

variable [Facts]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def fn_part8 {F : FTy → Type} [FloatOps F] (main_v133 : IVec S_ 1) (main_v137 : FVec F S8192x1 .f32) (main_v145 : FVec F S8192x1 .f32) : IVec S_ 1 :=
  let main_cst_44 : FVec F S_ .f32 := constant S_ .f32 0x00000000#32
  let main_v146 : FVec F S8192x1 .f32 := broadcastInDim S8192x1 ![] bcast_S_S8192x1 main_cst_44
  let main_v147 : IVec S8192x1 1 := cmpf .ogt main_v137 main_v146
  let main_c_45 : IVec S_ 1 := constantI S_ 1 1#1
  let main_v148 : IVec S_ 1 := (fun x v => Host.reduce IntOp.andi x v reducesTo_S8192x1_S_d0_1 h_S_) main_v147 main_c_45
  let main_cst_46 : FVec F S_ .f32 := constant S_ .f32 0x00000000#32
  let main_v149 : FVec F S8192x1 .f32 := broadcastInDim S8192x1 ![] bcast_S_S8192x1 main_cst_46
  let main_v150 : IVec S8192x1 1 := cmpf .ogt main_v145 main_v149
  let main_c_47 : IVec S_ 1 := constantI S_ 1 1#1
  let main_v151 : IVec S_ 1 := (fun x v => Host.reduce IntOp.andi x v reducesTo_S8192x1_S_d0_1 h_S_) main_v150 main_c_47
  let main_v152 : IVec S_ 1 := andi main_v148 main_v151
  let main_v153 : IVec S_ 1 := andi main_v133 main_v152
  main_v153

def fn_part7 {F : FTy → Type} [FloatOps F] (main_arg14 : FVec F S64x128 .f32) (main_v19 : FVec F S8192x128 .f32) (main_v113 : IVec S_ 1) (main_v117 : FVec F S8192x1 .f32) (main_v125 : FVec F S8192x1 .f32) (main_v126 : FVec F S8192x1 .f32) : IVec S_ 1 :=
  let main_v127 : IVec S8192x1 1 := cmpf .ogt main_v117 main_v126
  let main_c_39 : IVec S_ 1 := constantI S_ 1 1#1
  let main_v128 : IVec S_ 1 := (fun x v => Host.reduce IntOp.andi x v reducesTo_S8192x1_S_d0_1 h_S_) main_v127 main_c_39
  let main_cst_40 : FVec F S_ .f32 := constant S_ .f32 0x00000000#32
  let main_v129 : FVec F S8192x1 .f32 := broadcastInDim S8192x1 ![] bcast_S_S8192x1 main_cst_40
  let main_v130 : IVec S8192x1 1 := cmpf .ogt main_v125 main_v129
  let main_c_41 : IVec S_ 1 := constantI S_ 1 1#1
  let main_v131 : IVec S_ 1 := (fun x v => Host.reduce IntOp.andi x v reducesTo_S8192x1_S_d0_1 h_S_) main_v130 main_c_41
  let main_v132 : IVec S_ 1 := andi main_v128 main_v131
  let main_v133 : IVec S_ 1 := andi main_v113 main_v132
  let main_v134 : FVec F S8192x128 .f32 := mulf main_v19 main_v19
  let main_cst_42 : FVec F S_ .f32 := constant S_ .f32 0x00000000#32
  let main_v135 : FVec F S8192 .f32 := (fun x v => Host.reduceAdd x v reducesTo_S8192x128_S8192_d1 h_S_) main_v134 main_cst_42
  let main_v136 : FVec F S8192x1 .f32 := broadcastInDim S8192x1 ![0] bcast_S8192_S8192x1_0 main_v135
  let main_v137 : FVec F S8192x1 .f32 := Host.sqrt main_v136
  let main_v138 : FVec F S8192x128 .f32 := broadcastInDim S8192x128 ![0, 1] bcast_S8192x1_S8192x128_0_1 main_v137
  let main_v139 : FVec F S8192x128 .f32 := Host.divf main_v19 main_v138
  let main_v140 : FVec F S128x64 .f32 := (transpose S128x64 [1, 0] · transposes_S64x128_S128x64_1_0) main_arg14
  let main_v141 : FVec F S8192x64 .f32 := (fun l r => Host.dotGeneral dot_S8192x128_S128x64_S8192x64_1_0_0_1_n_n none l r) main_v139 main_v140
  let main_v142 : FVec F S8192x64 .f32 := mulf main_v141 main_v141
  let main_cst_43 : FVec F S_ .f32 := constant S_ .f32 0x00000000#32
  let main_v143 : FVec F S8192 .f32 := (fun x v => Host.reduceAdd x v reducesTo_S8192x64_S8192_d1 h_S_) main_v142 main_cst_43
  let main_v144 : FVec F S8192x1 .f32 := broadcastInDim S8192x1 ![0] bcast_S8192_S8192x1_0 main_v143
  let main_v145 : FVec F S8192x1 .f32 := Host.sqrt main_v144
  fn_part8 (F := F) main_v133 main_v137 main_v145

def fn_part6 {F : FTy → Type} [FloatOps F] (main_arg13 : FVec F S128x256 .f32) (main_arg14 : FVec F S64x128 .f32) (main_v9 : FVec F S8192x256 .f32) (main_v19 : FVec F S8192x128 .f32) (main_v93 : IVec S_ 1) (main_v105 : FVec F S8192x1 .f32) (main_v107 : IVec S8192x1 1) (main_c_33 : IVec S_ 1) : IVec S_ 1 :=
  let main_v108 : IVec S_ 1 := (fun x v => Host.reduce IntOp.andi x v reducesTo_S8192x1_S_d0_1 h_S_) main_v107 main_c_33
  let main_cst_34 : FVec F S_ .f32 := constant S_ .f32 0x00000000#32
  let main_v109 : FVec F S8192x1 .f32 := broadcastInDim S8192x1 ![] bcast_S_S8192x1 main_cst_34
  let main_v110 : IVec S8192x1 1 := cmpf .ogt main_v105 main_v109
  let main_c_35 : IVec S_ 1 := constantI S_ 1 1#1
  let main_v111 : IVec S_ 1 := (fun x v => Host.reduce IntOp.andi x v reducesTo_S8192x1_S_d0_1 h_S_) main_v110 main_c_35
  let main_v112 : IVec S_ 1 := andi main_v108 main_v111
  let main_v113 : IVec S_ 1 := andi main_v93 main_v112
  let main_v114 : FVec F S8192x256 .f32 := mulf main_v9 main_v9
  let main_cst_36 : FVec F S_ .f32 := constant S_ .f32 0x00000000#32
  let main_v115 : FVec F S8192 .f32 := (fun x v => Host.reduceAdd x v reducesTo_S8192x256_S8192_d1 h_S_) main_v114 main_cst_36
  let main_v116 : FVec F S8192x1 .f32 := broadcastInDim S8192x1 ![0] bcast_S8192_S8192x1_0 main_v115
  let main_v117 : FVec F S8192x1 .f32 := Host.sqrt main_v116
  let main_v118 : FVec F S8192x256 .f32 := broadcastInDim S8192x256 ![0, 1] bcast_S8192x1_S8192x256_0_1 main_v117
  let main_v119 : FVec F S8192x256 .f32 := Host.divf main_v9 main_v118
  let main_v120 : FVec F S256x128 .f32 := (transpose S256x128 [1, 0] · transposes_S128x256_S256x128_1_0) main_arg13
  let main_v121 : FVec F S8192x128 .f32 := (fun l r => Host.dotGeneral dot_S8192x256_S256x128_S8192x128_1_0_0_1_n_n none l r) main_v119 main_v120
  let main_v122 : FVec F S8192x128 .f32 := mulf main_v121 main_v121
  let main_cst_37 : FVec F S_ .f32 := constant S_ .f32 0x00000000#32
  let main_v123 : FVec F S8192 .f32 := (fun x v => Host.reduceAdd x v reducesTo_S8192x128_S8192_d1 h_S_) main_v122 main_cst_37
  let main_v124 : FVec F S8192x1 .f32 := broadcastInDim S8192x1 ![0] bcast_S8192_S8192x1_0 main_v123
  let main_v125 : FVec F S8192x1 .f32 := Host.sqrt main_v124
  let main_cst_38 : FVec F S_ .f32 := constant S_ .f32 0x00000000#32
  let main_v126 : FVec F S8192x1 .f32 := broadcastInDim S8192x1 ![] bcast_S_S8192x1 main_cst_38
  fn_part7 (F := F) main_arg14 main_v19 main_v113 main_v117 main_v125 main_v126

def fn_part5 {F : FTy → Type} [FloatOps F] (main_arg0 : FVec F S8192x1024 .f32) (main_arg12 : FVec F S256x1024 .f32) (main_arg13 : FVec F S128x256 .f32) (main_arg14 : FVec F S64x128 .f32) (main_v9 : FVec F S8192x256 .f32) (main_v19 : FVec F S8192x128 .f32) (main_v88 : IVec S_ 1) (main_v89 : FVec F S64x128 .f32) : IVec S_ 1 :=
  let main_cst_28 : FVec F S_ .f32 := constant S_ .f32 0x7F800000#32
  let main_v90 : FVec F S64x128 .f32 := broadcastInDim S64x128 ![] bcast_S_S64x128 main_cst_28
  let main_v91 : IVec S64x128 1 := cmpf .olt main_v89 main_v90
  let main_c_29 : IVec S_ 1 := constantI S_ 1 1#1
  let main_v92 : IVec S_ 1 := (fun x v => Host.reduce IntOp.andi x v reducesTo_S64x128_S_d0_1 h_S_) main_v91 main_c_29
  let main_v93 : IVec S_ 1 := andi main_v88 main_v92
  let main_v94 : FVec F S8192x1024 .f32 := mulf main_arg0 main_arg0
  let main_cst_30 : FVec F S_ .f32 := constant S_ .f32 0x00000000#32
  let main_v95 : FVec F S8192 .f32 := (fun x v => Host.reduceAdd x v reducesTo_S8192x1024_S8192_d1 h_S_) main_v94 main_cst_30
  let main_v96 : FVec F S8192x1 .f32 := broadcastInDim S8192x1 ![0] bcast_S8192_S8192x1_0 main_v95
  let main_v97 : FVec F S8192x1 .f32 := Host.sqrt main_v96
  let main_v98 : FVec F S8192x1024 .f32 := broadcastInDim S8192x1024 ![0, 1] bcast_S8192x1_S8192x1024_0_1 main_v97
  let main_v99 : FVec F S8192x1024 .f32 := Host.divf main_arg0 main_v98
  let main_v100 : FVec F S1024x256 .f32 := (transpose S1024x256 [1, 0] · transposes_S256x1024_S1024x256_1_0) main_arg12
  let main_v101 : FVec F S8192x256 .f32 := (fun l r => Host.dotGeneral dot_S8192x1024_S1024x256_S8192x256_1_0_0_1_n_n none l r) main_v99 main_v100
  let main_v102 : FVec F S8192x256 .f32 := mulf main_v101 main_v101
  let main_cst_31 : FVec F S_ .f32 := constant S_ .f32 0x00000000#32
  let main_v103 : FVec F S8192 .f32 := (fun x v => Host.reduceAdd x v reducesTo_S8192x256_S8192_d1 h_S_) main_v102 main_cst_31
  let main_v104 : FVec F S8192x1 .f32 := broadcastInDim S8192x1 ![0] bcast_S8192_S8192x1_0 main_v103
  let main_v105 : FVec F S8192x1 .f32 := Host.sqrt main_v104
  let main_cst_32 : FVec F S_ .f32 := constant S_ .f32 0x00000000#32
  let main_v106 : FVec F S8192x1 .f32 := broadcastInDim S8192x1 ![] bcast_S_S8192x1 main_cst_32
  let main_v107 : IVec S8192x1 1 := cmpf .ogt main_v97 main_v106
  let main_c_33 : IVec S_ 1 := constantI S_ 1 1#1
  fn_part6 (F := F) main_arg13 main_arg14 main_v9 main_v19 main_v93 main_v105 main_v107 main_c_33

def fn_part4 {F : FTy → Type} [FloatOps F] (main_arg0 : FVec F S8192x1024 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v68 : IVec S_ 1) (main_v71 : IVec S1000x64 1) (main_c_21 : IVec S_ 1) : IVec S_ 1 :=
  let main_v72 : IVec S_ 1 := (fun x v => Host.reduce IntOp.andi x v reducesTo_S1000x64_S_d0_1 h_S_) main_v71 main_c_21
  let main_v73 : IVec S_ 1 := andi main_v68 main_v72
  let main_v74 : FVec F S1000 .f32 := Host.absf main_arg11
  let main_cst_22 : FVec F S_ .f32 := constant S_ .f32 0x7F800000#32
  let main_v75 : FVec F S1000 .f32 := broadcastInDim S1000 ![] bcast_S_S1000 main_cst_22
  let main_v76 : IVec S1000 1 := cmpf .olt main_v74 main_v75
  let main_c_23 : IVec S_ 1 := constantI S_ 1 1#1
  let main_v77 : IVec S_ 1 := (fun x v => Host.reduce IntOp.andi x v reducesTo_S1000_S_d0 h_S_) main_v76 main_c_23
  let main_v78 : IVec S_ 1 := andi main_v73 main_v77
  let main_v79 : FVec F S256x1024 .f32 := Host.absf main_arg12
  let main_cst_24 : FVec F S_ .f32 := constant S_ .f32 0x7F800000#32
  let main_v80 : FVec F S256x1024 .f32 := broadcastInDim S256x1024 ![] bcast_S_S256x1024 main_cst_24
  let main_v81 : IVec S256x1024 1 := cmpf .olt main_v79 main_v80
  let main_c_25 : IVec S_ 1 := constantI S_ 1 1#1
  let main_v82 : IVec S_ 1 := (fun x v => Host.reduce IntOp.andi x v reducesTo_S256x1024_S_d0_1 h_S_) main_v81 main_c_25
  let main_v83 : IVec S_ 1 := andi main_v78 main_v82
  let main_v84 : FVec F S128x256 .f32 := Host.absf main_arg13
  let main_cst_26 : FVec F S_ .f32 := constant S_ .f32 0x7F800000#32
  let main_v85 : FVec F S128x256 .f32 := broadcastInDim S128x256 ![] bcast_S_S128x256 main_cst_26
  let main_v86 : IVec S128x256 1 := cmpf .olt main_v84 main_v85
  let main_c_27 : IVec S_ 1 := constantI S_ 1 1#1
  let main_v87 : IVec S_ 1 := (fun x v => Host.reduce IntOp.andi x v reducesTo_S128x256_S_d0_1 h_S_) main_v86 main_c_27
  let main_v88 : IVec S_ 1 := andi main_v83 main_v87
  let main_v89 : FVec F S64x128 .f32 := Host.absf main_arg14
  fn_part5 (F := F) main_arg0 main_arg12 main_arg13 main_arg14 main_v9 main_v19 main_v88 main_v89

def fn_part3 {F : FTy → Type} [FloatOps F] (main_arg0 : FVec F S8192x1024 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v53 : IVec S_ 1) (main_v54 : FVec F S128 .f32) (main_cst_14 : FVec F S_ .f32) : IVec S_ 1 :=
  let main_v55 : FVec F S128 .f32 := broadcastInDim S128 ![] bcast_S_S128 main_cst_14
  let main_v56 : IVec S128 1 := cmpf .olt main_v54 main_v55
  let main_c_15 : IVec S_ 1 := constantI S_ 1 1#1
  let main_v57 : IVec S_ 1 := (fun x v => Host.reduce IntOp.andi x v reducesTo_S128_S_d0 h_S_) main_v56 main_c_15
  let main_v58 : IVec S_ 1 := andi main_v53 main_v57
  let main_v59 : FVec F S64x128 .f32 := Host.absf main_arg8
  let main_cst_16 : FVec F S_ .f32 := constant S_ .f32 0x7F800000#32
  let main_v60 : FVec F S64x128 .f32 := broadcastInDim S64x128 ![] bcast_S_S64x128 main_cst_16
  let main_v61 : IVec S64x128 1 := cmpf .olt main_v59 main_v60
  let main_c_17 : IVec S_ 1 := constantI S_ 1 1#1
  let main_v62 : IVec S_ 1 := (fun x v => Host.reduce IntOp.andi x v reducesTo_S64x128_S_d0_1 h_S_) main_v61 main_c_17
  let main_v63 : IVec S_ 1 := andi main_v58 main_v62
  let main_v64 : FVec F S64 .f32 := Host.absf main_arg9
  let main_cst_18 : FVec F S_ .f32 := constant S_ .f32 0x7F800000#32
  let main_v65 : FVec F S64 .f32 := broadcastInDim S64 ![] bcast_S_S64 main_cst_18
  let main_v66 : IVec S64 1 := cmpf .olt main_v64 main_v65
  let main_c_19 : IVec S_ 1 := constantI S_ 1 1#1
  let main_v67 : IVec S_ 1 := (fun x v => Host.reduce IntOp.andi x v reducesTo_S64_S_d0 h_S_) main_v66 main_c_19
  let main_v68 : IVec S_ 1 := andi main_v63 main_v67
  let main_v69 : FVec F S1000x64 .f32 := Host.absf main_arg10
  let main_cst_20 : FVec F S_ .f32 := constant S_ .f32 0x7F800000#32
  let main_v70 : FVec F S1000x64 .f32 := broadcastInDim S1000x64 ![] bcast_S_S1000x64 main_cst_20
  let main_v71 : IVec S1000x64 1 := cmpf .olt main_v69 main_v70
  let main_c_21 : IVec S_ 1 := constantI S_ 1 1#1
  fn_part4 (F := F) main_arg0 main_arg11 main_arg12 main_arg13 main_arg14 main_v9 main_v19 main_v68 main_v71 main_c_21

def fn_part2 {F : FTy → Type} [FloatOps F] (main_arg0 : FVec F S8192x1024 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v33 : IVec S_ 1) (main_v37 : IVec S_ 1) : IVec S_ 1 :=
  let main_v38 : IVec S_ 1 := andi main_v33 main_v37
  let main_v39 : FVec F S256x1024 .f32 := Host.absf main_arg4
  let main_cst_8 : FVec F S_ .f32 := constant S_ .f32 0x7F800000#32
  let main_v40 : FVec F S256x1024 .f32 := broadcastInDim S256x1024 ![] bcast_S_S256x1024 main_cst_8
  let main_v41 : IVec S256x1024 1 := cmpf .olt main_v39 main_v40
  let main_c_9 : IVec S_ 1 := constantI S_ 1 1#1
  let main_v42 : IVec S_ 1 := (fun x v => Host.reduce IntOp.andi x v reducesTo_S256x1024_S_d0_1 h_S_) main_v41 main_c_9
  let main_v43 : IVec S_ 1 := andi main_v38 main_v42
  let main_v44 : FVec F S256 .f32 := Host.absf main_arg5
  let main_cst_10 : FVec F S_ .f32 := constant S_ .f32 0x7F800000#32
  let main_v45 : FVec F S256 .f32 := broadcastInDim S256 ![] bcast_S_S256 main_cst_10
  let main_v46 : IVec S256 1 := cmpf .olt main_v44 main_v45
  let main_c_11 : IVec S_ 1 := constantI S_ 1 1#1
  let main_v47 : IVec S_ 1 := (fun x v => Host.reduce IntOp.andi x v reducesTo_S256_S_d0 h_S_) main_v46 main_c_11
  let main_v48 : IVec S_ 1 := andi main_v43 main_v47
  let main_v49 : FVec F S128x256 .f32 := Host.absf main_arg6
  let main_cst_12 : FVec F S_ .f32 := constant S_ .f32 0x7F800000#32
  let main_v50 : FVec F S128x256 .f32 := broadcastInDim S128x256 ![] bcast_S_S128x256 main_cst_12
  let main_v51 : IVec S128x256 1 := cmpf .olt main_v49 main_v50
  let main_c_13 : IVec S_ 1 := constantI S_ 1 1#1
  let main_v52 : IVec S_ 1 := (fun x v => Host.reduce IntOp.andi x v reducesTo_S128x256_S_d0_1 h_S_) main_v51 main_c_13
  let main_v53 : IVec S_ 1 := andi main_v48 main_v52
  let main_v54 : FVec F S128 .f32 := Host.absf main_arg7
  let main_cst_14 : FVec F S_ .f32 := constant S_ .f32 0x7F800000#32
  fn_part3 (F := F) main_arg0 main_arg8 main_arg9 main_arg10 main_arg11 main_arg12 main_arg13 main_arg14 main_v9 main_v19 main_v53 main_v54 main_cst_14

def fn_part1 {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v20 : FVec F S8192x1024 .f32) (main_cst_1 : FVec F S_ .f32) : IVec S_ 1 :=
  let main_v21 : FVec F S8192x1024 .f32 := broadcastInDim S8192x1024 ![] bcast_S_S8192x1024 main_cst_1
  let main_v22 : IVec S8192x1024 1 := cmpf .olt main_v20 main_v21
  let main_c : IVec S_ 1 := constantI S_ 1 1#1
  let main_v23 : IVec S_ 1 := (fun x v => Host.reduce IntOp.andi x v reducesTo_S8192x1024_S_d0_1 h_S_) main_v22 main_c
  let main_v24 : FVec F S256 .f32 := Host.absf main_arg1
  let main_cst_2 : FVec F S_ .f32 := constant S_ .f32 0x7F800000#32
  let main_v25 : FVec F S256 .f32 := broadcastInDim S256 ![] bcast_S_S256 main_cst_2
  let main_v26 : IVec S256 1 := cmpf .olt main_v24 main_v25
  let main_c_3 : IVec S_ 1 := constantI S_ 1 1#1
  let main_v27 : IVec S_ 1 := (fun x v => Host.reduce IntOp.andi x v reducesTo_S256_S_d0 h_S_) main_v26 main_c_3
  let main_v28 : IVec S_ 1 := andi main_v23 main_v27
  let main_v29 : FVec F S128 .f32 := Host.absf main_arg2
  let main_cst_4 : FVec F S_ .f32 := constant S_ .f32 0x7F800000#32
  let main_v30 : FVec F S128 .f32 := broadcastInDim S128 ![] bcast_S_S128 main_cst_4
  let main_v31 : IVec S128 1 := cmpf .olt main_v29 main_v30
  let main_c_5 : IVec S_ 1 := constantI S_ 1 1#1
  let main_v32 : IVec S_ 1 := (fun x v => Host.reduce IntOp.andi x v reducesTo_S128_S_d0 h_S_) main_v31 main_c_5
  let main_v33 : IVec S_ 1 := andi main_v28 main_v32
  let main_v34 : FVec F S64 .f32 := Host.absf main_arg3
  let main_cst_6 : FVec F S_ .f32 := constant S_ .f32 0x7F800000#32
  let main_v35 : FVec F S64 .f32 := broadcastInDim S64 ![] bcast_S_S64 main_cst_6
  let main_v36 : IVec S64 1 := cmpf .olt main_v34 main_v35
  let main_c_7 : IVec S_ 1 := constantI S_ 1 1#1
  let main_v37 : IVec S_ 1 := (fun x v => Host.reduce IntOp.andi x v reducesTo_S64_S_d0 h_S_) main_v36 main_c_7
  fn_part2 (F := F) main_arg0 main_arg4 main_arg5 main_arg6 main_arg7 main_arg8 main_arg9 main_arg10 main_arg11 main_arg12 main_arg13 main_arg14 main_v9 main_v19 main_v33 main_v37

def fn {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) : IVec S_ 1 :=
  let main_v0 : FVec F S1024x256 .f32 := (transpose S1024x256 [1, 0] · transposes_S256x1024_S1024x256_1_0) main_arg4
  let main_v1 : FVec F S8192x256 .f32 := (fun l r => Host.dotGeneral dot_S8192x1024_S1024x256_S8192x256_1_0_0_1_n_n none l r) main_arg0 main_v0
  let main_v2 : FVec F S1x256 .f32 := broadcastInDim S1x256 ![1] bcast_S256_S1x256_1 main_arg5
  let main_v3 : FVec F S8192x256 .f32 := broadcastInDim S8192x256 ![0, 1] bcast_S1x256_S8192x256_0_1 main_v2
  let main_v4 : FVec F S8192x256 .f32 := addf main_v1 main_v3
  let main_cst : FVec F S_ .f32 := constant S_ .f32 0x00000000#32
  let main_v5 : FVec F S8192x256 .f32 := broadcastInDim S8192x256 ![] bcast_S_S8192x256 main_cst
  let main_v6 : FVec F S8192x256 .f32 := maximumf main_v4 main_v5
  let main_v7 : FVec F S1x256 .f32 := broadcastInDim S1x256 ![1] bcast_S256_S1x256_1 main_arg1
  let main_v8 : FVec F S8192x256 .f32 := broadcastInDim S8192x256 ![0, 1] bcast_S1x256_S8192x256_0_1 main_v7
  let main_v9 : FVec F S8192x256 .f32 := mulf main_v6 main_v8
  let main_v10 : FVec F S256x128 .f32 := (transpose S256x128 [1, 0] · transposes_S128x256_S256x128_1_0) main_arg6
  let main_v11 : FVec F S8192x128 .f32 := (fun l r => Host.dotGeneral dot_S8192x256_S256x128_S8192x128_1_0_0_1_n_n none l r) main_v9 main_v10
  let main_v12 : FVec F S1x128 .f32 := broadcastInDim S1x128 ![1] bcast_S128_S1x128_1 main_arg7
  let main_v13 : FVec F S8192x128 .f32 := broadcastInDim S8192x128 ![0, 1] bcast_S1x128_S8192x128_0_1 main_v12
  let main_v14 : FVec F S8192x128 .f32 := addf main_v11 main_v13
  let main_cst_0 : FVec F S_ .f32 := constant S_ .f32 0x00000000#32
  let main_v15 : FVec F S8192x128 .f32 := broadcastInDim S8192x128 ![] bcast_S_S8192x128 main_cst_0
  let main_v16 : FVec F S8192x128 .f32 := maximumf main_v14 main_v15
  let main_v17 : FVec F S1x128 .f32 := broadcastInDim S1x128 ![1] bcast_S128_S1x128_1 main_arg2
  let main_v18 : FVec F S8192x128 .f32 := broadcastInDim S8192x128 ![0, 1] bcast_S1x128_S8192x128_0_1 main_v17
  let main_v19 : FVec F S8192x128 .f32 := mulf main_v16 main_v18
  let main_v20 : FVec F S8192x1024 .f32 := Host.absf main_arg0
  let main_cst_1 : FVec F S_ .f32 := constant S_ .f32 0x7F800000#32
  fn_part1 (F := F) main_arg0 main_arg1 main_arg2 main_arg3 main_arg4 main_arg5 main_arg6 main_arg7 main_arg8 main_arg9 main_arg10 main_arg11 main_arg12 main_arg13 main_arg14 main_v9 main_v19 main_v20 main_cst_1
-- ==== Kernel.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S1024x256 : Shape := ⟨2, ![1024, 256]⟩
abbrev S256x128 : Shape := ⟨2, ![256, 128]⟩
abbrev S128x64 : Shape := ⟨2, ![128, 64]⟩
abbrev S64x1000 : Shape := ⟨2, ![64, 1000]⟩
abbrev S_ : Shape := ⟨0, ![]⟩
abbrev S1x256 : Shape := ⟨2, ![1, 256]⟩
abbrev S1x128 : Shape := ⟨2, ![1, 128]⟩
abbrev S1x64 : Shape := ⟨2, ![1, 64]⟩
abbrev S1x1000 : Shape := ⟨2, ![1, 1000]⟩
abbrev S8192x1000 : Shape := ⟨2, ![8192, 1000]⟩
abbrev S16x1 : Shape := ⟨2, ![16, 1]⟩
abbrev S16x256 : Shape := ⟨2, ![16, 256]⟩
abbrev S16x128 : Shape := ⟨2, ![16, 128]⟩
abbrev S16x64 : Shape := ⟨2, ![16, 64]⟩
abbrev S512x1024 : Shape := ⟨2, ![512, 1024]⟩
abbrev S512x1000 : Shape := ⟨2, ![512, 1000]⟩
abbrev S8x1 : Shape := ⟨2, ![8, 1]⟩
abbrev S8x256 : Shape := ⟨2, ![8, 256]⟩
abbrev S8x128 : Shape := ⟨2, ![8, 128]⟩
abbrev S8x64 : Shape := ⟨2, ![8, 64]⟩
abbrev S1x1 : Shape := ⟨2, ![1, 1]⟩
abbrev S512x256 : Shape := ⟨2, ![512, 256]⟩
abbrev S512 : Shape := ⟨1, ![512]⟩
abbrev S512x1 : Shape := ⟨2, ![512, 1]⟩
abbrev S1 : Shape := ⟨1, ![1]⟩
abbrev S512x128 : Shape := ⟨2, ![512, 128]⟩
abbrev S512x64 : Shape := ⟨2, ![512, 64]⟩

abbrev nBuf : Space → Nat
  | .hbm => 177
  | .vmem => 36
  | .smem => 0
  | _ => 0

abbrev hbmTy0_0 (i : Nat) : BufTy := match i % 128 with
  | 0 => ⟨S8192x1024, .f32⟩
  | 1 => ⟨S256, .f32⟩
  | 2 => ⟨S128, .f32⟩
  | 3 => ⟨S64, .f32⟩
  | 4 => ⟨S256x1024, .f32⟩
  | 5 => ⟨S256, .f32⟩
  | 6 => ⟨S128x256, .f32⟩
  | 7 => ⟨S128, .f32⟩
  | 8 => ⟨S64x128, .f32⟩
  | 9 => ⟨S64, .f32⟩
  | 10 => ⟨S1000x64, .f32⟩
  | 11 => ⟨S1000, .f32⟩
  | 12 => ⟨S256x1024, .f32⟩
  | 13 => ⟨S128x256, .f32⟩
  | 14 => ⟨S64x128, .f32⟩
  | 15 => ⟨S1024x256, .f32⟩
  | 16 => ⟨S256x128, .f32⟩
  | 17 => ⟨S128x64, .f32⟩
  | 18 => ⟨S64x1000, .f32⟩
  | 19 => ⟨S1024x256, .f32⟩
  | 20 => ⟨S256x128, .f32⟩
  | 21 => ⟨S128x64, .f32⟩
  | 22 => ⟨S_, .f32⟩
  | 23 => ⟨S256, .f32⟩
  | 24 => ⟨S_, .f32⟩
  | 25 => ⟨S128, .f32⟩
  | 26 => ⟨S_, .f32⟩
  | 27 => ⟨S64, .f32⟩
  | 28 => ⟨S1x256, .f32⟩
  | 29 => ⟨S1x256, .f32⟩
  | 30 => ⟨S1x128, .f32⟩
  | 31 => ⟨S1x128, .f32⟩
  | 32 => ⟨S1x64, .f32⟩
  | 33 => ⟨S1x64, .f32⟩
  | 34 => ⟨S1x1000, .f32⟩
  | 35 => ⟨S8192x1000, .f32⟩
  | 36 => ⟨S16x1, .f32⟩
  | 37 => ⟨S16x256, .f32⟩
  | 38 => ⟨S16x1, .f32⟩
  | 39 => ⟨S16x128, .f32⟩
  | 40 => ⟨S16x1, .f32⟩
  | 41 => ⟨S16x64, .f32⟩
  | 42 => ⟨S1x1, .f32⟩
  | 43 => ⟨S1, .f32⟩
  | 44 => ⟨S1x1, .f32⟩
  | 45 => ⟨S1, .f32⟩
  | 46 => ⟨S1, .f32⟩
  | 47 => ⟨S1x256, .f32⟩
  | 48 => ⟨S256, .f32⟩
  | 49 => ⟨S1x256, .f32⟩
  | 50 => ⟨S256, .f32⟩
  | 51 => ⟨S256, .f32⟩
  | 52 => ⟨S_, .f32⟩
  | 53 => ⟨S1, .f32⟩
  | 54 => ⟨S1, .f32⟩
  | 55 => ⟨S_, .f32⟩
  | 56 => ⟨S1, .f32⟩
  | 57 => ⟨S1, .f32⟩
  | 58 => ⟨S_, .f32⟩
  | 59 => ⟨S1, .f32⟩
  | 60 => ⟨S1, .f32⟩
  | 61 => ⟨S256, .f32⟩
  | 62 => ⟨S256, .f32⟩
  | 63 => ⟨S_, .f32⟩
  | 64 => ⟨S256, .f32⟩
  | 65 => ⟨S256, .f32⟩
  | 66 => ⟨S256, .f32⟩
  | 67 => ⟨S_, .f32⟩
  | 68 => ⟨S_, .f32⟩
  | 69 => ⟨S_, .f32⟩
  | 70 => ⟨S_, .f32⟩
  | 71 => ⟨S256, .f32⟩
  | 72 => ⟨S256, .f32⟩
  | 73 => ⟨S_, .f32⟩
  | 74 => ⟨S_, .f32⟩
  | 75 => ⟨S_, .f32⟩
  | 76 => ⟨S256, .f32⟩
  | 77 => ⟨S256, .f32⟩
  | 78 => ⟨S_, .f32⟩
  | 79 => ⟨S256, .f32⟩
  | 80 => ⟨S256, .i1⟩
  | 81 => ⟨S_, .f32⟩
  | 82 => ⟨S_, .f32⟩
  | 83 => ⟨S256, .f32⟩
  | 84 => ⟨S256, .f32⟩
  | 85 => ⟨S256, .f32⟩
  | 86 => ⟨S256, .f32⟩
  | 87 => ⟨S1x1, .f32⟩
  | 88 => ⟨S1, .f32⟩
  | 89 => ⟨S1x1, .f32⟩
  | 90 => ⟨S1, .f32⟩
  | 91 => ⟨S1, .f32⟩
  | 92 => ⟨S1x128, .f32⟩
  | 93 => ⟨S128, .f32⟩
  | 94 => ⟨S1x128, .f32⟩
  | 95 => ⟨S128, .f32⟩
  | 96 => ⟨S128, .f32⟩
  | 97 => ⟨S_, .f32⟩
  | 98 => ⟨S1, .f32⟩
  | 99 => ⟨S1, .f32⟩
  | 100 => ⟨S_, .f32⟩
  | 101 => ⟨S1, .f32⟩
  | 102 => ⟨S1, .f32⟩
  | 103 => ⟨S_, .f32⟩
  | 104 => ⟨S1, .f32⟩
  | 105 => ⟨S1, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S_, .f32⟩
  | 119 => ⟨S_, .f32⟩
  | 120 => ⟨S_, .f32⟩
  | 121 => ⟨S128, .f32⟩
  | 122 => ⟨S128, .f32⟩
  | 123 => ⟨S_, .f32⟩
  | 124 => ⟨S128, .f32⟩
  | 125 => ⟨S128, .i1⟩
  | 126 => ⟨S_, .f32⟩
  | 127 => ⟨S_, .f32⟩
  | _ => ⟨S8192x1024, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S1x1, .f32⟩
  | 5 => ⟨S1, .f32⟩
  | 6 => ⟨S1x1, .f32⟩
  | 7 => ⟨S1, .f32⟩
  | 8 => ⟨S1, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S1, .f32⟩
  | 16 => ⟨S1, .f32⟩
  | 17 => ⟨S_, .f32⟩
  | 18 => ⟨S1, .f32⟩
  | 19 => ⟨S1, .f32⟩
  | 20 => ⟨S_, .f32⟩
  | 21 => ⟨S1, .f32⟩
  | 22 => ⟨S1, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S_, .f32⟩
  | 36 => ⟨S_, .f32⟩
  | 37 => ⟨S_, .f32⟩
  | 38 => ⟨S64, .f32⟩
  | 39 => ⟨S64, .f32⟩
  | 40 => ⟨S_, .f32⟩
  | 41 => ⟨S64, .f32⟩
  | 42 => ⟨S64, .i1⟩
  | 43 => ⟨S_, .f32⟩
  | 44 => ⟨S_, .f32⟩
  | 45 => ⟨S64, .f32⟩
  | 46 => ⟨S64, .f32⟩
  | 47 => ⟨S64, .f32⟩
  | 48 => ⟨S64, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1x256, .f32⟩
  | .local _ .vmem, ⟨4, _⟩ => ⟨S1x256, .f32⟩
  | .local _ .vmem, ⟨5, _⟩ => ⟨S1024x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S256x128, .f32⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S128x64, .f32⟩
  | .local _ .vmem, ⟨14, _⟩ => ⟨S64x1000, .f32⟩
  | .local _ .vmem, ⟨15, _⟩ => ⟨S1x1000, .f32⟩
  | .local _ .vmem, ⟨16, _⟩ => ⟨S512x1000, .f32⟩
  | .local _ .vmem, ⟨17, _⟩ => ⟨S512x1000, .f32⟩
  | .local _ .vmem, ⟨18, _⟩ => ⟨S8x1, .f32⟩
  | .local _ .vmem, ⟨19, _⟩ => ⟨S8x1, .f32⟩
  | .local _ .vmem, ⟨20, _⟩ => ⟨S8x256, .f32⟩
  | .local _ .vmem, ⟨21, _⟩ => ⟨S8x256, .f32⟩
  | .local _ .vmem, ⟨22, _⟩ => ⟨S8x1, .f32⟩
  | .local _ .vmem, ⟨23, _⟩ => ⟨S8x1, .f32⟩
  | .local _ .vmem, ⟨24, _⟩ => ⟨S8x128, .f32⟩
  | .local _ .vmem, ⟨25, _⟩ => ⟨S8x128, .f32⟩
  | .local _ .vmem, ⟨26, _⟩ => ⟨S8x1, .f32⟩
  | .local _ .vmem, ⟨27, _⟩ => ⟨S8x1, .f32⟩
  | .local _ .vmem, ⟨28, _⟩ => ⟨S8x64, .f32⟩
  | .local _ .vmem, ⟨29, _⟩ => ⟨S8x64, .f32⟩
  | .local _ .vmem, ⟨30, _⟩ => ⟨S1x1, .f32⟩
  | .local _ .vmem, ⟨31, _⟩ => ⟨S1x256, .f32⟩
  | .local _ .vmem, ⟨32, _⟩ => ⟨S1x1, .f32⟩
  | .local _ .vmem, ⟨33, _⟩ => ⟨S1x128, .f32⟩
  | .local _ .vmem, ⟨34, _⟩ => ⟨S1x1, .f32⟩
  | .local _ .vmem, ⟨35, _⟩ => ⟨S1x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v17_3 : Ref sig .tc := ⟨.hbm, 38, rfl⟩
abbrev main_v17_4 : Ref sig .tc := ⟨.hbm, 39, rfl⟩
abbrev main_v17_5 : Ref sig .tc := ⟨.hbm, 40, rfl⟩
abbrev main_v17_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_cst_11 : Ref sig .tc := ⟨.hbm, 82, rfl⟩
abbrev main_call0_v0 : Ref sig .tc := ⟨.hbm, 83, rfl⟩
abbrev main_call0_v1 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_cst_17 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_18 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_cst_21 : Ref sig .tc := ⟨.hbm, 127, rfl⟩
abbrev main_call1_v0 : Ref sig .tc := ⟨.hbm, 128, rfl⟩
abbrev main_call1_v1 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_22 : Ref sig .tc := ⟨.hbm, 142, rfl⟩
abbrev main_v94 : Ref sig .tc := ⟨.hbm, 143, rfl⟩
abbrev main_v95 : Ref sig .tc := ⟨.hbm, 144, rfl⟩
abbrev main_cst_23 : Ref sig .tc := ⟨.hbm, 145, rfl⟩
abbrev main_v96 : Ref sig .tc := ⟨.hbm, 146, rfl⟩
abbrev main_v97 : Ref sig .tc := ⟨.hbm, 147, rfl⟩
abbrev main_cst_24 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_25 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_26 : Ref sig .tc := ⟨.hbm, 157, rfl⟩
abbrev main_v105 : Ref sig .tc := ⟨.hbm, 158, rfl⟩
abbrev main_cst_27 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_28 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_29 : Ref sig .tc := ⟨.hbm, 168, rfl⟩
abbrev main_v113 : Ref sig .tc := ⟨.hbm, 169, rfl⟩
abbrev main_v114 : Ref sig .tc := ⟨.hbm, 170, rfl⟩
abbrev main_cst_30 : Ref sig .tc := ⟨.hbm, 171, rfl⟩
abbrev main_cst_31 : Ref sig .tc := ⟨.hbm, 172, rfl⟩
abbrev main_call2_v0 : Ref sig .tc := ⟨.hbm, 173, rfl⟩
abbrev main_call2_v1 : Ref sig .tc := ⟨.hbm, 174, rfl⟩
abbrev main_v115 : Ref sig .tc := ⟨.hbm, 175, rfl⟩
abbrev main_v116 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v161 : BitVec 1 := Scalar.cmpi .eq arg1 c7_i32
  let v162 : BitVec 32 := Scalar.extui v161
  let c0_i32_84 : BitVec 32 := 0#32
  let v163 : BitVec 1 := Scalar.cmpi .ne v162 c0_i32_84
  v163

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1000 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1000 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1000 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S8x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S8x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S8x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

class Facts₀ : Prop where
  transposes_S256x1024_S1024x256_1_0 : S256x1024.Transposes [1, 0] S1024x256
  transposes_S128x256_S256x128_1_0 : S128x256.Transposes [1, 0] S256x128
  transposes_S64x128_S128x64_1_0 : S64x128.Transposes [1, 0] S128x64
  transposes_S1000x64_S64x1000_1_0 : S1000x64.Transposes [1, 0] S64x1000
  reducesTo_S256x1024_S256_d1 : S256x1024.ReducesTo [1] S256
  h_S_ : 0 < S_.numel
  reducesTo_S128x256_S128_d1 : S128x256.ReducesTo [1] S128
  reducesTo_S64x128_S64_d1 : S64x128.ReducesTo [1] S64
  shapeCasts_S256_S1x256 : S256.ShapeCasts S1x256
  shapeCasts_S128_S1x128 : S128.ShapeCasts S1x128
  shapeCasts_S64_S1x64 : S64.ShapeCasts S1x64
  shapeCasts_S1000_S1x1000 : S1000.ShapeCasts S1x1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S512x256 : S1x256.Broadcasts S512x256
  reduces_S512x1024_S512 : S512x1024.Reduces [1] S512
  shapeCasts_S512_S512x1 : S512.ShapeCasts S512x1
  broadcasts_S512x1_S512x1024 : S512x1.Broadcasts S512x1024
  reduces_S512x256_S512 : S512x256.Reduces [1] S512
  broadcasts_S512x1_S512x256 : S512x1.Broadcasts S512x256
  reduces_S512x1_S1 : S512x1.Reduces [0] S1
  shapeCasts_S1_S1x1 : S1.ShapeCasts S1x1
  reduces_S512x256_S256 : S512x256.Reduces [0] S256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S512x128 : S1x128.Broadcasts S512x128
  reduces_S512x128_S512 : S512x128.Reduces [1] S512
  broadcasts_S512x1_S512x128 : S512x1.Broadcasts S512x128
  reduces_S512x128_S128 : S512x128.Reduces [0] S128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S512x64 : S1x64.Broadcasts S512x64
  reduces_S512x64_S512 : S512x64.Reduces [1] S512
  broadcasts_S512x1_S512x64 : S512x1.Broadcasts S512x64
  reduces_S512x64_S64 : S512x64.Reduces [0] S64
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  broadcasts_S1x1_S8x1 : S1x1.Broadcasts S8x1
  inb_S8x1_S8x1_0_0 : ∀ a, (![0, 0] : Fin 2 → Nat) a + S8x1.size a ≤ S8x1.size a
  h_S8x1 : 0 < S8x1.numel
  broadcasts_S1x256_S8x256 : S1x256.Broadcasts S8x256
  inb_S8x256_S8x256_0_0 : ∀ a, (![0, 0] : Fin 2 → Nat) a + S8x256.size a ≤ S8x256.size a
  h_S8x256 : 0 < S8x256.numel
  broadcasts_S1x128_S8x128 : S1x128.Broadcasts S8x128
  inb_S8x128_S8x128_0_0 : ∀ a, (![0, 0] : Fin 2 → Nat) a + S8x128.size a ≤ S8x128.size a
  h_S8x128 : 0 < S8x128.numel
  broadcasts_S1x64_S8x64 : S1x64.Broadcasts S8x64
  inb_S8x64_S8x64_0_0 : ∀ a, (![0, 0] : Fin 2 → Nat) a + S8x64.size a ≤ S8x64.size a
  h_S8x64 : 0 < S8x64.numel
  slices_S16x1_S1x1_0_0 : S16x1.Slices ![0, 0] S1x1
  shapeCasts_S1x1_S1 : S1x1.ShapeCasts S1
  slices_S16x1_S1x1_8_0 : S16x1.Slices ![8, 0] S1x1
  slices_S16x256_S1x256_0_0 : S16x256.Slices ![0, 0] S1x256
  shapeCasts_S1x256_S256 : S1x256.ShapeCasts S256
  slices_S16x256_S1x256_8_0 : S16x256.Slices ![8, 0] S1x256
  bcast_S_S1 : S_.BroadcastsInDim S1 (![] : Fin 0 → Fin S1.rank)
  bcast_S1_S256_0 : S1.BroadcastsInDim S256 (![0] : Fin 1 → Fin S256.rank)
  bcast_S_S256 : S_.BroadcastsInDim S256 (![] : Fin 0 → Fin S256.rank)
  reducesTo_S256_S_d0 : S256.ReducesTo [0] S_
  slices_S16x128_S1x128_0_0 : S16x128.Slices ![0, 0] S1x128
  shapeCasts_S1x128_S128 : S1x128.ShapeCasts S128
  slices_S16x128_S1x128_8_0 : S16x128.Slices ![8, 0] S1x128
  bcast_S1_S128_0 : S1.BroadcastsInDim S128 (![0] : Fin 1 → Fin S128.rank)
  bcast_S_S128 : S_.BroadcastsInDim S128 (![] : Fin 0 → Fin S128.rank)
  reducesTo_S128_S_d0 : S128.ReducesTo [0] S_
  slices_S16x64_S1x64_0_0 : S16x64.Slices ![0, 0] S1x64
  shapeCasts_S1x64_S64 : S1x64.ShapeCasts S64
  slices_S16x64_S1x64_8_0 : S16x64.Slices ![8, 0] S1x64
  bcast_S1_S64_0 : S1.BroadcastsInDim S64 (![0] : Fin 1 → Fin S64.rank)
  bcast_S_S64 : S_.BroadcastsInDim S64 (![] : Fin 0 → Fin S64.rank)
  reducesTo_S64_S_d0 : S64.ReducesTo [0] S_
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  dot_S512x64_S64x1000_S512x1000_1_0_0_1_n_n_wf : DotDims.WF S512x64 S64x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1000.size a ≤ S64x1000.size a
  hwx0_13 : ∀ i : grid0.Coords, EltTy.bits .f32 = 32 ∨ (Rect.block (s := S64x1000) S64x1000.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1000.size a ≤ S1x1000.size a
  hwx0_14 : ∀ i : grid0.Coords, EltTy.bits .f32 = 32 ∨ (Rect.block (s := S1x1000) S1x1000.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1000.size a ≤ S8192x1000.size a
  hwx0_15 : ∀ i : grid0.Coords, EltTy.bits .f32 = 32 ∨ (Rect.block (s := S8192x1000) S512x1000.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x1.size a ≤ S16x1.size a
  hwx0_16 : ∀ i : grid0.Coords, EltTy.bits .f32 = 32 ∨ (Rect.block (s := S16x1) S8x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x256.size a ≤ S16x256.size a
  hwx0_17 : ∀ i : grid0.Coords, EltTy.bits .f32 = 32 ∨ (Rect.block (s := S16x256) S8x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S8x1.size a ≤ S16x1.size a
  hwx0_18 : ∀ i : grid0.Coords, EltTy.bits .f32 = 32 ∨ (Rect.block (s := S16x1) S8x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S8x128.size a ≤ S16x128.size a
  hwx0_19 : ∀ i : grid0.Coords, EltTy.bits .f32 = 32 ∨ (Rect.block (s := S16x128) S8x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S8x1.size a ≤ S16x1.size a
  hwx0_20 : ∀ i : grid0.Coords, EltTy.bits .f32 = 32 ∨ (Rect.block (s := S16x1) S8x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S8x64.size a ≤ S16x64.size a
  hwx0_21 : ∀ i : grid0.Coords, EltTy.bits .f32 = 32 ∨ (Rect.block (s := S16x64) S8x64.size (cc0_transform_21 i) (hinb0_21 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1000_S512x1000_1_0_0_1_n_n : DotDims S512x64 S64x1000 S512x1000 where
  lhsContracting := [1]
  rhsContracting := [0]
  lhsNonContracting := [0]
  rhsNonContracting := [1]
  lhsBatch := []
  rhsBatch := []
  wf := dot_S512x64_S64x1000_S512x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S64x1000.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x1000.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17_0) S512x1000.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v17_1) S8x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v17_2) S8x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v17_3) S8x1.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v17_4) S8x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v17_5) S8x1.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v17_6) S8x64.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev idle0 : Fin 22 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | 17 => fun i => !(k0_cond2 i == 1#1) | 18 => fun i => !(k0_cond2 i == 1#1) | 19 => fun i => !(k0_cond2 i == 1#1) | 20 => fun i => !(k0_cond2 i == 1#1) | 21 => fun i => !(k0_cond2 i == 1#1) | ⟨_ + 22, h⟩ => absurd h (Nat.not_lt.2 (Nat.le_add_left _ _))

class Facts : Prop extends Facts₀ where

variable [Facts]
-- ==== ReferenceIdeal.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S8192x256 : Shape := ⟨2, ![8192, 256]⟩
abbrev S1x256 : Shape := ⟨2, ![1, 256]⟩
abbrev S256x128 : Shape := ⟨2, ![256, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩
abbrev S64x1000 : Shape := ⟨2, ![64, 1000]⟩
abbrev S8192x1000 : Shape := ⟨2, ![8192, 1000]⟩
abbrev S1x1000 : Shape := ⟨2, ![1, 1000]⟩

abbrev nBuf : Space → Nat
  | .hbm => 215
  | .vmem => 0
  | .smem => 0
  | _ => 0

abbrev hbmTy0_0 (i : Nat) : BufTy := match i % 128 with
  | 0 => ⟨S8192x1024, .f32⟩
  | 1 => ⟨S256, .f32⟩
  | 2 => ⟨S128, .f32⟩
  | 3 => ⟨S64, .f32⟩
  | 4 => ⟨S256x1024, .f32⟩
  | 5 => ⟨S256, .f32⟩
  | 6 => ⟨S128x256, .f32⟩
  | 7 => ⟨S128, .f32⟩
  | 8 => ⟨S64x128, .f32⟩
  | 9 => ⟨S64, .f32⟩
  | 10 => ⟨S1000x64, .f32⟩
  | 11 => ⟨S1000, .f32⟩
  | 12 => ⟨S256x1024, .f32⟩
  | 13 => ⟨S128x256, .f32⟩
  | 14 => ⟨S64x128, .f32⟩
  | 15 => ⟨S8192x1024, .f32⟩
  | 16 => ⟨S_, .f32⟩
  | 17 => ⟨S8192, .f32⟩
  | 18 => ⟨S8192x1, .f32⟩
  | 19 => ⟨S8192x1, .f32⟩
  | 20 => ⟨S8192x1024, .f32⟩
  | 21 => ⟨S8192x1024, .f32⟩
  | 22 => ⟨S1024x256, .f32⟩
  | 23 => ⟨S8192x256, .f32⟩
  | 24 => ⟨S8192x256, .f32⟩
  | 25 => ⟨S_, .f32⟩
  | 26 => ⟨S8192, .f32⟩
  | 27 => ⟨S8192x1, .f32⟩
  | 28 => ⟨S8192x1, .f32⟩
  | 29 => ⟨S8192x256, .f32⟩
  | 30 => ⟨S8192x256, .f32⟩
  | 31 => ⟨S8192x256, .f32⟩
  | 32 => ⟨S_, .f32⟩
  | 33 => ⟨S_, .f32⟩
  | 34 => ⟨S_, .f32⟩
  | 35 => ⟨S_, .f32⟩
  | 36 => ⟨S256x1024, .f32⟩
  | 37 => ⟨S256x1024, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S256x1024, .f32⟩
  | 44 => ⟨S_, .f32⟩
  | 45 => ⟨S256, .f32⟩
  | 46 => ⟨S_, .f32⟩
  | 47 => ⟨S_, .f32⟩
  | 48 => ⟨S256, .f32⟩
  | 49 => ⟨S256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S256, .f32⟩
  | 58 => ⟨S256, .f32⟩
  | 59 => ⟨S_, .f32⟩
  | 60 => ⟨S256, .f32⟩
  | 61 => ⟨S256, .i1⟩
  | 62 => ⟨S_, .f32⟩
  | 63 => ⟨S_, .f32⟩
  | 64 => ⟨S256, .f32⟩
  | 65 => ⟨S256, .f32⟩
  | 66 => ⟨S256, .f32⟩
  | 67 => ⟨S256, .f32⟩
  | 68 => ⟨S1024x256, .f32⟩
  | 69 => ⟨S8192x256, .f32⟩
  | 70 => ⟨S1x256, .f32⟩
  | 71 => ⟨S8192x256, .f32⟩
  | 72 => ⟨S8192x256, .f32⟩
  | 73 => ⟨S_, .f32⟩
  | 74 => ⟨S8192x256, .f32⟩
  | 75 => ⟨S8192x256, .f32⟩
  | 76 => ⟨S1x256, .f32⟩
  | 77 => ⟨S8192x256, .f32⟩
  | 78 => ⟨S8192x256, .f32⟩
  | 79 => ⟨S8192x256, .f32⟩
  | 80 => ⟨S_, .f32⟩
  | 81 => ⟨S8192, .f32⟩
  | 82 => ⟨S8192x1, .f32⟩
  | 83 => ⟨S8192x1, .f32⟩
  | 84 => ⟨S8192x256, .f32⟩
  | 85 => ⟨S8192x256, .f32⟩
  | 86 => ⟨S256x128, .f32⟩
  | 87 => ⟨S8192x128, .f32⟩
  | 88 => ⟨S8192x128, .f32⟩
  | 89 => ⟨S_, .f32⟩
  | 90 => ⟨S8192, .f32⟩
  | 91 => ⟨S8192x1, .f32⟩
  | 92 => ⟨S8192x1, .f32⟩
  | 93 => ⟨S8192x128, .f32⟩
  | 94 => ⟨S8192x128, .f32⟩
  | 95 => ⟨S8192x128, .f32⟩
  | 96 => ⟨S_, .f32⟩
  | 97 => ⟨S_, .f32⟩
  | 98 => ⟨S_, .f32⟩
  | 99 => ⟨S_, .f32⟩
  | 100 => ⟨S128x256, .f32⟩
  | 101 => ⟨S128x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .f32⟩
  | 108 => ⟨S_, .f32⟩
  | 109 => ⟨S128, .f32⟩
  | 110 => ⟨S_, .f32⟩
  | 111 => ⟨S_, .f32⟩
  | 112 => ⟨S128, .f32⟩
  | 113 => ⟨S128, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S_, .f32⟩
  | 124 => ⟨S128, .f32⟩
  | 125 => ⟨S128, .i1⟩
  | 126 => ⟨S_, .f32⟩
  | 127 => ⟨S_, .f32⟩
  | _ => ⟨S8192x1024, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S256x128, .f32⟩
  | 5 => ⟨S8192x128, .f32⟩
  | 6 => ⟨S1x128, .f32⟩
  | 7 => ⟨S8192x128, .f32⟩
  | 8 => ⟨S8192x128, .f32⟩
  | 9 => ⟨S_, .f32⟩
  | 10 => ⟨S8192x128, .f32⟩
  | 11 => ⟨S8192x128, .f32⟩
  | 12 => ⟨S1x128, .f32⟩
  | 13 => ⟨S8192x128, .f32⟩
  | 14 => ⟨S8192x128, .f32⟩
  | 15 => ⟨S8192x128, .f32⟩
  | 16 => ⟨S_, .f32⟩
  | 17 => ⟨S8192, .f32⟩
  | 18 => ⟨S8192x1, .f32⟩
  | 19 => ⟨S8192x1, .f32⟩
  | 20 => ⟨S8192x128, .f32⟩
  | 21 => ⟨S8192x128, .f32⟩
  | 22 => ⟨S128x64, .f32⟩
  | 23 => ⟨S8192x64, .f32⟩
  | 24 => ⟨S8192x64, .f32⟩
  | 25 => ⟨S_, .f32⟩
  | 26 => ⟨S8192, .f32⟩
  | 27 => ⟨S8192x1, .f32⟩
  | 28 => ⟨S8192x1, .f32⟩
  | 29 => ⟨S8192x64, .f32⟩
  | 30 => ⟨S8192x64, .f32⟩
  | 31 => ⟨S8192x64, .f32⟩
  | 32 => ⟨S_, .f32⟩
  | 33 => ⟨S_, .f32⟩
  | 34 => ⟨S_, .f32⟩
  | 35 => ⟨S_, .f32⟩
  | 36 => ⟨S64x128, .f32⟩
  | 37 => ⟨S64x128, .f32⟩
  | 38 => ⟨S64x128, .f32⟩
  | 39 => ⟨S64x128, .f32⟩
  | 40 => ⟨S_, .f32⟩
  | 41 => ⟨S64x128, .f32⟩
  | 42 => ⟨S64x128, .f32⟩
  | 43 => ⟨S64x128, .f32⟩
  | 44 => ⟨S_, .f32⟩
  | 45 => ⟨S64, .f32⟩
  | 46 => ⟨S_, .f32⟩
  | 47 => ⟨S_, .f32⟩
  | 48 => ⟨S64, .f32⟩
  | 49 => ⟨S64, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S_, .f32⟩
  | 60 => ⟨S64, .f32⟩
  | 61 => ⟨S64, .i1⟩
  | 62 => ⟨S_, .f32⟩
  | 63 => ⟨S_, .f32⟩
  | 64 => ⟨S64, .f32⟩
  | 65 => ⟨S64, .f32⟩
  | 66 => ⟨S64, .f32⟩
  | 67 => ⟨S64, .f32⟩
  | 68 => ⟨S128x64, .f32⟩
  | 69 => ⟨S8192x64, .f32⟩
  | 70 => ⟨S1x64, .f32⟩
  | 71 => ⟨S8192x64, .f32⟩
  | 72 => ⟨S8192x64, .f32⟩
  | 73 => ⟨S_, .f32⟩
  | 74 => ⟨S8192x64, .f32⟩
  | 75 => ⟨S8192x64, .f32⟩
  | 76 => ⟨S1x64, .f32⟩
  | 77 => ⟨S8192x64, .f32⟩
  | 78 => ⟨S8192x64, .f32⟩
  | 79 => ⟨S64x1000, .f32⟩
  | 80 => ⟨S8192x1000, .f32⟩
  | 81 => ⟨S1x1000, .f32⟩
  | 82 => ⟨S8192x1000, .f32⟩
  | 83 => ⟨S8192x1000, .f32⟩
  | 84 => ⟨S_, .f32⟩
  | 85 => ⟨S8192x1000, .f32⟩
  | 86 => ⟨S8192x1000, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call3_cst : Ref sig .tc := ⟨.hbm, 73, rfl⟩
abbrev main_call3_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_v0 : Ref sig .tc := ⟨.hbm, 79, rfl⟩
abbrev main_call4_cst : Ref sig .tc := ⟨.hbm, 80, rfl⟩
abbrev main_call4_v1 : Ref sig .tc := ⟨.hbm, 81, rfl⟩
abbrev main_call4_v2 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call5_v0 : Ref sig .tc := ⟨.hbm, 88, rfl⟩
abbrev main_call5_cst : Ref sig .tc := ⟨.hbm, 89, rfl⟩
abbrev main_call5_v1 : Ref sig .tc := ⟨.hbm, 90, rfl⟩
abbrev main_call5_v2 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_v50 : Ref sig .tc := ⟨.hbm, 97, rfl⟩
abbrev main_cst_11 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_12 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_13 : Ref sig .tc := ⟨.hbm, 108, rfl⟩
abbrev main_v59 : Ref sig .tc := ⟨.hbm, 109, rfl⟩
abbrev main_cst_14 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_15 : Ref sig .tc := ⟨.hbm, 114, rfl⟩
abbrev main_v63 : Ref sig .tc := ⟨.hbm, 115, rfl⟩
abbrev main_cst_16 : Ref sig .tc := ⟨.hbm, 116, rfl⟩
abbrev main_v64 : Ref sig .tc := ⟨.hbm, 117, rfl⟩
abbrev main_v65 : Ref sig .tc := ⟨.hbm, 118, rfl⟩
abbrev main_cst_17 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_18 : Ref sig .tc := ⟨.hbm, 123, rfl⟩
abbrev main_v69 : Ref sig .tc := ⟨.hbm, 124, rfl⟩
abbrev main_v70 : Ref sig .tc := ⟨.hbm, 125, rfl⟩
abbrev main_cst_19 : Ref sig .tc := ⟨.hbm, 126, rfl⟩
abbrev main_cst_20 : Ref sig .tc := ⟨.hbm, 127, rfl⟩
abbrev main_call6_v0 : Ref sig .tc := ⟨.hbm, 128, rfl⟩
abbrev main_call6_v1 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call7_cst : Ref sig .tc := ⟨.hbm, 137, rfl⟩
abbrev main_call7_v0 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call8_v0 : Ref sig .tc := ⟨.hbm, 143, rfl⟩
abbrev main_call8_cst : Ref sig .tc := ⟨.hbm, 144, rfl⟩
abbrev main_call8_v1 : Ref sig .tc := ⟨.hbm, 145, rfl⟩
abbrev main_call8_v2 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_call9_v0 : Ref sig .tc := ⟨.hbm, 152, rfl⟩
abbrev main_call9_cst : Ref sig .tc := ⟨.hbm, 153, rfl⟩
abbrev main_call9_v1 : Ref sig .tc := ⟨.hbm, 154, rfl⟩
abbrev main_call9_v2 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_21 : Ref sig .tc := ⟨.hbm, 160, rfl⟩
abbrev main_v91 : Ref sig .tc := ⟨.hbm, 161, rfl⟩
abbrev main_cst_22 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_23 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_24 : Ref sig .tc := ⟨.hbm, 172, rfl⟩
abbrev main_v100 : Ref sig .tc := ⟨.hbm, 173, rfl⟩
abbrev main_cst_25 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_26 : Ref sig .tc := ⟨.hbm, 178, rfl⟩
abbrev main_v104 : Ref sig .tc := ⟨.hbm, 179, rfl⟩
abbrev main_cst_27 : Ref sig .tc := ⟨.hbm, 180, rfl⟩
abbrev main_v105 : Ref sig .tc := ⟨.hbm, 181, rfl⟩
abbrev main_v106 : Ref sig .tc := ⟨.hbm, 182, rfl⟩
abbrev main_cst_28 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_29 : Ref sig .tc := ⟨.hbm, 187, rfl⟩
abbrev main_v110 : Ref sig .tc := ⟨.hbm, 188, rfl⟩
abbrev main_v111 : Ref sig .tc := ⟨.hbm, 189, rfl⟩
abbrev main_cst_30 : Ref sig .tc := ⟨.hbm, 190, rfl⟩
abbrev main_cst_31 : Ref sig .tc := ⟨.hbm, 191, rfl⟩
abbrev main_call10_v0 : Ref sig .tc := ⟨.hbm, 192, rfl⟩
abbrev main_call10_v1 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call11_cst : Ref sig .tc := ⟨.hbm, 201, rfl⟩
abbrev main_call11_v0 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_call12_cst : Ref sig .tc := ⟨.hbm, 212, rfl⟩
abbrev main_call12_v0 : Ref sig .tc := ⟨.hbm, 213, rfl⟩
abbrev main_v128 : Ref sig .tc := ⟨.hbm, 214, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S256x1024_S1024x256_1_0 : S256x1024.Transposes [1, 0] S1024x256
  reducesTo_S8192x256_S8192_d1 : S8192x256.ReducesTo [1] S8192
  bcast_S8192x1_S8192x256_0_1 : S8192x1.BroadcastsInDim S8192x256 (![0, 1] : Fin 2 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S256_d1 : S256x1024.ReducesTo [1] S256
  reducesTo_S256_S_d0 : S256.ReducesTo [0] S_
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S128x256_S256x128_1_0 : S128x256.Transposes [1, 0] S256x128
  reducesTo_S8192x128_S8192_d1 : S8192x128.ReducesTo [1] S8192
  bcast_S8192x1_S8192x128_0_1 : S8192x1.BroadcastsInDim S8192x128 (![0, 1] : Fin 2 → Fin S8192x128.rank)
  reducesTo_S8192x128_S_d0_1 : S8192x128.ReducesTo [0, 1] S_
  bcast_S_S128x256 : S_.BroadcastsInDim S128x256 (![] : Fin 0 → Fin S128x256.rank)
  reducesTo_S128x256_S128_d1 : S128x256.ReducesTo [1] S128
  reducesTo_S128_S_d0 : S128.ReducesTo [0] S_
  bcast_S_S128 : S_.BroadcastsInDim S128 (![] : Fin 0 → Fin S128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  reducesTo_S8192x64_S8192_d1 : S8192x64.ReducesTo [1] S8192
  bcast_S8192x1_S8192x64_0_1 : S8192x1.BroadcastsInDim S8192x64 (![0, 1] : Fin 2 → Fin S8192x64.rank)
  reducesTo_S8192x64_S_d0_1 : S8192x64.ReducesTo [0, 1] S_
  bcast_S_S64x128 : S_.BroadcastsInDim S64x128 (![] : Fin 0 → Fin S64x128.rank)
  reducesTo_S64x128_S64_d1 : S64x128.ReducesTo [1] S64
  reducesTo_S64_S_d0 : S64.ReducesTo [0] S_
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1000x64_S64x1000_1_0 : S1000x64.Transposes [1, 0] S64x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x1024_S1024x256_S8192x256_1_0_0_1_n_n_wf : DotDims.WF S8192x1024 S1024x256 S8192x256 [1] [0] [0] [1] [] []
  dot_S8192x256_S8192x1024_S256x1024_0_0_1_1_n_n_wf : DotDims.WF S8192x256 S8192x1024 S256x1024 [0] [0] [1] [1] [] []
  dot_S8192x256_S256x128_S8192x128_1_0_0_1_n_n_wf : DotDims.WF S8192x256 S256x128 S8192x128 [1] [0] [0] [1] [] []
  dot_S8192x128_S8192x256_S128x256_0_0_1_1_n_n_wf : DotDims.WF S8192x128 S8192x256 S128x256 [0] [0] [1] [1] [] []
  dot_S8192x128_S128x64_S8192x64_1_0_0_1_n_n_wf : DotDims.WF S8192x128 S128x64 S8192x64 [1] [0] [0] [1] [] []
  dot_S8192x64_S8192x128_S64x128_0_0_1_1_n_n_wf : DotDims.WF S8192x64 S8192x128 S64x128 [0] [0] [1] [1] [] []
  dot_S8192x64_S64x1000_S8192x1000_1_0_0_1_n_n_wf : DotDims.WF S8192x64 S64x1000 S8192x1000 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S8192x1024_S256x1024_0_0_1_1_n_n : DotDims S8192x256 S8192x1024 S256x1024 where
  lhsContracting := [0]
  rhsContracting := [0]
  lhsNonContracting := [1]
  rhsNonContracting := [1]
  lhsBatch := []
  rhsBatch := []
  wf := dot_S8192x256_S8192x1024_S256x1024_0_0_1_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S8192x256_S128x256_0_0_1_1_n_n : DotDims S8192x128 S8192x256 S128x256 where
  lhsContracting := [0]
  rhsContracting := [0]
  lhsNonContracting := [1]
  rhsNonContracting := [1]
  lhsBatch := []
  rhsBatch := []
  wf := dot_S8192x128_S8192x256_S128x256_0_0_1_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S8192x128_S64x128_0_0_1_1_n_n : DotDims S8192x64 S8192x128 S64x128 where
  lhsContracting := [0]
  rhsContracting := [0]
  lhsNonContracting := [1]
  rhsNonContracting := [1]
  lhsBatch := []
  rhsBatch := []
  wf := dot_S8192x64_S8192x128_S64x128_0_0_1_1_n_n_wf
def dot_S8192x64_S64x1000_S8192x1000_1_0_0_1_n_n : DotDims S8192x64 S64x1000 S8192x1000 where
  lhsContracting := [1]
  rhsContracting := [0]
  lhsNonContracting := [0]
  rhsNonContracting := [1]
  lhsBatch := []
  rhsBatch := []
  wf := dot_S8192x64_S64x1000_S8192x1000_1_0_0_1_n_n_wf

class Facts : Prop extends Facts₀ where

variable [Facts]
-- ==== Proof.KI.Conds.lean ====
/-
  The two branch conditions of the fused kernel's body, as propositions over a grid point's coordinates
  `i = (core, step)`: the accumulators are zeroed when `step = 0` and the per-core partial sums are written
  out when `step = 7` (the last of a core's eight steps). Over the sixteen points `t = 8 * core + step` these
  are `t % 8 = 0` and `t % 8 = 7`.
-/
import proofs.«423609_j13907104104967_3_alg».proof.Proof.Gen.KernelIdeal.Skeleton
import proofs.«423609_j13907104104967_3_alg».proof.Proof.Gen.KernelIdeal.Launch

noncomputable section

namespace Cert.KernelIdeal.Fr

open Idealize.ShloMosaic Cert.KernelIdeal Cert.KernelIdeal.Gen

/-- The body zeroes its six accumulators at this point: the step coordinate is `0`
    (the scalar chain `(step == 0) != 0` of the body's first conditional). -/
abbrev cond0_0 (i : grid0.Coords) : Prop :=
  (Scalar.cmpi .ne (Scalar.extui (Scalar.cmpi .eq (BitVec.ofNat 32 (i 1).val) 0#32)) 0#32) = 1#1

/-- The body writes the per-core partial sums out at this point: the step coordinate is `7`. -/
abbrev cond0_1 (i : grid0.Coords) : Prop := k0_cond2 i = 1#1

/-- The accumulators are zeroed exactly at the points `t ≡ 0 (mod 8)`. -/
theorem hcond0_0 : ∀ t : Fin cfg0.N, cond0_0 (grid0.coords t) ↔ t.val % 8 = 0 :=
  (by decide +kernel : ∀ t : Fin grid0.N, cond0_0 (grid0.coords t) ↔ t.val % 8 = 0)

/-- The partial sums are written out exactly at the points `t ≡ 7 (mod 8)`. -/
theorem hcond0_1 : ∀ t : Fin cfg0.N, cond0_1 (grid0.coords t) ↔ t.val % 8 = 7 :=
  (by decide +kernel : ∀ t : Fin grid0.N, cond0_1 (grid0.coords t) ↔ t.val % 8 = 7)

end Cert.KernelIdeal.Fr

end
-- ==== Proof.KI.Kit.lean ====
/-
  The frame kit of the fused four-layer kernel's program: `@main` is twenty host operations, one pipelined region
  over the sixteen grid points `t = 8 * core + step`, and seven stretches of host operations after it.  This module
  holds what every run of the frame shares:

  * `hmain`: `@main` reduces to the region continued by the later stretches (`tailOps`), entered at the buffer
    contents `V` the first twenty operations leave;
  * `sfx_sub`, `sfx_fresh`, `sfx_keeps`: the later operations touch unscoped TensorCore buffers only, allocate
    nothing, and write none of the twenty-two arrays the region's windows stage (each writes only its own result);
  * `V_main_argK`: no operation before the region writes an argument of `@main`;
  * `iblk`, `before0_w_of`: an input window's staging buffer holds its block at every point, fetched there or not;
  * `frame_of`: a run to the library's frame post leaves all fifteen arguments of `@main` as launched;
  * where the six partial-sum outputs are idle (every point but the last step of a core) and where they are written;
  * the staging and scratch memrefs the body is called with, and the region invariant spelled over the six
    accumulators.

  Everything is stated for any float model `F`.
-/
import proofs.«423609_j13907104104967_3_alg».proof.Proof.Gen.KernelIdeal.Launch
import proofs.«423609_j13907104104967_3_alg».proof.Proof.Gen.KernelIdeal.Skeleton
import proofs.«423609_j13907104104967_3_alg».proof.Proof.Gen.KernelIdeal.Points
import proofs.«423609_j13907104104967_3_alg».proof.Proof.KI.Conds
import Idealize.ShloMosaic.Lib.Pipeline.FrameBody
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the
    twenty host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The seven stretches of host operations after the region, in order. -/
abbrev tailOps : List (List (HloOp τ sig (Elt F))) :=
  [hostOps1, hostOps1_1, hostOps1_2, hostOps1_3, hostOps1_4, hostOps1_5, hostOps1_6]

/-- No host operation allocates a buffer whose contents it leaves open. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main around the region: the host operations before it, the region, the seven stretches after it. It reduces to the
    region CONTINUED BY the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps hostOps0_sub hostOps0_fresh main_chain

/-- A property of every operation of every later stretch, from the property stretch by stretch. -/
theorem tail_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-! ## What the host operations write -/

/-- The fifteen arguments of @main. -/
abbrev mainArgs : List (Ref sig .tc) :=
  [main_arg0, main_arg1, main_arg2, main_arg3, main_arg4, main_arg5, main_arg6, main_arg7, main_arg8, main_arg9,
   main_arg10, main_arg11, main_arg12, main_arg13, main_arg14]

/-- A reference that is no argument of @main. -/
abbrev NoArg (y : Ref sig .tc) : Prop := y ∉ mainArgs
/-- A reference that is no argument of @main and no array a window of the region stages. -/
abbrev Free (y : Ref sig .tc) : Prop := y ∉ mainArgs ∧ ∀ w, Pipeline.arrRef spec0 w ≠ y
/-- The operation writes exactly one buffer, a TensorCore reference with the property `Q`. -/
abbrev WritesOne (Q : Ref sig .tc → Prop) (op : HloOp τ sig (Elt F)) : Prop :=
  ∃ y, Q y ∧ op.writes = {Proc.devRef .tc y}

/-- Such an operation writes no reference without the property. -/
theorem not_writes_of {Q : Ref sig .tc → Prop} {op : HloOp τ sig (Elt F)} (h : WritesOne Q op) (b : Ref sig .tc)
    (hb : ¬Q b) : Proc.devRef .tc b ∉ op.writes := by
  obtain ⟨y, hy, e⟩ := h
  rw [e, Finset.mem_singleton]
  intro e'
  exact hb (Proc.devRef_injective _ e' ▸ hy)

/-- Each of the twenty operations before the region writes its own result, never an argument of @main. -/
theorem hostOps0_writes : (hostOps0 : List (HloOp τ sig (Elt F))).Forall (WritesOne NoArg) := by
  simp only [List.Forall]
  repeat' apply And.intro
  all_goals exact ⟨_, by decide, rfl⟩
/-- Each operation after the region writes its own result: no argument of @main, no array of the region. -/
theorem hostOps1_writes : (hostOps1 : List (HloOp τ sig (Elt F))).Forall (WritesOne Free) := by
  simp only [List.Forall]
  repeat' apply And.intro
  all_goals exact ⟨_, by decide, rfl⟩
theorem hostOps1_1_writes : (hostOps1_1 : List (HloOp τ sig (Elt F))).Forall (WritesOne Free) := by
  simp only [List.Forall]
  repeat' apply And.intro
  all_goals exact ⟨_, by decide, rfl⟩
theorem hostOps1_2_writes : (hostOps1_2 : List (HloOp τ sig (Elt F))).Forall (WritesOne Free) := by
  simp only [List.Forall]
  repeat' apply And.intro
  all_goals exact ⟨_, by decide, rfl⟩
theorem hostOps1_3_writes : (hostOps1_3 : List (HloOp τ sig (Elt F))).Forall (WritesOne Free) := by
  simp only [List.Forall]
  repeat' apply And.intro
  all_goals exact ⟨_, by decide, rfl⟩
theorem hostOps1_4_writes : (hostOps1_4 : List (HloOp τ sig (Elt F))).Forall (WritesOne Free) := by
  simp only [List.Forall]
  repeat' apply And.intro
  all_goals exact ⟨_, by decide, rfl⟩
theorem hostOps1_5_writes : (hostOps1_5 : List (HloOp τ sig (Elt F))).Forall (WritesOne Free) := by
  simp only [List.Forall]
  repeat' apply And.intro
  all_goals exact ⟨_, by decide, rfl⟩
theorem hostOps1_6_writes : (hostOps1_6 : List (HloOp τ sig (Elt F))).Forall (WritesOne Free) := by
  simp only [List.Forall]
  repeat' apply And.intro
  all_goals exact ⟨_, by decide, rfl⟩

/-! ## The later stretches' side conditions -/

/-- The operations after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_forall (P := fun op => op.bufs ⊆ Pipeline.ucRefs τ sig)
    (hostOps1_sub.imp fun op h => Pipeline.sub_ucRefs op h) (hostOps1_1_sub.imp fun op h => Pipeline.sub_ucRefs op h)
    (hostOps1_2_sub.imp fun op h => Pipeline.sub_ucRefs op h) (hostOps1_3_sub.imp fun op h => Pipeline.sub_ucRefs op h)
    (hostOps1_4_sub.imp fun op h => Pipeline.sub_ucRefs op h) (hostOps1_5_sub.imp fun op h => Pipeline.sub_ucRefs op h)
    (hostOps1_6_sub.imp fun op h => Pipeline.sub_ucRefs op h)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh
/-- And write no array of the pipeline: each writes only its own result buffer, which is no array. -/
theorem sfx_keeps : ∀ ops ∈ (tailOps : List (List (HloOp τ sig (Elt F)))), ∀ op ∈ ops,
    ∀ w, Proc.devRef .tc (Pipeline.arrRef spec0 w) ∉ op.writes :=
  have key : ∀ op : HloOp τ sig (Elt F), WritesOne Free op → ∀ w, Proc.devRef .tc (Pipeline.arrRef spec0 w) ∉ op.writes :=
    fun op h w => not_writes_of h _ fun hf => hf.2 w rfl
  tail_forall (hostOps1_writes.imp key) (hostOps1_1_writes.imp key) (hostOps1_2_writes.imp key) (hostOps1_3_writes.imp key)
    (hostOps1_4_writes.imp key) (hostOps1_5_writes.imp key) (hostOps1_6_writes.imp key)

/-! ## The arguments of @main at the region's entry -/

/-- An argument of @main holds at the region's entry what it held at launch: no operation before the region writes it. -/
theorem V_of_arg (c : Dev nD) (b : Ref sig .tc) (hb : b ∈ mainArgs) : V m c b = m ((c : Thread nD τ).loc b) :=
  StableHlo.after_of_forall_not_mem (b := Proc.devRef .tc b) _ _ fun op hop => by
    obtain ⟨ops, h1, h2⟩ := List.mem_flatten.mp hop
    rw [List.mem_singleton] at h1
    subst h1
    exact not_writes_of ((List.forall_iff_forall_mem.mp hostOps0_writes) op h2) b fun h => h hb

theorem V_main_arg0 (c : Dev nD) : V m c main_arg0 = m ((c : Thread nD τ).loc main_arg0) :=
  V_of_arg m c main_arg0 (by decide)
theorem V_main_arg1 (c : Dev nD) : V m c main_arg1 = m ((c : Thread nD τ).loc main_arg1) :=
  V_of_arg m c main_arg1 (by decide)
theorem V_main_arg2 (c : Dev nD) : V m c main_arg2 = m ((c : Thread nD τ).loc main_arg2) :=
  V_of_arg m c main_arg2 (by decide)
theorem V_main_arg3 (c : Dev nD) : V m c main_arg3 = m ((c : Thread nD τ).loc main_arg3) :=
  V_of_arg m c main_arg3 (by decide)
theorem V_main_arg4 (c : Dev nD) : V m c main_arg4 = m ((c : Thread nD τ).loc main_arg4) :=
  V_of_arg m c main_arg4 (by decide)
theorem V_main_arg5 (c : Dev nD) : V m c main_arg5 = m ((c : Thread nD τ).loc main_arg5) :=
  V_of_arg m c main_arg5 (by decide)
theorem V_main_arg6 (c : Dev nD) : V m c main_arg6 = m ((c : Thread nD τ).loc main_arg6) :=
  V_of_arg m c main_arg6 (by decide)
theorem V_main_arg7 (c : Dev nD) : V m c main_arg7 = m ((c : Thread nD τ).loc main_arg7) :=
  V_of_arg m c main_arg7 (by decide)
theorem V_main_arg8 (c : Dev nD) : V m c main_arg8 = m ((c : Thread nD τ).loc main_arg8) :=
  V_of_arg m c main_arg8 (by decide)
theorem V_main_arg9 (c : Dev nD) : V m c main_arg9 = m ((c : Thread nD τ).loc main_arg9) :=
  V_of_arg m c main_arg9 (by decide)
theorem V_main_arg10 (c : Dev nD) : V m c main_arg10 = m ((c : Thread nD τ).loc main_arg10) :=
  V_of_arg m c main_arg10 (by decide)
theorem V_main_arg11 (c : Dev nD) : V m c main_arg11 = m ((c : Thread nD τ).loc main_arg11) :=
  V_of_arg m c main_arg11 (by decide)
theorem V_main_arg12 (c : Dev nD) : V m c main_arg12 = m ((c : Thread nD τ).loc main_arg12) :=
  V_of_arg m c main_arg12 (by decide)
theorem V_main_arg13 (c : Dev nD) : V m c main_arg13 = m ((c : Thread nD τ).loc main_arg13) :=
  V_of_arg m c main_arg13 (by decide)
theorem V_main_arg14 (c : Dev nD) : V m c main_arg14 = m ((c : Thread nD τ).loc main_arg14) :=
  V_of_arg m c main_arg14 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (unfetched, the block
    index has not moved), for any proof data whose array is `V`'s (`hA`) and whose body leaves the block in place
    (`hafter`): every input window is uncut and never idle. Window 0 walks the sixteen row blocks of the batch; windows
    1 to 14 are whole arrays fetched at the first point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the later stretches an argument of @main that is no array of the region holds what it held at launch: no later
    operation writes it, the region's exit leaves it as entered, and no earlier operation writes it. -/
theorem afterTail_arg (dats : (p : Fin 1) → (c : Dev nD) → Dat τ (Elt F) Unit ℕ (UR sig nD τ) ℕ (cfgs p) c) (c : Dev nD)
    (b : Ref sig .tc) (hb : b ∈ mainArgs) (ha : ∀ w, Pipeline.arrRef spec0 w ≠ b) :
    Pipeline.afterTail₀ cfgs dats 0 (V0 m) tailOps c b = m ((c : Thread nD τ).loc b) := by
  have key : ∀ op : HloOp τ sig (Elt F), WritesOne Free op → Proc.devRef .tc b ∉ op.writes :=
    fun op h => not_writes_of h b fun hf => hf.1 hb
  unfold Pipeline.afterTail₀
  rw [StableHlo.after_of_forall_not_mem (b := Proc.devRef .tc b) _ _ fun op hop => by
    obtain ⟨ops, h1, h2⟩ := List.mem_flatten.mp hop
    exact tail_forall (hostOps1_writes.imp key) (hostOps1_1_writes.imp key) (hostOps1_2_writes.imp key)
      (hostOps1_3_writes.imp key) (hostOps1_4_writes.imp key) (hostOps1_5_writes.imp key) (hostOps1_6_writes.imp key) ops h1 op h2]
  exact (Pipeline.withArrays_of_ne spec0 c _ _ b ha).trans (V_of_arg m c b hb)

/-- The same through the frame run's post: a buffer the region bypasses ends at what the later stretches leave. -/
theorem arg_kept (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) tailOps) r) (c : Dev nD)
    (b : Ref sig .tc) (hb : b ∈ mainArgs) (hs : b.isScoped = false) (ha : ∀ w, Pipeline.arrRef spec0 w ≠ b) :
    r.2.mem ((c.tc : Thread nD τ).loc b) = m ((c.tc : Thread nD τ).loc b) :=
  ((h c).2 b (Pipeline.mem_restRefs_of b hs ha)).trans (afterTail_arg m dats c b hb ha)

/-- THE FRAME from a frame run: for any proof data whose arrays are the region-entry contents (`hA`), a run to the
    library's frame post leaves every argument of @main as launched. The batch (argument 0) is the array of input
    window 0, which the region leaves as entered; the fourteen others are staged by no window (the region reads
    transposed or reshaped copies of them), and nothing after the region writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_main_arg0 m c))),
     arg_kept m dats h c main_arg1 (by decide) rfl (by decide),
     arg_kept m dats h c main_arg2 (by decide) rfl (by decide),
     arg_kept m dats h c main_arg3 (by decide) rfl (by decide),
     arg_kept m dats h c main_arg4 (by decide) rfl (by decide),
     arg_kept m dats h c main_arg5 (by decide) rfl (by decide),
     arg_kept m dats h c main_arg6 (by decide) rfl (by decide),
     arg_kept m dats h c main_arg7 (by decide) rfl (by decide),
     arg_kept m dats h c main_arg8 (by decide) rfl (by decide),
     arg_kept m dats h c main_arg9 (by decide) rfl (by decide),
     arg_kept m dats h c main_arg10 (by decide) rfl (by decide),
     arg_kept m dats h c main_arg11 (by decide) rfl (by decide),
     arg_kept m dats h c main_arg12 (by decide) rfl (by decide),
     arg_kept m dats h c main_arg13 (by decide) rfl (by decide),
     arg_kept m dats h c main_arg14 (by decide) rfl (by decide)⟩) h

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- Window 7 is never idle (an input). -/
theorem liveAt0_7 : ∀ t : Fin cfg0.N, cfg0.idle 7 (grid0.coords t) = false := by decide +kernel
/-- Window 8 is never idle (an input). -/
theorem liveAt0_8 : ∀ t : Fin cfg0.N, cfg0.idle 8 (grid0.coords t) = false := by decide +kernel
/-- Window 9 is never idle (an input). -/
theorem liveAt0_9 : ∀ t : Fin cfg0.N, cfg0.idle 9 (grid0.coords t) = false := by decide +kernel
/-- Window 10 is never idle (an input). -/
theorem liveAt0_10 : ∀ t : Fin cfg0.N, cfg0.idle 10 (grid0.coords t) = false := by decide +kernel
/-- Window 11 is never idle (an input). -/
theorem liveAt0_11 : ∀ t : Fin cfg0.N, cfg0.idle 11 (grid0.coords t) = false := by decide +kernel
/-- Window 12 is never idle (an input). -/
theorem liveAt0_12 : ∀ t : Fin cfg0.N, cfg0.idle 12 (grid0.coords t) = false := by decide +kernel
/-- Window 13 is never idle (an input). -/
theorem liveAt0_13 : ∀ t : Fin cfg0.N, cfg0.idle 13 (grid0.coords t) = false := by decide +kernel
/-- Window 14 is never idle (an input). -/
theorem liveAt0_14 : ∀ t : Fin cfg0.N, cfg0.idle 14 (grid0.coords t) = false := by decide +kernel
/-- Window 15 is never idle (the output block stored at every point). -/
theorem liveAt0_15 : ∀ t : Fin cfg0.N, cfg0.idle 15 (grid0.coords t) = false := by decide +kernel
/-- Partial-sum output 16 is idle at a core's first step (accumulators zeroed, nothing written out) and is not written back there. -/
theorem idleAt0_16_A : ∀ t : Fin cfg0.N, cond0_0 (grid0.coords t) → ¬cond0_1 (grid0.coords t) → cfg0.idle 16 (grid0.coords t) = true := by decide +kernel
theorem noFlush0_16_A : ∀ t : Fin cfg0.N, cond0_0 (grid0.coords t) → ¬cond0_1 (grid0.coords t) → (cfg0.win 16).flush t = false := by decide +kernel
/-- The same at a core's middle steps. -/
theorem idleAt0_16_B : ∀ t : Fin cfg0.N, ¬cond0_0 (grid0.coords t) → ¬cond0_1 (grid0.coords t) → cfg0.idle 16 (grid0.coords t) = true := by decide +kernel
theorem noFlush0_16_B : ∀ t : Fin cfg0.N, ¬cond0_0 (grid0.coords t) → ¬cond0_1 (grid0.coords t) → (cfg0.win 16).flush t = false := by decide +kernel
/-- At a core's last step the accumulated sum is stored into it: live. -/
theorem liveAt0_16_C : ∀ t : Fin cfg0.N, ¬cond0_0 (grid0.coords t) → cond0_1 (grid0.coords t) → cfg0.idle 16 (grid0.coords t) = false := by decide +kernel
/-- Partial-sum output 17 is idle at a core's first step (accumulators zeroed, nothing written out) and is not written back there. -/
theorem idleAt0_17_A : ∀ t : Fin cfg0.N, cond0_0 (grid0.coords t) → ¬cond0_1 (grid0.coords t) → cfg0.idle 17 (grid0.coords t) = true := by decide +kernel
theorem noFlush0_17_A : ∀ t : Fin cfg0.N, cond0_0 (grid0.coords t) → ¬cond0_1 (grid0.coords t) → (cfg0.win 17).flush t = false := by decide +kernel
/-- The same at a core's middle steps. -/
theorem idleAt0_17_B : ∀ t : Fin cfg0.N, ¬cond0_0 (grid0.coords t) → ¬cond0_1 (grid0.coords t) → cfg0.idle 17 (grid0.coords t) = true := by decide +kernel
theorem noFlush0_17_B : ∀ t : Fin cfg0.N, ¬cond0_0 (grid0.coords t) → ¬cond0_1 (grid0.coords t) → (cfg0.win 17).flush t = false := by decide +kernel
/-- At a core's last step the accumulated sum is stored into it: live. -/
theorem liveAt0_17_C : ∀ t : Fin cfg0.N, ¬cond0_0 (grid0.coords t) → cond0_1 (grid0.coords t) → cfg0.idle 17 (grid0.coords t) = false := by decide +kernel
/-- Partial-sum output 18 is idle at a core's first step (accumulators zeroed, nothing written out) and is not written back there. -/
theorem idleAt0_18_A : ∀ t : Fin cfg0.N, cond0_0 (grid0.coords t) → ¬cond0_1 (grid0.coords t) → cfg0.idle 18 (grid0.coords t) = true := by decide +kernel
theorem noFlush0_18_A : ∀ t : Fin cfg0.N, cond0_0 (grid0.coords t) → ¬cond0_1 (grid0.coords t) → (cfg0.win 18).flush t = false := by decide +kernel
/-- The same at a core's middle steps. -/
theorem idleAt0_18_B : ∀ t : Fin cfg0.N, ¬cond0_0 (grid0.coords t) → ¬cond0_1 (grid0.coords t) → cfg0.idle 18 (grid0.coords t) = true := by decide +kernel
theorem noFlush0_18_B : ∀ t : Fin cfg0.N, ¬cond0_0 (grid0.coords t) → ¬cond0_1 (grid0.coords t) → (cfg0.win 18).flush t = false := by decide +kernel
/-- At a core's last step the accumulated sum is stored into it: live. -/
theorem liveAt0_18_C : ∀ t : Fin cfg0.N, ¬cond0_0 (grid0.coords t) → cond0_1 (grid0.coords t) → cfg0.idle 18 (grid0.coords t) = false := by decide +kernel
/-- Partial-sum output 19 is idle at a core's first step (accumulators zeroed, nothing written out) and is not written back there. -/
theorem idleAt0_19_A : ∀ t : Fin cfg0.N, cond0_0 (grid0.coords t) → ¬cond0_1 (grid0.coords t) → cfg0.idle 19 (grid0.coords t) = true := by decide +kernel
theorem noFlush0_19_A : ∀ t : Fin cfg0.N, cond0_0 (grid0.coords t) → ¬cond0_1 (grid0.coords t) → (cfg0.win 19).flush t = false := by decide +kernel
/-- The same at a core's middle steps. -/
theorem idleAt0_19_B : ∀ t : Fin cfg0.N, ¬cond0_0 (grid0.coords t) → ¬cond0_1 (grid0.coords t) → cfg0.idle 19 (grid0.coords t) = true := by decide +kernel
theorem noFlush0_19_B : ∀ t : Fin cfg0.N, ¬cond0_0 (grid0.coords t) → ¬cond0_1 (grid0.coords t) → (cfg0.win 19).flush t = false := by decide +kernel
/-- At a core's last step the accumulated sum is stored into it: live. -/
theorem liveAt0_19_C : ∀ t : Fin cfg0.N, ¬cond0_0 (grid0.coords t) → cond0_1 (grid0.coords t) → cfg0.idle 19 (grid0.coords t) = false := by decide +kernel
/-- Partial-sum output 20 is idle at a core's first step (accumulators zeroed, nothing written out) and is not written back there. -/
theorem idleAt0_20_A : ∀ t : Fin cfg0.N, cond0_0 (grid0.coords t) → ¬cond0_1 (grid0.coords t) → cfg0.idle 20 (grid0.coords t) = true := by decide +kernel
theorem noFlush0_20_A : ∀ t : Fin cfg0.N, cond0_0 (grid0.coords t) → ¬cond0_1 (grid0.coords t) → (cfg0.win 20).flush t = false := by decide +kernel
/-- The same at a core's middle steps. -/
theorem idleAt0_20_B : ∀ t : Fin cfg0.N, ¬cond0_0 (grid0.coords t) → ¬cond0_1 (grid0.coords t) → cfg0.idle 20 (grid0.coords t) = true := by decide +kernel
theorem noFlush0_20_B : ∀ t : Fin cfg0.N, ¬cond0_0 (grid0.coords t) → ¬cond0_1 (grid0.coords t) → (cfg0.win 20).flush t = false := by decide +kernel
/-- At a core's last step the accumulated sum is stored into it: live. -/
theorem liveAt0_20_C : ∀ t : Fin cfg0.N, ¬cond0_0 (grid0.coords t) → cond0_1 (grid0.coords t) → cfg0.idle 20 (grid0.coords t) = false := by decide +kernel
/-- Partial-sum output 21 is idle at a core's first step (accumulators zeroed, nothing written out) and is not written back there. -/
theorem idleAt0_21_A : ∀ t : Fin cfg0.N, cond0_0 (grid0.coords t) → ¬cond0_1 (grid0.coords t) → cfg0.idle 21 (grid0.coords t) = true := by decide +kernel
theorem noFlush0_21_A : ∀ t : Fin cfg0.N, cond0_0 (grid0.coords t) → ¬cond0_1 (grid0.coords t) → (cfg0.win 21).flush t = false := by decide +kernel
/-- The same at a core's middle steps. -/
theorem idleAt0_21_B : ∀ t : Fin cfg0.N, ¬cond0_0 (grid0.coords t) → ¬cond0_1 (grid0.coords t) → cfg0.idle 21 (grid0.coords t) = true := by decide +kernel
theorem noFlush0_21_B : ∀ t : Fin cfg0.N, ¬cond0_0 (grid0.coords t) → ¬cond0_1 (grid0.coords t) → (cfg0.win 21).flush t = false := by decide +kernel
/-- At a core's last step the accumulated sum is stored into it: live. -/
theorem liveAt0_21_C : ∀ t : Fin cfg0.N, ¬cond0_0 (grid0.coords t) → cond0_1 (grid0.coords t) → cfg0.idle 21 (grid0.coords t) = false := by decide +kernel

/-! ## The staging and scratch memrefs the body is called with -/

/-- One staging buffer of output window 15, through which its contents are stated. -/
abbrev VO0_15 : View sig .tc .vmem S512x1000 .f32 := (Memref.whole cc0_stg15_0 : Memref sig .tc .vmem S512x1000 .f32).view
/-- One staging buffer of output window 16, through which its contents are stated. -/
abbrev VO0_16 : View sig .tc .vmem S8x1 .f32 := (Memref.whole cc0_stg16_0 : Memref sig .tc .vmem S8x1 .f32).view
/-- One staging buffer of output window 17, through which its contents are stated. -/
abbrev VO0_17 : View sig .tc .vmem S8x256 .f32 := (Memref.whole cc0_stg17_0 : Memref sig .tc .vmem S8x256 .f32).view
/-- One staging buffer of output window 18, through which its contents are stated. -/
abbrev VO0_18 : View sig .tc .vmem S8x1 .f32 := (Memref.whole cc0_stg18_0 : Memref sig .tc .vmem S8x1 .f32).view
/-- One staging buffer of output window 19, through which its contents are stated. -/
abbrev VO0_19 : View sig .tc .vmem S8x128 .f32 := (Memref.whole cc0_stg19_0 : Memref sig .tc .vmem S8x128 .f32).view
/-- One staging buffer of output window 20, through which its contents are stated. -/
abbrev VO0_20 : View sig .tc .vmem S8x1 .f32 := (Memref.whole cc0_stg20_0 : Memref sig .tc .vmem S8x1 .f32).view
/-- One staging buffer of output window 21, through which its contents are stated. -/
abbrev VO0_21 : View sig .tc .vmem S8x64 .f32 := (Memref.whole cc0_stg21_0 : Memref sig .tc .vmem S8x64 .f32).view
/-- Each window's current staging memref at point `t`, as the pipeline passes it to the body, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x1000 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1000 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x1000 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x1 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x1 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S8x64 .f32 := win0_21.stage (cfg0.slots t 21)
abbrev hs0_21 (t : Fin cfg0.N) : (ms0_21 t).IsWhole := hstage0_21 ((cfg0.slots t 21).cast nbuf0_21)
/-- The six accumulators: whole scoped buffers of the kernel's own, passed beside the windows, and their views. -/
abbrev scM0_0 : Memref sig .tc .vmem S1x1 .f32 := Memref.whole cc0_scratch0
abbrev VS0_0 : View sig .tc .vmem S1x1 .f32 := scM0_0.view
abbrev scM0_1 : Memref sig .tc .vmem S1x256 .f32 := Memref.whole cc0_scratch1
abbrev VS0_1 : View sig .tc .vmem S1x256 .f32 := scM0_1.view
abbrev scM0_2 : Memref sig .tc .vmem S1x1 .f32 := Memref.whole cc0_scratch2
abbrev VS0_2 : View sig .tc .vmem S1x1 .f32 := scM0_2.view
abbrev scM0_3 : Memref sig .tc .vmem S1x128 .f32 := Memref.whole cc0_scratch3
abbrev VS0_3 : View sig .tc .vmem S1x128 .f32 := scM0_3.view
abbrev scM0_4 : Memref sig .tc .vmem S1x1 .f32 := Memref.whole cc0_scratch4
abbrev VS0_4 : View sig .tc .vmem S1x1 .f32 := scM0_4.view
abbrev scM0_5 : Memref sig .tc .vmem S1x64 .f32 := Memref.whole cc0_scratch5
abbrev VS0_5 : View sig .tc .vmem S1x64 .f32 := scM0_5.view

/-- The region's invariant with the six accumulators as memrefs owned at some contents: what the body obligation hands a
    run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Fr

end
-- ==== Proof.KI.RunA.lean ====
/-
  The whole-body run of the fused kernel's body at a grid point where the step coordinate is `0`
  (the six accumulators are zeroed first, then added to) and is not `7` (the per-core partial sums are
  not written out: the six partial-sum staging buffers come in at some contents and go back the same).

  `kernelRun0_A` gives, for each buffer the body stores into (the output block and the six accumulators),
  the list of pieces its stores leave (last first), with the proof that from whole staging buffers — the
  fifteen inputs at their contents, the output block and the accumulators at anything — the body runs to
  the continuation holding the inputs as they were and each stored buffer with its pieces written.
-/
import proofs.«423609_j13907104104967_3_alg».proof.Proof.KI.Conds
import proofs.«423609_j13907104104967_3_alg».proof.Proof.Gen.KernelIdeal.Skeleton
import proofs.«423609_j13907104104967_3_alg».proof.Proof.Gen.KernelIdeal.Launch
import proofs.«423609_j13907104104967_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block and in the six accumulators (last first) at a
    point where the accumulators are zeroed and the partial sums are not written out, with the body's
    triple: from whole staging buffers (inputs at their contents `x·`, the six partial-sum buffers at
    contents `xi·`, the output block and the accumulators at anything) the body runs to the continuation
    holding the inputs and the partial-sum buffers as they were and each stored buffer with its pieces
    written. -/
noncomputable def kernelRun0_A (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    Σ' (L15 : List (View.Piece (Elt F) S512x1000 .f32)) (LS0 : List (View.Piece (Elt F) S1x1 .f32)) (LS1 : List (View.Piece (Elt F) S1x256 .f32)) (LS2 : List (View.Piece (Elt F) S1x1 .f32)) (LS3 : List (View.Piece (Elt F) S1x128 .f32)) (LS4 : List (View.Piece (Elt F) S1x1 .f32)), { LS5 : List (View.Piece (Elt F) S1x64 .f32) //
      ∀ (xi16 : Vec F S8x1 .f32) (xi17 : Vec F S8x256 .f32) (xi18 : Vec F S8x1 .f32) (xi19 : Vec F S8x128 .f32) (xi20 : Vec F S8x1 .f32) (xi21 : Vec F S8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ⟨?_, fun xi16 xi17 xi18 xi19 xi20 xi21 E K => ?run⟩⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.KernelIdeal.Fr

end
-- ==== Proof.KI.RunB.lean ====
/-
  The whole-body run of the fused kernel's body at a grid point where NEITHER of its two conditionals is taken
  (the step coordinate is neither 0 nor 7): the six accumulators come in at the contents the point before
  left and are added to, the main output block is stored whole, and the six partial-sum output blocks are
  left untouched. The statement is the body's triple over whole staging memrefs; the pieces each stored
  buffer ends with are the witness.
-/
import proofs.«423609_j13907104104967_3_alg».proof.Proof.KI.Conds
import proofs.«423609_j13907104104967_3_alg».proof.Proof.Gen.KernelIdeal.Skeleton
import proofs.«423609_j13907104104967_3_alg».proof.Proof.Gen.KernelIdeal.Launch
import proofs.«423609_j13907104104967_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the main output's staging memref and in the six accumulators, as pieces
    (last first), at a point where neither conditional is taken, WITH the proof that on whole staging memrefs
    (the inputs' at their contents, the six partial-sum outputs' at contents handed back untouched, the main
    output's at anything, the accumulators at the contents the point before left) the body runs to the
    continuation holding the inputs' as they were, the partial-sum outputs' as they were, and the main output's
    and each accumulator's buffer with its pieces written. -/
noncomputable def kernelRun0_B (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    Σ' (L15 : List (View.Piece (Elt F) S512x1000 .f32)) (LS0 : List (View.Piece (Elt F) S1x1 .f32)) (LS1 : List (View.Piece (Elt F) S1x256 .f32)) (LS2 : List (View.Piece (Elt F) S1x1 .f32)) (LS3 : List (View.Piece (Elt F) S1x128 .f32)) (LS4 : List (View.Piece (Elt F) S1x1 .f32)), { LS5 : List (View.Piece (Elt F) S1x64 .f32) //
      ∀ (xi16 : Vec F S8x1 .f32) (xi17 : Vec F S8x256 .f32) (xi18 : Vec F S8x1 .f32) (xi19 : Vec F S8x128 .f32) (xi20 : Vec F S8x1 .f32) (xi21 : Vec F S8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ⟨?_, fun xi16 xi17 xi18 xi19 xi20 xi21 E K => ?run⟩⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; iexact H24
    isplitl [H25]
    · iexists _; iexact H25
    isplitl [H26]
    · iexists _; iexact H26
    isplitl [H27]
    · iexists _; iexact H27
    isplitl [H28]
    · iexists _; iexact H28
    iexists _; iexact H29

end Cert.KernelIdeal.Fr

end
-- ==== Proof.KI.RunC.lean ====
/-
  The whole-body run of the fused kernel's body at the grid points where the accumulators are NOT zeroed
  (the step coordinate is not 0) and the per-core partial sums ARE written out (the step coordinate is 7):
  on whole staging memrefs — the fifteen inputs' at their contents, the seven outputs' at anything, the six
  accumulators at the contents the point before left — the body runs to the continuation holding the inputs'
  as they were and every output's and every accumulator's memref with the pieces its stores wrote. The piece
  lists are the witness the run finds.
-/
import proofs.«423609_j13907104104967_3_alg».proof.Proof.KI.Conds
import proofs.«423609_j13907104104967_3_alg».proof.Proof.Gen.KernelIdeal.Skeleton
import proofs.«423609_j13907104104967_3_alg».proof.Proof.Gen.KernelIdeal.Launch
import proofs.«423609_j13907104104967_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each output's and each accumulator's staging memref (last store
    first) at a point with step coordinate 7, with the proof that from whole memrefs — inputs at `x·`,
    outputs at anything, accumulators at `xs·` — the body runs to a continuation that receives the inputs
    unchanged and every other memref with those pieces written. -/
noncomputable def kernelRun0_C (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    Σ' (L15 : List (View.Piece (Elt F) S512x1000 .f32)) (L16 : List (View.Piece (Elt F) S8x1 .f32)) (L17 : List (View.Piece (Elt F) S8x256 .f32)) (L18 : List (View.Piece (Elt F) S8x1 .f32)) (L19 : List (View.Piece (Elt F) S8x128 .f32)) (L20 : List (View.Piece (Elt F) S8x1 .f32)) (L21 : List (View.Piece (Elt F) S8x64 .f32)) (LS0 : List (View.Piece (Elt F) S1x1 .f32)) (LS1 : List (View.Piece (Elt F) S1x256 .f32)) (LS2 : List (View.Piece (Elt F) S1x1 .f32)) (LS3 : List (View.Piece (Elt F) S1x128 .f32)) (LS4 : List (View.Piece (Elt F) S1x1 .f32)), { LS5 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg24.eq_unread hfs0; obtain rfl := harg25.eq_unread hfs1; obtain rfl := harg26.eq_unread hfs2; obtain rfl := harg27.eq_unread hfs3; obtain rfl := harg28.eq_unread hfs4; obtain rfl := harg29.eq_unread hfs5
    sl_unfold [cc0__fused_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Fr

end
-- ==== Proof.KI.Frame.lean ====
/-
  What the fused kernel's body leaves behind, point by point, and the region's proof data.

  The one kernel region runs its body at sixteen grid points `t = 8 * core + step`. The body stores the whole
  output block at every point; it keeps six accumulators between points (zeroed at `step = 0`, added to at every
  point) and stores the six per-core partial-sum blocks only at `step = 7`. This module says what each output's
  staging buffer and each accumulator hold after the body at each of the three kinds of point (`out0_κ_w`,
  `sout0_κ_j`: the pieces the body's stores leave, read back; the pieces cover the buffer, `cover0_κ_w`,
  `scover0_κ_j`), threads the accumulators point by point (`outsAt0`), and states the region's invariant
  (`PhiS`) and proof data (`dats`) with what they say window by window (`after0_w`, `before0_w`).
-/
import proofs.«423609_j13907104104967_3_alg».proof.Proof.KI.Kit
import proofs.«423609_j13907104104967_3_alg».proof.Proof.KI.RunA
import proofs.«423609_j13907104104967_3_alg».proof.Proof.KI.RunB
import proofs.«423609_j13907104104967_3_alg».proof.Proof.KI.RunC

-- membership in a rectangle of large extents: the elaborator's structural look recurses once per
-- coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves in the outputs' staging buffers and in the accumulators -/

/-! ### Accumulators zeroed, partial sums not written out -/

/-- The pieces the body's stores leave in output 15's block at a point where the accumulators are zeroed and the partial sums are not written out tile the block, so every
    index of the block lies in one of them. -/
theorem cover0_A_15 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S512x1000.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).1 S512x1000.size (by sl_kernel_rfl) y

/-- What the body leaves in output 15's staging buffer at a point where the accumulators are zeroed and the partial sums are not written out: its pieces read back
    (over any prior contents: they cover the block). -/
def out0_A_15 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S512x1000 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).1)

/-- The body stores nothing into output 16 at a point where the accumulators are zeroed and the partial sums are not written out: no pieces. A placeholder (arbitrary contents
    read back) that nothing consults, since at these points the block is neither written back nor read at the next point. -/
def out0_A_16 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S8x1 .f32 :=
  VO0_16.read (Elt F) (VO0_16.writes (Elt F) VO0_16.junk ([] : List (View.Piece (Elt F) S8x1 .f32)))

/-- The body stores nothing into output 17 at a point where the accumulators are zeroed and the partial sums are not written out: no pieces. A placeholder (arbitrary contents
    read back) that nothing consults, since at these points the block is neither written back nor read at the next point. -/
def out0_A_17 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S8x256 .f32 :=
  VO0_17.read (Elt F) (VO0_17.writes (Elt F) VO0_17.junk ([] : List (View.Piece (Elt F) S8x256 .f32)))

/-- The body stores nothing into output 18 at a point where the accumulators are zeroed and the partial sums are not written out: no pieces. A placeholder (arbitrary contents
    read back) that nothing consults, since at these points the block is neither written back nor read at the next point. -/
def out0_A_18 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S8x1 .f32 :=
  VO0_18.read (Elt F) (VO0_18.writes (Elt F) VO0_18.junk ([] : List (View.Piece (Elt F) S8x1 .f32)))

/-- The body stores nothing into output 19 at a point where the accumulators are zeroed and the partial sums are not written out: no pieces. A placeholder (arbitrary contents
    read back) that nothing consults, since at these points the block is neither written back nor read at the next point. -/
def out0_A_19 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S8x128 .f32 :=
  VO0_19.read (Elt F) (VO0_19.writes (Elt F) VO0_19.junk ([] : List (View.Piece (Elt F) S8x128 .f32)))

/-- The body stores nothing into output 20 at a point where the accumulators are zeroed and the partial sums are not written out: no pieces. A placeholder (arbitrary contents
    read back) that nothing consults, since at these points the block is neither written back nor read at the next point. -/
def out0_A_20 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S8x1 .f32 :=
  VO0_20.read (Elt F) (VO0_20.writes (Elt F) VO0_20.junk ([] : List (View.Piece (Elt F) S8x1 .f32)))

/-- The body stores nothing into output 21 at a point where the accumulators are zeroed and the partial sums are not written out: no pieces. A placeholder (arbitrary contents
    read back) that nothing consults, since at these points the block is neither written back nor read at the next point. -/
def out0_A_21 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S8x64 .f32 :=
  VO0_21.read (Elt F) (VO0_21.writes (Elt F) VO0_21.junk ([] : List (View.Piece (Elt F) S8x64 .f32)))

/-- The pieces the body's stores leave in accumulator 0 at a point where the accumulators are zeroed and the partial sums are not written out tile it, so every index lies in one of them. -/
theorem scover0_A_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.1 S1x1.size (by sl_kernel_rfl) y

/-- What the body leaves in accumulator 0 at a point where the accumulators are zeroed and the partial sums are not written out: its pieces read back. -/
def sout0_A_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.1)

/-- The pieces the body's stores leave in accumulator 1 at a point where the accumulators are zeroed and the partial sums are not written out tile it, so every index lies in one of them. -/
theorem scover0_A_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.1 S1x256.size (by sl_kernel_rfl) y

/-- What the body leaves in accumulator 1 at a point where the accumulators are zeroed and the partial sums are not written out: its pieces read back. -/
def sout0_A_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S1x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.1)

/-- The pieces the body's stores leave in accumulator 2 at a point where the accumulators are zeroed and the partial sums are not written out tile it, so every index lies in one of them. -/
theorem scover0_A_2 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.1 S1x1.size (by sl_kernel_rfl) y

/-- What the body leaves in accumulator 2 at a point where the accumulators are zeroed and the partial sums are not written out: its pieces read back. -/
def sout0_A_2 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S1x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.1)

/-- The pieces the body's stores leave in accumulator 3 at a point where the accumulators are zeroed and the partial sums are not written out tile it, so every index lies in one of them. -/
theorem scover0_A_3 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.1 S1x128.size (by sl_kernel_rfl) y

/-- What the body leaves in accumulator 3 at a point where the accumulators are zeroed and the partial sums are not written out: its pieces read back. -/
def sout0_A_3 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S1x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.1)

/-- The pieces the body's stores leave in accumulator 4 at a point where the accumulators are zeroed and the partial sums are not written out tile it, so every index lies in one of them. -/
theorem scover0_A_4 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.1 S1x1.size (by sl_kernel_rfl) y

/-- What the body leaves in accumulator 4 at a point where the accumulators are zeroed and the partial sums are not written out: its pieces read back. -/
def sout0_A_4 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.1)

/-- The pieces the body's stores leave in accumulator 5 at a point where the accumulators are zeroed and the partial sums are not written out tile it, so every index lies in one of them. -/
theorem scover0_A_5 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (y : S1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.1 S1x64.size (by sl_kernel_rfl) y

/-- What the body leaves in accumulator 5 at a point where the accumulators are zeroed and the partial sums are not written out: its pieces read back. -/
def sout0_A_5 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) : Vec F S1x64 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.1)

/-! ### Accumulators added to, partial sums not written out -/

/-- The pieces the body's stores leave in output 15's block at a point where the accumulators are added to and the partial sums are not written out tile the block, so every
    index of the block lies in one of them. -/
theorem cover0_B_15 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S512x1000.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).1 S512x1000.size (by sl_kernel_rfl) y

/-- What the body leaves in output 15's staging buffer at a point where the accumulators are added to and the partial sums are not written out: its pieces read back
    (over any prior contents: they cover the block). -/
def out0_B_15 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S512x1000 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).1)

/-- The body stores nothing into output 16 at a point where the accumulators are added to and the partial sums are not written out: no pieces. A placeholder (arbitrary contents
    read back) that nothing consults, since at these points the block is neither written back nor read at the next point. -/
def out0_B_16 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x1 .f32 :=
  VO0_16.read (Elt F) (VO0_16.writes (Elt F) VO0_16.junk ([] : List (View.Piece (Elt F) S8x1 .f32)))

/-- The body stores nothing into output 17 at a point where the accumulators are added to and the partial sums are not written out: no pieces. A placeholder (arbitrary contents
    read back) that nothing consults, since at these points the block is neither written back nor read at the next point. -/
def out0_B_17 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x256 .f32 :=
  VO0_17.read (Elt F) (VO0_17.writes (Elt F) VO0_17.junk ([] : List (View.Piece (Elt F) S8x256 .f32)))

/-- The body stores nothing into output 18 at a point where the accumulators are added to and the partial sums are not written out: no pieces. A placeholder (arbitrary contents
    read back) that nothing consults, since at these points the block is neither written back nor read at the next point. -/
def out0_B_18 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x1 .f32 :=
  VO0_18.read (Elt F) (VO0_18.writes (Elt F) VO0_18.junk ([] : List (View.Piece (Elt F) S8x1 .f32)))

/-- The body stores nothing into output 19 at a point where the accumulators are added to and the partial sums are not written out: no pieces. A placeholder (arbitrary contents
    read back) that nothing consults, since at these points the block is neither written back nor read at the next point. -/
def out0_B_19 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x128 .f32 :=
  VO0_19.read (Elt F) (VO0_19.writes (Elt F) VO0_19.junk ([] : List (View.Piece (Elt F) S8x128 .f32)))

/-- The body stores nothing into output 20 at a point where the accumulators are added to and the partial sums are not written out: no pieces. A placeholder (arbitrary contents
    read back) that nothing consults, since at these points the block is neither written back nor read at the next point. -/
def out0_B_20 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x1 .f32 :=
  VO0_20.read (Elt F) (VO0_20.writes (Elt F) VO0_20.junk ([] : List (View.Piece (Elt F) S8x1 .f32)))

/-- The body stores nothing into output 21 at a point where the accumulators are added to and the partial sums are not written out: no pieces. A placeholder (arbitrary contents
    read back) that nothing consults, since at these points the block is neither written back nor read at the next point. -/
def out0_B_21 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x64 .f32 :=
  VO0_21.read (Elt F) (VO0_21.writes (Elt F) VO0_21.junk ([] : List (View.Piece (Elt F) S8x64 .f32)))

/-- The pieces the body's stores leave in accumulator 0 at a point where the accumulators are added to and the partial sums are not written out tile it, so every index lies in one of them. -/
theorem scover0_B_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.1 S1x1.size (by sl_kernel_rfl) y

/-- What the body leaves in accumulator 0 at a point where the accumulators are added to and the partial sums are not written out: its pieces read back. -/
def sout0_B_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.1)

/-- The pieces the body's stores leave in accumulator 1 at a point where the accumulators are added to and the partial sums are not written out tile it, so every index lies in one of them. -/
theorem scover0_B_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.1 S1x256.size (by sl_kernel_rfl) y

/-- What the body leaves in accumulator 1 at a point where the accumulators are added to and the partial sums are not written out: its pieces read back. -/
def sout0_B_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x256 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.1)

/-- The pieces the body's stores leave in accumulator 2 at a point where the accumulators are added to and the partial sums are not written out tile it, so every index lies in one of them. -/
theorem scover0_B_2 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.1 S1x1.size (by sl_kernel_rfl) y

/-- What the body leaves in accumulator 2 at a point where the accumulators are added to and the partial sums are not written out: its pieces read back. -/
def sout0_B_2 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.1)

/-- The pieces the body's stores leave in accumulator 3 at a point where the accumulators are added to and the partial sums are not written out tile it, so every index lies in one of them. -/
theorem scover0_B_3 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.1 S1x128.size (by sl_kernel_rfl) y

/-- What the body leaves in accumulator 3 at a point where the accumulators are added to and the partial sums are not written out: its pieces read back. -/
def sout0_B_3 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.1)

/-- The pieces the body's stores leave in accumulator 4 at a point where the accumulators are added to and the partial sums are not written out tile it, so every index lies in one of them. -/
theorem scover0_B_4 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.1 S1x1.size (by sl_kernel_rfl) y

/-- What the body leaves in accumulator 4 at a point where the accumulators are added to and the partial sums are not written out: its pieces read back. -/
def sout0_B_4 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.1)

/-- The pieces the body's stores leave in accumulator 5 at a point where the accumulators are added to and the partial sums are not written out tile it, so every index lies in one of them. -/
theorem scover0_B_5 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.1 S1x64.size (by sl_kernel_rfl) y

/-- What the body leaves in accumulator 5 at a point where the accumulators are added to and the partial sums are not written out: its pieces read back. -/
def sout0_B_5 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x64 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.1)

/-! ### Accumulators added to, partial sums written out -/

/-- The pieces the body's stores leave in output 15's block at a point where the accumulators are added to and the partial sums are written out tile the block, so every
    index of the block lies in one of them. -/
theorem cover0_C_15 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S512x1000.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).1 S512x1000.size (by sl_kernel_rfl) y

/-- What the body leaves in output 15's staging buffer at a point where the accumulators are added to and the partial sums are written out: its pieces read back
    (over any prior contents: they cover the block). -/
def out0_C_15 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S512x1000 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).1)

/-- The pieces the body's stores leave in output 16's block at a point where the accumulators are added to and the partial sums are written out tile the block, so every
    index of the block lies in one of them. -/
theorem cover0_C_16 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.1 S8x1.size (by sl_kernel_rfl) y

/-- What the body leaves in output 16's staging buffer at a point where the accumulators are added to and the partial sums are written out: its pieces read back
    (over any prior contents: they cover the block). -/
def out0_C_16 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x1 .f32 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.1)

/-- The pieces the body's stores leave in output 17's block at a point where the accumulators are added to and the partial sums are written out tile the block, so every
    index of the block lies in one of them. -/
theorem cover0_C_17 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S8x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.1 S8x256.size (by sl_kernel_rfl) y

/-- What the body leaves in output 17's staging buffer at a point where the accumulators are added to and the partial sums are written out: its pieces read back
    (over any prior contents: they cover the block). -/
def out0_C_17 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x256 .f32 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.1)

/-- The pieces the body's stores leave in output 18's block at a point where the accumulators are added to and the partial sums are written out tile the block, so every
    index of the block lies in one of them. -/
theorem cover0_C_18 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.1 S8x1.size (by sl_kernel_rfl) y

/-- What the body leaves in output 18's staging buffer at a point where the accumulators are added to and the partial sums are written out: its pieces read back
    (over any prior contents: they cover the block). -/
def out0_C_18 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x1 .f32 :=
  VO0_18.read (Elt F) (VO0_18.writes (Elt F) VO0_18.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.1)

/-- The pieces the body's stores leave in output 19's block at a point where the accumulators are added to and the partial sums are written out tile the block, so every
    index of the block lies in one of them. -/
theorem cover0_C_19 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.1 S8x128.size (by sl_kernel_rfl) y

/-- What the body leaves in output 19's staging buffer at a point where the accumulators are added to and the partial sums are written out: its pieces read back
    (over any prior contents: they cover the block). -/
def out0_C_19 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x128 .f32 :=
  VO0_19.read (Elt F) (VO0_19.writes (Elt F) VO0_19.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.1)

/-- The pieces the body's stores leave in output 20's block at a point where the accumulators are added to and the partial sums are written out tile the block, so every
    index of the block lies in one of them. -/
theorem cover0_C_20 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.1 S8x1.size (by sl_kernel_rfl) y

/-- What the body leaves in output 20's staging buffer at a point where the accumulators are added to and the partial sums are written out: its pieces read back
    (over any prior contents: they cover the block). -/
def out0_C_20 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x1 .f32 :=
  VO0_20.read (Elt F) (VO0_20.writes (Elt F) VO0_20.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.1)

/-- The pieces the body's stores leave in output 21's block at a point where the accumulators are added to and the partial sums are written out tile the block, so every
    index of the block lies in one of them. -/
theorem cover0_C_21 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S8x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.1 S8x64.size (by sl_kernel_rfl) y

/-- What the body leaves in output 21's staging buffer at a point where the accumulators are added to and the partial sums are written out: its pieces read back
    (over any prior contents: they cover the block). -/
def out0_C_21 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S8x64 .f32 :=
  VO0_21.read (Elt F) (VO0_21.writes (Elt F) VO0_21.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.1)

/-- The pieces the body's stores leave in accumulator 0 at a point where the accumulators are added to and the partial sums are written out tile it, so every index lies in one of them. -/
theorem scover0_C_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.1 S1x1.size (by sl_kernel_rfl) y

/-- What the body leaves in accumulator 0 at a point where the accumulators are added to and the partial sums are written out: its pieces read back. -/
def sout0_C_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.1)

/-- The pieces the body's stores leave in accumulator 1 at a point where the accumulators are added to and the partial sums are written out tile it, so every index lies in one of them. -/
theorem scover0_C_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.1 S1x256.size (by sl_kernel_rfl) y

/-- What the body leaves in accumulator 1 at a point where the accumulators are added to and the partial sums are written out: its pieces read back. -/
def sout0_C_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x256 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.1)

/-- The pieces the body's stores leave in accumulator 2 at a point where the accumulators are added to and the partial sums are written out tile it, so every index lies in one of them. -/
theorem scover0_C_2 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.1 S1x1.size (by sl_kernel_rfl) y

/-- What the body leaves in accumulator 2 at a point where the accumulators are added to and the partial sums are written out: its pieces read back. -/
def sout0_C_2 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.1)

/-- The pieces the body's stores leave in accumulator 3 at a point where the accumulators are added to and the partial sums are written out tile it, so every index lies in one of them. -/
theorem scover0_C_3 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.1 S1x128.size (by sl_kernel_rfl) y

/-- What the body leaves in accumulator 3 at a point where the accumulators are added to and the partial sums are written out: its pieces read back. -/
def sout0_C_3 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.1)

/-- The pieces the body's stores leave in accumulator 4 at a point where the accumulators are added to and the partial sums are written out tile it, so every index lies in one of them. -/
theorem scover0_C_4 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.1 S1x1.size (by sl_kernel_rfl) y

/-- What the body leaves in accumulator 4 at a point where the accumulators are added to and the partial sums are written out: its pieces read back. -/
def sout0_C_4 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.1)

/-- The pieces the body's stores leave in accumulator 5 at a point where the accumulators are added to and the partial sums are written out tile it, so every index lies in one of them. -/
theorem scover0_C_5 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.2.1 S1x64.size (by sl_kernel_rfl) y

/-- What the body leaves in accumulator 5 at a point where the accumulators are added to and the partial sums are written out: its pieces read back. -/
def sout0_C_5 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) : Vec F S1x64 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.2.1)

/-! ## What the outputs and the accumulators hold after each point -/

/-- THE ACCUMULATION. What the seven outputs' staging buffers (in window order) and then the six accumulators hold
    after the body at position `n`: the contents of the kind of point `n` is (`n % 8 = 0`: accumulators zeroed;
    `n % 8 = 7`: partial sums written out; otherwise neither), run at the point's staging buffers and input blocks,
    the accumulators taken (where they are added to) at what position `n - 1` left in them. No point has both
    `n % 8 = 0` and `n % 8 = 7`. -/
def outsAt0 (c : Dev nD) : (n : ℕ) → n < cfg0.N → Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 8 = 0 then
      if h1 : (n + 1) % 8 = 7 then
        False.elim (by omega)
      else
        (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 8 = 7 then
        (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_C_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_C_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2)
      else
        (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2,
        sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2)

/-- `outsAt0` at a point where the accumulators are zeroed: that kind's contents. -/
theorem outsAt0_A (c : Dev nD) (t : Fin cfg0.N) (h0 : t.val % 8 = 0) (h1 : ¬t.val % 8 = 7) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans ((dif_neg h1).trans rfl)

/-- `outsAt0` at a point where the accumulators are added to and the partial sums are not written out: that
    kind's contents, over what the point before left in the accumulators. -/
theorem outsAt0_B (c : Dev nD) (t : Fin cfg0.N) (h0 : ¬t.val % 8 = 0) (h1 : ¬t.val % 8 = 7) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point where the partial sums are written out: that kind's contents, over what the point
    before left in the accumulators. -/
theorem outsAt0_C (c : Dev nD) (t : Fin cfg0.N) (h0 : ¬t.val % 8 = 0) (h1 : t.val % 8 = 7) :
    outsAt0 m c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2,
        sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, the six accumulators at anything and
    the generator register at some state; afterwards each accumulator at what the point before left in it
    (`outsAt0`'s last six components) and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2.1) ∗ owns (c : Thread nD τ) scM0_3 fullShare ((outsAt0 m c n hn).2.2.2.2.2.2.2.2.2.2.1) ∗ owns (c : Thread nD τ) scM0_4 fullShare ((outsAt0 m c n hn).2.2.2.2.2.2.2.2.2.2.2.1) ∗ owns (c : Thread nD τ) scM0_5 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2.1) ∗ owns (c : Thread nD τ) scM0_3 fullShare ((outsAt0 m c n hn).2.2.2.2.2.2.2.2.2.2.1) ∗ owns (c : Thread nD τ) scM0_4 fullShare ((outsAt0 m c n hn).2.2.2.2.2.2.2.2.2.2.2.1) ∗ owns (c : Thread nD τ) scM0_5 fullShare ((outsAt0 m c n hn).2.2.2.2.2.2.2.2.2.2.2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2.1) ∗ owns (c : Thread nD τ) scM0_3 fullShare ((outsAt0 m c (n - 1) (by omega)).2.2.2.2.2.2.2.2.2.2.1) ∗ owns (c : Thread nD τ) scM0_4 fullShare ((outsAt0 m c (n - 1) (by omega)).2.2.2.2.2.2.2.2.2.2.2.1) ∗ owns (c : Thread nD τ) scM0_5 fullShare ((outsAt0 m c (n - 1) (by omega)).2.2.2.2.2.2.2.2.2.2.2.2)) ∗ (∃ r, prngReg c r)) := by
  cases n with
  | zero => exact absurd rfl hz
  | succ n => rfl

/-! ## The region's proof data -/

/-- The proof data of the region on core `c`: the arrays as the region finds them (`V`); after the body at point
    `t` each input's buffer at its block and each output's at `outsAt0`'s component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨_ + 22, h⟩ => absurd h (Nat.not_lt.2 (Nat.le_add_left _ _))
  Φ t := PhiS m c t.val (Nat.le_of_lt_succ t.isLt)
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

end Cert.KernelIdeal.Fr

end
-- ==== Proof.KI.BodyDefs.lean ====
/-
  The body obligation of the fused kernel's region at a generic grid point, as two assertions: what the body is called
  with at point `t` (`bodyPre`: the region's invariant, what is owed, and each of the twenty-two windows' current staging
  buffer at what the point finds in it) and what it returns (`bodyPost`: the invariant after the point and each window's
  buffer at what the point leaves in it).
-/
import proofs.«423609_j13907104104967_3_alg».proof.Proof.KI.Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what is owed, and each window's current staging buffer
    at what the point finds in it, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

end Cert.KernelIdeal.Fr

end
-- ==== Proof.KI.BodyA.lean ====
/-
  The body obligation at a grid point whose step coordinate is `0`: the six accumulators are zeroed and then added
  to, the six partial-sum buffers are idle, and the output block is stored whole.
-/
import proofs.«423609_j13907104104967_3_alg».proof.Proof.KI.BodyDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at a point where the accumulators are zeroed. The inputs' buffers hold their blocks; the six partial-sum
    buffers are idle (handed back as found, not written back); the body takes the accumulators at ANY contents (at the
    first point the invariant has them at anything, at a later such point at what the point before left) and returns
    them, and the output block, at this point's contents, their pieces covering them. -/
theorem sound_body_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
  rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
  rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
  rw [Dat.leavesExact_idle (dats m 0 c) 19 t (idleAt0_19_A t ((hcond0_0 t).mpr h0) (fun h => h1 ((hcond0_1 t).mp h))) (noFlush0_19_A t ((hcond0_0 t).mpr h0) (fun h => h1 ((hcond0_1 t).mp h)))]
  rw [Dat.leavesExact_idle (dats m 0 c) 20 t (idleAt0_20_A t ((hcond0_0 t).mpr h0) (fun h => h1 ((hcond0_1 t).mp h))) (noFlush0_20_A t ((hcond0_0 t).mpr h0) (fun h => h1 ((hcond0_1 t).mp h)))]
  rw [Dat.leavesExact_idle (dats m 0 c) 21 t (idleAt0_21_A t ((hcond0_0 t).mpr h0) (fun h => h1 ((hcond0_1 t).mp h))) (noFlush0_21_A t ((hcond0_0 t).mpr h0) (fun h => h1 ((hcond0_1 t).mp h)))]
  rw [outsAt0_A m c t h0 h1]
  unfold out0_A_15 sout0_A_0 sout0_A_1 sout0_A_2 sout0_A_3 sout0_A_4 sout0_A_5; (try dsimp only)
  by_cases hz : t.val = 0
  · rw [PhiS_castSucc m c t, PhiS_zero m c _ _ hz, PhiA0_eq]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, ⟨%e15, H15⟩, H16, H17, H18, H19, H20, H21, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS5
        ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]; · iexists _; iexact H16
    isplitl [H17]; · iexists _; iexact H17
    isplitl [H18]; · iexists _; iexact H18
    isplitl [H19]; · iexists _; iexact H19
    isplitl [H20]; · iexists _; iexact H20
    iexists _; iexact H21
  · rw [PhiS_castSucc m c t, PhiS_pos m c _ _ hz]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexact H21
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iintro ⟨H0, H1, H2, H3, H4, H5, H6, H7, H8, H9, H10, H11, H12, H13, H14, ⟨%e15, H15⟩, H16, H17, H18, H19, H20, H21, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS5
        ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Fr

end
-- ==== Proof.KI.BodyB.lean ====
/-
  The body obligation at a grid point whose step coordinate is neither `0` nor `7`: the accumulators are added to
  over what the point before left in them, the six partial-sum buffers are idle, and the output block is stored whole.
-/
import proofs.«423609_j13907104104967_3_alg».proof.Proof.KI.BodyDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at a point where the accumulators are added to and the partial sums are not written out: the invariant
    hands the accumulators at what the point before left; the six partial-sum buffers are idle. -/
theorem sound_body_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
  rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
  rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
  rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
  rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h)))]
  rw [Dat.leavesExact_idle (dats m 0 c) 21 t (idleAt0_21_B t (fun h => h0 ((hcond0_0 t).mp h)) (fun h => h1 ((hcond0_1 t).mp h))) (noFlush0_21_B t (fun h => h0 ((hcond0_0 t).mp h)) (fun h => h1 ((hcond0_1 t).mp h)))]
  rw [outsAt0_B m c t h0 h1]
  unfold out0_B_15 sout0_B_0 sout0_B_1 sout0_B_2 sout0_B_3 sout0_B_4 sout0_B_5; (try dsimp only)
  have hz : t.val ≠ 0 := by omega
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _).2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, ⟨%e15, H15⟩, H16, H17, H18, H19, H20, H21, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.KernelIdeal.Fr

end
-- ==== Proof.KI.BodyC.lean ====
/-
  The body obligation at a grid point whose step coordinate is `7`: the accumulators are added to over what the
  point before left in them, and all seven outputs (the output block and the six per-core partial sums) are stored whole.
-/
import proofs.«423609_j13907104104967_3_alg».proof.Proof.KI.BodyDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stored buffer holds after the body: its pieces read back -/

/-- The pieces the body's stores leave in output 15's staging buffer cover it, so over any prior contents the buffer reads what the point's
    contents record for it. -/
theorem give0_C_15 (c : Dev nD) (t : Fin cfg0.N) (h0 : ¬t.val % 8 = 0) (h1 : t.val % 8 = 7) (f : (ms0_15 t).view.ty.Contents (Elt F)) :
    (ms0_15 t).view.read (Elt F) ((ms0_15 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).1)
      = (outsAt0 m c t.val t.isLt).1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.1) (outsAt0_C m c t h0 h1)
  dsimp only at e
  refine Eq.trans ?_ e.symm
  unfold out0_C_15
  exact View.read_writes_of_cover _ _ _ _ _ (cover0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in output 16's staging buffer cover it, so over any prior contents the buffer reads what the point's
    contents record for it. -/
theorem give0_C_16 (c : Dev nD) (t : Fin cfg0.N) (h0 : ¬t.val % 8 = 0) (h1 : t.val % 8 = 7) (f : (ms0_16 t).view.ty.Contents (Elt F)) :
    (ms0_16 t).view.read (Elt F) ((ms0_16 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.1)
      = (outsAt0 m c t.val t.isLt).2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.1) (outsAt0_C m c t h0 h1)
  dsimp only at e
  refine Eq.trans ?_ e.symm
  unfold out0_C_16
  exact View.read_writes_of_cover _ _ _ _ _ (cover0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in output 17's staging buffer cover it, so over any prior contents the buffer reads what the point's
    contents record for it. -/
theorem give0_C_17 (c : Dev nD) (t : Fin cfg0.N) (h0 : ¬t.val % 8 = 0) (h1 : t.val % 8 = 7) (f : (ms0_17 t).view.ty.Contents (Elt F)) :
    (ms0_17 t).view.read (Elt F) ((ms0_17 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.1)
      = (outsAt0 m c t.val t.isLt).2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.1) (outsAt0_C m c t h0 h1)
  dsimp only at e
  refine Eq.trans ?_ e.symm
  unfold out0_C_17
  exact View.read_writes_of_cover _ _ _ _ _ (cover0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in output 18's staging buffer cover it, so over any prior contents the buffer reads what the point's
    contents record for it. -/
theorem give0_C_18 (c : Dev nD) (t : Fin cfg0.N) (h0 : ¬t.val % 8 = 0) (h1 : t.val % 8 = 7) (f : (ms0_18 t).view.ty.Contents (Elt F)) :
    (ms0_18 t).view.read (Elt F) ((ms0_18 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.1)
      = (outsAt0 m c t.val t.isLt).2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.1) (outsAt0_C m c t h0 h1)
  dsimp only at e
  refine Eq.trans ?_ e.symm
  unfold out0_C_18
  exact View.read_writes_of_cover _ _ _ _ _ (cover0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in output 19's staging buffer cover it, so over any prior contents the buffer reads what the point's
    contents record for it. -/
theorem give0_C_19 (c : Dev nD) (t : Fin cfg0.N) (h0 : ¬t.val % 8 = 0) (h1 : t.val % 8 = 7) (f : (ms0_19 t).view.ty.Contents (Elt F)) :
    (ms0_19 t).view.read (Elt F) ((ms0_19 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.1)
      = (outsAt0 m c t.val t.isLt).2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.1) (outsAt0_C m c t h0 h1)
  dsimp only at e
  refine Eq.trans ?_ e.symm
  unfold out0_C_19
  exact View.read_writes_of_cover _ _ _ _ _ (cover0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in output 20's staging buffer cover it, so over any prior contents the buffer reads what the point's
    contents record for it. -/
theorem give0_C_20 (c : Dev nD) (t : Fin cfg0.N) (h0 : ¬t.val % 8 = 0) (h1 : t.val % 8 = 7) (f : (ms0_20 t).view.ty.Contents (Elt F)) :
    (ms0_20 t).view.read (Elt F) ((ms0_20 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.1)
      = (outsAt0 m c t.val t.isLt).2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.1) (outsAt0_C m c t h0 h1)
  dsimp only at e
  refine Eq.trans ?_ e.symm
  unfold out0_C_20
  exact View.read_writes_of_cover _ _ _ _ _ (cover0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in output 21's staging buffer cover it, so over any prior contents the buffer reads what the point's
    contents record for it. -/
theorem give0_C_21 (c : Dev nD) (t : Fin cfg0.N) (h0 : ¬t.val % 8 = 0) (h1 : t.val % 8 = 7) (f : (ms0_21 t).view.ty.Contents (Elt F)) :
    (ms0_21 t).view.read (Elt F) ((ms0_21 t).view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.1)
      = (outsAt0 m c t.val t.isLt).2.2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.1) (outsAt0_C m c t h0 h1)
  dsimp only at e
  refine Eq.trans ?_ e.symm
  unfold out0_C_21
  exact View.read_writes_of_cover _ _ _ _ _ (cover0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in accumulator 0 cover it, so over any prior contents the buffer reads what the point's
    contents record for it. -/
theorem gives0_C_0 (c : Dev nD) (t : Fin cfg0.N) (h0 : ¬t.val % 8 = 0) (h1 : t.val % 8 = 7) (f : scM0_0.view.ty.Contents (Elt F)) :
    scM0_0.view.read (Elt F) (scM0_0.view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.1)
      = (outsAt0 m c t.val t.isLt).2.2.2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.2.1) (outsAt0_C m c t h0 h1)
  dsimp only at e
  refine Eq.trans ?_ e.symm
  unfold sout0_C_0
  exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in accumulator 1 cover it, so over any prior contents the buffer reads what the point's
    contents record for it. -/
theorem gives0_C_1 (c : Dev nD) (t : Fin cfg0.N) (h0 : ¬t.val % 8 = 0) (h1 : t.val % 8 = 7) (f : scM0_1.view.ty.Contents (Elt F)) :
    scM0_1.view.read (Elt F) (scM0_1.view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.2.1)
      = (outsAt0 m c t.val t.isLt).2.2.2.2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.2.2.1) (outsAt0_C m c t h0 h1)
  dsimp only at e
  refine Eq.trans ?_ e.symm
  unfold sout0_C_1
  exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in accumulator 2 cover it, so over any prior contents the buffer reads what the point's
    contents record for it. -/
theorem gives0_C_2 (c : Dev nD) (t : Fin cfg0.N) (h0 : ¬t.val % 8 = 0) (h1 : t.val % 8 = 7) (f : scM0_2.view.ty.Contents (Elt F)) :
    scM0_2.view.read (Elt F) (scM0_2.view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.2.2.1)
      = (outsAt0 m c t.val t.isLt).2.2.2.2.2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.2.2.2.1) (outsAt0_C m c t h0 h1)
  dsimp only at e
  refine Eq.trans ?_ e.symm
  unfold sout0_C_2
  exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in accumulator 3 cover it, so over any prior contents the buffer reads what the point's
    contents record for it. -/
theorem gives0_C_3 (c : Dev nD) (t : Fin cfg0.N) (h0 : ¬t.val % 8 = 0) (h1 : t.val % 8 = 7) (f : scM0_3.view.ty.Contents (Elt F)) :
    scM0_3.view.read (Elt F) (scM0_3.view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.2.2.2.1)
      = (outsAt0 m c t.val t.isLt).2.2.2.2.2.2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.2.2.2.2.1) (outsAt0_C m c t h0 h1)
  dsimp only at e
  refine Eq.trans ?_ e.symm
  unfold sout0_C_3
  exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in accumulator 4 cover it, so over any prior contents the buffer reads what the point's
    contents record for it. -/
theorem gives0_C_4 (c : Dev nD) (t : Fin cfg0.N) (h0 : ¬t.val % 8 = 0) (h1 : t.val % 8 = 7) (f : scM0_4.view.ty.Contents (Elt F)) :
    scM0_4.view.read (Elt F) (scM0_4.view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.2.2.2.2.1)
      = (outsAt0 m c t.val t.isLt).2.2.2.2.2.2.2.2.2.2.2.1 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.2.2.2.2.2.1) (outsAt0_C m c t h0 h1)
  dsimp only at e
  refine Eq.trans ?_ e.symm
  unfold sout0_C_4
  exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

/-- The pieces the body's stores leave in accumulator 5 cover it, so over any prior contents the buffer reads what the point's
    contents record for it. -/
theorem gives0_C_5 (c : Dev nD) (t : Fin cfg0.N) (h0 : ¬t.val % 8 = 0) (h1 : t.val % 8 = 7) (f : scM0_5.view.ty.Contents (Elt F)) :
    scM0_5.view.read (Elt F) (scM0_5.view.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.2.2.2.2.2.1)
      = (outsAt0 m c t.val t.isLt).2.2.2.2.2.2.2.2.2.2.2.2 := by
  have e := congrArg (fun p : Vec F S512x1000 .f32 × Vec F S8x1 .f32 × Vec F S8x256 .f32 × Vec F S8x1 .f32 × Vec F S8x128 .f32 × Vec F S8x1 .f32 × Vec F S8x64 .f32 × Vec F S1x1 .f32 × Vec F S1x256 .f32 × Vec F S1x1 .f32 × Vec F S1x128 .f32 × Vec F S1x1 .f32 × Vec F S1x64 .f32 => p.2.2.2.2.2.2.2.2.2.2.2.2) (outsAt0_C m c t h0 h1)
  dsimp only at e
  refine Eq.trans ?_ e.symm
  unfold sout0_C_5
  exact View.read_writes_of_cover _ _ _ _ _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2)

set_option maxHeartbeats 16000000 in
/-- The body at a point where the partial sums are written out: the invariant hands the accumulators at what the point
    before left; all seven outputs are stored whole, their pieces covering them. -/
theorem sound_body_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16_C t (fun h => h0 ((hcond0_0 t).mp h)) ((hcond0_1 t).mpr h1)], after0_16]
  rw [show (dats m 0 c).leavesExact 17 t = owns (c : Thread nD τ) (ms0_17 t) fullShare ((dats m 0 c).after 17 t) from by
    unfold Dat.leavesExact; rw [liveAt0_17_C t (fun h => h0 ((hcond0_0 t).mp h)) ((hcond0_1 t).mpr h1)], after0_17]
  rw [show (dats m 0 c).leavesExact 18 t = owns (c : Thread nD τ) (ms0_18 t) fullShare ((dats m 0 c).after 18 t) from by
    unfold Dat.leavesExact; rw [liveAt0_18_C t (fun h => h0 ((hcond0_0 t).mp h)) ((hcond0_1 t).mpr h1)], after0_18]
  rw [show (dats m 0 c).leavesExact 19 t = owns (c : Thread nD τ) (ms0_19 t) fullShare ((dats m 0 c).after 19 t) from by
    unfold Dat.leavesExact; rw [liveAt0_19_C t (fun h => h0 ((hcond0_0 t).mp h)) ((hcond0_1 t).mpr h1)], after0_19]
  rw [show (dats m 0 c).leavesExact 20 t = owns (c : Thread nD τ) (ms0_20 t) fullShare ((dats m 0 c).after 20 t) from by
    unfold Dat.leavesExact; rw [liveAt0_20_C t (fun h => h0 ((hcond0_0 t).mp h)) ((hcond0_1 t).mpr h1)], after0_20]
  rw [show (dats m 0 c).leavesExact 21 t = owns (c : Thread nD τ) (ms0_21 t) fullShare ((dats m 0 c).after 21 t) from by
    unfold Dat.leavesExact; rw [liveAt0_21_C t (fun h => h0 ((hcond0_0 t).mp h)) ((hcond0_1 t).mpr h1)], after0_21]
  have hz : t.val ≠ 0 := by omega
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact gives0_C_0 m c t h0 h1 _
      isplitl [HS1]
      · unfold owns; iexists _; isplitr
        swap; · iexact HS1
        ipureintro; exact gives0_C_1 m c t h0 h1 _
      isplitl [HS2]
      · unfold owns; iexists _; isplitr
        swap; · iexact HS2
        ipureintro; exact gives0_C_2 m c t h0 h1 _
      isplitl [HS3]
      · unfold owns; iexists _; isplitr
        swap; · iexact HS3
        ipureintro; exact gives0_C_3 m c t h0 h1 _
      isplitl [HS4]
      · unfold owns; iexists _; isplitr
        swap; · iexact HS4
        ipureintro; exact gives0_C_4 m c t h0 h1 _
      unfold owns; iexists _; isplitr
      swap; · iexact HS5
      ipureintro; exact gives0_C_5 m c t h0 h1 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact give0_C_15 m c t h0 h1 _
  isplitl [H16]
  · unfold owns; iexists _; isplitr
    swap; · iexact H16
    ipureintro; exact give0_C_16 m c t h0 h1 _
  isplitl [H17]
  · unfold owns; iexists _; isplitr
    swap; · iexact H17
    ipureintro; exact give0_C_17 m c t h0 h1 _
  isplitl [H18]
  · unfold owns; iexists _; isplitr
    swap; · iexact H18
    ipureintro; exact give0_C_18 m c t h0 h1 _
  isplitl [H19]
  · unfold owns; iexists _; isplitr
    swap; · iexact H19
    ipureintro; exact give0_C_19 m c t h0 h1 _
  isplitl [H20]
  · unfold owns; iexists _; isplitr
    swap; · iexact H20
    ipureintro; exact give0_C_20 m c t h0 h1 _
  unfold owns; iexists _; isplitr
  swap; · iexact H21
  ipureintro; exact give0_C_21 m c t h0 h1 _

end Cert.KernelIdeal.Fr

end
-- ==== Proof.KI.FrameRun.lean ====
/-
  The frame of the fused kernel's program: the run of @main on the TensorCores leaves every argument array as it
  found it. The body's obligation holds at every grid point, by the kind of point it is (its position modulo 8);
  @main is then run around the region (`run_main`), from which the frame (`frame`) follows.
-/
import proofs.«423609_j13907104104967_3_alg».proof.Proof.KI.BodyA
import proofs.«423609_j13907104104967_3_alg».proof.Proof.KI.BodyB
import proofs.«423609_j13907104104967_3_alg».proof.Proof.KI.BodyC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point's position modulo 8 says which of the three kinds it is. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases h1 : t.val % 8 = 7
    · exfalso; omega
    · exact sound_body_A m c t h0 h1
  · by_cases h1 : t.val % 8 = 7
    · exact sound_body_C m c t h0 h1
    · exact sound_body_B m c t h0 h1

/-- The region's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- For any values, from any memory with zero counters: every weakly fair execution of @main on the TensorCores
    terminates, and every final state has every array of the region at what the proof data give and every other
    unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the run of @main leaves each of the fifteen argument arrays as it found it, on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.KValueCore.lean ====
/-
  From a run of the kernel program to the frame post, to a run whose post names the program's four results and says
  the fifteen arguments are unchanged: the network's output is the array of the sixteenth window as the region
  leaves it, the three masks are what the operations after the region compute from the region's arrays, and the
  arguments are read back as in the frame.
-/
import proofs.«423609_j13907104104967_3_alg».proof.Proof.KI.Kit

set_option maxRecDepth 16384

noncomputable section

namespace Cert.KernelIdeal.Val

open Cert.KernelIdeal Cert.KernelIdeal.Gen Cert.KernelIdeal.Fr
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The buffer contents the region leaves on core `c`: its arrays as the proof data give them at the end, every other
    buffer as the region was entered. -/
abbrev leftBy (dats : (p : Fin 1) → (c : Dev nD) → Dat τ (Elt F) Unit ℕ (UR sig nD τ) ℕ (cfgs p) c) (c : Dev nD) :
    Valuation τ sig (Elt F) :=
  Pipeline.withArrays spec0 c (V0 m c) fun w => (dats 0 c).arrAt w cfg0.N

/-- A buffer that is no array of the region and is unscoped ends at what the later operations compute from the
    contents the region leaves. -/
theorem rest_of (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) tailOps) r) (c : Dev nD)
    (b : Ref sig .tc) (hs : b.isScoped = false) (ha : ∀ w, Pipeline.arrRef spec0 w ≠ b) :
    r.2.mem ((c.tc : Thread nD τ).loc b)
      = StableHlo.after (tailOps (F := F)).flatten (leftBy m dats c) (Proc.devRef .tc b) :=
  (h c).2 b (Pipeline.mem_restRefs_of b hs ha)

/-- THE RESULTS from a frame run: given what the sixteenth window's array ends at (`h0`) and what the later
    operations compute at the three masks' buffers from the contents the region leaves (`h1`, `h2`, `h3`), the run
    ends with those four values and with every argument as launched. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps)))
    (v0 : (c : Dev nD) → Buf (Elt F) ((c.tc : Thread nD τ).loc main_v17_0))
    (v1 : (c : Dev nD) → Buf (Elt F) ((c.tc : Thread nD τ).loc main_v50))
    (v2 : (c : Dev nD) → Buf (Elt F) ((c.tc : Thread nD τ).loc main_v83))
    (v3 : (c : Dev nD) → Buf (Elt F) ((c.tc : Thread nD τ).loc main_v116))
    (h0 : ∀ c, (dats 0 c).arrAt 15 cfg0.N = v0 c)
    (h1 : ∀ c, StableHlo.after (tailOps (F := F)).flatten (leftBy m dats c) (Proc.devRef .tc main_v50) = v1 c)
    (h2 : ∀ c, StableHlo.after (tailOps (F := F)).flatten (leftBy m dats c) (Proc.devRef .tc main_v83) = v2 c)
    (h3 : ∀ c, StableHlo.after (tailOps (F := F)).flatten (leftBy m dats c) (Proc.devRef .tc main_v116) = v3 c) :
    θ_run defs (onTc (τ := τ) (main (F := F))) ⟨m, fun _ => 0, ρ⟩ (fun r => ∀ c : Dev nD,
      r.2.mem ((c.tc : Thread nD τ).loc main_v17_0) = v0 c
      ∧ r.2.mem ((c.tc : Thread nD τ).loc main_v50) = v1 c
      ∧ r.2.mem ((c.tc : Thread nD τ).loc main_v83) = v2 c
      ∧ r.2.mem ((c.tc : Thread nD τ).loc main_v116) = v3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 15).trans (h0 c),
     (rest_of m dats h c main_v50 rfl (by decide)).trans (h1 c),
     (rest_of m dats h c main_v83 rfl (by decide)).trans (h2 c),
     (rest_of m dats h c main_v116 rfl (by decide)).trans (h3 c),
     ((h c).1 0).trans (((dats 0 c).arrAt_in 0 rfl _).trans ((hA c 0).trans (V_main_arg0 m c))),
     arg_kept m dats h c main_arg1 (by decide) rfl (by decide),
     arg_kept m dats h c main_arg2 (by decide) rfl (by decide),
     arg_kept m dats h c main_arg3 (by decide) rfl (by decide),
     arg_kept m dats h c main_arg4 (by decide) rfl (by decide),
     arg_kept m dats h c main_arg5 (by decide) rfl (by decide),
     arg_kept m dats h c main_arg6 (by decide) rfl (by decide),
     arg_kept m dats h c main_arg7 (by decide) rfl (by decide),
     arg_kept m dats h c main_arg8 (by decide) rfl (by decide),
     arg_kept m dats h c main_arg9 (by decide) rfl (by decide),
     arg_kept m dats h c main_arg10 (by decide) rfl (by decide),
     arg_kept m dats h c main_arg11 (by decide) rfl (by decide),
     arg_kept m dats h c main_arg12 (by decide) rfl (by decide),
     arg_kept m dats h c main_arg13 (by decide) rfl (by decide),
     arg_kept m dats h c main_arg14 (by decide) rfl (by decide)⟩) h

end Cert.KernelIdeal.Val

end
-- ==== Proof.Spec.lean ====
/-
  The mathematics both programs compute, stated once over the extended reals and over abstract finite index
  types (rows `ι`, input features `ξ`, output features `κ`): a dense layer with relu and a multiplicative mask,
  and the "Hebbian score" of a layer — rows normalised to unit Euclidean length, projected on the rows of `H`,
  normalised again; `θ` the mean square of the result; and the row sums of `H + (ynᵀ·xn − θ·H)`.
  The score is written in the two arrangements the programs use: the row sum taken last (`scoreR`), and
  distributed over the three terms first (`scoreK`). They agree whenever every quantity involved is a real number.
-/
import Idealize.ShloMosaic.PureOps.Ideal
import Mathlib.Algebra.BigOperators.Group.Finset.Basic

noncomputable section

namespace Cert.Spec

open Idealize.ShloMosaic

variable {ι ξ κ : Type} [Fintype ι] [Fintype ξ] [Fintype κ]

/-- One layer: `relu (X · Wᵀ + b) * mask`, entry `(r, j)`. -/
def lin (X : ι → ξ → EReal) (W : κ → ξ → EReal) (b mask : κ → EReal) (r : ι) (j : κ) : EReal :=
  max ((∑ x, X r x * W j x) + b j) 0 * mask j

/-- The last layer: `relu (X · Wᵀ + b)`, no mask. -/
def linOut (X : ι → ξ → EReal) (W : κ → ξ → EReal) (b : κ → EReal) (r : ι) (j : κ) : EReal :=
  max ((∑ x, X r x * W j x) + b j) 0

/-- The sum of squares of row `r`. -/
def sumSq (X : ι → ξ → EReal) (r : ι) : EReal := ∑ x, X r x * X r x

/-- The Euclidean norm of row `r`. -/
def nrm (X : ι → ξ → EReal) (r : ι) : EReal := Ideal.sqrt (sumSq X r)

/-- Row `r` divided by its norm. -/
def xn (X : ι → ξ → EReal) (r : ι) (x : ξ) : EReal := Ideal.div (X r x) (nrm X r)

/-- The normalised rows projected on the rows of `H`. -/
def yv (X : ι → ξ → EReal) (H : κ → ξ → EReal) (r : ι) (j : κ) : EReal := ∑ x, xn X r x * H j x

/-- The projections, each row divided by its norm. -/
def yn (X : ι → ξ → EReal) (H : κ → ξ → EReal) (r : ι) (j : κ) : EReal :=
  Ideal.div (yv X H r j) (nrm (yv X H) r)

/-- The sum of all squared entries of `yn`. -/
def sqtot (X : ι → ξ → EReal) (H : κ → ξ → EReal) : EReal := ∑ r, ∑ j, yn X H r j * yn X H r j

/-- Their mean: the sum divided by the count `N`. -/
def theta (X : ι → ξ → EReal) (H : κ → ξ → EReal) (N : EReal) : EReal := Ideal.div (sqtot X H) N

/-- The sum over the rows of `yn r j` times the sum of row `r` of `xn`. -/
def sd (X : ι → ξ → EReal) (H : κ → ξ → EReal) (j : κ) : EReal := ∑ r, yn X H r j * ∑ x, xn X r x

/-- The score with the row sum distributed first: `(1 − θ) · Σₓ H j x + Σᵣ yn r j · Σₓ xn r x`. -/
def scoreK (X : ι → ξ → EReal) (H : κ → ξ → EReal) (N : EReal) (j : κ) : EReal :=
  (1 - theta X H N) * (∑ x, H j x) + sd X H j

/-- The score with the row sum taken last: `Σₓ (H j x + ((Σᵣ yn r j · xn r x) − θ · H j x))`. -/
def scoreR (X : ι → ξ → EReal) (H : κ → ξ → EReal) (N : EReal) (j : κ) : EReal :=
  ∑ x, (H j x + ((∑ r, yn X H r j * xn X r x) - theta X H N * H j x))

/-- Every entry is a real number. -/
def IsReal2 (X : ι → ξ → EReal) : Prop := ∀ r x, X r x ≠ ⊤ ∧ X r x ≠ ⊥

/-- Every entry of a vector is a real number. -/
def IsReal1 (b : κ → EReal) : Prop := ∀ j, b j ≠ ⊤ ∧ b j ≠ ⊥

end Cert.Spec

end
-- ==== Proof.Model.lean ====
/-
  The fused network as a function of its fifteen argument arrays, in the vocabulary of `Spec.lean`:
  the batch `x` (8192 rows of 1024 features), three masked layers `relu (X Wᵀ + b) * mask` of widths
  256, 128, 64, a last layer of width 1000 with no mask, and for each of the first three layers the Hebbian
  score of the layer's INPUT against `H1`, `H2`, `H3`, whose mean square is taken over 8192·256, 8192·128,
  8192·64 entries. An array is read as a function of its coordinates.
-/
import proofs.«423609_j13907104104967_3_alg».proof.Proof.Spec
import Idealize.ShloMosaic.Lib.ValueIdx

noncomputable section

namespace Cert.Spec

open Idealize.ShloMosaic Idealize.ShloMosaic.ValueIdx

/-- A rank-2 array as a function of its row and column. -/
def m2 {n0 n1 : Nat} (a : (⟨2, ![n0, n1]⟩ : Shape).Idx → EReal) (r : Fin n0) (x : Fin n1) : EReal := a (ix2 r x)

/-- A rank-1 array as a function of its coordinate. -/
def v1 {n : Nat} (a : (⟨1, ![n]⟩ : Shape).Idx → EReal) (j : Fin n) : EReal := a (ix1 j)

section Net

variable (x : (⟨2, ![8192, 1024]⟩ : Shape).Idx → EReal)
  (mask0 : (⟨1, ![256]⟩ : Shape).Idx → EReal) (mask1 : (⟨1, ![128]⟩ : Shape).Idx → EReal) (mask2 : (⟨1, ![64]⟩ : Shape).Idx → EReal)
  (W1 : (⟨2, ![256, 1024]⟩ : Shape).Idx → EReal) (b1 : (⟨1, ![256]⟩ : Shape).Idx → EReal)
  (W2 : (⟨2, ![128, 256]⟩ : Shape).Idx → EReal) (b2 : (⟨1, ![128]⟩ : Shape).Idx → EReal)
  (W3 : (⟨2, ![64, 128]⟩ : Shape).Idx → EReal) (b3 : (⟨1, ![64]⟩ : Shape).Idx → EReal)
  (W4 : (⟨2, ![1000, 64]⟩ : Shape).Idx → EReal) (b4 : (⟨1, ![1000]⟩ : Shape).Idx → EReal)

/-- The first layer's input: the batch. -/
def X1 : Fin 8192 → Fin 1024 → EReal := m2 x
/-- The second layer's input. -/
def X2 : Fin 8192 → Fin 256 → EReal := lin (X1 x) (m2 W1) (v1 b1) (v1 mask0)
/-- The third layer's input. -/
def X3 : Fin 8192 → Fin 128 → EReal := lin (X2 x mask0 W1 b1) (m2 W2) (v1 b2) (v1 mask1)
/-- The last layer's input. -/
def X4 : Fin 8192 → Fin 64 → EReal := lin (X3 x mask0 mask1 W1 b1 W2 b2) (m2 W3) (v1 b3) (v1 mask2)
/-- The network's output. -/
def netOut : Fin 8192 → Fin 1000 → EReal := linOut (X4 x mask0 mask1 mask2 W1 b1 W2 b2 W3 b3) (m2 W4) (v1 b4)

end Net

/-- The entry counts of the three mean squares: 8192·256, 8192·128, 8192·64. -/
def cnt1 : ℝ := 2097152
def cnt2 : ℝ := 1048576
def cnt3 : ℝ := 524288

end Cert.Spec

end
-- ==== Proof.Tail.lean ====
import proofs.«423609_j13907104104967_3_alg».proof.Proof.KI.Kit
import proofs.«423609_j13907104104967_3_alg».proof.Proof.Model
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.Lib.Pipeline.FrameSuffix
import Idealize.ShloMosaic.PureOps.Ideal.Laws

set_option maxRecDepth 16384

/-!
  What the host operations around the fused kernel's region compute, at the ideal values, index by index.

  Before the region: the transposes of the four weight matrices and of the three Hebbian matrices, the row sums of
  the Hebbian matrices, and the biases and masks as one-row matrices.

  After the region: the network's output is the region's array unchanged; and for each of the three Hebbian layers the
  host combines the two cores' partial sums into the score
  `(1 - 1 * (sq₀ + sq₈) / N) * Σₓ H j x + 1 * (sd₀ j + sd₈ j)` and thresholds its min-max normalisation at one half.
  The thresholding is carried as one function of the score (`finK256`, `finK128`, `finK64`), never opened.
-/

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Cert.Spec

variable (m : (ℓ : Loc nD τ sig) → Buf (Elt Ideal) ℓ)

/-! ## The arguments of @main at their literal types -/
/-- Argument 0 of @main as launched, on core `c`. -/
abbrev arg0 (c : Dev nD) : FVec Ideal S8192x1024 .f32 := m ((c : Thread nD τ).loc main_arg0)
/-- Argument 1 of @main as launched, on core `c`. -/
abbrev arg1 (c : Dev nD) : FVec Ideal S256 .f32 := m ((c : Thread nD τ).loc main_arg1)
/-- Argument 2 of @main as launched, on core `c`. -/
abbrev arg2 (c : Dev nD) : FVec Ideal S128 .f32 := m ((c : Thread nD τ).loc main_arg2)
/-- Argument 3 of @main as launched, on core `c`. -/
abbrev arg3 (c : Dev nD) : FVec Ideal S64 .f32 := m ((c : Thread nD τ).loc main_arg3)
/-- Argument 4 of @main as launched, on core `c`. -/
abbrev arg4 (c : Dev nD) : FVec Ideal S256x1024 .f32 := m ((c : Thread nD τ).loc main_arg4)
/-- Argument 5 of @main as launched, on core `c`. -/
abbrev arg5 (c : Dev nD) : FVec Ideal S256 .f32 := m ((c : Thread nD τ).loc main_arg5)
/-- Argument 6 of @main as launched, on core `c`. -/
abbrev arg6 (c : Dev nD) : FVec Ideal S128x256 .f32 := m ((c : Thread nD τ).loc main_arg6)
/-- Argument 7 of @main as launched, on core `c`. -/
abbrev arg7 (c : Dev nD) : FVec Ideal S128 .f32 := m ((c : Thread nD τ).loc main_arg7)
/-- Argument 8 of @main as launched, on core `c`. -/
abbrev arg8 (c : Dev nD) : FVec Ideal S64x128 .f32 := m ((c : Thread nD τ).loc main_arg8)
/-- Argument 9 of @main as launched, on core `c`. -/
abbrev arg9 (c : Dev nD) : FVec Ideal S64 .f32 := m ((c : Thread nD τ).loc main_arg9)
/-- Argument 10 of @main as launched, on core `c`. -/
abbrev arg10 (c : Dev nD) : FVec Ideal S1000x64 .f32 := m ((c : Thread nD τ).loc main_arg10)
/-- Argument 11 of @main as launched, on core `c`. -/
abbrev arg11 (c : Dev nD) : FVec Ideal S1000 .f32 := m ((c : Thread nD τ).loc main_arg11)
/-- Argument 12 of @main as launched, on core `c`. -/
abbrev arg12 (c : Dev nD) : FVec Ideal S256x1024 .f32 := m ((c : Thread nD τ).loc main_arg12)
/-- Argument 13 of @main as launched, on core `c`. -/
abbrev arg13 (c : Dev nD) : FVec Ideal S128x256 .f32 := m ((c : Thread nD τ).loc main_arg13)
/-- Argument 14 of @main as launched, on core `c`. -/
abbrev arg14 (c : Dev nD) : FVec Ideal S64x128 .f32 := m ((c : Thread nD τ).loc main_arg14)

/-! ## The operations before the region -/

/-- The sizes of the reduced axes, for reading a row sum as a sum over the row's coordinates. -/
theorem reduces_S256x1024_S256_d1 : S256x1024.Reduces [1] S256 := by decide
theorem reduces_S128x256_S128_d1 : S128x256.Reduces [1] S128 := by decide
theorem reduces_S64x128_S64_d1 : S64x128.Reduces [1] S64 := by decide

/-- `main_v0` is argument 4 transposed. -/
theorem V_main_v0 (c : Dev nD) : (V m c main_v0 : FVec Ideal S1024x256 .f32) = fun i => arg4 m c (ix2 (i 1) (i 0)) := by
  have e : (V m c main_v0 : FVec Ideal S1024x256 .f32) = transpose S1024x256 [1, 0] (arg4 m c) transposes_S256x1024_S1024x256_1_0 := by
    dsimp only [V, V0]
    simp only [hostOps0, List.flatten_cons, List.flatten_nil, List.append_nil]
    after_results <;> rfl
  rw [e]
  funext i
  rw [eq_ix2 i]
  exact transpose_ix2_apply _ _ _ _

/-- `main_v1` is argument 6 transposed. -/
theorem V_main_v1 (c : Dev nD) : (V m c main_v1 : FVec Ideal S256x128 .f32) = fun i => arg6 m c (ix2 (i 1) (i 0)) := by
  have e : (V m c main_v1 : FVec Ideal S256x128 .f32) = transpose S256x128 [1, 0] (arg6 m c) transposes_S128x256_S256x128_1_0 := by
    dsimp only [V, V0]
    simp only [hostOps0, List.flatten_cons, List.flatten_nil, List.append_nil]
    after_results <;> rfl
  rw [e]
  funext i
  rw [eq_ix2 i]
  exact transpose_ix2_apply _ _ _ _

/-- `main_v2` is argument 8 transposed. -/
theorem V_main_v2 (c : Dev nD) : (V m c main_v2 : FVec Ideal S128x64 .f32) = fun i => arg8 m c (ix2 (i 1) (i 0)) := by
  have e : (V m c main_v2 : FVec Ideal S128x64 .f32) = transpose S128x64 [1, 0] (arg8 m c) transposes_S64x128_S128x64_1_0 := by
    dsimp only [V, V0]
    simp only [hostOps0, List.flatten_cons, List.flatten_nil, List.append_nil]
    after_results <;> rfl
  rw [e]
  funext i
  rw [eq_ix2 i]
  exact transpose_ix2_apply _ _ _ _

/-- `main_v3` is argument 10 transposed. -/
theorem V_main_v3 (c : Dev nD) : (V m c main_v3 : FVec Ideal S64x1000 .f32) = fun i => arg10 m c (ix2 (i 1) (i 0)) := by
  have e : (V m c main_v3 : FVec Ideal S64x1000 .f32) = transpose S64x1000 [1, 0] (arg10 m c) transposes_S1000x64_S64x1000_1_0 := by
    dsimp only [V, V0]
    simp only [hostOps0, List.flatten_cons, List.flatten_nil, List.append_nil]
    after_results <;> rfl
  rw [e]
  funext i
  rw [eq_ix2 i]
  exact transpose_ix2_apply _ _ _ _

/-- `main_v4` is argument 12 transposed. -/
theorem V_main_v4 (c : Dev nD) : (V m c main_v4 : FVec Ideal S1024x256 .f32) = fun i => arg12 m c (ix2 (i 1) (i 0)) := by
  have e : (V m c main_v4 : FVec Ideal S1024x256 .f32) = transpose S1024x256 [1, 0] (arg12 m c) transposes_S256x1024_S1024x256_1_0 := by
    dsimp only [V, V0]
    simp only [hostOps0, List.flatten_cons, List.flatten_nil, List.append_nil]
    after_results <;> rfl
  rw [e]
  funext i
  rw [eq_ix2 i]
  exact transpose_ix2_apply _ _ _ _

/-- `main_v5` is argument 13 transposed. -/
theorem V_main_v5 (c : Dev nD) : (V m c main_v5 : FVec Ideal S256x128 .f32) = fun i => arg13 m c (ix2 (i 1) (i 0)) := by
  have e : (V m c main_v5 : FVec Ideal S256x128 .f32) = transpose S256x128 [1, 0] (arg13 m c) transposes_S128x256_S256x128_1_0 := by
    dsimp only [V, V0]
    simp only [hostOps0, List.flatten_cons, List.flatten_nil, List.append_nil]
    after_results <;> rfl
  rw [e]
  funext i
  rw [eq_ix2 i]
  exact transpose_ix2_apply _ _ _ _

/-- `main_v6` is argument 14 transposed. -/
theorem V_main_v6 (c : Dev nD) : (V m c main_v6 : FVec Ideal S128x64 .f32) = fun i => arg14 m c (ix2 (i 1) (i 0)) := by
  have e : (V m c main_v6 : FVec Ideal S128x64 .f32) = transpose S128x64 [1, 0] (arg14 m c) transposes_S64x128_S128x64_1_0 := by
    dsimp only [V, V0]
    simp only [hostOps0, List.flatten_cons, List.flatten_nil, List.append_nil]
    after_results <;> rfl
  rw [e]
  funext i
  rw [eq_ix2 i]
  exact transpose_ix2_apply _ _ _ _

/-- `main_v7` is the row sums of argument 12. -/
theorem V_main_v7 (c : Dev nD) : (V m c main_v7 : FVec Ideal S256 .f32) = fun i => ∑ x : Fin 1024, arg12 m c (ix2 (i 0) x) := by
  have e : (V m c main_v7 : FVec Ideal S256 .f32) = Host.reduceAdd (arg12 m c) (constant (F := Ideal) S_ .f32 0x00000000#32) reducesTo_S256x1024_S256_d1 h_S_ := by
    dsimp only [V, V0]
    simp only [hostOps0, List.flatten_cons, List.flatten_nil, List.append_nil]
    after_results <;> rfl
  rw [e]
  funext i
  rw [hostReduceAdd_apply, Ideal.hostReduceAdd_single reducesTo_S256x1024_S256_d1 reduces_S256x1024_S256_d1, constant_apply, Ideal.ofBits_zero_f32, zero_add]
  refine Finset.sum_congr rfl fun k _ => congrArg (arg12 m c) (funext fun a => ?_)
  match a with
  | ⟨0, _⟩ => exact Fin.ext rfl
  | ⟨1, _⟩ => exact Fin.ext rfl

/-- `main_v8` is the row sums of argument 13. -/
theorem V_main_v8 (c : Dev nD) : (V m c main_v8 : FVec Ideal S128 .f32) = fun i => ∑ x : Fin 256, arg13 m c (ix2 (i 0) x) := by
  have e : (V m c main_v8 : FVec Ideal S128 .f32) = Host.reduceAdd (arg13 m c) (constant (F := Ideal) S_ .f32 0x00000000#32) reducesTo_S128x256_S128_d1 h_S_ := by
    dsimp only [V, V0]
    simp only [hostOps0, List.flatten_cons, List.flatten_nil, List.append_nil]
    after_results <;> rfl
  rw [e]
  funext i
  rw [hostReduceAdd_apply, Ideal.hostReduceAdd_single reducesTo_S128x256_S128_d1 reduces_S128x256_S128_d1, constant_apply, Ideal.ofBits_zero_f32, zero_add]
  refine Finset.sum_congr rfl fun k _ => congrArg (arg13 m c) (funext fun a => ?_)
  match a with
  | ⟨0, _⟩ => exact Fin.ext rfl
  | ⟨1, _⟩ => exact Fin.ext rfl

/-- `main_v9` is the row sums of argument 14. -/
theorem V_main_v9 (c : Dev nD) : (V m c main_v9 : FVec Ideal S64 .f32) = fun i => ∑ x : Fin 128, arg14 m c (ix2 (i 0) x) := by
  have e : (V m c main_v9 : FVec Ideal S64 .f32) = Host.reduceAdd (arg14 m c) (constant (F := Ideal) S_ .f32 0x00000000#32) reducesTo_S64x128_S64_d1 h_S_ := by
    dsimp only [V, V0]
    simp only [hostOps0, List.flatten_cons, List.flatten_nil, List.append_nil]
    after_results <;> rfl
  rw [e]
  funext i
  rw [hostReduceAdd_apply, Ideal.hostReduceAdd_single reducesTo_S64x128_S64_d1 reduces_S64x128_S64_d1, constant_apply, Ideal.ofBits_zero_f32, zero_add]
  refine Finset.sum_congr rfl fun k _ => congrArg (arg14 m c) (funext fun a => ?_)
  match a with
  | ⟨0, _⟩ => exact Fin.ext rfl
  | ⟨1, _⟩ => exact Fin.ext rfl

/-- `main_v10` is argument 5 as a one-row matrix. -/
theorem V_main_v10 (c : Dev nD) : (V m c main_v10 : FVec Ideal S1x256 .f32) = fun i => arg5 m c (ix1 (i 1)) := by
  have e : (V m c main_v10 : FVec Ideal S1x256 .f32) = shapeCast S1x256 (arg5 m c) shapeCasts_S256_S1x256 := by
    dsimp only [V, V0]
    simp only [hostOps0, List.flatten_cons, List.flatten_nil, List.append_nil]
    after_results <;> rfl
  rw [e]
  funext i
  rw [eq_ix2 i]
  exact shapeCast_a_1a_apply _ _ _ _

/-- `main_v11` is argument 1 as a one-row matrix. -/
theorem V_main_v11 (c : Dev nD) : (V m c main_v11 : FVec Ideal S1x256 .f32) = fun i => arg1 m c (ix1 (i 1)) := by
  have e : (V m c main_v11 : FVec Ideal S1x256 .f32) = shapeCast S1x256 (arg1 m c) shapeCasts_S256_S1x256 := by
    dsimp only [V, V0]
    simp only [hostOps0, List.flatten_cons, List.flatten_nil, List.append_nil]
    after_results <;> rfl
  rw [e]
  funext i
  rw [eq_ix2 i]
  exact shapeCast_a_1a_apply _ _ _ _

/-- `main_v12` is argument 7 as a one-row matrix. -/
theorem V_main_v12 (c : Dev nD) : (V m c main_v12 : FVec Ideal S1x128 .f32) = fun i => arg7 m c (ix1 (i 1)) := by
  have e : (V m c main_v12 : FVec Ideal S1x128 .f32) = shapeCast S1x128 (arg7 m c) shapeCasts_S128_S1x128 := by
    dsimp only [V, V0]
    simp only [hostOps0, List.flatten_cons, List.flatten_nil, List.append_nil]
    after_results <;> rfl
  rw [e]
  funext i
  rw [eq_ix2 i]
  exact shapeCast_a_1a_apply _ _ _ _

/-- `main_v13` is argument 2 as a one-row matrix. -/
theorem V_main_v13 (c : Dev nD) : (V m c main_v13 : FVec Ideal S1x128 .f32) = fun i => arg2 m c (ix1 (i 1)) := by
  have e : (V m c main_v13 : FVec Ideal S1x128 .f32) = shapeCast S1x128 (arg2 m c) shapeCasts_S128_S1x128 := by
    dsimp only [V, V0]
    simp only [hostOps0, List.flatten_cons, List.flatten_nil, List.append_nil]
    after_results <;> rfl
  rw [e]
  funext i
  rw [eq_ix2 i]
  exact shapeCast_a_1a_apply _ _ _ _

/-- `main_v14` is argument 9 as a one-row matrix. -/
theorem V_main_v14 (c : Dev nD) : (V m c main_v14 : FVec Ideal S1x64 .f32) = fun i => arg9 m c (ix1 (i 1)) := by
  have e : (V m c main_v14 : FVec Ideal S1x64 .f32) = shapeCast S1x64 (arg9 m c) shapeCasts_S64_S1x64 := by
    dsimp only [V, V0]
    simp only [hostOps0, List.flatten_cons, List.flatten_nil, List.append_nil]
    after_results <;> rfl
  rw [e]
  funext i
  rw [eq_ix2 i]
  exact shapeCast_a_1a_apply _ _ _ _

/-- `main_v15` is argument 3 as a one-row matrix. -/
theorem V_main_v15 (c : Dev nD) : (V m c main_v15 : FVec Ideal S1x64 .f32) = fun i => arg3 m c (ix1 (i 1)) := by
  have e : (V m c main_v15 : FVec Ideal S1x64 .f32) = shapeCast S1x64 (arg3 m c) shapeCasts_S64_S1x64 := by
    dsimp only [V, V0]
    simp only [hostOps0, List.flatten_cons, List.flatten_nil, List.append_nil]
    after_results <;> rfl
  rw [e]
  funext i
  rw [eq_ix2 i]
  exact shapeCast_a_1a_apply _ _ _ _

/-- `main_v16` is argument 11 as a one-row matrix. -/
theorem V_main_v16 (c : Dev nD) : (V m c main_v16 : FVec Ideal S1x1000 .f32) = fun i => arg11 m c (ix1 (i 1)) := by
  have e : (V m c main_v16 : FVec Ideal S1x1000 .f32) = shapeCast S1x1000 (arg11 m c) shapeCasts_S1000_S1x1000 := by
    dsimp only [V, V0]
    simp only [hostOps0, List.flatten_cons, List.flatten_nil, List.append_nil]
    after_results <;> rfl
  rw [e]
  funext i
  rw [eq_ix2 i]
  exact shapeCast_a_1a_apply _ _ _ _

/-! ## The operations after the region -/

/-- The bit patterns of the three entry counts are the counts. -/
theorem ofBits_cnt1 : Ideal.ofBits .f32 0x4A000000#32 = (cnt1 : EReal) := by
  unfold cnt1; simp [Ideal.ofBits, Ideal.ieee, -EReal.coe_mul]; norm_num
theorem ofBits_cnt2 : Ideal.ofBits .f32 0x49800000#32 = (cnt2 : EReal) := by
  unfold cnt2; simp [Ideal.ofBits, Ideal.ieee, -EReal.coe_mul]; norm_num
theorem ofBits_cnt3 : Ideal.ofBits .f32 0x49000000#32 = (cnt3 : EReal) := by
  unfold cnt3; simp [Ideal.ofBits, Ideal.ieee, -EReal.coe_mul]; norm_num

/-- The score of the layer of width 256 as the host composes it from the two cores' partial sums of squares `sq`
    (rows 0 and 8), their partial sums of products `sd` (rows 0 and 8) and the row sums `sumH`. -/
def score256 (sq : FVec Ideal S16x1 .f32) (sd : FVec Ideal S16x256 .f32) (sumH : FVec Ideal S256 .f32) : FVec Ideal S256 .f32 :=
  addf
    (mulf
      (broadcastInDim S256 ![0] bcast_S1_S256_0
        (subf (broadcastInDim S1 ![] bcast_S_S1 (constant (F := Ideal) S_ .f32 0x3F800000#32))
          (mulf (broadcastInDim S1 ![] bcast_S_S1 (constant (F := Ideal) S_ .f32 0x3F800000#32))
            (Host.divf
              (addf (shapeCast S1 (extractStridedSlice S1x1 ![0, 0] sq slices_S16x1_S1x1_0_0) shapeCasts_S1x1_S1)
                (shapeCast S1 (extractStridedSlice S1x1 ![8, 0] sq slices_S16x1_S1x1_8_0) shapeCasts_S1x1_S1))
              (broadcastInDim S1 ![] bcast_S_S1 (constant (F := Ideal) S_ .f32 0x4A000000#32))))))
      sumH)
    (mulf (broadcastInDim S256 ![] bcast_S_S256 (constant (F := Ideal) S_ .f32 0x3F800000#32))
      (addf (shapeCast S256 (extractStridedSlice S1x256 ![0, 0] sd slices_S16x256_S1x256_0_0) shapeCasts_S1x256_S256)
        (shapeCast S256 (extractStridedSlice S1x256 ![8, 0] sd slices_S16x256_S1x256_8_0) shapeCasts_S1x256_S256)))

/-- What the host does to a score of width 256: its minimum and maximum over the layer, the min-max normalisation
    with `1e-8` added to the range, and the threshold at one half (`0` below it, `1` otherwise). -/
def finK256 (s : FVec Ideal S256 .f32) : FVec Ideal S256 .f32 :=
  id <| select
    (cmpf .olt
      (Host.divf
        (subf s (broadcastInDim S256 ![] bcast_S_S256
          (Host.reduce FloatOps.minimumf s (constant (F := Ideal) S_ .f32 0x7F800000#32) reducesTo_S256_S_d0 h_S_)))
        (broadcastInDim S256 ![] bcast_S_S256
          (addf
            (subf (Host.reduce FloatOps.maximumf s (constant (F := Ideal) S_ .f32 0xFF800000#32) reducesTo_S256_S_d0 h_S_)
              (Host.reduce FloatOps.minimumf s (constant (F := Ideal) S_ .f32 0x7F800000#32) reducesTo_S256_S_d0 h_S_))
            (constant (F := Ideal) S_ .f32 0x322BCC77#32))))
      (broadcastInDim S256 ![] bcast_S_S256 (constant (F := Ideal) S_ .f32 0x3F000000#32)))
    (broadcastInDim S256 ![] bcast_S_S256 (constant (F := Ideal) S_ .f32 0x00000000#32))
    (broadcastInDim S256 ![] bcast_S_S256 (constant (F := Ideal) S_ .f32 0x3F800000#32))

/-- The score of width 256 at an index. -/
theorem score256_apply (sq : FVec Ideal S16x1 .f32) (sd : FVec Ideal S16x256 .f32) (sumH : FVec Ideal S256 .f32) (j : S256.Idx) :
    score256 sq sd sumH j
      = (1 - 1 * Ideal.div (sq (ix2 0 0) + sq (ix2 8 0)) (cnt1 : EReal)) * sumH j + 1 * (sd (ix2 0 (j 0)) + sd (ix2 8 (j 0))) := by
  have hq0 : shapeCast S1 (extractStridedSlice S1x1 ![0, 0] sq slices_S16x1_S1x1_0_0) shapeCasts_S1x1_S1 (ix1 0) = sq (ix2 0 0) :=
    (shapeCast_1a_a_apply _ _ _).trans (slice2_axis0_apply 0 sq _ 0 0 0 rfl)
  have hq8 : shapeCast S1 (extractStridedSlice S1x1 ![8, 0] sq slices_S16x1_S1x1_8_0) shapeCasts_S1x1_S1 (ix1 0) = sq (ix2 8 0) :=
    (shapeCast_1a_a_apply _ _ _).trans (slice2_axis0_apply 8 sq _ 0 0 8 rfl)
  have hd0 : shapeCast S256 (extractStridedSlice S1x256 ![0, 0] sd slices_S16x256_S1x256_0_0) shapeCasts_S1x256_S256 j = sd (ix2 0 (j 0)) := by
    rw [eq_ix1 j]; exact (shapeCast_1a_a_apply _ _ _).trans (slice2_axis0_apply 0 sd _ 0 _ 0 rfl)
  have hd8 : shapeCast S256 (extractStridedSlice S1x256 ![8, 0] sd slices_S16x256_S1x256_8_0) shapeCasts_S1x256_S256 j = sd (ix2 8 (j 0)) := by
    rw [eq_ix1 j]; exact (shapeCast_1a_a_apply _ _ _).trans (slice2_axis0_apply 8 sd _ 0 _ 8 rfl)
  have hb1 : ∀ x : FVec Ideal S_ .f32, broadcastInDim S1 ![] bcast_S_S1 x (ix1 0) = x ix0 :=
    fun x => broadcastInDim_scalar_apply bcast_S_S1 x _
  have hbn : ∀ x : FVec Ideal S_ .f32, broadcastInDim S256 ![] bcast_S_S256 x j = x ix0 :=
    fun x => broadcastInDim_scalar_apply bcast_S_S256 x _
  unfold score256
  rw [addf_apply, mulf_apply, broadcastInDim_apply (![0] : Fin 1 → Fin S256.rank) bcast_S1_S256_0 _ j (ix1 0)
    (fun a => by match a with | ⟨0, _⟩ => exact (if_pos rfl).symm)]
  simp only [addf_apply, mulf_apply, subf_apply, hostDivf_apply, hb1, hbn, constant_apply,
    Ideal.ofBits_one_f32, ofBits_cnt1, hq0, hq8, hd0, hd8]

set_option maxHeartbeats 4000000 in
/-- After all the host operations that follow the region, from any buffer contents `W`, the mask of the layer of
    width 256 is the thresholding of the score composed from `W`'s partial sums and row sums. -/
theorem tail_hm0_of (W : Valuation τ sig (Elt Ideal)) :
    (StableHlo.after (tailOps (F := Ideal)).flatten W (Proc.devRef .tc main_v50) : FVec Ideal S256 .f32)
      = finK256 (score256 (W (Proc.devRef .tc main_v17_1)) (W (Proc.devRef .tc main_v17_2)) (W (Proc.devRef .tc main_v7))) := by
  simp only [tailOps, hostOps1, hostOps1_1, hostOps1_2, hostOps1_3, hostOps1_4, hostOps1_5, hostOps1_6, List.flatten_cons,
    List.flatten_nil, List.append_nil, List.cons_append, List.nil_append]
  after_results_simp
  simp only [TRef.ofBuf, TRef.toBuf, cast_eq]
  rfl

/-- The score of the layer of width 128 as the host composes it from the two cores' partial sums of squares `sq`
    (rows 0 and 8), their partial sums of products `sd` (rows 0 and 8) and the row sums `sumH`. -/
def score128 (sq : FVec Ideal S16x1 .f32) (sd : FVec Ideal S16x128 .f32) (sumH : FVec Ideal S128 .f32) : FVec Ideal S128 .f32 :=
  addf
    (mulf
      (broadcastInDim S128 ![0] bcast_S1_S128_0
        (subf (broadcastInDim S1 ![] bcast_S_S1 (constant (F := Ideal) S_ .f32 0x3F800000#32))
          (mulf (broadcastInDim S1 ![] bcast_S_S1 (constant (F := Ideal) S_ .f32 0x3F800000#32))
            (Host.divf
              (addf (shapeCast S1 (extractStridedSlice S1x1 ![0, 0] sq slices_S16x1_S1x1_0_0) shapeCasts_S1x1_S1)
                (shapeCast S1 (extractStridedSlice S1x1 ![8, 0] sq slices_S16x1_S1x1_8_0) shapeCasts_S1x1_S1))
              (broadcastInDim S1 ![] bcast_S_S1 (constant (F := Ideal) S_ .f32 0x49800000#32))))))
      sumH)
    (mulf (broadcastInDim S128 ![] bcast_S_S128 (constant (F := Ideal) S_ .f32 0x3F800000#32))
      (addf (shapeCast S128 (extractStridedSlice S1x128 ![0, 0] sd slices_S16x128_S1x128_0_0) shapeCasts_S1x128_S128)
        (shapeCast S128 (extractStridedSlice S1x128 ![8, 0] sd slices_S16x128_S1x128_8_0) shapeCasts_S1x128_S128)))

/-- What the host does to a score of width 128: its minimum and maximum over the layer, the min-max normalisation
    with `1e-8` added to the range, and the threshold at one half (`0` below it, `1` otherwise). -/
def finK128 (s : FVec Ideal S128 .f32) : FVec Ideal S128 .f32 :=
  id <| select
    (cmpf .olt
      (Host.divf
        (subf s (broadcastInDim S128 ![] bcast_S_S128
          (Host.reduce FloatOps.minimumf s (constant (F := Ideal) S_ .f32 0x7F800000#32) reducesTo_S128_S_d0 h_S_)))
        (broadcastInDim S128 ![] bcast_S_S128
          (addf
            (subf (Host.reduce FloatOps.maximumf s (constant (F := Ideal) S_ .f32 0xFF800000#32) reducesTo_S128_S_d0 h_S_)
              (Host.reduce FloatOps.minimumf s (constant (F := Ideal) S_ .f32 0x7F800000#32) reducesTo_S128_S_d0 h_S_))
            (constant (F := Ideal) S_ .f32 0x322BCC77#32))))
      (broadcastInDim S128 ![] bcast_S_S128 (constant (F := Ideal) S_ .f32 0x3F000000#32)))
    (broadcastInDim S128 ![] bcast_S_S128 (constant (F := Ideal) S_ .f32 0x00000000#32))
    (broadcastInDim S128 ![] bcast_S_S128 (constant (F := Ideal) S_ .f32 0x3F800000#32))

/-- The score of width 128 at an index. -/
theorem score128_apply (sq : FVec Ideal S16x1 .f32) (sd : FVec Ideal S16x128 .f32) (sumH : FVec Ideal S128 .f32) (j : S128.Idx) :
    score128 sq sd sumH j
      = (1 - 1 * Ideal.div (sq (ix2 0 0) + sq (ix2 8 0)) (cnt2 : EReal)) * sumH j + 1 * (sd (ix2 0 (j 0)) + sd (ix2 8 (j 0))) := by
  have hq0 : shapeCast S1 (extractStridedSlice S1x1 ![0, 0] sq slices_S16x1_S1x1_0_0) shapeCasts_S1x1_S1 (ix1 0) = sq (ix2 0 0) :=
    (shapeCast_1a_a_apply _ _ _).trans (slice2_axis0_apply 0 sq _ 0 0 0 rfl)
  have hq8 : shapeCast S1 (extractStridedSlice S1x1 ![8, 0] sq slices_S16x1_S1x1_8_0) shapeCasts_S1x1_S1 (ix1 0) = sq (ix2 8 0) :=
    (shapeCast_1a_a_apply _ _ _).trans (slice2_axis0_apply 8 sq _ 0 0 8 rfl)
  have hd0 : shapeCast S128 (extractStridedSlice S1x128 ![0, 0] sd slices_S16x128_S1x128_0_0) shapeCasts_S1x128_S128 j = sd (ix2 0 (j 0)) := by
    rw [eq_ix1 j]; exact (shapeCast_1a_a_apply _ _ _).trans (slice2_axis0_apply 0 sd _ 0 _ 0 rfl)
  have hd8 : shapeCast S128 (extractStridedSlice S1x128 ![8, 0] sd slices_S16x128_S1x128_8_0) shapeCasts_S1x128_S128 j = sd (ix2 8 (j 0)) := by
    rw [eq_ix1 j]; exact (shapeCast_1a_a_apply _ _ _).trans (slice2_axis0_apply 8 sd _ 0 _ 8 rfl)
  have hb1 : ∀ x : FVec Ideal S_ .f32, broadcastInDim S1 ![] bcast_S_S1 x (ix1 0) = x ix0 :=
    fun x => broadcastInDim_scalar_apply bcast_S_S1 x _
  have hbn : ∀ x : FVec Ideal S_ .f32, broadcastInDim S128 ![] bcast_S_S128 x j = x ix0 :=
    fun x => broadcastInDim_scalar_apply bcast_S_S128 x _
  unfold score128
  rw [addf_apply, mulf_apply, broadcastInDim_apply (![0] : Fin 1 → Fin S128.rank) bcast_S1_S128_0 _ j (ix1 0)
    (fun a => by match a with | ⟨0, _⟩ => exact (if_pos rfl).symm)]
  simp only [addf_apply, mulf_apply, subf_apply, hostDivf_apply, hb1, hbn, constant_apply,
    Ideal.ofBits_one_f32, ofBits_cnt2, hq0, hq8, hd0, hd8]

set_option maxHeartbeats 4000000 in
/-- After all the host operations that follow the region, from any buffer contents `W`, the mask of the layer of
    width 128 is the thresholding of the score composed from `W`'s partial sums and row sums. -/
theorem tail_hm1_of (W : Valuation τ sig (Elt Ideal)) :
    (StableHlo.after (tailOps (F := Ideal)).flatten W (Proc.devRef .tc main_v83) : FVec Ideal S128 .f32)
      = finK128 (score128 (W (Proc.devRef .tc main_v17_3)) (W (Proc.devRef .tc main_v17_4)) (W (Proc.devRef .tc main_v8))) := by
  simp only [tailOps, hostOps1, hostOps1_1, hostOps1_2, hostOps1_3, hostOps1_4, hostOps1_5, hostOps1_6, List.flatten_cons,
    List.flatten_nil, List.append_nil, List.cons_append, List.nil_append]
  after_results_simp
  simp only [TRef.ofBuf, TRef.toBuf, cast_eq]
  rfl

/-- The score of the layer of width 64 as the host composes it from the two cores' partial sums of squares `sq`
    (rows 0 and 8), their partial sums of products `sd` (rows 0 and 8) and the row sums `sumH`. -/
def score64 (sq : FVec Ideal S16x1 .f32) (sd : FVec Ideal S16x64 .f32) (sumH : FVec Ideal S64 .f32) : FVec Ideal S64 .f32 :=
  addf
    (mulf
      (broadcastInDim S64 ![0] bcast_S1_S64_0
        (subf (broadcastInDim S1 ![] bcast_S_S1 (constant (F := Ideal) S_ .f32 0x3F800000#32))
          (mulf (broadcastInDim S1 ![] bcast_S_S1 (constant (F := Ideal) S_ .f32 0x3F800000#32))
            (Host.divf
              (addf (shapeCast S1 (extractStridedSlice S1x1 ![0, 0] sq slices_S16x1_S1x1_0_0) shapeCasts_S1x1_S1)
                (shapeCast S1 (extractStridedSlice S1x1 ![8, 0] sq slices_S16x1_S1x1_8_0) shapeCasts_S1x1_S1))
              (broadcastInDim S1 ![] bcast_S_S1 (constant (F := Ideal) S_ .f32 0x49000000#32))))))
      sumH)
    (mulf (broadcastInDim S64 ![] bcast_S_S64 (constant (F := Ideal) S_ .f32 0x3F800000#32))
      (addf (shapeCast S64 (extractStridedSlice S1x64 ![0, 0] sd slices_S16x64_S1x64_0_0) shapeCasts_S1x64_S64)
        (shapeCast S64 (extractStridedSlice S1x64 ![8, 0] sd slices_S16x64_S1x64_8_0) shapeCasts_S1x64_S64)))

/-- What the host does to a score of width 64: its minimum and maximum over the layer, the min-max normalisation
    with `1e-8` added to the range, and the threshold at one half (`0` below it, `1` otherwise). -/
def finK64 (s : FVec Ideal S64 .f32) : FVec Ideal S64 .f32 :=
  id <| select
    (cmpf .olt
      (Host.divf
        (subf s (broadcastInDim S64 ![] bcast_S_S64
          (Host.reduce FloatOps.minimumf s (constant (F := Ideal) S_ .f32 0x7F800000#32) reducesTo_S64_S_d0 h_S_)))
        (broadcastInDim S64 ![] bcast_S_S64
          (addf
            (subf (Host.reduce FloatOps.maximumf s (constant (F := Ideal) S_ .f32 0xFF800000#32) reducesTo_S64_S_d0 h_S_)
              (Host.reduce FloatOps.minimumf s (constant (F := Ideal) S_ .f32 0x7F800000#32) reducesTo_S64_S_d0 h_S_))
            (constant (F := Ideal) S_ .f32 0x322BCC77#32))))
      (broadcastInDim S64 ![] bcast_S_S64 (constant (F := Ideal) S_ .f32 0x3F000000#32)))
    (broadcastInDim S64 ![] bcast_S_S64 (constant (F := Ideal) S_ .f32 0x00000000#32))
    (broadcastInDim S64 ![] bcast_S_S64 (constant (F := Ideal) S_ .f32 0x3F800000#32))

/-- The score of width 64 at an index. -/
theorem score64_apply (sq : FVec Ideal S16x1 .f32) (sd : FVec Ideal S16x64 .f32) (sumH : FVec Ideal S64 .f32) (j : S64.Idx) :
    score64 sq sd sumH j
      = (1 - 1 * Ideal.div (sq (ix2 0 0) + sq (ix2 8 0)) (cnt3 : EReal)) * sumH j + 1 * (sd (ix2 0 (j 0)) + sd (ix2 8 (j 0))) := by
  have hq0 : shapeCast S1 (extractStridedSlice S1x1 ![0, 0] sq slices_S16x1_S1x1_0_0) shapeCasts_S1x1_S1 (ix1 0) = sq (ix2 0 0) :=
    (shapeCast_1a_a_apply _ _ _).trans (slice2_axis0_apply 0 sq _ 0 0 0 rfl)
  have hq8 : shapeCast S1 (extractStridedSlice S1x1 ![8, 0] sq slices_S16x1_S1x1_8_0) shapeCasts_S1x1_S1 (ix1 0) = sq (ix2 8 0) :=
    (shapeCast_1a_a_apply _ _ _).trans (slice2_axis0_apply 8 sq _ 0 0 8 rfl)
  have hd0 : shapeCast S64 (extractStridedSlice S1x64 ![0, 0] sd slices_S16x64_S1x64_0_0) shapeCasts_S1x64_S64 j = sd (ix2 0 (j 0)) := by
    rw [eq_ix1 j]; exact (shapeCast_1a_a_apply _ _ _).trans (slice2_axis0_apply 0 sd _ 0 _ 0 rfl)
  have hd8 : shapeCast S64 (extractStridedSlice S1x64 ![8, 0] sd slices_S16x64_S1x64_8_0) shapeCasts_S1x64_S64 j = sd (ix2 8 (j 0)) := by
    rw [eq_ix1 j]; exact (shapeCast_1a_a_apply _ _ _).trans (slice2_axis0_apply 8 sd _ 0 _ 8 rfl)
  have hb1 : ∀ x : FVec Ideal S_ .f32, broadcastInDim S1 ![] bcast_S_S1 x (ix1 0) = x ix0 :=
    fun x => broadcastInDim_scalar_apply bcast_S_S1 x _
  have hbn : ∀ x : FVec Ideal S_ .f32, broadcastInDim S64 ![] bcast_S_S64 x j = x ix0 :=
    fun x => broadcastInDim_scalar_apply bcast_S_S64 x _
  unfold score64
  rw [addf_apply, mulf_apply, broadcastInDim_apply (![0] : Fin 1 → Fin S64.rank) bcast_S1_S64_0 _ j (ix1 0)
    (fun a => by match a with | ⟨0, _⟩ => exact (if_pos rfl).symm)]
  simp only [addf_apply, mulf_apply, subf_apply, hostDivf_apply, hb1, hbn, constant_apply,
    Ideal.ofBits_one_f32, ofBits_cnt3, hq0, hq8, hd0, hd8]

set_option maxHeartbeats 4000000 in
/-- After all the host operations that follow the region, from any buffer contents `W`, the mask of the layer of
    width 64 is the thresholding of the score composed from `W`'s partial sums and row sums. -/
theorem tail_hm2_of (W : Valuation τ sig (Elt Ideal)) :
    (StableHlo.after (tailOps (F := Ideal)).flatten W (Proc.devRef .tc main_v116) : FVec Ideal S64 .f32)
      = finK64 (score64 (W (Proc.devRef .tc main_v17_5)) (W (Proc.devRef .tc main_v17_6)) (W (Proc.devRef .tc main_v9))) := by
  simp only [tailOps, hostOps1, hostOps1_1, hostOps1_2, hostOps1_3, hostOps1_4, hostOps1_5, hostOps1_6, List.flatten_cons,
    List.flatten_nil, List.append_nil, List.cons_append, List.nil_append]
  after_results_simp
  simp only [TRef.ofBuf, TRef.toBuf, cast_eq]
  rfl

section Tail

variable (c : Dev nD) (A : (w : Fin 22) → Buf (Elt Ideal) ((spec0 w).arr.view.loc (c.tc : Thread nD τ)))

/-- The buffer contents the region leaves: its twenty-two arrays at `A`, every other buffer as the region was entered. -/
abbrev Wx : Valuation τ sig (Elt Ideal) := Pipeline.withArrays spec0 c (V0 m c) A

/-- The arrays of the six partial-sum outputs at their literal types. -/
abbrev P16 : FVec Ideal S16x1 .f32 := A 16
abbrev P17 : FVec Ideal S16x256 .f32 := A 17
abbrev P18 : FVec Ideal S16x1 .f32 := A 18
abbrev P19 : FVec Ideal S16x128 .f32 := A 19
abbrev P20 : FVec Ideal S16x1 .f32 := A 20
abbrev P21 : FVec Ideal S16x64 .f32 := A 21

/-- The network's output array is the region's: no later operation writes it. -/
theorem tail_out : StableHlo.after (tailOps (F := Ideal)).flatten (Wx m c A) (Proc.devRef .tc main_v17_0) = A 15 := by
  have hk : ∀ op ∈ (tailOps (F := Ideal)).flatten, Proc.devRef .tc main_v17_0 ∉ op.writes := by
    intro op hop
    obtain ⟨ops, hops, ho⟩ := List.mem_flatten.mp hop
    exact sfx_keeps (F := Ideal) ops hops op ho 15
  rw [StableHlo.after_of_forall_not_mem _ _ hk]
  exact Pipeline.withArrays_arr spec0 launch0.win.arr_inj c _ _ 15

/-- The mask of the layer of width 256. -/
theorem tail_hm0 :
    (StableHlo.after (tailOps (F := Ideal)).flatten (Wx m c A) (Proc.devRef .tc main_v50) : FVec Ideal S256 .f32)
      = finK256 (fun j => (1 - 1 * Ideal.div (P16 c A (ix2 0 0) + P16 c A (ix2 8 0)) (cnt1 : EReal))
            * (∑ x : Fin 1024, m2 (arg12 m c) (j 0) x) + 1 * (P17 c A (ix2 0 (j 0)) + P17 c A (ix2 8 (j 0)))) := by
  have hsq : Wx m c A (Proc.devRef .tc main_v17_1) = P16 c A := Pipeline.withArrays_arr spec0 launch0.win.arr_inj c _ _ 16
  have hsd : Wx m c A (Proc.devRef .tc main_v17_2) = P17 c A := Pipeline.withArrays_arr spec0 launch0.win.arr_inj c _ _ 17
  have hH : Wx m c A (Proc.devRef .tc main_v7) = V m c main_v7 := Pipeline.withArrays_of_ne spec0 c _ _ main_v7 (by decide)
  rw [tail_hm0_of, hsq, hsd, hH, V_main_v7]
  refine congrArg finK256 (funext fun j => ?_)
  rw [score256_apply]
  rfl

/-- The mask of the layer of width 128. -/
theorem tail_hm1 :
    (StableHlo.after (tailOps (F := Ideal)).flatten (Wx m c A) (Proc.devRef .tc main_v83) : FVec Ideal S128 .f32)
      = finK128 (fun j => (1 - 1 * Ideal.div (P18 c A (ix2 0 0) + P18 c A (ix2 8 0)) (cnt2 : EReal))
            * (∑ x : Fin 256, m2 (arg13 m c) (j 0) x) + 1 * (P19 c A (ix2 0 (j 0)) + P19 c A (ix2 8 (j 0)))) := by
  have hsq : Wx m c A (Proc.devRef .tc main_v17_3) = P18 c A := Pipeline.withArrays_arr spec0 launch0.win.arr_inj c _ _ 18
  have hsd : Wx m c A (Proc.devRef .tc main_v17_4) = P19 c A := Pipeline.withArrays_arr spec0 launch0.win.arr_inj c _ _ 19
  have hH : Wx m c A (Proc.devRef .tc main_v8) = V m c main_v8 := Pipeline.withArrays_of_ne spec0 c _ _ main_v8 (by decide)
  rw [tail_hm1_of, hsq, hsd, hH, V_main_v8]
  refine congrArg finK128 (funext fun j => ?_)
  rw [score128_apply]
  rfl

/-- The mask of the layer of width 64. -/
theorem tail_hm2 :
    (StableHlo.after (tailOps (F := Ideal)).flatten (Wx m c A) (Proc.devRef .tc main_v116) : FVec Ideal S64 .f32)
      = finK64 (fun j => (1 - 1 * Ideal.div (P20 c A (ix2 0 0) + P20 c A (ix2 8 0)) (cnt3 : EReal))
            * (∑ x : Fin 128, m2 (arg14 m c) (j 0) x) + 1 * (P21 c A (ix2 0 (j 0)) + P21 c A (ix2 8 (j 0)))) := by
  have hsq : Wx m c A (Proc.devRef .tc main_v17_5) = P20 c A := Pipeline.withArrays_arr spec0 launch0.win.arr_inj c _ _ 20
  have hsd : Wx m c A (Proc.devRef .tc main_v17_6) = P21 c A := Pipeline.withArrays_arr spec0 launch0.win.arr_inj c _ _ 21
  have hH : Wx m c A (Proc.devRef .tc main_v9) = V m c main_v9 := Pipeline.withArrays_of_ne spec0 c _ _ main_v9 (by decide)
  rw [tail_hm2_of, hsq, hsd, hH, V_main_v9]
  refine congrArg finK64 (funext fun j => ?_)
  rw [score64_apply]
  rfl

end Tail

end Cert.KernelIdeal.Val

end
-- ==== Proof.Ref1.lean ====
/-
  The reference program's results are the model's functions. Each stage of the reference, read at an index from
  the generated per-operation lemmas, is a function of `Spec.lean` / `Model.lean`: a dense layer with relu and
  mask (`lin`), the last layer (`linOut`), and for the first layer's input the row norms, the normalised rows,
  their projections on the rows of `H1`, the mean square `θ` and the score with the row sum taken last (`scoreR`).
  What the reference does to a score vector afterwards — subtract the least entry, divide by the range plus
  `1e-8`, compare with one half — is kept as one function `fin256` of the score vector and is not opened.
-/
import proofs.«423609_j13907104104967_3_alg».proof.Proof.Gen.ReferenceIdeal.Read
import proofs.«423609_j13907104104967_3_alg».proof.Proof.Model
import Idealize.ShloMosaic.Lib.IdealHost

noncomputable section

namespace Cert.RefV

open Cert.ReferenceIdeal Cert.ReferenceIdeal.Gen Cert.ReferenceIdeal.Read Idealize.ShloMosaic Idealize.ShloMosaic.ValueIdx

/-! ## The three entry counts as extended reals -/

/-- The pattern `0x4A000000` is `2²¹ = 8192·256`. -/
theorem ofBits_cnt1 : Ideal.ofBits .f32 0x4A000000#32 = ((2097152 : ℝ) : EReal) := by
  simp [Ideal.ofBits, Ideal.ieee, -EReal.coe_mul]; norm_num

/-- The pattern `0x49800000` is `2²⁰ = 8192·128`. -/
theorem ofBits_cnt2 : Ideal.ofBits .f32 0x49800000#32 = ((1048576 : ℝ) : EReal) := by
  simp [Ideal.ofBits, Ideal.ieee, -EReal.coe_mul]; norm_num

/-- The pattern `0x49000000` is `2¹⁹ = 8192·64`. -/
theorem ofBits_cnt3 : Ideal.ofBits .f32 0x49000000#32 = ((524288 : ℝ) : EReal) := by
  simp [Ideal.ofBits, Ideal.ieee, -EReal.coe_mul]; norm_num

/-- Two rank-2 indices whose coordinates have equal values are equal. -/
local macro "idx2" : tactic =>
  `(tactic| exact funext fun a => Fin.ext (by match a with | ⟨0, _⟩ => rfl | ⟨1, _⟩ => rfl))

/-- Two rank-1 indices whose coordinates have equal values are equal. -/
local macro "idx1" : tactic =>
  `(tactic| exact funext fun a => Fin.ext (by match a with | ⟨0, _⟩ => rfl))

variable (a0 : (⟨S8192x1024, .f32⟩ : BufTy).Contents (Elt Ideal))
  (a1 : (⟨S256, .f32⟩ : BufTy).Contents (Elt Ideal)) (a2 : (⟨S128, .f32⟩ : BufTy).Contents (Elt Ideal)) (a3 : (⟨S64, .f32⟩ : BufTy).Contents (Elt Ideal))
  (a4 : (⟨S256x1024, .f32⟩ : BufTy).Contents (Elt Ideal)) (a5 : (⟨S256, .f32⟩ : BufTy).Contents (Elt Ideal))
  (a6 : (⟨S128x256, .f32⟩ : BufTy).Contents (Elt Ideal)) (a7 : (⟨S128, .f32⟩ : BufTy).Contents (Elt Ideal))
  (a8 : (⟨S64x128, .f32⟩ : BufTy).Contents (Elt Ideal)) (a9 : (⟨S64, .f32⟩ : BufTy).Contents (Elt Ideal))
  (a10 : (⟨S1000x64, .f32⟩ : BufTy).Contents (Elt Ideal)) (a11 : (⟨S1000, .f32⟩ : BufTy).Contents (Elt Ideal))
  (a12 : (⟨S256x1024, .f32⟩ : BufTy).Contents (Elt Ideal))

/-! ## The four dense layers -/

/-- The first layer's result is `relu (x W1ᵀ + b1) * mask0`. -/
theorem ref_x1 : val_main_v40 (F := Ideal) a0 a1 a4 a5 = fun i => Spec.X2 a0 a1 a4 a5 (i 0) (i 1) := by
  funext i
  obtain ⟨r, j, rfl⟩ : ∃ (r : Fin 8192) (j : Fin 256), i = ix2 r j := ⟨i 0, i 1, eq_ix2 i⟩
  rw [val_main_v40_apply, val_main_v37_apply, val_main_v36_apply, val_main_v33_apply, val_main_v35_apply,
    val_main_v34_apply, val_main_v39_apply, val_main_v38_apply, val_main_call3_v0_apply, val_main_call3_cst_apply]
  simp only [val_main_v32_apply, Ideal.mulf_def, Ideal.addf_def, Ideal.maximumf_def, Ideal.ofBits_def,
    Ideal.ofBits_zero_f32]
  have e1 : ∀ k : Fin 1024, lidx_main_v33 (ix2 r j) k = ix2 r k := fun k => by idx2
  have e2 : ∀ k : Fin 1024, idx_main_v32 (ridx_main_v33 (ix2 r j) k) = ix2 j k := fun k => by idx2
  have e3 : idx_main_v34 (idx_main_v35 (ix2 r j)) = ix1 j := by idx1
  have e4 : idx_main_v38 (idx_main_v39 (ix2 r j)) = ix1 j := by idx1
  simp only [e1, e2, e3, e4]
  rfl

/-- The second layer's result is `relu (X2 W2ᵀ + b2) * mask1`. -/
theorem ref_x2 : val_main_v81 (F := Ideal) a0 a1 a2 a4 a5 a6 a7
    = fun i => Spec.X3 a0 a1 a2 a4 a5 a6 a7 (i 0) (i 1) := by
  funext i
  obtain ⟨r, j, rfl⟩ : ∃ (r : Fin 8192) (j : Fin 128), i = ix2 r j := ⟨i 0, i 1, eq_ix2 i⟩
  rw [val_main_v81_apply, val_main_v78_apply, val_main_v77_apply, val_main_v74_apply, val_main_v76_apply,
    val_main_v75_apply, val_main_v80_apply, val_main_v79_apply, val_main_call7_v0_apply, val_main_call7_cst_apply,
    ref_x1]
  simp only [val_main_v73_apply, Ideal.mulf_def, Ideal.addf_def, Ideal.maximumf_def, Ideal.ofBits_def,
    Ideal.ofBits_zero_f32]
  have e2 : ∀ k : Fin 256, idx_main_v73 (ridx_main_v74 (ix2 r j) k) = ix2 j k := fun k => by idx2
  have e3 : idx_main_v75 (idx_main_v76 (ix2 r j)) = ix1 j := by idx1
  have e4 : idx_main_v79 (idx_main_v80 (ix2 r j)) = ix1 j := by idx1
  simp only [e2, e3, e4]
  rfl

/-- The third layer's result is `relu (X3 W3ᵀ + b3) * mask2`. -/
theorem ref_x3 : val_main_v122 (F := Ideal) a0 a1 a2 a3 a4 a5 a6 a7 a8 a9
    = fun i => Spec.X4 a0 a1 a2 a3 a4 a5 a6 a7 a8 a9 (i 0) (i 1) := by
  funext i
  obtain ⟨r, j, rfl⟩ : ∃ (r : Fin 8192) (j : Fin 64), i = ix2 r j := ⟨i 0, i 1, eq_ix2 i⟩
  rw [val_main_v122_apply, val_main_v119_apply, val_main_v118_apply, val_main_v115_apply, val_main_v117_apply,
    val_main_v116_apply, val_main_v121_apply, val_main_v120_apply, val_main_call11_v0_apply,
    val_main_call11_cst_apply, ref_x2]
  simp only [val_main_v114_apply, Ideal.mulf_def, Ideal.addf_def, Ideal.maximumf_def, Ideal.ofBits_def,
    Ideal.ofBits_zero_f32]
  have e2 : ∀ k : Fin 128, idx_main_v114 (ridx_main_v115 (ix2 r j) k) = ix2 j k := fun k => by idx2
  have e3 : idx_main_v116 (idx_main_v117 (ix2 r j)) = ix1 j := by idx1
  have e4 : idx_main_v120 (idx_main_v121 (ix2 r j)) = ix1 j := by idx1
  simp only [e2, e3, e4]
  rfl

/-- The program's first result is the network's output `relu (X4 W4ᵀ + b4)`. -/
theorem ref_out : val_main_v128 (F := Ideal) a0 a1 a2 a3 a4 a5 a6 a7 a8 a9 a10 a11
    = fun i => Spec.netOut a0 a1 a2 a3 a4 a5 a6 a7 a8 a9 a10 a11 (i 0) (i 1) := by
  funext i
  obtain ⟨r, j, rfl⟩ : ∃ (r : Fin 8192) (j : Fin 1000), i = ix2 r j := ⟨i 0, i 1, eq_ix2 i⟩
  rw [val_main_v128_apply, val_main_v127_apply, val_main_v124_apply, val_main_v126_apply, val_main_v125_apply,
    val_main_call12_v0_apply, val_main_call12_cst_apply, ref_x3]
  simp only [val_main_v123_apply, Ideal.addf_def, Ideal.maximumf_def, Ideal.ofBits_def, Ideal.ofBits_zero_f32]
  have e2 : ∀ k : Fin 64, idx_main_v123 (ridx_main_v124 (ix2 r j) k) = ix2 j k := fun k => by idx2
  have e3 : idx_main_v125 (idx_main_v126 (ix2 r j)) = ix1 j := by idx1
  simp only [e2, e3]
  rfl

/-! ## The score of the first layer's input -/

/-- The norms of the batch's rows. -/
theorem ref_nrm_x : val_main_v0 (F := Ideal) a0 = fun i => Spec.nrm (Spec.X1 a0) (i 0) := by
  funext i
  rw [val_main_v0_apply, val_main_call0_v2_apply, val_main_call0_v1_apply, val_main_call0_cst_apply]
  simp only [val_main_call0_v0_apply, Ideal.hostUnary_sqrt_def, Ideal.mulf_def, Ideal.ofBits_def,
    Ideal.ofBits_zero_f32, zero_add]
  have e : ∀ k : Fin 1024, idx_main_call0_v1 (idx_main_call0_v2 i) k
      = ix2 (⟨(i 0).val, (i 0).isLt⟩ : Fin 8192) k := fun k => by idx2
  simp only [e]
  rfl

/-- The batch's rows, each divided by its norm. -/
theorem ref_xn : val_main_v2 (F := Ideal) a0 = fun i => Spec.xn (Spec.X1 a0) (i 0) (i 1) := by
  funext i
  obtain ⟨r, x, rfl⟩ : ∃ (r : Fin 8192) (x : Fin 1024), i = ix2 r x := ⟨i 0, i 1, eq_ix2 i⟩
  rw [val_main_v2_apply, val_main_v1_apply, ref_nrm_x, Ideal.hostDivf_def]
  rfl

/-- The normalised rows projected on the rows of `H1`. -/
theorem ref_yv : val_main_v4 (F := Ideal) a0 a12
    = fun i => Spec.yv (Spec.X1 a0) (Spec.m2 a12) (i 0) (i 1) := by
  funext i
  obtain ⟨r, j, rfl⟩ : ∃ (r : Fin 8192) (j : Fin 256), i = ix2 r j := ⟨i 0, i 1, eq_ix2 i⟩
  rw [val_main_v4_apply, ref_xn]
  simp only [val_main_v3_apply]
  have e : ∀ k : Fin 1024, idx_main_v3 (ridx_main_v4 (ix2 r j) k) = ix2 j k := fun k => by idx2
  simp only [e]
  rfl

/-- The norms of the projections' rows. -/
theorem ref_nrm_y : val_main_v5 (F := Ideal) a0 a12
    = fun i => Spec.nrm (Spec.yv (Spec.X1 a0) (Spec.m2 a12)) (i 0) := by
  funext i
  rw [val_main_v5_apply, val_main_call1_v2_apply, val_main_call1_v1_apply, val_main_call1_cst_apply]
  simp only [val_main_call1_v0_apply, ref_yv, Ideal.hostUnary_sqrt_def, Ideal.mulf_def, Ideal.ofBits_def,
    Ideal.ofBits_zero_f32, zero_add]
  rfl

/-- The projections, each row divided by its norm. -/
theorem ref_yn : val_main_v7 (F := Ideal) a0 a12
    = fun i => Spec.yn (Spec.X1 a0) (Spec.m2 a12) (i 0) (i 1) := by
  funext i
  rw [val_main_v7_apply, val_main_v6_apply, ref_nrm_y, ref_yv, Ideal.hostDivf_def]
  rfl

/-- The mean square of the normalised projections. -/
theorem ref_theta : val_main_v10 (F := Ideal) a0 a12
    = fun _ => Spec.theta (Spec.X1 a0) (Spec.m2 a12) (Spec.cnt1 : EReal) := by
  funext i
  rw [val_main_v10_apply, val_main_v9_apply, val_main_cst_apply, val_main_cst_0_apply, sum_idx2]
  simp only [val_main_v8_apply, ref_yn, Ideal.hostDivf_def, Ideal.mulf_def, Ideal.ofBits_def,
    Ideal.ofBits_zero_f32, ofBits_cnt1, zero_add]
  rfl

/-- The products `ynᵀ · xn`. -/
theorem ref_outer : val_main_v11 (F := Ideal) a0 a12
    = fun i => ∑ r : Fin 8192, Spec.yn (Spec.X1 a0) (Spec.m2 a12) r (i 0) * Spec.xn (Spec.X1 a0) r (i 1) := by
  funext i
  rw [val_main_v11_apply, ref_yn, ref_xn]
  rfl

/-- The score of the first layer's input: the row sums of `H1 + (ynᵀ·xn − θ·H1)`. -/
theorem ref_score0 : val_main_v18 (F := Ideal) a0 a12
    = fun j => Spec.scoreR (Spec.X1 a0) (Spec.m2 a12) (Spec.cnt1 : EReal) (j 0) := by
  funext i
  obtain ⟨j, rfl⟩ : ∃ j : Fin 256, i = ix1 j := ⟨i 0, eq_ix1 i⟩
  rw [val_main_v18_apply, val_main_cst_2_apply]
  simp only [val_main_v17_apply, val_main_v16_apply, val_main_v15_apply, val_main_cst_1_apply, val_main_v14_apply,
    val_main_v13_apply, val_main_v12_apply, ref_outer, ref_theta, Ideal.addf_def, Ideal.subf_def, Ideal.mulf_def,
    Ideal.ofBits_def, Ideal.ofBits_zero_f32, Ideal.ofBits_one_f32, zero_add, one_mul]
  have e : ∀ k : Fin 1024, idx_main_v18 (ix1 j) k = ix2 j k := fun k => by idx2
  simp only [e]
  rfl

/-! ## After the score -/

/-- What the reference does to a score vector `s` of 256 entries: `(s − min s) / ((max s − min s) + 1e-8)`
    compared with one half; an entry below one half gives `0`, any other `1`. -/
def fin256 (s : (⟨S256, .f32⟩ : BufTy).Contents (Elt Ideal)) : (⟨S256, .f32⟩ : BufTy).Contents (Elt Ideal) :=
  id (select
    (cmpf .olt
      (Host.divf
        (subf s (broadcastInDim S256 ![] bcast_S_S256
          (Host.reduce FloatOps.minimumf s (constant (F := Ideal) S_ .f32 0x7F800000#32) reducesTo_S256_S_d0 h_S_)))
        (broadcastInDim S256 ![] bcast_S_S256
          (addf
            (subf
              (Host.reduce FloatOps.maximumf s (constant (F := Ideal) S_ .f32 0xFF800000#32) reducesTo_S256_S_d0 h_S_)
              (Host.reduce FloatOps.minimumf s (constant (F := Ideal) S_ .f32 0x7F800000#32) reducesTo_S256_S_d0 h_S_))
            (constant (F := Ideal) S_ .f32 0x322BCC77#32))))
      (broadcastInDim S256 ![] bcast_S_S256 (constant (F := Ideal) S_ .f32 0x3F000000#32)))
    (broadcastInDim S256 ![] bcast_S_S256 (constant (F := Ideal) S_ .f32 0x00000000#32))
    (broadcastInDim S256 ![] bcast_S_S256 (constant (F := Ideal) S_ .f32 0x3F800000#32)))

/-- The reference's first mask is `fin256` of its first score. -/
theorem ref_fin0 : val_main_v31 (F := Ideal) a0 a12 = fin256 (val_main_v18 (F := Ideal) a0 a12) := rfl

/-- The program's second result is `fin256` of the score of the first layer's input. -/
theorem ref_hm0 : val_main_v31 (F := Ideal) a0 a12
    = fin256 (fun j => Spec.scoreR (Spec.X1 a0) (Spec.m2 a12) (Spec.cnt1 : EReal) (j 0)) := by
  rw [ref_fin0, ref_score0]

end Cert.RefV

end
-- ==== Proof.Ref2.lean ====
/-
  The reference program's second and third Hebbian masks, read off its stages, are the model's functions.
  For the layer whose input is X (the second layer's input X2, 8192 × 256, against H2, 128 × 256, with the mean
  taken over 8192 · 128 entries; the third layer's input X3, 8192 × 128, against H3, 64 × 128, over 8192 · 64
  entries) the stages are, entry by entry: X itself (a dense layer, relu, times a mask); X with each row divided by
  its Euclidean norm; that times the transpose of H; the product with each row divided by its norm; the sum of the
  squares of all its entries divided by the count, θ; and the row sums of H + 1 · (ynᵀ · xn − θ · H), the score.
  What follows the score (least and greatest entry, a quotient, a comparison with one half) is kept as one function
  of the score vector, fin128 / fin64, and never opened.
-/
import proofs.«423609_j13907104104967_3_alg».proof.Proof.Gen.ReferenceIdeal.Read
import proofs.«423609_j13907104104967_3_alg».proof.Proof.Model

noncomputable section

namespace Cert.RefV

open Cert.ReferenceIdeal Cert.ReferenceIdeal.Gen Cert.ReferenceIdeal.Read Idealize.ShloMosaic Idealize.ShloMosaic.ValueIdx
  Idealize.ShloMosaic.StableHlo Idealize.SL.Sem

/-- What the program does to a score vector of length 128 once it has it: the vector minus its least entry, divided by
    (its greatest entry minus its least entry, plus the constant 0x322BCC77), compared with one half: 0 where the
    quotient is below one half, 1 elsewhere. Kept as one function of the score. -/
def fin128 (s : FVec Ideal S128 .f32) : FVec Ideal S128 .f32 :=
  id (select
    (cmpf .olt
      (Host.divf
        (subf s (broadcastInDim S128 ![] bcast_S_S128
          (Host.reduce (FloatOps.minimumf (F := Ideal) (φ := .f32)) s (constant (F := Ideal) S_ .f32 0x7F800000#32) reducesTo_S128_S_d0 h_S_)))
        (broadcastInDim S128 ![] bcast_S_S128
          (addf
            (subf
              (Host.reduce (FloatOps.maximumf (F := Ideal) (φ := .f32)) s (constant (F := Ideal) S_ .f32 0xFF800000#32) reducesTo_S128_S_d0 h_S_)
              (Host.reduce (FloatOps.minimumf (F := Ideal) (φ := .f32)) s (constant (F := Ideal) S_ .f32 0x7F800000#32) reducesTo_S128_S_d0 h_S_))
            (constant (F := Ideal) S_ .f32 0x322BCC77#32))))
      (broadcastInDim S128 ![] bcast_S_S128 (constant (F := Ideal) S_ .f32 0x3F000000#32)))
    (broadcastInDim S128 ![] bcast_S_S128 (constant (F := Ideal) S_ .f32 0x00000000#32))
    (broadcastInDim S128 ![] bcast_S_S128 (constant (F := Ideal) S_ .f32 0x3F800000#32)))

/-- The same for a score vector of length 64. -/
def fin64 (s : FVec Ideal S64 .f32) : FVec Ideal S64 .f32 :=
  id (select
    (cmpf .olt
      (Host.divf
        (subf s (broadcastInDim S64 ![] bcast_S_S64
          (Host.reduce (FloatOps.minimumf (F := Ideal) (φ := .f32)) s (constant (F := Ideal) S_ .f32 0x7F800000#32) reducesTo_S64_S_d0 h_S_)))
        (broadcastInDim S64 ![] bcast_S_S64
          (addf
            (subf
              (Host.reduce (FloatOps.maximumf (F := Ideal) (φ := .f32)) s (constant (F := Ideal) S_ .f32 0xFF800000#32) reducesTo_S64_S_d0 h_S_)
              (Host.reduce (FloatOps.minimumf (F := Ideal) (φ := .f32)) s (constant (F := Ideal) S_ .f32 0x7F800000#32) reducesTo_S64_S_d0 h_S_))
            (constant (F := Ideal) S_ .f32 0x322BCC77#32))))
      (broadcastInDim S64 ![] bcast_S_S64 (constant (F := Ideal) S_ .f32 0x3F000000#32)))
    (broadcastInDim S64 ![] bcast_S_S64 (constant (F := Ideal) S_ .f32 0x00000000#32))
    (broadcastInDim S64 ![] bcast_S_S64 (constant (F := Ideal) S_ .f32 0x3F800000#32)))

namespace R2

/-! ### The literal constants -/

/-- The word 0x3F800000 denotes 1. -/
theorem c_one : Ideal.ofBits .f32 0x3F800000#32 = 1 := by
  simp [Ideal.ofBits, Ideal.ieee, -EReal.coe_mul]; norm_num

/-- The word 0x49800000 denotes 1048576 = 8192 · 128. -/
theorem c_cnt2 : Ideal.ofBits .f32 0x49800000#32 = ((Cert.Spec.cnt2 : ℝ) : EReal) := by
  unfold Cert.Spec.cnt2
  simp [Ideal.ofBits, Ideal.ieee, -EReal.coe_mul]; norm_num

/-- The word 0x49000000 denotes 524288 = 8192 · 64. -/
theorem c_cnt3 : Ideal.ofBits .f32 0x49000000#32 = ((Cert.Spec.cnt3 : ℝ) : EReal) := by
  unfold Cert.Spec.cnt3
  simp [Ideal.ofBits, Ideal.ieee, -EReal.coe_mul]; norm_num

section Layer2

variable (x0 : (⟨S8192x1024, .f32⟩ : BufTy).Contents (Elt Ideal)) (x1 : (⟨S256, .f32⟩ : BufTy).Contents (Elt Ideal))
  (x4 : (⟨S256x1024, .f32⟩ : BufTy).Contents (Elt Ideal)) (x5 : (⟨S256, .f32⟩ : BufTy).Contents (Elt Ideal))
  (x13 : (⟨S128x256, .f32⟩ : BufTy).Contents (Elt Ideal))

/-! ### The second layer's input: relu (x · W1ᵀ + b1) * mask0 -/

theorem e2_inl (r : Fin 8192) (k : Fin 256) (q : Fin 1024) : lidx_main_v33 (ix2 r k) q = ix2 r q :=
  funext fun a => Fin.ext (by match a with | ⟨0, _⟩ => rfl | ⟨1, _⟩ => rfl)
theorem e2_inr (r : Fin 8192) (k : Fin 256) (q : Fin 1024) : idx_main_v32 (ridx_main_v33 (ix2 r k) q) = ix2 k q :=
  funext fun a => Fin.ext (by match a with | ⟨0, _⟩ => rfl | ⟨1, _⟩ => rfl)
theorem e2_inb (r : Fin 8192) (k : Fin 256) : idx_main_v34 (idx_main_v35 (ix2 r k)) = ix1 k :=
  funext fun a => Fin.ext (by match a with | ⟨0, _⟩ => rfl)
theorem e2_inm (r : Fin 8192) (k : Fin 256) : idx_main_v38 (idx_main_v39 (ix2 r k)) = ix1 k :=
  funext fun a => Fin.ext (by match a with | ⟨0, _⟩ => rfl)

theorem L2_in (r : Fin 8192) (k : Fin 256) :
    val_main_v40 (F := Ideal) x0 x1 x4 x5 (ix2 r k) = Cert.Spec.X2 x0 x1 x4 x5 r k := by
  rw [val_main_v40_apply, val_main_v37_apply, val_main_v36_apply, val_main_v33_apply, val_main_v35_apply, val_main_v34_apply,
    val_main_call3_v0_apply, val_main_call3_cst_apply, val_main_v39_apply, val_main_v38_apply]
  simp only [val_main_v32_apply, e2_inl, e2_inr, e2_inb, e2_inm, Ideal.mulf_def, Ideal.addf_def, Ideal.maximumf_def,
    Ideal.ofBits_def, Ideal.ofBits_zero_f32]
  rfl

/-! ### The second layer's Hebbian score, of X2 against H2 -/

theorem e2_nrm (r : Fin 8192) (k q : Fin 256) :
    idx_main_call4_v1 (idx_main_call4_v2 (idx_main_v42 (ix2 r k))) q = ix2 r q :=
  funext fun a => Fin.ext (by match a with | ⟨0, _⟩ => rfl | ⟨1, _⟩ => rfl)

/-- The input with each row divided by its norm. -/
theorem L2_xn (r : Fin 8192) (k : Fin 256) :
    val_main_v43 (F := Ideal) x0 x1 x4 x5 (ix2 r k) = Cert.Spec.xn (Cert.Spec.X2 x0 x1 x4 x5) r k := by
  rw [val_main_v43_apply, val_main_v42_apply, val_main_v41_apply, val_main_call4_v2_apply, val_main_call4_v1_apply,
    val_main_call4_cst_apply, L2_in]
  simp only [val_main_call4_v0_apply, e2_nrm, L2_in, Ideal.mulf_def, Ideal.hostDivf_def, Ideal.hostUnary_sqrt_def,
    Ideal.ofBits_def, Ideal.ofBits_zero_f32, zero_add]
  rfl

theorem e2_yl (r : Fin 8192) (j : Fin 128) (q : Fin 256) : lidx_main_v45 (ix2 r j) q = ix2 r q :=
  funext fun a => Fin.ext (by match a with | ⟨0, _⟩ => rfl | ⟨1, _⟩ => rfl)
theorem e2_yr (r : Fin 8192) (j : Fin 128) (q : Fin 256) : idx_main_v44 (ridx_main_v45 (ix2 r j) q) = ix2 j q :=
  funext fun a => Fin.ext (by match a with | ⟨0, _⟩ => rfl | ⟨1, _⟩ => rfl)

/-- The normalised input times the transpose of H2. -/
theorem L2_y (r : Fin 8192) (j : Fin 128) :
    val_main_v45 (F := Ideal) x0 x1 x4 x5 x13 (ix2 r j) =
      Cert.Spec.yv (Cert.Spec.X2 x0 x1 x4 x5) (Cert.Spec.m2 x13) r j := by
  rw [val_main_v45_apply]
  simp only [val_main_v44_apply, e2_yl, e2_yr, L2_xn]
  rfl

theorem e2_nrm2 (r : Fin 8192) (j q : Fin 128) :
    idx_main_call5_v1 (idx_main_call5_v2 (idx_main_v47 (ix2 r j))) q = ix2 r q :=
  funext fun a => Fin.ext (by match a with | ⟨0, _⟩ => rfl | ⟨1, _⟩ => rfl)

/-- The product with each row divided by its norm. -/
theorem L2_yn (r : Fin 8192) (j : Fin 128) :
    val_main_v48 (F := Ideal) x0 x1 x4 x5 x13 (ix2 r j) =
      Cert.Spec.yn (Cert.Spec.X2 x0 x1 x4 x5) (Cert.Spec.m2 x13) r j := by
  rw [val_main_v48_apply, val_main_v47_apply, val_main_v46_apply, val_main_call5_v2_apply, val_main_call5_v1_apply,
    val_main_call5_cst_apply, L2_y]
  simp only [val_main_call5_v0_apply, e2_nrm2, L2_y, Ideal.mulf_def, Ideal.hostDivf_def, Ideal.hostUnary_sqrt_def,
    Ideal.ofBits_def, Ideal.ofBits_zero_f32, zero_add]
  rfl

/-- The mean square of the normalised product. -/
theorem L2_theta (i : S_.Idx) :
    val_main_v51 (F := Ideal) x0 x1 x4 x5 x13 i =
      Cert.Spec.theta (Cert.Spec.X2 x0 x1 x4 x5) (Cert.Spec.m2 x13) ((Cert.Spec.cnt2 : ℝ) : EReal) := by
  rw [val_main_v51_apply, val_main_v50_apply, val_main_cst_10_apply, val_main_cst_11_apply,
    sum_idx2 (n0 := 8192) (n1 := 128)]
  simp only [val_main_v49_apply, L2_yn, c_cnt2, Ideal.mulf_def, Ideal.hostDivf_def, Ideal.ofBits_def,
    Ideal.ofBits_zero_f32, zero_add]
  rfl

theorem e2_sc (j : Fin 128) (q : Fin 256) : idx_main_v59 (ix1 j) q = ix2 j q :=
  funext fun a => Fin.ext (by match a with | ⟨0, _⟩ => rfl | ⟨1, _⟩ => rfl)
theorem e2_dl (j : Fin 128) (q : Fin 256) (r : Fin 8192) : lidx_main_v52 (ix2 j q) r = ix2 r j :=
  funext fun a => Fin.ext (by match a with | ⟨0, _⟩ => rfl | ⟨1, _⟩ => rfl)
theorem e2_dr (j : Fin 128) (q : Fin 256) (r : Fin 8192) : ridx_main_v52 (ix2 j q) r = ix2 r q :=
  funext fun a => Fin.ext (by match a with | ⟨0, _⟩ => rfl | ⟨1, _⟩ => rfl)

/-- The score: the row sums of H2 + 1 · (ynᵀ · xn − θ · H2). -/
theorem L2_score (j : Fin 128) :
    val_main_v59 (F := Ideal) x0 x1 x4 x5 x13 (ix1 j) =
      Cert.Spec.scoreR (Cert.Spec.X2 x0 x1 x4 x5) (Cert.Spec.m2 x13) ((Cert.Spec.cnt2 : ℝ) : EReal) j := by
  rw [val_main_v59_apply, val_main_cst_13_apply]
  simp only [val_main_v58_apply, val_main_v57_apply, val_main_v56_apply, val_main_cst_12_apply, val_main_v55_apply,
    val_main_v54_apply, val_main_v53_apply, val_main_v52_apply, L2_theta, e2_sc, e2_dl, e2_dr, L2_yn, L2_xn, c_one, one_mul,
    Ideal.mulf_def, Ideal.addf_def, Ideal.subf_def, Ideal.ofBits_def, Ideal.ofBits_zero_f32, zero_add]
  rfl

/-- The stages after the second score are fin128 of the score. -/
theorem L2_fin :
    val_main_v72 (F := Ideal) x0 x1 x4 x5 x13 = fin128 (val_main_v59 (F := Ideal) x0 x1 x4 x5 x13) := by
  unfold fin128 val_main_v72 val_main_v71 val_main_v70 val_main_v69 val_main_v68 val_main_v67 val_main_v66 val_main_v65
    val_main_v64 val_main_v63 val_main_v62 val_main_v61 val_main_v60 val_main_call6_v0 val_main_call6_v1 val_main_cst_14
    val_main_cst_15 val_main_cst_16 val_main_cst_17 val_main_cst_18 val_main_cst_19 val_main_cst_20
  rfl

end Layer2

section Layer3

variable (x0 : (⟨S8192x1024, .f32⟩ : BufTy).Contents (Elt Ideal)) (x1 : (⟨S256, .f32⟩ : BufTy).Contents (Elt Ideal))
  (x2 : (⟨S128, .f32⟩ : BufTy).Contents (Elt Ideal))
  (x4 : (⟨S256x1024, .f32⟩ : BufTy).Contents (Elt Ideal)) (x5 : (⟨S256, .f32⟩ : BufTy).Contents (Elt Ideal))
  (x6 : (⟨S128x256, .f32⟩ : BufTy).Contents (Elt Ideal)) (x7 : (⟨S128, .f32⟩ : BufTy).Contents (Elt Ideal))
  (x14 : (⟨S64x128, .f32⟩ : BufTy).Contents (Elt Ideal))

/-! ### The third layer's input: relu (X2 · W2ᵀ + b2) * mask1 -/

theorem e3_inl (r : Fin 8192) (k : Fin 128) (q : Fin 256) : lidx_main_v74 (ix2 r k) q = ix2 r q :=
  funext fun a => Fin.ext (by match a with | ⟨0, _⟩ => rfl | ⟨1, _⟩ => rfl)
theorem e3_inr (r : Fin 8192) (k : Fin 128) (q : Fin 256) : idx_main_v73 (ridx_main_v74 (ix2 r k) q) = ix2 k q :=
  funext fun a => Fin.ext (by match a with | ⟨0, _⟩ => rfl | ⟨1, _⟩ => rfl)
theorem e3_inb (r : Fin 8192) (k : Fin 128) : idx_main_v75 (idx_main_v76 (ix2 r k)) = ix1 k :=
  funext fun a => Fin.ext (by match a with | ⟨0, _⟩ => rfl)
theorem e3_inm (r : Fin 8192) (k : Fin 128) : idx_main_v79 (idx_main_v80 (ix2 r k)) = ix1 k :=
  funext fun a => Fin.ext (by match a with | ⟨0, _⟩ => rfl)

theorem L3_in (r : Fin 8192) (k : Fin 128) :
    val_main_v81 (F := Ideal) x0 x1 x2 x4 x5 x6 x7 (ix2 r k) = Cert.Spec.X3 x0 x1 x2 x4 x5 x6 x7 r k := by
  rw [val_main_v81_apply, val_main_v78_apply, val_main_v77_apply, val_main_v74_apply, val_main_v76_apply, val_main_v75_apply,
    val_main_call7_v0_apply, val_main_call7_cst_apply, val_main_v80_apply, val_main_v79_apply]
  simp only [val_main_v73_apply, e3_inl, e3_inr, e3_inb, e3_inm, L2_in, Ideal.mulf_def, Ideal.addf_def, Ideal.maximumf_def,
    Ideal.ofBits_def, Ideal.ofBits_zero_f32]
  rfl

/-! ### The third layer's Hebbian score, of X3 against H3 -/

theorem e3_nrm (r : Fin 8192) (k q : Fin 128) :
    idx_main_call8_v1 (idx_main_call8_v2 (idx_main_v83 (ix2 r k))) q = ix2 r q :=
  funext fun a => Fin.ext (by match a with | ⟨0, _⟩ => rfl | ⟨1, _⟩ => rfl)

/-- The input with each row divided by its norm. -/
theorem L3_xn (r : Fin 8192) (k : Fin 128) :
    val_main_v84 (F := Ideal) x0 x1 x2 x4 x5 x6 x7 (ix2 r k) = Cert.Spec.xn (Cert.Spec.X3 x0 x1 x2 x4 x5 x6 x7) r k := by
  rw [val_main_v84_apply, val_main_v83_apply, val_main_v82_apply, val_main_call8_v2_apply, val_main_call8_v1_apply,
    val_main_call8_cst_apply, L3_in]
  simp only [val_main_call8_v0_apply, e3_nrm, L3_in, Ideal.mulf_def, Ideal.hostDivf_def, Ideal.hostUnary_sqrt_def,
    Ideal.ofBits_def, Ideal.ofBits_zero_f32, zero_add]
  rfl

theorem e3_yl (r : Fin 8192) (j : Fin 64) (q : Fin 128) : lidx_main_v86 (ix2 r j) q = ix2 r q :=
  funext fun a => Fin.ext (by match a with | ⟨0, _⟩ => rfl | ⟨1, _⟩ => rfl)
theorem e3_yr (r : Fin 8192) (j : Fin 64) (q : Fin 128) : idx_main_v85 (ridx_main_v86 (ix2 r j) q) = ix2 j q :=
  funext fun a => Fin.ext (by match a with | ⟨0, _⟩ => rfl | ⟨1, _⟩ => rfl)

/-- The normalised input times the transpose of H3. -/
theorem L3_y (r : Fin 8192) (j : Fin 64) :
    val_main_v86 (F := Ideal) x0 x1 x2 x4 x5 x6 x7 x14 (ix2 r j) =
      Cert.Spec.yv (Cert.Spec.X3 x0 x1 x2 x4 x5 x6 x7) (Cert.Spec.m2 x14) r j := by
  rw [val_main_v86_apply]
  simp only [val_main_v85_apply, e3_yl, e3_yr, L3_xn]
  rfl

theorem e3_nrm2 (r : Fin 8192) (j q : Fin 64) :
    idx_main_call9_v1 (idx_main_call9_v2 (idx_main_v88 (ix2 r j))) q = ix2 r q :=
  funext fun a => Fin.ext (by match a with | ⟨0, _⟩ => rfl | ⟨1, _⟩ => rfl)

/-- The product with each row divided by its norm. -/
theorem L3_yn (r : Fin 8192) (j : Fin 64) :
    val_main_v89 (F := Ideal) x0 x1 x2 x4 x5 x6 x7 x14 (ix2 r j) =
      Cert.Spec.yn (Cert.Spec.X3 x0 x1 x2 x4 x5 x6 x7) (Cert.Spec.m2 x14) r j := by
  rw [val_main_v89_apply, val_main_v88_apply, val_main_v87_apply, val_main_call9_v2_apply, val_main_call9_v1_apply,
    val_main_call9_cst_apply, L3_y]
  simp only [val_main_call9_v0_apply, e3_nrm2, L3_y, Ideal.mulf_def, Ideal.hostDivf_def, Ideal.hostUnary_sqrt_def,
    Ideal.ofBits_def, Ideal.ofBits_zero_f32, zero_add]
  rfl

/-- The mean square of the normalised product. -/
theorem L3_theta (i : S_.Idx) :
    val_main_v92 (F := Ideal) x0 x1 x2 x4 x5 x6 x7 x14 i =
      Cert.Spec.theta (Cert.Spec.X3 x0 x1 x2 x4 x5 x6 x7) (Cert.Spec.m2 x14) ((Cert.Spec.cnt3 : ℝ) : EReal) := by
  rw [val_main_v92_apply, val_main_v91_apply, val_main_cst_21_apply, val_main_cst_22_apply,
    sum_idx2 (n0 := 8192) (n1 := 64)]
  simp only [val_main_v90_apply, L3_yn, c_cnt3, Ideal.mulf_def, Ideal.hostDivf_def, Ideal.ofBits_def,
    Ideal.ofBits_zero_f32, zero_add]
  rfl

theorem e3_sc (j : Fin 64) (q : Fin 128) : idx_main_v100 (ix1 j) q = ix2 j q :=
  funext fun a => Fin.ext (by match a with | ⟨0, _⟩ => rfl | ⟨1, _⟩ => rfl)
theorem e3_dl (j : Fin 64) (q : Fin 128) (r : Fin 8192) : lidx_main_v93 (ix2 j q) r = ix2 r j :=
  funext fun a => Fin.ext (by match a with | ⟨0, _⟩ => rfl | ⟨1, _⟩ => rfl)
theorem e3_dr (j : Fin 64) (q : Fin 128) (r : Fin 8192) : ridx_main_v93 (ix2 j q) r = ix2 r q :=
  funext fun a => Fin.ext (by match a with | ⟨0, _⟩ => rfl | ⟨1, _⟩ => rfl)

/-- The score: the row sums of H3 + 1 · (ynᵀ · xn − θ · H3). -/
theorem L3_score (j : Fin 64) :
    val_main_v100 (F := Ideal) x0 x1 x2 x4 x5 x6 x7 x14 (ix1 j) =
      Cert.Spec.scoreR (Cert.Spec.X3 x0 x1 x2 x4 x5 x6 x7) (Cert.Spec.m2 x14) ((Cert.Spec.cnt3 : ℝ) : EReal) j := by
  rw [val_main_v100_apply, val_main_cst_24_apply]
  simp only [val_main_v99_apply, val_main_v98_apply, val_main_v97_apply, val_main_cst_23_apply, val_main_v96_apply,
    val_main_v95_apply, val_main_v94_apply, val_main_v93_apply, L3_theta, e3_sc, e3_dl, e3_dr, L3_yn, L3_xn, c_one, one_mul,
    Ideal.mulf_def, Ideal.addf_def, Ideal.subf_def, Ideal.ofBits_def, Ideal.ofBits_zero_f32, zero_add]
  rfl

/-- The stages after the third score are fin64 of the score. -/
theorem L3_fin :
    val_main_v113 (F := Ideal) x0 x1 x2 x4 x5 x6 x7 x14 = fin64 (val_main_v100 (F := Ideal) x0 x1 x2 x4 x5 x6 x7 x14) := by
  unfold fin64 val_main_v113 val_main_v112 val_main_v111 val_main_v110 val_main_v109 val_main_v108 val_main_v107 val_main_v106
    val_main_v105 val_main_v104 val_main_v103 val_main_v102 val_main_v101 val_main_call10_v0 val_main_call10_v1 val_main_cst_25
    val_main_cst_26 val_main_cst_27 val_main_cst_28 val_main_cst_29 val_main_cst_30 val_main_cst_31
  rfl

end Layer3

end R2

/-- The reference's second mask is fin128 of the second layer's score. -/
theorem ref_hm1 (a0 : (⟨S8192x1024, .f32⟩ : BufTy).Contents (Elt Ideal)) (a1 : (⟨S256, .f32⟩ : BufTy).Contents (Elt Ideal))
    (a4 : (⟨S256x1024, .f32⟩ : BufTy).Contents (Elt Ideal)) (a5 : (⟨S256, .f32⟩ : BufTy).Contents (Elt Ideal))
    (a13 : (⟨S128x256, .f32⟩ : BufTy).Contents (Elt Ideal)) :
    Read.val_main_v72 (F := Ideal) a0 a1 a4 a5 a13 =
      fin128 (fun j => Cert.Spec.scoreR (Cert.Spec.X2 a0 a1 a4 a5) (Cert.Spec.m2 a13) (Cert.Spec.cnt2 : EReal) (j 0)) := by
  rw [R2.L2_fin]
  refine congrArg fin128 (funext fun j => ?_)
  obtain ⟨j', rfl⟩ : ∃ j' : Fin 128, j = ix1 j' := ⟨j 0, eq_ix1 j⟩
  exact R2.L2_score a0 a1 a4 a5 a13 j'

/-- The reference's third mask is fin64 of the third layer's score. -/
theorem ref_hm2 (a0 : (⟨S8192x1024, .f32⟩ : BufTy).Contents (Elt Ideal)) (a1 : (⟨S256, .f32⟩ : BufTy).Contents (Elt Ideal))
    (a2 : (⟨S128, .f32⟩ : BufTy).Contents (Elt Ideal))
    (a4 : (⟨S256x1024, .f32⟩ : BufTy).Contents (Elt Ideal)) (a5 : (⟨S256, .f32⟩ : BufTy).Contents (Elt Ideal))
    (a6 : (⟨S128x256, .f32⟩ : BufTy).Contents (Elt Ideal)) (a7 : (⟨S128, .f32⟩ : BufTy).Contents (Elt Ideal))
    (a14 : (⟨S64x128, .f32⟩ : BufTy).Contents (Elt Ideal)) :
    Read.val_main_v113 (F := Ideal) a0 a1 a2 a4 a5 a6 a7 a14 =
      fin64 (fun j => Cert.Spec.scoreR (Cert.Spec.X3 a0 a1 a2 a4 a5 a6 a7) (Cert.Spec.m2 a14) (Cert.Spec.cnt3 : EReal) (j 0)) := by
  rw [R2.L3_fin]
  refine congrArg fin64 (funext fun j => ?_)
  obtain ⟨j', rfl⟩ : ∃ j' : Fin 64, j = ix1 j' := ⟨j 0, eq_ix1 j⟩
  exact R2.L3_score a0 a1 a2 a4 a5 a6 a7 a14 j'

end Cert.RefV

end
-- ==== Proof.FinEq.lean ====
/-
  The closing chain of a score vector — its least and greatest entries, the min-max normalisation with the
  small constant added to the range, and the comparison with one half — is the same function in the kernel
  program and in the reference program, at each of the three widths: each is one generic chain at its width,
  and the two differ only in the side conditions they carry.
-/
import proofs.«423609_j13907104104967_3_alg».proof.Proof.Tail
import proofs.«423609_j13907104104967_3_alg».proof.Proof.Ref1
import proofs.«423609_j13907104104967_3_alg».proof.Proof.Ref2

noncomputable section

namespace Cert.FinChain

open Idealize.ShloMosaic Idealize.ShloMosaic.StableHlo

/-- The closing chain of a score vector of any width n: the entry minus the least entry, over the
    greatest minus the least plus the small constant, compared with one half; 0 below it, 1 otherwise.
    The side conditions of its operations are arguments. -/
def finG (n : ℕ) (hb : (⟨0, ![]⟩ : Shape).BroadcastsInDim ⟨1, ![n]⟩ (![] : Fin 0 → Fin (⟨1, ![n]⟩ : Shape).rank))
    (hr : (⟨1, ![n]⟩ : Shape).ReducesTo [0] ⟨0, ![]⟩) (h0 : 0 < (⟨0, ![]⟩ : Shape).numel)
    (s : FVec Ideal ⟨1, ![n]⟩ .f32) : FVec Ideal ⟨1, ![n]⟩ .f32 :=
  select
    (cmpf .olt
      (Host.divf
        (subf s (broadcastInDim ⟨1, ![n]⟩ ![] hb
          (Host.reduce FloatOps.minimumf s (constant (F := Ideal) ⟨0, ![]⟩ .f32 0x7F800000#32) hr h0)))
        (broadcastInDim ⟨1, ![n]⟩ ![] hb
          (addf
            (subf (Host.reduce FloatOps.maximumf s (constant (F := Ideal) ⟨0, ![]⟩ .f32 0xFF800000#32) hr h0)
              (Host.reduce FloatOps.minimumf s (constant (F := Ideal) ⟨0, ![]⟩ .f32 0x7F800000#32) hr h0))
            (constant (F := Ideal) ⟨0, ![]⟩ .f32 0x322BCC77#32))))
      (broadcastInDim ⟨1, ![n]⟩ ![] hb (constant (F := Ideal) ⟨0, ![]⟩ .f32 0x3F000000#32)))
    (broadcastInDim ⟨1, ![n]⟩ ![] hb (constant (F := Ideal) ⟨0, ![]⟩ .f32 0x00000000#32))
    (broadcastInDim ⟨1, ![n]⟩ ![] hb (constant (F := Ideal) ⟨0, ![]⟩ .f32 0x3F800000#32))

/-! Each program's chain is the generic one at its width, with that program's side conditions. -/

theorem k256 : Cert.KernelIdeal.Val.finK256
    = finG 256 Cert.KernelIdeal.Gen.bcast_S_S256 Cert.KernelIdeal.Gen.reducesTo_S256_S_d0 Cert.KernelIdeal.Gen.h_S_ := by
  delta Cert.KernelIdeal.Val.finK256 finG
  rfl

theorem r256 : Cert.RefV.fin256
    = finG 256 Cert.ReferenceIdeal.Gen.bcast_S_S256 Cert.ReferenceIdeal.Gen.reducesTo_S256_S_d0 Cert.ReferenceIdeal.Gen.h_S_ := by
  delta Cert.RefV.fin256 finG id
  rfl

theorem k128 : Cert.KernelIdeal.Val.finK128
    = finG 128 Cert.KernelIdeal.Gen.bcast_S_S128 Cert.KernelIdeal.Gen.reducesTo_S128_S_d0 Cert.KernelIdeal.Gen.h_S_ := by
  delta Cert.KernelIdeal.Val.finK128 finG
  rfl

theorem r128 : Cert.RefV.fin128
    = finG 128 Cert.ReferenceIdeal.Gen.bcast_S_S128 Cert.ReferenceIdeal.Gen.reducesTo_S128_S_d0 Cert.ReferenceIdeal.Gen.h_S_ := by
  delta Cert.RefV.fin128 finG id
  rfl

theorem k64 : Cert.KernelIdeal.Val.finK64
    = finG 64 Cert.KernelIdeal.Gen.bcast_S_S64 Cert.KernelIdeal.Gen.reducesTo_S64_S_d0 Cert.KernelIdeal.Gen.h_S_ := by
  delta Cert.KernelIdeal.Val.finK64 finG
  rfl

theorem r64 : Cert.RefV.fin64
    = finG 64 Cert.ReferenceIdeal.Gen.bcast_S_S64 Cert.ReferenceIdeal.Gen.reducesTo_S64_S_d0 Cert.ReferenceIdeal.Gen.h_S_ := by
  delta Cert.RefV.fin64 finG id
  rfl

end Cert.FinChain

/-- The two programs' closing chains are one function, at each width. -/
theorem Cert.KernelIdeal.Val.finK256_eq : Cert.KernelIdeal.Val.finK256 = Cert.RefV.fin256 :=
  Cert.FinChain.k256.trans Cert.FinChain.r256.symm

theorem Cert.KernelIdeal.Val.finK128_eq : Cert.KernelIdeal.Val.finK128 = Cert.RefV.fin128 :=
  Cert.FinChain.k128.trans Cert.FinChain.r128.symm

theorem Cert.KernelIdeal.Val.finK64_eq : Cert.KernelIdeal.Val.finK64 = Cert.RefV.fin64 :=
  Cert.FinChain.k64.trans Cert.FinChain.r64.symm

end
-- ==== Proof.Algebra.lean ====
/-
  Program-free mathematics for the score: on real-valued data every quantity of the Hebbian score
  (sums of squares, norms, the two normalisations, the projections, the mean square θ) is a real number,
  so the two arrangements of the score (row sum distributed over the three terms, or taken last) agree;
  a dense layer keeps real values real; the 8192 batch rows regroup as 2 · 8 · 512; and a running sum
  that starts from zero is the finite sum of its terms.
-/
import proofs.«423609_j13907104104967_3_alg».proof.Proof.Spec
import Idealize.ShloMosaic.PureOps.Ideal
import Mathlib.Algebra.BigOperators.Group.Finset.Basic
import Mathlib.Algebra.BigOperators.Fin
import Mathlib.Algebra.BigOperators.Ring.Finset
import Mathlib.Algebra.Order.BigOperators.Group.Finset
import Mathlib.Data.Fintype.BigOperators
import Mathlib.Data.EReal.Basic
import Mathlib.Data.EReal.Operations
import Mathlib.Data.EReal.Inv
import Mathlib.Tactic.Ring

noncomputable section

namespace Cert.Spec

open Idealize.ShloMosaic

variable {ι ξ κ : Type} [Fintype ι] [Fintype ξ] [Fintype κ]

/-! ### Real-valued extended reals -/

/-- An extended real that is neither infinity is the coercion of a real number. -/
theorem exists_real {a : EReal} (h : a ≠ ⊤ ∧ a ≠ ⊥) : ∃ r : ℝ, a = (r : EReal) :=
  ⟨a.toReal, (EReal.coe_toReal h.1 h.2).symm⟩

theorem coe_isReal (r : ℝ) : (r : EReal) ≠ ⊤ ∧ (r : EReal) ≠ ⊥ :=
  ⟨EReal.coe_ne_top r, EReal.coe_ne_bot r⟩

/-- A matrix of real-valued extended reals is the entrywise coercion of a real matrix. -/
theorem exists_real2 {α β : Type} {X : α → β → EReal} (hX : ∀ r x, X r x ≠ ⊤ ∧ X r x ≠ ⊥) :
    ∃ x : α → β → ℝ, X = fun r a => (x r a : EReal) :=
  ⟨fun r a => (X r a).toReal, funext fun r => funext fun a => (EReal.coe_toReal (hX r a).1 (hX r a).2).symm⟩

/-- The coercion of a finite sum of reals is the sum of the coercions. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem add_isReal {a b : EReal} (ha : a ≠ ⊤ ∧ a ≠ ⊥) (hb : b ≠ ⊤ ∧ b ≠ ⊥) :
    a + b ≠ ⊤ ∧ a + b ≠ ⊥ := by
  obtain ⟨x, rfl⟩ := exists_real ha
  obtain ⟨y, rfl⟩ := exists_real hb
  rw [← EReal.coe_add]; exact coe_isReal _

theorem mul_isReal {a b : EReal} (ha : a ≠ ⊤ ∧ a ≠ ⊥) (hb : b ≠ ⊤ ∧ b ≠ ⊥) :
    a * b ≠ ⊤ ∧ a * b ≠ ⊥ := by
  obtain ⟨x, rfl⟩ := exists_real ha
  obtain ⟨y, rfl⟩ := exists_real hb
  rw [← EReal.coe_mul]; exact coe_isReal _

theorem max_isReal {a b : EReal} (ha : a ≠ ⊤ ∧ a ≠ ⊥) (hb : b ≠ ⊤ ∧ b ≠ ⊥) :
    max a b ≠ ⊤ ∧ max a b ≠ ⊥ := by
  rcases max_choice a b with h | h <;> rw [h] <;> assumption

theorem zero_isReal : (0 : EReal) ≠ ⊤ ∧ (0 : EReal) ≠ ⊥ := by
  rw [← EReal.coe_zero]; exact coe_isReal 0

theorem sum_isReal {α : Type} (s : Finset α) (f : α → EReal) (h : ∀ i ∈ s, f i ≠ ⊤ ∧ f i ≠ ⊥) :
    (∑ i ∈ s, f i) ≠ ⊤ ∧ (∑ i ∈ s, f i) ≠ ⊥ :=
  Finset.sum_induction f (fun a => a ≠ ⊤ ∧ a ≠ ⊥) (fun _ _ => add_isReal) zero_isReal h

/-- The square root of a real-valued extended real is real-valued (the junk value at a negative
    argument is excluded by asking the argument to be nonnegative). -/
theorem sqrt_isReal {a : EReal} (ha : a ≠ ⊤ ∧ a ≠ ⊥) (h0 : 0 ≤ a) :
    Ideal.sqrt a ≠ ⊤ ∧ Ideal.sqrt a ≠ ⊥ := by
  obtain ⟨x, rfl⟩ := exists_real ha
  have hx : ¬ x < 0 := not_lt.mpr (EReal.coe_nonneg.mp h0)
  rw [Ideal.sqrt_coe, if_neg hx]; exact coe_isReal _

/-- A quotient of real-valued extended reals with nonzero denominator is real-valued. -/
theorem div_isReal {a b : EReal} (ha : a ≠ ⊤ ∧ a ≠ ⊥) (hb : b ≠ ⊤ ∧ b ≠ ⊥) (h0 : b ≠ 0) :
    Ideal.div a b ≠ ⊤ ∧ Ideal.div a b ≠ ⊥ := by
  obtain ⟨x, rfl⟩ := exists_real ha
  obtain ⟨y, rfl⟩ := exists_real hb
  have hy : y ≠ 0 := fun h => h0 (by rw [h, EReal.coe_zero])
  rw [Ideal.div_coe hy, ← EReal.coe_mul]; exact coe_isReal _

/-! ### The layer and the normalisations keep real values real -/

theorem lin_isReal (X : ι → ξ → EReal) (W : κ → ξ → EReal) (b mask : κ → EReal)
    (hX : IsReal2 X) (hW : IsReal2 W) (hb : IsReal1 b) (hm : IsReal1 mask) :
    IsReal2 (lin X W b mask) := fun r j =>
  mul_isReal (max_isReal (add_isReal (sum_isReal _ _ fun x _ => mul_isReal (hX r x) (hW j x)) (hb j))
    zero_isReal) (hm j)

theorem linOut_isReal (X : ι → ξ → EReal) (W : κ → ξ → EReal) (b : κ → EReal)
    (hX : IsReal2 X) (hW : IsReal2 W) (hb : IsReal1 b) :
    IsReal2 (linOut X W b) := fun r j =>
  max_isReal (add_isReal (sum_isReal _ _ fun x _ => mul_isReal (hX r x) (hW j x)) (hb j)) zero_isReal

theorem sumSq_isReal (X : ι → ξ → EReal) (hX : IsReal2 X) (r : ι) :
    sumSq X r ≠ ⊤ ∧ sumSq X r ≠ ⊥ :=
  sum_isReal _ _ fun x _ => mul_isReal (hX r x) (hX r x)

/-- A sum of squares of real values is nonnegative. -/
theorem sumSq_nonneg (X : ι → ξ → EReal) (hX : IsReal2 X) (r : ι) : 0 ≤ sumSq X r := by
  refine Finset.sum_nonneg fun x _ => ?_
  obtain ⟨a, ha⟩ := exists_real (hX r x)
  rw [ha, ← EReal.coe_mul]
  exact EReal.coe_nonneg.mpr (mul_self_nonneg a)

theorem nrm_isReal (X : ι → ξ → EReal) (hX : IsReal2 X) (r : ι) :
    nrm X r ≠ ⊤ ∧ nrm X r ≠ ⊥ :=
  sqrt_isReal (sumSq_isReal X hX r) (sumSq_nonneg X hX r)

/-- For real rows the norm is positive exactly when the sum of squares is. -/
theorem nrm_pos_iff (X : ι → ξ → EReal) (hX : IsReal2 X) (r : ι) :
    0 < nrm X r ↔ 0 < sumSq X r := by
  have h0 := sumSq_nonneg X hX r
  obtain ⟨s, hs⟩ := exists_real (sumSq_isReal X hX r)
  rw [hs] at h0
  have hs0 : 0 ≤ s := EReal.coe_nonneg.mp h0
  rw [nrm, hs, Ideal.sqrt_coe, if_neg (not_lt.mpr hs0), EReal.coe_pos, EReal.coe_pos, Real.sqrt_pos]

theorem xn_isReal (X : ι → ξ → EReal) (hX : IsReal2 X) (hx : ∀ r, 0 < nrm X r) :
    IsReal2 (xn X) := fun r x =>
  div_isReal (hX r x) (nrm_isReal X hX r) (ne_of_gt (hx r))

theorem yv_isReal (X : ι → ξ → EReal) (H : κ → ξ → EReal) (hX : IsReal2 X) (hH : IsReal2 H)
    (hx : ∀ r, 0 < nrm X r) : IsReal2 (yv X H) := fun r j =>
  sum_isReal _ _ fun x _ => mul_isReal (xn_isReal X hX hx r x) (hH j x)

/-- The second normalisation is the first one applied to the projections. -/
theorem yn_eq_xn (X : ι → ξ → EReal) (H : κ → ξ → EReal) : yn X H = xn (yv X H) := rfl

theorem yn_isReal (X : ι → ξ → EReal) (H : κ → ξ → EReal) (hX : IsReal2 X) (hH : IsReal2 H)
    (hx : ∀ r, 0 < nrm X r) (hy : ∀ r, 0 < nrm (yv X H) r) : IsReal2 (yn X H) :=
  xn_isReal (yv X H) (yv_isReal X H hX hH hx) hy

theorem sqtot_isReal (X : ι → ξ → EReal) (H : κ → ξ → EReal) (hX : IsReal2 X) (hH : IsReal2 H)
    (hx : ∀ r, 0 < nrm X r) (hy : ∀ r, 0 < nrm (yv X H) r) :
    sqtot X H ≠ ⊤ ∧ sqtot X H ≠ ⊥ :=
  sum_isReal _ _ fun r _ => sum_isReal _ _ fun j _ =>
    mul_isReal (yn_isReal X H hX hH hx hy r j) (yn_isReal X H hX hH hx hy r j)

theorem theta_isReal (X : ι → ξ → EReal) (H : κ → ξ → EReal) (n : ℝ) (hn : n ≠ 0)
    (hX : IsReal2 X) (hH : IsReal2 H) (hx : ∀ r, 0 < nrm X r) (hy : ∀ r, 0 < nrm (yv X H) r) :
    theta X H (n : EReal) ≠ ⊤ ∧ theta X H (n : EReal) ≠ ⊥ :=
  div_isReal (sqtot_isReal X H hX hH hx hy) (coe_isReal n)
    (fun h => hn (by rw [← EReal.coe_zero] at h; exact EReal.coe_eq_coe_iff.mp h))

/-! ### The two arrangements of the score agree on real values -/

/-- The identity over the reals: the row sum of the three terms is the sum of the three row sums,
    and the double sum may be taken in either order. -/
theorem score_real (h : κ → ξ → ℝ) (u : ι → ξ → ℝ) (v : ι → κ → ℝ) (t : ℝ) (j : κ) :
    (1 - t) * (∑ a, h j a) + ∑ r, v r j * ∑ a, u r a
      = ∑ a, (h j a + ((∑ r, v r j * u r a) - t * h j a)) := by
  rw [Finset.sum_add_distrib, Finset.sum_sub_distrib, ← Finset.mul_sum, Finset.sum_comm]
  simp only [← Finset.mul_sum]
  ring

theorem scoreK_eq_scoreR (X : ι → ξ → EReal) (H : κ → ξ → EReal) (n : ℝ) (hn : n ≠ 0)
    (hX : IsReal2 X) (hH : IsReal2 H) (hx : ∀ r, 0 < nrm X r) (hy : ∀ r, 0 < nrm (yv X H) r) :
    scoreK X H (n : EReal) = scoreR X H (n : EReal) := by
  obtain ⟨u, hu⟩ := exists_real2 (xn_isReal X hX hx)
  obtain ⟨v, hv⟩ := exists_real2 (yn_isReal X H hX hH hx hy)
  obtain ⟨t, ht⟩ := exists_real (theta_isReal X H n hn hX hH hx hy)
  obtain ⟨h, hh⟩ := exists_real2 hH
  funext j
  simp only [scoreK, scoreR, sd, hu, hv, ht]
  subst hh
  simp only [← EReal.coe_one, ← EReal.coe_sub, ← EReal.coe_mul, ← coe_sum, ← EReal.coe_add]
  exact congrArg _ (score_real h u v t j)

/-! ### Regrouping the batch rows, and running sums -/

/-- Row r of the tile at step i of core c, among the 8192 = 2 · 8 · 512 batch rows. -/
def rowOf (c : Fin 2) (i : Fin 8) (r : Fin 512) : Fin 8192 :=
  ⟨512 * (8 * c.val + i.val) + r.val, by omega⟩

/-- The row numbering is a bijection from triples to batch rows. -/
def rowEquiv : Fin 2 × Fin 8 × Fin 512 ≃ Fin 8192 where
  toFun p := rowOf p.1 p.2.1 p.2.2
  invFun b := (⟨b.val / 4096, by omega⟩, ⟨b.val / 512 % 8, by omega⟩, ⟨b.val % 512, by omega⟩)
  left_inv := by
    rintro ⟨⟨c, hc⟩, ⟨i, hi⟩, ⟨r, hr⟩⟩
    simp only [rowOf, Prod.mk.injEq, Fin.mk.injEq]
    omega
  right_inv := by
    rintro ⟨b, hb⟩
    simp only [rowOf, Fin.mk.injEq]
    omega

theorem sum_rowOf (f : Fin 8192 → EReal) :
    ∑ c : Fin 2, ∑ i : Fin 8, ∑ r : Fin 512, f (rowOf c i r) = ∑ b : Fin 8192, f b := by
  rw [← Fintype.sum_equiv rowEquiv (fun p => f (rowOf p.1 p.2.1 p.2.2)) f (fun _ => rfl),
    Fintype.sum_prod_type]
  refine Finset.sum_congr rfl fun c _ => ?_
  rw [Fintype.sum_prod_type]

/-- A running sum that starts from zero and adds each new term on the right. -/
def accFrom (T : ℕ → EReal) : ℕ → EReal
  | 0 => 0 + T 0
  | n + 1 => accFrom T n + T (n + 1)

theorem accFrom_eq (T : ℕ → EReal) (n : ℕ) : accFrom T n = ∑ k ∈ Finset.range (n + 1), T k := by
  induction n with
  | zero => simp [accFrom]
  | succ n ih => rw [accFrom, ih, Finset.sum_range_succ _ (n + 1)]

/-- The same running sum with each new term added on the left. -/
def accFromL (T : ℕ → EReal) : ℕ → EReal
  | 0 => T 0 + 0
  | n + 1 => T (n + 1) + accFromL T n

theorem accFromL_eq (T : ℕ → EReal) (n : ℕ) : accFromL T n = ∑ k ∈ Finset.range (n + 1), T k := by
  induction n with
  | zero => simp [accFromL]
  | succ n ih => rw [accFromL, ih, Finset.sum_range_succ _ (n + 1), add_comm]

theorem accFromL_eq_accFrom (T : ℕ → EReal) (n : ℕ) : accFromL T n = accFrom T n := by
  rw [accFromL_eq, accFrom_eq]

theorem sum_range8 (T : ℕ → EReal) : ∑ k ∈ Finset.range 8, T k = ∑ i : Fin 8, T i.val :=
  Finset.sum_range T

end Cert.Spec

end
-- ==== Proof.Tiles.lean ====
/-
  The batch cut into its sixteen tiles of 512 rows: tile `(c, i)` (core `c`, step `i`) holds the rows
  `512 * (8 * c + i) + p`, `p < 512`. A quantity that is a sum over the batch rows of a row-wise term is the sum over
  the cores and steps of the tiles' sums, and a core's running total after its eight steps is the sum of its tiles'.
-/
import proofs.«423609_j13907104104967_3_alg».proof.Proof.Algebra

noncomputable section

namespace Cert.Spec

/-- The 512 rows of tile `(c, i)` of a batch-indexed family. -/
def tileRows {ξ : Type} (X : Fin 8192 → ξ → EReal) (c : Fin 2) (i : Fin 8) (p : Fin 512) (x : ξ) : EReal :=
  X (rowOf c i p) x

/-- A family over a core's eight steps as a sequence: `T i` at step `i < 8`, zero beyond. -/
def stepFn (T : Fin 8 → EReal) (i : ℕ) : EReal := if h : i < 8 then T ⟨i, h⟩ else 0

theorem stepFn_val (T : Fin 8 → EReal) (i : Fin 8) : stepFn T i.val = T i := by
  unfold stepFn; rw [dif_pos i.isLt]

/-- A core's running total after its eight steps is the sum of the eight tiles' terms. -/
theorem accFrom_stepFn (T : Fin 8 → EReal) : accFrom (stepFn T) 7 = ∑ i : Fin 8, T i :=
  (accFrom_eq (stepFn T) 7).trans
    ((sum_range8 (stepFn T)).trans (Finset.sum_congr rfl fun i _ => stepFn_val T i))

end Cert.Spec

end
-- ==== Proof.Glue.lean ====
/-
  The Hebbian score of a layer, as two cores compute it tile by tile, is the score of `Spec.lean`.
  Every quantity of the score that belongs to one batch row (the row's norm, its normalisation, its projections on
  `H` and their normalisation) depends on that row's entries only, so on a tile of 512 rows it is the batch's quantity
  at the tile's rows; the two sums over the batch rows (the total of the squares, and the products with the row sums)
  are therefore the sums over the sixteen tiles of the tiles' sums. A core's running total after its eight steps is
  the sum of its eight tiles' sums, the two cores' totals add up to the batch's, and the score composed from them,
  `(1 - 1 * (sq₀ + sq₁) / N) * Σₓ H j x + 1 * (sd₀ j + sd₁ j)`, is the arrangement of the score with the row sum
  distributed first, which on real data with positive norms equals the arrangement with the row sum taken last.
-/
import proofs.«423609_j13907104104967_3_alg».proof.Proof.Tiles
import proofs.«423609_j13907104104967_3_alg».proof.Proof.Model

noncomputable section

namespace Cert.Spec

open Idealize.ShloMosaic

variable {ξ κ : Type} [Fintype ξ] [Fintype κ]

/-! ## Row-wise quantities on a tile -/

section RowWise

variable (X : Fin 8192 → ξ → EReal) (H : κ → ξ → EReal) (c : Fin 2) (i : Fin 8)

theorem sumSq_tile (p : Fin 512) : sumSq (tileRows X c i) p = sumSq X (rowOf c i p) := rfl

theorem nrm_tile (p : Fin 512) : nrm (tileRows X c i) p = nrm X (rowOf c i p) := rfl

theorem xn_tile (p : Fin 512) (x : ξ) : xn (tileRows X c i) p x = xn X (rowOf c i p) x := rfl

theorem yv_tile (p : Fin 512) (j : κ) : yv (tileRows X c i) H p j = yv X H (rowOf c i p) j := rfl

/-- The projections of a tile are the tile of the projections. -/
theorem yv_tileRows : yv (tileRows X c i) H = tileRows (yv X H) c i := rfl

theorem yn_tile (p : Fin 512) (j : κ) : yn (tileRows X c i) H p j = yn X H (rowOf c i p) j := rfl

/-- A dense layer of a tile is the tile of the dense layer. -/
theorem lin_tile {ζ : Type} [Fintype ζ] (X : Fin 8192 → ξ → EReal) (W : ζ → ξ → EReal) (b mk : ζ → EReal) (c : Fin 2)
    (i : Fin 8) (p : Fin 512) (j : ζ) : lin (tileRows X c i) W b mk p j = lin X W b mk (rowOf c i p) j := rfl

theorem lin_tileRows {ζ : Type} [Fintype ζ] (X : Fin 8192 → ξ → EReal) (W : ζ → ξ → EReal) (b mk : ζ → EReal) (c : Fin 2)
    (i : Fin 8) : lin (tileRows X c i) W b mk = tileRows (lin X W b mk) c i := rfl

theorem linOut_tile {ζ : Type} [Fintype ζ] (X : Fin 8192 → ξ → EReal) (W : ζ → ξ → EReal) (b : ζ → EReal) (c : Fin 2)
    (i : Fin 8) (p : Fin 512) (j : ζ) : linOut (tileRows X c i) W b p j = linOut X W b (rowOf c i p) j := rfl

end RowWise

/-! ## The two batch sums, tile by tile -/

/-- The total of the squared normalised projections is the sum of the sixteen tiles' totals. -/
theorem sqtot_tiles (X : Fin 8192 → ξ → EReal) (H : κ → ξ → EReal) :
    ∑ c : Fin 2, ∑ i : Fin 8, sqtot (tileRows X c i) H = sqtot X H :=
  sum_rowOf fun b => ∑ j, yn X H b j * yn X H b j

/-- The sum over the rows of `yn r j` times the row sum of `xn` is the sum of the sixteen tiles' sums. -/
theorem sd_tiles (X : Fin 8192 → ξ → EReal) (H : κ → ξ → EReal) (j : κ) :
    ∑ c : Fin 2, ∑ i : Fin 8, sd (tileRows X c i) H j = sd X H j :=
  sum_rowOf fun b => yn X H b j * ∑ x, xn X b x

/-! ## A core's running totals -/

/-- What core `c` has accumulated after its eight steps: zero plus its eight tiles' totals of squares, in order. -/
def sqC (X : Fin 8192 → ξ → EReal) (H : κ → ξ → EReal) (c : Fin 2) : EReal :=
  accFrom (stepFn fun i => sqtot (tileRows X c i) H) 7

/-- What core `c` has accumulated after its eight steps at column `j`: zero plus its eight tiles' sums of products. -/
def sdC (X : Fin 8192 → ξ → EReal) (H : κ → ξ → EReal) (c : Fin 2) (j : κ) : EReal :=
  accFrom (stepFn fun i => sd (tileRows X c i) H j) 7

/-- The same totals with each new term added on the left. -/
def sqCL (X : Fin 8192 → ξ → EReal) (H : κ → ξ → EReal) (c : Fin 2) : EReal :=
  accFromL (stepFn fun i => sqtot (tileRows X c i) H) 7

def sdCL (X : Fin 8192 → ξ → EReal) (H : κ → ξ → EReal) (c : Fin 2) (j : κ) : EReal :=
  accFromL (stepFn fun i => sd (tileRows X c i) H j) 7

theorem sqCL_eq (X : Fin 8192 → ξ → EReal) (H : κ → ξ → EReal) (c : Fin 2) : sqCL X H c = sqC X H c :=
  accFromL_eq_accFrom _ _

theorem sdCL_eq (X : Fin 8192 → ξ → EReal) (H : κ → ξ → EReal) (c : Fin 2) (j : κ) : sdCL X H c j = sdC X H c j :=
  accFromL_eq_accFrom _ _

theorem sqC_eq (X : Fin 8192 → ξ → EReal) (H : κ → ξ → EReal) (c : Fin 2) :
    sqC X H c = ∑ i : Fin 8, sqtot (tileRows X c i) H := accFrom_stepFn _

theorem sdC_eq (X : Fin 8192 → ξ → EReal) (H : κ → ξ → EReal) (c : Fin 2) (j : κ) :
    sdC X H c j = ∑ i : Fin 8, sd (tileRows X c i) H j := accFrom_stepFn _

/-- The two cores' totals of squares add up to the batch's. -/
theorem sqC_add (X : Fin 8192 → ξ → EReal) (H : κ → ξ → EReal) : sqC X H 0 + sqC X H 1 = sqtot X H := by
  rw [sqC_eq, sqC_eq, ← Fin.sum_univ_two fun c : Fin 2 => ∑ i : Fin 8, sqtot (tileRows X c i) H, sqtot_tiles]

/-- The two cores' sums of products add up to the batch's. -/
theorem sdC_add (X : Fin 8192 → ξ → EReal) (H : κ → ξ → EReal) (j : κ) : sdC X H 0 j + sdC X H 1 j = sd X H j := by
  rw [sdC_eq, sdC_eq, ← Fin.sum_univ_two fun c : Fin 2 => ∑ i : Fin 8, sd (tileRows X c i) H j, sd_tiles]

/-! ## The score composed from the two cores' totals -/

/-- From any two pairs of partial sums that add up to the batch's two sums, the composed score is the score with
    the row sum taken last, on real data with positive norms. -/
theorem score_of_totals (X : Fin 8192 → ξ → EReal) (H : κ → ξ → EReal) (n : ℝ) (hn : n ≠ 0) (hX : IsReal2 X)
    (hH : IsReal2 H) (hx : ∀ r, 0 < nrm X r) (hy : ∀ r, 0 < nrm (yv X H) r) (j : κ) (s0 s1 d0 d1 : EReal)
    (hs : s0 + s1 = sqtot X H) (hd : d0 + d1 = sd X H j) :
    (1 - 1 * Ideal.div (s0 + s1) (n : EReal)) * (∑ x, H j x) + 1 * (d0 + d1) = scoreR X H (n : EReal) j := by
  rw [hs, hd, one_mul, one_mul, ← scoreK_eq_scoreR X H n hn hX hH hx hy]
  rfl

/-- The score as the two cores' running totals compose it is the score of `Spec.lean`. -/
theorem kernelScore_eq (X : Fin 8192 → ξ → EReal) (H : κ → ξ → EReal) (n : ℝ) (hn : n ≠ 0) (hX : IsReal2 X)
    (hH : IsReal2 H) (hx : ∀ r, 0 < nrm X r) (hy : ∀ r, 0 < nrm (yv X H) r) (j : κ) :
    (1 - 1 * Ideal.div (sqC X H 0 + sqC X H 1) (n : EReal)) * (∑ x, H j x) + 1 * (sdC X H 0 j + sdC X H 1 j)
      = scoreR X H (n : EReal) j :=
  score_of_totals X H n hn hX hH hx hy j _ _ _ _ (sqC_add X H) (sdC_add X H j)

/-- The same with the running totals built by adding each new term on the left. -/
theorem kernelScoreL_eq (X : Fin 8192 → ξ → EReal) (H : κ → ξ → EReal) (n : ℝ) (hn : n ≠ 0) (hX : IsReal2 X)
    (hH : IsReal2 H) (hx : ∀ r, 0 < nrm X r) (hy : ∀ r, 0 < nrm (yv X H) r) (j : κ) :
    (1 - 1 * Ideal.div (sqCL X H 0 + sqCL X H 1) (n : EReal)) * (∑ x, H j x) + 1 * (sdCL X H 0 j + sdCL X H 1 j)
      = scoreR X H (n : EReal) j := by
  rw [sqCL_eq, sqCL_eq, sdCL_eq, sdCL_eq]
  exact kernelScore_eq X H n hn hX hH hx hy j

end Cert.Spec

end
-- ==== Proof.PreDecode.lean ====
/-
  What the certificate's precondition says of the fifteen argument arrays, in the vocabulary of `Spec.lean`:
  every entry of every array is a real number, and for each of the three masked layers every row of the layer's
  input, and every row of the projection of the normalised input on `H`, has a positive Euclidean norm.
  The precondition is a function of the arrays that computes one bit: the conjunction of fifteen "all entries are
  below +∞ in absolute value" and six "all norms are above 0". Each operation it is made of is read at an index.
-/
import proofs.«423609_j13907104104967_3_alg».proof.Pre_finite_inputs
import proofs.«423609_j13907104104967_3_alg».proof.Proof.Model
import Idealize.ShloMosaic.Lib.ReduceAll
import Idealize.ShloMosaic.PureOps.Ideal.Laws

noncomputable section

namespace Cert.PreV

open Idealize.ShloMosaic Idealize.ShloMosaic.ValueIdx Cert.Spec Cert.Pre_finite_inputs

local instance : Subsingleton S_.Idx := ⟨fun a b => funext fun d => d.elim0⟩

/-! ## One element of a comparison -/

/-- An extended real whose absolute value is below the value of the pattern `0x7F800000` (which is `+∞`) is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have e : Ideal.ofBits .f32 0x7F800000#32 = ⊤ := by simp [Ideal.ofBits, Ideal.ieee]
  change Ideal.cmp .olt (max x (-x)) (Ideal.ofBits .f32 0x7F800000#32) = 1#1 at h
  rw [e] at h
  have h' : max x (-x) < ⊤ := by
    simp only [Ideal.cmp] at h
    revert h
    by_cases hc : max x (-x) < ⊤
    · exact fun _ => hc
    · simp [hc]
  constructor
  · rintro rfl; simp at h'
  · rintro rfl; simp at h'

/-- An extended real above the value of the pattern `0x00000000` (which is `0`) is positive. -/
theorem pos_of_gt (x : EReal)
    (h : FloatOps.cmpf (F := Ideal) (φ := .f32) .ogt x (FloatOps.ofBits (F := Ideal) .f32 0x00000000#32) = 1#1) : 0 < x := by
  change Ideal.cmp .ogt x (Ideal.ofBits .f32 0x00000000#32) = 1#1 at h
  rw [Ideal.ofBits_zero_f32] at h
  simp only [Ideal.cmp] at h
  revert h
  by_cases hc : (0 : EReal) < x
  · exact fun _ => hc
  · simp [hc]

/-! ## `jnp.all` of a comparison against a constant -/

/-- If "every `|a i|` is below `+∞`" came out true, every entry of `a` is a real number. -/
theorem all_real {s : Shape} {axes : List (Fin s.rank)} (hb : S_.BroadcastsInDim s ![]) (hr : s.ReducesTo axes S_)
    (h0 : 0 < S_.numel) (a : FVec Ideal s .f32) (j : S_.Idx)
    (h : Host.reduce IntOp.andi (cmpf .olt (Host.absf a) (broadcastInDim s ![] hb (constant S_ .f32 0x7F800000#32)))
      (constantI S_ 1 1#1) hr h0 j = 1#1) (i : s.Idx) : a i ≠ ⊤ ∧ a i ≠ ⊥ :=
  real_of_abs_lt (a i) (Host.reduce_andi_all _ _ hr h0 j h i)

/-- If "every `n i` is above `0`" came out true, every entry of `n` is positive. -/
theorem all_pos {s : Shape} {axes : List (Fin s.rank)} (hb : S_.BroadcastsInDim s ![]) (hr : s.ReducesTo axes S_)
    (h0 : 0 < S_.numel) (n : FVec Ideal s .f32) (j : S_.Idx)
    (h : Host.reduce IntOp.andi (cmpf .ogt n (broadcastInDim s ![] hb (constant S_ .f32 0x00000000#32)))
      (constantI S_ 1 1#1) hr h0 j = 1#1) (i : s.Idx) : 0 < n i :=
  pos_of_gt (n i) (Host.reduce_andi_all _ _ hr h0 j h i)

/-! ## The layout operations at an index -/

/-- A broadcast scalar reads the scalar everywhere. -/
theorem bcast0_apply {α : Type} {t : Shape} (hb : S_.BroadcastsInDim t ![]) (v : S_.Idx → α) (j : t.Idx) :
    broadcastInDim t ![] hb v j = v ix0 := congrArg v (funext fun a => a.elim0)

/-- A vector laid as a column reads, at `(r, 0)`, the vector at `r`. -/
theorem bcastCol_apply {α : Type} {R : Nat} (hb : (⟨1, ![R]⟩ : Shape).BroadcastsInDim ⟨2, ![R, 1]⟩ ![0])
    (v : (⟨1, ![R]⟩ : Shape).Idx → α) (r : Fin R) (z : Fin 1) :
    broadcastInDim ⟨2, ![R, 1]⟩ ![0] hb v (ix2 r z) = v (ix1 r) := by
  unfold broadcastInDim
  refine congrArg v (funext fun a => ?_)
  match a with
  | ⟨0, _⟩ =>
    apply Fin.ext
    have hr := r.isLt
    split
    · next h1 => change R = 1 at h1; show (0 : Nat) = r.val; omega
    · rfl

/-- A column stretched along the rows reads, at `(r, k)`, the column at `(r, 0)`. -/
theorem bcastOfCol_apply {α : Type} {R K : Nat} (hb : (⟨2, ![R, 1]⟩ : Shape).BroadcastsInDim ⟨2, ![R, K]⟩ ![0, 1])
    (v : (⟨2, ![R, 1]⟩ : Shape).Idx → α) (r : Fin R) (k : Fin K) :
    broadcastInDim ⟨2, ![R, K]⟩ ![0, 1] hb v (ix2 r k) = v (ix2 r 0) := by
  unfold broadcastInDim
  refine congrArg v (funext fun a => ?_)
  match a with
  | ⟨0, _⟩ =>
    apply Fin.ext
    have hr := r.isLt
    split
    · next h1 => change R = 1 at h1; show (0 : Nat) = r.val; omega
    · rfl
  | ⟨1, _⟩ =>
    apply Fin.ext
    split
    · rfl
    · next h => exact absurd rfl h

/-- A vector laid as a row and stretched down the columns reads, at `(r, j)`, the vector at `j`. -/
theorem bcastRow_apply {α : Type} {R N : Nat} (hb1 : (⟨1, ![N]⟩ : Shape).BroadcastsInDim ⟨2, ![1, N]⟩ ![1])
    (hb2 : (⟨2, ![1, N]⟩ : Shape).BroadcastsInDim ⟨2, ![R, N]⟩ ![0, 1]) (v : (⟨1, ![N]⟩ : Shape).Idx → α)
    (r : Fin R) (j : Fin N) :
    broadcastInDim ⟨2, ![R, N]⟩ ![0, 1] hb2 (broadcastInDim ⟨2, ![1, N]⟩ ![1] hb1 v) (ix2 r j) = v (ix1 j) := by
  simp only [broadcastInDim]
  refine congrArg v (funext fun a => ?_)
  match a with
  | ⟨0, _⟩ =>
    apply Fin.ext
    have hj := j.isLt
    split
    · next h1 => change N = 1 at h1; show (0 : Nat) = j.val; omega
    · split
      · next h2 => change N = 1 at h2; show (0 : Nat) = j.val; omega
      · rfl

/-- A transposed matrix reads, at `(k, j)`, the matrix at `(j, k)`. -/
theorem transposeAt_apply {α : Type} {N K : Nat} (ht : (⟨2, ![N, K]⟩ : Shape).Transposes [1, 0] ⟨2, ![K, N]⟩)
    (W : (⟨2, ![N, K]⟩ : Shape).Idx → α) (k : Fin K) (j : Fin N) :
    transpose ⟨2, ![K, N]⟩ [1, 0] W ht (ix2 k j) = W (ix2 j k) := by
  unfold transpose
  refine congrArg W (funext fun a => ?_)
  match a with
  | ⟨0, _⟩ => apply Fin.ext; simp [Shape.Transposes.src]; rfl
  | ⟨1, _⟩ => apply Fin.ext; simp [Shape.Transposes.src]; rfl

/-- The sum of a matrix over its second axis, from the constant zero, is at `r` the sum of row `r`. -/
theorem rowSum_apply {R K : Nat} (hred : (⟨2, ![R, K]⟩ : Shape).ReducesTo [1] ⟨1, ![R]⟩) (h0 : 0 < S_.numel)
    (X : FVec Ideal ⟨2, ![R, K]⟩ .f32) (r : Fin R) :
    Host.reduceAdd X (constant S_ .f32 0x00000000#32) hred h0 (ix1 r) = ∑ k : Fin K, X (ix2 r k) := by
  have hR : (⟨2, ![R, K]⟩ : Shape).Reduces [1] ⟨1, ![R]⟩ := ⟨hred.1, Nat.one_pos, hred.2⟩
  show Ideal.hostReduceAdd hred X (Ideal.ofBits .f32 0x00000000#32) (ix1 r) = _
  rw [Ideal.hostReduceAdd_single hred hR, Ideal.ofBits_zero_f32, zero_add]
  refine Finset.sum_congr rfl fun k _ => congrArg X (funext fun a => ?_)
  match a with
  | ⟨0, _⟩ => rfl
  | ⟨1, _⟩ => rfl

/-- The product of an `[M, K]` matrix and a `[K, N]` matrix, contracted over `K`, at `(r, j)`. -/
theorem dotAt_apply {M K N : Nat} (wf : DotDims.WF ⟨2, ![M, K]⟩ ⟨2, ![K, N]⟩ ⟨2, ![M, N]⟩ [1] [0] [0] [1] [] [])
    (A : FVec Ideal ⟨2, ![M, K]⟩ .f32) (B : FVec Ideal ⟨2, ![K, N]⟩ .f32) (r : Fin M) (j : Fin N) :
    Host.dotGeneral (⟨[1], [0], [0], [1], [], [], wf⟩ : DotDims ⟨2, ![M, K]⟩ ⟨2, ![K, N]⟩ ⟨2, ![M, N]⟩) none A B (ix2 r j)
      = ∑ k : Fin K, A (ix2 r k) * B (ix2 k j) := by
  simp only [Host.dotGeneral]
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  congr 2
  · funext a
    match a with
    | ⟨0, _⟩ => apply Fin.ext; simp [DotDims.lhsIdx]; rfl
    | ⟨1, _⟩ => apply Fin.ext; simp [DotDims.lhsIdx, contrEquiv1]; rfl
  · funext a
    match a with
    | ⟨0, _⟩ => apply Fin.ext; simp [DotDims.rhsIdx, contrEquiv1]; rfl
    | ⟨1, _⟩ => apply Fin.ext; simp [DotDims.rhsIdx]; rfl

/-! ## The printed stages -/

/-- One masked layer as the precondition computes it: `max (X · Wᵀ + b) 0 * mask`. -/
abbrev linT {R K N : Nat} (ht : (⟨2, ![N, K]⟩ : Shape).Transposes [1, 0] ⟨2, ![K, N]⟩)
    (wf : DotDims.WF ⟨2, ![R, K]⟩ ⟨2, ![K, N]⟩ ⟨2, ![R, N]⟩ [1] [0] [0] [1] [] [])
    (hb1 : (⟨1, ![N]⟩ : Shape).BroadcastsInDim ⟨2, ![1, N]⟩ ![1])
    (hb2 : (⟨2, ![1, N]⟩ : Shape).BroadcastsInDim ⟨2, ![R, N]⟩ ![0, 1])
    (hb0 : S_.BroadcastsInDim ⟨2, ![R, N]⟩ ![])
    (X : FVec Ideal ⟨2, ![R, K]⟩ .f32) (W : FVec Ideal ⟨2, ![N, K]⟩ .f32) (b mask : FVec Ideal ⟨1, ![N]⟩ .f32) :
    FVec Ideal ⟨2, ![R, N]⟩ .f32 :=
  mulf (maximumf (addf (Host.dotGeneral (⟨[1], [0], [0], [1], [], [], wf⟩ : DotDims ⟨2, ![R, K]⟩ ⟨2, ![K, N]⟩ ⟨2, ![R, N]⟩) none X
          (transpose ⟨2, ![K, N]⟩ [1, 0] W ht))
        (broadcastInDim ⟨2, ![R, N]⟩ ![0, 1] hb2 (broadcastInDim ⟨2, ![1, N]⟩ ![1] hb1 b)))
      (broadcastInDim ⟨2, ![R, N]⟩ ![] hb0 (constant S_ .f32 0x00000000#32)))
    (broadcastInDim ⟨2, ![R, N]⟩ ![0, 1] hb2 (broadcastInDim ⟨2, ![1, N]⟩ ![1] hb1 mask))

/-- It is the layer of `Spec.lean`. -/
theorem m2_linT {R K N : Nat} (ht : (⟨2, ![N, K]⟩ : Shape).Transposes [1, 0] ⟨2, ![K, N]⟩)
    (wf : DotDims.WF ⟨2, ![R, K]⟩ ⟨2, ![K, N]⟩ ⟨2, ![R, N]⟩ [1] [0] [0] [1] [] [])
    (hb1 : (⟨1, ![N]⟩ : Shape).BroadcastsInDim ⟨2, ![1, N]⟩ ![1])
    (hb2 : (⟨2, ![1, N]⟩ : Shape).BroadcastsInDim ⟨2, ![R, N]⟩ ![0, 1])
    (hb0 : S_.BroadcastsInDim ⟨2, ![R, N]⟩ ![])
    (X : FVec Ideal ⟨2, ![R, K]⟩ .f32) (W : FVec Ideal ⟨2, ![N, K]⟩ .f32) (b mask : FVec Ideal ⟨1, ![N]⟩ .f32) :
    m2 (linT ht wf hb1 hb2 hb0 X W b mask) = lin (m2 X) (m2 W) (v1 b) (v1 mask) := by
  funext r j
  show max (Host.dotGeneral (⟨[1], [0], [0], [1], [], [], wf⟩ : DotDims ⟨2, ![R, K]⟩ ⟨2, ![K, N]⟩ ⟨2, ![R, N]⟩) none X
          (transpose ⟨2, ![K, N]⟩ [1, 0] W ht) (ix2 r j)
        + broadcastInDim ⟨2, ![R, N]⟩ ![0, 1] hb2 (broadcastInDim ⟨2, ![1, N]⟩ ![1] hb1 b) (ix2 r j))
      (broadcastInDim ⟨2, ![R, N]⟩ ![] hb0 (constant (F := Ideal) S_ .f32 0x00000000#32) (ix2 r j))
      * broadcastInDim ⟨2, ![R, N]⟩ ![0, 1] hb2 (broadcastInDim ⟨2, ![1, N]⟩ ![1] hb1 mask) (ix2 r j)
    = max ((∑ x, m2 X r x * m2 W j x) + v1 b j) 0 * v1 mask j
  rw [dotAt_apply, bcastRow_apply, bcastRow_apply, bcast0_apply]
  show max ((∑ k, X (ix2 r k) * transpose ⟨2, ![K, N]⟩ [1, 0] W ht (ix2 k j)) + b (ix1 j)) (Ideal.ofBits .f32 0x00000000#32)
      * mask (ix1 j) = _
  rw [Ideal.ofBits_zero_f32]
  refine congrArg (fun s => max (s + b (ix1 j)) 0 * mask (ix1 j)) (Finset.sum_congr rfl fun k _ => ?_)
  rw [transposeAt_apply]
  rfl

/-- The row norms as the precondition computes them: the square root of the row sums of the squares, kept as a column. -/
abbrev nrmT {R K : Nat} (hred : (⟨2, ![R, K]⟩ : Shape).ReducesTo [1] ⟨1, ![R]⟩)
    (hb : (⟨1, ![R]⟩ : Shape).BroadcastsInDim ⟨2, ![R, 1]⟩ ![0]) (h0 : 0 < S_.numel) (X : FVec Ideal ⟨2, ![R, K]⟩ .f32) :
    FVec Ideal ⟨2, ![R, 1]⟩ .f32 :=
  Host.sqrt (broadcastInDim ⟨2, ![R, 1]⟩ ![0] hb (Host.reduceAdd (mulf X X) (constant S_ .f32 0x00000000#32) hred h0))

/-- At `(r, 0)` it is the norm of row `r`. -/
theorem nrmT_apply {R K : Nat} (hred : (⟨2, ![R, K]⟩ : Shape).ReducesTo [1] ⟨1, ![R]⟩)
    (hb : (⟨1, ![R]⟩ : Shape).BroadcastsInDim ⟨2, ![R, 1]⟩ ![0]) (h0 : 0 < S_.numel) (X : FVec Ideal ⟨2, ![R, K]⟩ .f32)
    (r : Fin R) (z : Fin 1) : nrmT hred hb h0 X (ix2 r z) = nrm (m2 X) r := by
  show Ideal.sqrt (broadcastInDim ⟨2, ![R, 1]⟩ ![0] hb (Host.reduceAdd (mulf X X) (constant S_ .f32 0x00000000#32) hred h0) (ix2 r z))
    = Ideal.sqrt (∑ x, m2 X r x * m2 X r x)
  rw [bcastCol_apply, rowSum_apply]
  rfl

/-- The projections as the precondition computes them: the rows divided by their norms, times `Hᵀ`. -/
abbrev yvT {R K N : Nat} (ht : (⟨2, ![N, K]⟩ : Shape).Transposes [1, 0] ⟨2, ![K, N]⟩)
    (wf : DotDims.WF ⟨2, ![R, K]⟩ ⟨2, ![K, N]⟩ ⟨2, ![R, N]⟩ [1] [0] [0] [1] [] [])
    (hbc : (⟨2, ![R, 1]⟩ : Shape).BroadcastsInDim ⟨2, ![R, K]⟩ ![0, 1]) (NV : FVec Ideal ⟨2, ![R, 1]⟩ .f32)
    (X : FVec Ideal ⟨2, ![R, K]⟩ .f32) (H : FVec Ideal ⟨2, ![N, K]⟩ .f32) : FVec Ideal ⟨2, ![R, N]⟩ .f32 :=
  Host.dotGeneral (⟨[1], [0], [0], [1], [], [], wf⟩ : DotDims ⟨2, ![R, K]⟩ ⟨2, ![K, N]⟩ ⟨2, ![R, N]⟩) none
    (Host.divf X (broadcastInDim ⟨2, ![R, K]⟩ ![0, 1] hbc NV)) (transpose ⟨2, ![K, N]⟩ [1, 0] H ht)

/-- They are the projections of `Spec.lean`. -/
theorem m2_yvT {R K N : Nat} (ht : (⟨2, ![N, K]⟩ : Shape).Transposes [1, 0] ⟨2, ![K, N]⟩)
    (wf : DotDims.WF ⟨2, ![R, K]⟩ ⟨2, ![K, N]⟩ ⟨2, ![R, N]⟩ [1] [0] [0] [1] [] [])
    (hbc : (⟨2, ![R, 1]⟩ : Shape).BroadcastsInDim ⟨2, ![R, K]⟩ ![0, 1])
    (hred : (⟨2, ![R, K]⟩ : Shape).ReducesTo [1] ⟨1, ![R]⟩)
    (hb : (⟨1, ![R]⟩ : Shape).BroadcastsInDim ⟨2, ![R, 1]⟩ ![0]) (h0 : 0 < S_.numel)
    (X : FVec Ideal ⟨2, ![R, K]⟩ .f32) (H : FVec Ideal ⟨2, ![N, K]⟩ .f32) :
    m2 (yvT ht wf hbc (nrmT hred hb h0 X) X H) = yv (m2 X) (m2 H) := by
  funext r j
  show Host.dotGeneral (⟨[1], [0], [0], [1], [], [], wf⟩ : DotDims ⟨2, ![R, K]⟩ ⟨2, ![K, N]⟩ ⟨2, ![R, N]⟩) none
      (Host.divf X (broadcastInDim ⟨2, ![R, K]⟩ ![0, 1] hbc (nrmT hred hb h0 X))) (transpose ⟨2, ![K, N]⟩ [1, 0] H ht) (ix2 r j)
    = ∑ x, Ideal.div (m2 X r x) (nrm (m2 X) r) * m2 H j x
  rw [dotAt_apply]
  refine Finset.sum_congr rfl fun k _ => ?_
  show Ideal.div (X (ix2 r k)) (broadcastInDim ⟨2, ![R, K]⟩ ![0, 1] hbc (nrmT hred hb h0 X) (ix2 r k))
      * transpose ⟨2, ![K, N]⟩ [1, 0] H ht (ix2 k j) = _
  rw [bcastOfCol_apply, nrmT_apply, transposeAt_apply]
  rfl

/-- The facts the algebra uses: all fifteen arrays hold real numbers, and the six families of norms are positive. -/
structure Good (a0 : FVec Ideal S8192x1024 .f32) (a1 : FVec Ideal S256 .f32) (a2 : FVec Ideal S128 .f32)
    (a3 : FVec Ideal S64 .f32) (a4 : FVec Ideal S256x1024 .f32) (a5 : FVec Ideal S256 .f32)
    (a6 : FVec Ideal S128x256 .f32) (a7 : FVec Ideal S128 .f32) (a8 : FVec Ideal S64x128 .f32)
    (a9 : FVec Ideal S64 .f32) (a10 : FVec Ideal S1000x64 .f32) (a11 : FVec Ideal S1000 .f32)
    (a12 : FVec Ideal S256x1024 .f32) (a13 : FVec Ideal S128x256 .f32) (a14 : FVec Ideal S64x128 .f32) : Prop where
  real0 : IsReal2 (m2 a0)
  real1 : IsReal1 (v1 a1)
  real2 : IsReal1 (v1 a2)
  real3 : IsReal1 (v1 a3)
  real4 : IsReal2 (m2 a4)
  real5 : IsReal1 (v1 a5)
  real6 : IsReal2 (m2 a6)
  real7 : IsReal1 (v1 a7)
  real8 : IsReal2 (m2 a8)
  real9 : IsReal1 (v1 a9)
  real10 : IsReal2 (m2 a10)
  real11 : IsReal1 (v1 a11)
  real12 : IsReal2 (m2 a12)
  real13 : IsReal2 (m2 a13)
  real14 : IsReal2 (m2 a14)
  nx1 : ∀ r, 0 < nrm (X1 a0) r
  ny1 : ∀ r, 0 < nrm (yv (X1 a0) (m2 a12)) r
  nx2 : ∀ r, 0 < nrm (X2 a0 a1 a4 a5) r
  ny2 : ∀ r, 0 < nrm (yv (X2 a0 a1 a4 a5) (m2 a13)) r
  nx3 : ∀ r, 0 < nrm (X3 a0 a1 a2 a4 a5 a6 a7) r
  ny3 : ∀ r, 0 < nrm (yv (X3 a0 a1 a2 a4 a5 a6 a7) (m2 a14)) r

/-- The precondition, as printed, gives the facts. -/
theorem decode [Cert.Pre_finite_inputs.Facts]
    (a0 : FVec Ideal S8192x1024 .f32) (a1 : FVec Ideal S256 .f32) (a2 : FVec Ideal S128 .f32)
    (a3 : FVec Ideal S64 .f32) (a4 : FVec Ideal S256x1024 .f32) (a5 : FVec Ideal S256 .f32)
    (a6 : FVec Ideal S128x256 .f32) (a7 : FVec Ideal S128 .f32) (a8 : FVec Ideal S64x128 .f32)
    (a9 : FVec Ideal S64 .f32) (a10 : FVec Ideal S1000x64 .f32) (a11 : FVec Ideal S1000 .f32)
    (a12 : FVec Ideal S256x1024 .f32) (a13 : FVec Ideal S128x256 .f32) (a14 : FVec Ideal S64x128 .f32)
    (h : Cert.Pre_finite_inputs.fn (F := Ideal) a0 a1 a2 a3 a4 a5 a6 a7 a8 a9 a10 a11 a12 a13 a14 = fun _ => 1#1) :
    Good a0 a1 a2 a3 a4 a5 a6 a7 a8 a9 a10 a11 a12 a13 a14 := by
  have h := congrFun h ix0
  dsimp only [fn, fn_part1, fn_part2, fn_part3, fn_part4, fn_part5, fn_part6, fn_part7, fn_part8, andi,
    dot_S8192x1024_S1024x256_S8192x256_1_0_0_1_n_n, dot_S8192x256_S256x128_S8192x128_1_0_0_1_n_n,
    dot_S8192x128_S128x64_S8192x64_1_0_0_1_n_n] at h
  simp only [IntOp.andi_eq_one] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, hx1, hy1⟩, hx2, hy2⟩,
    hx3, hy3⟩ := h
  have e2 : m2 (linT Facts.transposes_S256x1024_S1024x256_1_0 Facts.dot_S8192x1024_S1024x256_S8192x256_1_0_0_1_n_n_wf
      Facts.bcast_S256_S1x256_1 Facts.bcast_S1x256_S8192x256_0_1 Facts.bcast_S_S8192x256 a0 a4 a5 a1)
      = X2 a0 a1 a4 a5 := m2_linT _ _ _ _ _ a0 a4 a5 a1
  have e3 : m2 (linT Facts.transposes_S128x256_S256x128_1_0 Facts.dot_S8192x256_S256x128_S8192x128_1_0_0_1_n_n_wf
      Facts.bcast_S128_S1x128_1 Facts.bcast_S1x128_S8192x128_0_1 Facts.bcast_S_S8192x128
      (linT Facts.transposes_S256x1024_S1024x256_1_0 Facts.dot_S8192x1024_S1024x256_S8192x256_1_0_0_1_n_n_wf
        Facts.bcast_S256_S1x256_1 Facts.bcast_S1x256_S8192x256_0_1 Facts.bcast_S_S8192x256 a0 a4 a5 a1) a6 a7 a2)
      = X3 a0 a1 a2 a4 a5 a6 a7 :=
    (m2_linT _ _ _ _ _ _ a6 a7 a2).trans (congrArg (fun X => lin X (m2 a6) (v1 a7) (v1 a2)) e2)
  exact
    { real0 := fun r x => all_real _ _ _ a0 ix0 h0 (ix2 r x)
      real1 := fun j => all_real _ _ _ a1 ix0 h1 (ix1 j)
      real2 := fun j => all_real _ _ _ a2 ix0 h2 (ix1 j)
      real3 := fun j => all_real _ _ _ a3 ix0 h3 (ix1 j)
      real4 := fun r x => all_real _ _ _ a4 ix0 h4 (ix2 r x)
      real5 := fun j => all_real _ _ _ a5 ix0 h5 (ix1 j)
      real6 := fun r x => all_real _ _ _ a6 ix0 h6 (ix2 r x)
      real7 := fun j => all_real _ _ _ a7 ix0 h7 (ix1 j)
      real8 := fun r x => all_real _ _ _ a8 ix0 h8 (ix2 r x)
      real9 := fun j => all_real _ _ _ a9 ix0 h9 (ix1 j)
      real10 := fun r x => all_real _ _ _ a10 ix0 h10 (ix2 r x)
      real11 := fun j => all_real _ _ _ a11 ix0 h11 (ix1 j)
      real12 := fun r x => all_real _ _ _ a12 ix0 h12 (ix2 r x)
      real13 := fun r x => all_real _ _ _ a13 ix0 h13 (ix2 r x)
      real14 := fun r x => all_real _ _ _ a14 ix0 h14 (ix2 r x)
      nx1 := fun r => (all_pos _ _ _ _ ix0 hx1 (ix2 r 0)).trans_eq (nrmT_apply _ _ _ a0 r 0)
      ny1 := fun r => (all_pos _ _ _ _ ix0 hy1 (ix2 r 0)).trans_eq
        ((nrmT_apply _ _ _ _ r 0).trans (congrArg (fun Y => nrm Y r) (m2_yvT _ _ _ _ _ _ a0 a12)))
      nx2 := fun r => (all_pos _ _ _ _ ix0 hx2 (ix2 r 0)).trans_eq
        ((nrmT_apply _ _ _ _ r 0).trans (congrArg (fun Y => nrm Y r) e2))
      ny2 := fun r => (all_pos _ _ _ _ ix0 hy2 (ix2 r 0)).trans_eq
        ((nrmT_apply _ _ _ _ r 0).trans (congrArg (fun Y => nrm Y r)
          ((m2_yvT _ _ _ _ _ _ _ a13).trans (congrArg (fun X => yv X (m2 a13)) e2))))
      nx3 := fun r => (all_pos _ _ _ _ ix0 hx3 (ix2 r 0)).trans_eq
        ((nrmT_apply _ _ _ _ r 0).trans (congrArg (fun Y => nrm Y r) e3))
      ny3 := fun r => (all_pos _ _ _ _ ix0 hy3 (ix2 r 0)).trans_eq
        ((nrmT_apply _ _ _ _ r 0).trans (congrArg (fun Y => nrm Y r)
          ((m2_yvT _ _ _ _ _ _ _ a14).trans (congrArg (fun X => yv X (m2 a14)) e3)))) }

end Cert.PreV

end
-- ==== Proof.GlueLayers.lean ====
/-
  The three Hebbian layers of the network, under the facts the precondition gives: the inputs of the second and third
  layers are real-valued because a dense layer keeps real values real, so for each layer the score composed from the
  two cores' running totals is the score of `Spec.lean` with the row sum taken last, its mean square taken over
  8192·256, 8192·128 and 8192·64 entries.
-/
import proofs.«423609_j13907104104967_3_alg».proof.Proof.Glue
import proofs.«423609_j13907104104967_3_alg».proof.Proof.PreDecode

noncomputable section

namespace Cert.PreV

open Idealize.ShloMosaic Cert.Spec Cert.Pre_finite_inputs

theorem cnt1_ne : cnt1 ≠ 0 := by unfold cnt1; norm_num
theorem cnt2_ne : cnt2 ≠ 0 := by unfold cnt2; norm_num
theorem cnt3_ne : cnt3 ≠ 0 := by unfold cnt3; norm_num

section Layers

variable {a0 : FVec Ideal S8192x1024 .f32} {a1 : FVec Ideal S256 .f32} {a2 : FVec Ideal S128 .f32}
  {a3 : FVec Ideal S64 .f32} {a4 : FVec Ideal S256x1024 .f32} {a5 : FVec Ideal S256 .f32}
  {a6 : FVec Ideal S128x256 .f32} {a7 : FVec Ideal S128 .f32} {a8 : FVec Ideal S64x128 .f32}
  {a9 : FVec Ideal S64 .f32} {a10 : FVec Ideal S1000x64 .f32} {a11 : FVec Ideal S1000 .f32}
  {a12 : FVec Ideal S256x1024 .f32} {a13 : FVec Ideal S128x256 .f32} {a14 : FVec Ideal S64x128 .f32}

/-- The first layer's input is real-valued. -/
theorem Good.realX1 (g : Good a0 a1 a2 a3 a4 a5 a6 a7 a8 a9 a10 a11 a12 a13 a14) : IsReal2 (X1 a0) := g.real0

/-- The second layer's input is real-valued. -/
theorem Good.realX2 (g : Good a0 a1 a2 a3 a4 a5 a6 a7 a8 a9 a10 a11 a12 a13 a14) : IsReal2 (X2 a0 a1 a4 a5) :=
  lin_isReal _ _ _ _ g.realX1 g.real4 g.real5 g.real1

/-- The third layer's input is real-valued. -/
theorem Good.realX3 (g : Good a0 a1 a2 a3 a4 a5 a6 a7 a8 a9 a10 a11 a12 a13 a14) :
    IsReal2 (X3 a0 a1 a2 a4 a5 a6 a7) :=
  lin_isReal _ _ _ _ g.realX2 g.real6 g.real7 g.real2

/-- The last layer's input is real-valued. -/
theorem Good.realX4 (g : Good a0 a1 a2 a3 a4 a5 a6 a7 a8 a9 a10 a11 a12 a13 a14) :
    IsReal2 (X4 a0 a1 a2 a3 a4 a5 a6 a7 a8 a9) :=
  lin_isReal _ _ _ _ g.realX3 g.real8 g.real9 g.real3

/-- The score of the layer of width 256, composed from the two cores' totals. -/
theorem layer1_score (g : Good a0 a1 a2 a3 a4 a5 a6 a7 a8 a9 a10 a11 a12 a13 a14) (j : Fin 256) :
    (1 - 1 * Ideal.div (sqC (X1 a0) (m2 a12) 0 + sqC (X1 a0) (m2 a12) 1) (cnt1 : EReal)) * (∑ x, m2 a12 j x)
        + 1 * (sdC (X1 a0) (m2 a12) 0 j + sdC (X1 a0) (m2 a12) 1 j)
      = scoreR (X1 a0) (m2 a12) (cnt1 : EReal) j :=
  kernelScore_eq _ _ cnt1 cnt1_ne g.realX1 g.real12 g.nx1 g.ny1 j

/-- The score of the layer of width 128, composed from the two cores' totals. -/
theorem layer2_score (g : Good a0 a1 a2 a3 a4 a5 a6 a7 a8 a9 a10 a11 a12 a13 a14) (j : Fin 128) :
    (1 - 1 * Ideal.div (sqC (X2 a0 a1 a4 a5) (m2 a13) 0 + sqC (X2 a0 a1 a4 a5) (m2 a13) 1) (cnt2 : EReal))
          * (∑ x, m2 a13 j x)
        + 1 * (sdC (X2 a0 a1 a4 a5) (m2 a13) 0 j + sdC (X2 a0 a1 a4 a5) (m2 a13) 1 j)
      = scoreR (X2 a0 a1 a4 a5) (m2 a13) (cnt2 : EReal) j :=
  kernelScore_eq _ _ cnt2 cnt2_ne g.realX2 g.real13 g.nx2 g.ny2 j

/-- The score of the layer of width 64, composed from the two cores' totals. -/
theorem layer3_score (g : Good a0 a1 a2 a3 a4 a5 a6 a7 a8 a9 a10 a11 a12 a13 a14) (j : Fin 64) :
    (1 - 1 * Ideal.div (sqC (X3 a0 a1 a2 a4 a5 a6 a7) (m2 a14) 0 + sqC (X3 a0 a1 a2 a4 a5 a6 a7) (m2 a14) 1) (cnt3 : EReal))
          * (∑ x, m2 a14 j x)
        + 1 * (sdC (X3 a0 a1 a2 a4 a5 a6 a7) (m2 a14) 0 j + sdC (X3 a0 a1 a2 a4 a5 a6 a7) (m2 a14) 1 j)
      = scoreR (X3 a0 a1 a2 a4 a5 a6 a7) (m2 a14) (cnt3 : EReal) j :=
  kernelScore_eq _ _ cnt3 cnt3_ne g.realX3 g.real14 g.nx3 g.ny3 j

end Layers

end Cert.PreV

end
-- ==== Proof.KI.PiecesAB.lean ====
/-
  What the fused kernel's body leaves, as VALUES, at the two kinds of grid point where the per-core partial
  sums are not written out: the point that zeroes the six accumulators first (step 0) and the points that add
  to what the point before left (steps 1 to 6). At both the main output block is the last layer's rectified
  affine image of the input block; accumulator j ends as its update applied to the input block and to its OLD
  contents, which are the zero block at step 0 and the contents carried in at steps 1 to 6. Each statement
  reads the pieces the body's stores leave back as ONE payload term of the point's value arguments: every
  store covers its whole buffer, so the last piece's payload is what the buffer holds, and a load after the
  zeroing store reads the zero block back.
-/
import proofs.«423609_j13907104104967_3_alg».proof.Proof.KI.Frame
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic Idealize.SL.Sem
open Cert.KernelIdeal Cert.KernelIdeal.Gen

variable {F : FTy → Type} [FloatOps F]

/-- The two offsets of a whole-buffer access are both zero. -/
theorem hzAB : (![0, 0] : Fin 2 → Nat) = fun _ => 0 := funext fun a => by fin_cases a <;> rfl

/-! ## Step 0: the accumulators are zeroed first -/

/-- At step 0 the main output block is the four layers applied to the input block. -/
theorem out0_A_15_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay1 (k0_pay27 (k0_pay26 (k0_pay20 (k0_pay14 x0 x1 x2 x3) x5 x6 x7) x9 x10) x11) x13 x14 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At step 0 accumulator 0 ends as its update of the zero block (the zeroing store is read back). -/
theorem sout0_A_0_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay18 (k0_pay17 x0 x4) (k0_pay8 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero (S := S1x1) hzAB, View.readCov_unit_zero (S := S1x1) _ hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At step 0 accumulator 1 ends as its update of the zero block (the zeroing store is read back). -/
theorem sout0_A_1_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay19 (k0_pay15 x0) (k0_pay16 x0 x4) (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero (S := S1x256) hzAB, View.readCov_unit_zero (S := S1x256) _ hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At step 0 accumulator 2 ends as its update of the zero block (the zeroing store is read back). -/
theorem sout0_A_2_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay24 (k0_pay21 (k0_pay14 x0 x1 x2 x3)) (k0_pay22 x8) (constant S512x128 .f32 0x00000000#32) (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero (S := S1x1) hzAB, View.readCov_unit_zero (S := S1x1) _ hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At step 0 accumulator 3 ends as its update of the zero block (the zeroing store is read back). -/
theorem sout0_A_3_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay25 (k0_pay21 (k0_pay14 x0 x1 x2 x3)) (k0_pay22 x8) (constant S512x128 .f32 0x00000000#32) (k0_pay11 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero (S := S1x128) hzAB, View.readCov_unit_zero (S := S1x128) _ hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At step 0 accumulator 4 ends as its update of the zero block (the zeroing store is read back). -/
theorem sout0_A_4_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay30 (k0_pay20 (k0_pay14 x0 x1 x2 x3) x5 x6 x7) x12 (k0_pay12 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero (S := S1x1) hzAB, View.readCov_unit_zero (S := S1x1) _ hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At step 0 accumulator 5 ends as its update of the zero block (the zeroing store is read back). -/
theorem sout0_A_5_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 = k0_pay31 (k0_pay20 (k0_pay14 x0 x1 x2 x3) x5 x6 x7) x12 (k0_pay13 (F := F)) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero (S := S1x64) hzAB, View.readCov_unit_zero (S := S1x64) _ hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-! ## Steps 1 to 6: the accumulators are added to -/

/-- At steps 1 to 6 the main output block is the four layers applied to the input block. -/
theorem out0_B_15_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay1 (k0_pay27 (k0_pay26 (k0_pay20 (k0_pay14 x0 x1 x2 x3) x5 x6 x7) x9 x10) x11) x13 x14 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At steps 1 to 6 accumulator 0 ends as its update of the contents carried in. -/
theorem sout0_B_0_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay18 (k0_pay17 x0 x4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At steps 1 to 6 accumulator 1 ends as its update of the contents carried in. -/
theorem sout0_B_1_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay19 (k0_pay15 x0) (k0_pay16 x0 x4) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At steps 1 to 6 accumulator 2 ends as its update of the contents carried in. -/
theorem sout0_B_2_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay24 (k0_pay21 (k0_pay14 x0 x1 x2 x3)) (k0_pay22 x8) (constant S512x128 .f32 0x00000000#32) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At steps 1 to 6 accumulator 3 ends as its update of the contents carried in. -/
theorem sout0_B_3_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay25 (k0_pay21 (k0_pay14 x0 x1 x2 x3)) (k0_pay22 x8) (constant S512x128 .f32 0x00000000#32) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At steps 1 to 6 accumulator 4 ends as its update of the contents carried in. -/
theorem sout0_B_4_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay30 (k0_pay20 (k0_pay14 x0 x1 x2 x3) x5 x6 x7) x12 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

/-- At steps 1 to 6 accumulator 5 ends as its update of the contents carried in. -/
theorem sout0_B_5_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : ¬cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay31 (k0_pay20 (k0_pay14 x0 x1 x2 x3) x5 x6 x7) x12 xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hzAB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzAB, View.ld_unit_zero (S := S1024x256) hzAB, View.ld_unit_zero (S := S1x256) hzAB, View.ld_unit_zero (S := S256x128) hzAB, View.ld_unit_zero (S := S1x128) hzAB, View.ld_unit_zero (S := S128x64) hzAB, View.ld_unit_zero (S := S1x64) hzAB, View.ld_unit_zero (S := S64x1000) hzAB, View.ld_unit_zero (S := S1x1000) hzAB, View.ld_unit_zero (S := S512x1000) hzAB, View.ld_unit_zero (S := S8x1) hzAB, View.ld_unit_zero (S := S8x256) hzAB, View.ld_unit_zero (S := S8x128) hzAB, View.ld_unit_zero (S := S8x64) hzAB, View.ld_unit_zero (S := S1x1) hzAB]

end Cert.KernelIdeal.Fr

end
-- ==== Proof.KI.PiecesC.lean ====
/-
  The pieces the body's stores leave at a grid point whose step coordinate is 7 (accumulators added to, partial
  sums written out), read back as values: each output's staging buffer and each accumulator ends holding ONE
  payload of the kernel's arithmetic, composed over the fifteen input blocks `x·` and the accumulators'
  contents `xs·` when the point began. The accumulators take their update of the old contents; the six
  partial-sum outputs take the broadcast of the UPDATED accumulators (the loads after the updates read the
  stored payloads back); the main output takes the last layer's activation.
-/
import proofs.«423609_j13907104104967_3_alg».proof.Proof.KI.Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The origin of a rank-2 block, as the constant-zero offset. -/
private theorem hzC : (![0, 0] : Fin 2 → Nat) = fun _ => 0 := funext fun a => by fin_cases a <;> rfl

set_option maxHeartbeats 4000000 in
/-- `out0_C_15` read back: the one covering store's payload, its loads read through whole memrefs. -/
theorem out0_C_15_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay1 (k0_pay27 (k0_pay26 (k0_pay20 (k0_pay14 x0 x1 x2 x3) x5 x6 x7) x9 x10) x11) x13 x14 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `out0_C_16` read back: the one covering store's payload, its loads read through whole memrefs. -/
theorem out0_C_16_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay2 (k0_pay18 (k0_pay17 x0 x4) xs0) := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `out0_C_17` read back: the one covering store's payload, its loads read through whole memrefs. -/
theorem out0_C_17_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay3 (k0_pay19 (k0_pay15 x0) (k0_pay16 x0 x4) xs1) := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `out0_C_18` read back: the one covering store's payload, its loads read through whole memrefs. -/
theorem out0_C_18_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay4 (k0_pay24 (k0_pay21 (k0_pay14 x0 x1 x2 x3)) (k0_pay22 x8) (constant S512x128 .f32 0x00000000#32) xs2) := by
  unfold out0_C_18
  rw [View.read_writes_eq_canon _ _ _ (cover0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `out0_C_19` read back: the one covering store's payload, its loads read through whole memrefs. -/
theorem out0_C_19_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay5 (k0_pay25 (k0_pay21 (k0_pay14 x0 x1 x2 x3)) (k0_pay22 x8) (constant S512x128 .f32 0x00000000#32) xs3) := by
  unfold out0_C_19
  rw [View.read_writes_eq_canon _ _ _ (cover0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `out0_C_20` read back: the one covering store's payload, its loads read through whole memrefs. -/
theorem out0_C_20_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay6 (k0_pay30 (k0_pay20 (k0_pay14 x0 x1 x2 x3) x5 x6 x7) x12 xs4) := by
  unfold out0_C_20
  rw [View.read_writes_eq_canon _ _ _ (cover0_C_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `out0_C_21` read back: the one covering store's payload, its loads read through whole memrefs. -/
theorem out0_C_21_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay7 (k0_pay31 (k0_pay20 (k0_pay14 x0 x1 x2 x3) x5 x6 x7) x12 xs5) := by
  unfold out0_C_21
  rw [View.read_writes_eq_canon _ _ _ (cover0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `sout0_C_0` read back: the one covering store's payload, its loads read through whole memrefs. -/
theorem sout0_C_0_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay18 (k0_pay17 x0 x4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `sout0_C_1` read back: the one covering store's payload, its loads read through whole memrefs. -/
theorem sout0_C_1_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay19 (k0_pay15 x0) (k0_pay16 x0 x4) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `sout0_C_2` read back: the one covering store's payload, its loads read through whole memrefs. -/
theorem sout0_C_2_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay24 (k0_pay21 (k0_pay14 x0 x1 x2 x3)) (k0_pay22 x8) (constant S512x128 .f32 0x00000000#32) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `sout0_C_3` read back: the one covering store's payload, its loads read through whole memrefs. -/
theorem sout0_C_3_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay25 (k0_pay21 (k0_pay14 x0 x1 x2 x3)) (k0_pay22 x8) (constant S512x128 .f32 0x00000000#32) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `sout0_C_4` read back: the one covering store's payload, its loads read through whole memrefs. -/
theorem sout0_C_4_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay30 (k0_pay20 (k0_pay14 x0 x1 x2 x3) x5 x6 x7) x12 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

set_option maxHeartbeats 4000000 in
/-- `sout0_C_5` read back: the one covering store's payload, its loads read through whole memrefs. -/
theorem sout0_C_5_eq (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x64 .f32) (harg14 : arg14.IsWhole) (arg15 : Memref sig .tc .vmem S64x1000 .f32) (harg15 : arg15.IsWhole) (arg16 : Memref sig .tc .vmem S1x1000 .f32) (harg16 : arg16.IsWhole) (arg17 : Memref sig .tc .vmem S512x1000 .f32) (harg17 : arg17.IsWhole) (arg18 : Memref sig .tc .vmem S8x1 .f32) (harg18 : arg18.IsWhole) (arg19 : Memref sig .tc .vmem S8x256 .f32) (harg19 : arg19.IsWhole) (arg20 : Memref sig .tc .vmem S8x1 .f32) (harg20 : arg20.IsWhole) (arg21 : Memref sig .tc .vmem S8x128 .f32) (harg21 : arg21.IsWhole) (arg22 : Memref sig .tc .vmem S8x1 .f32) (harg22 : arg22.IsWhole) (arg23 : Memref sig .tc .vmem S8x64 .f32) (harg23 : arg23.IsWhole) (arg24 : Memref sig .tc .vmem S1x1 .f32) (harg24 : arg24.IsWhole) (arg25 : Memref sig .tc .vmem S1x256 .f32) (harg25 : arg25.IsWhole) (arg26 : Memref sig .tc .vmem S1x1 .f32) (harg26 : arg26.IsWhole) (arg27 : Memref sig .tc .vmem S1x128 .f32) (harg27 : arg27.IsWhole) (arg28 : Memref sig .tc .vmem S1x1 .f32) (harg28 : arg28.IsWhole) (arg29 : Memref sig .tc .vmem S1x64 .f32) (harg29 : arg29.IsWhole) (hc0 : ¬cond0_0 i) (hc1 : cond0_1 i)
    (x0 : Vec F S512x1024 .f32) (x1 : Vec F S1024x256 .f32) (x2 : Vec F S1x256 .f32) (x3 : Vec F S1x256 .f32) (x4 : Vec F S1024x256 .f32) (x5 : Vec F S256x128 .f32) (x6 : Vec F S1x128 .f32) (x7 : Vec F S1x128 .f32) (x8 : Vec F S256x128 .f32) (x9 : Vec F S128x64 .f32) (x10 : Vec F S1x64 .f32) (x11 : Vec F S1x64 .f32) (x12 : Vec F S128x64 .f32) (x13 : Vec F S64x1000 .f32) (x14 : Vec F S1x1000 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5 = k0_pay31 (k0_pay20 (k0_pay14 x0 x1 x2 x3) x5 x6 x7) x12 xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_C
  dsimp only
  sl_unfold_words
  rw [View.canon_unit_zero hzC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, harg25.read_unread, harg26.read_unread, harg27.read_unread, harg28.read_unread, harg29.read_unread, View.ld_unit_zero (S := S512x1024) hzC, View.ld_unit_zero (S := S1024x256) hzC, View.ld_unit_zero (S := S1x256) hzC, View.ld_unit_zero (S := S256x128) hzC, View.ld_unit_zero (S := S1x128) hzC, View.ld_unit_zero (S := S128x64) hzC, View.ld_unit_zero (S := S1x64) hzC, View.ld_unit_zero (S := S64x1000) hzC, View.ld_unit_zero (S := S1x1000) hzC, View.ld_unit_zero (S := S512x1000) hzC, View.ld_unit_zero (S := S8x1) hzC, View.ld_unit_zero (S := S8x256) hzC, View.ld_unit_zero (S := S8x128) hzC, View.ld_unit_zero (S := S8x64) hzC, View.ld_unit_zero (S := S1x1) hzC, View.readCov_unit_zero (S := S1x1) _ hzC, View.readCov_unit_zero (S := S1x256) _ hzC, View.readCov_unit_zero (S := S1x128) _ hzC, View.readCov_unit_zero (S := S1x64) _ hzC]

end Cert.KernelIdeal.Fr

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.Pay1.lean ====
/-
  The arithmetic of the kernel body's first layer, read at an index over one tile of 512 rows: the
  accumulators' zero values, the dense layer of the tile, the tile's rows normalised, their projections
  normalised again, the tile's sum of squares, and the two accumulator updates.
-/
import proofs.«423609_j13907104104967_3_alg».proof.Proof.Gen.KernelIdeal.Skeleton
import proofs.«423609_j13907104104967_3_alg».proof.Proof.Model
import proofs.«423609_j13907104104967_3_alg».proof.Proof.LibTile
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Spec Idealize.ShloMosaic Idealize.ShloMosaic.ValueIdx

/-! ### The accumulators' zero values -/

theorem pay8_apply (i : S1x1.Idx) : (k0_pay8 (F := Ideal)) i = 0 := by
  unfold k0_pay8
  exact (congrFun (shapeCast_self _ _) i).trans Ideal.ofBits_zero_f32

theorem pay9_apply (i : S1x256.Idx) : (k0_pay9 (F := Ideal)) i = 0 := by
  unfold k0_pay9
  exact (congrFun (shapeCast_self _ _) i).trans Ideal.ofBits_zero_f32

theorem pay10_apply (i : S1x1.Idx) : (k0_pay10 (F := Ideal)) i = 0 := by
  unfold k0_pay10
  exact (congrFun (shapeCast_self _ _) i).trans Ideal.ofBits_zero_f32

theorem pay11_apply (i : S1x128.Idx) : (k0_pay11 (F := Ideal)) i = 0 := by
  unfold k0_pay11
  exact (congrFun (shapeCast_self _ _) i).trans Ideal.ofBits_zero_f32

theorem pay12_apply (i : S1x1.Idx) : (k0_pay12 (F := Ideal)) i = 0 := by
  unfold k0_pay12
  exact (congrFun (shapeCast_self _ _) i).trans Ideal.ofBits_zero_f32

theorem pay13_apply (i : S1x64.Idx) : (k0_pay13 (F := Ideal)) i = 0 := by
  unfold k0_pay13
  exact (congrFun (shapeCast_self _ _) i).trans Ideal.ofBits_zero_f32

/-! ### The first layer on one tile -/

/-- The tile's dense layer: the next layer's input block. -/
theorem pay14_apply (v3 : Vec Ideal S512x1024 .f32) (v4 : Vec Ideal S1024x256 .f32) (v7 v13 : Vec Ideal S1x256 .f32)
    (p : Fin 512) (q : Fin 256) :
    k0_pay14 (F := Ideal) v3 v4 v7 v13 (ix2 p q)
      = lin (m2 v3) (fun j x => m2 v4 x j) (fun j => v7 (ix2 0 j)) (fun j => v13 (ix2 0 j)) p q := by
  unfold k0_pay14
  exact Cert.Tile.dense_apply none v3 v4 v7 v13 _ _ _ _ _ p q

/-- The tile's rows divided by their norms. -/
theorem pay15_apply (v3 : Vec Ideal S512x1024 .f32) (p : Fin 512) (x : Fin 1024) :
    k0_pay15 (F := Ideal) v3 (ix2 p x) = xn (m2 v3) p x := by
  unfold k0_pay15
  exact Cert.Tile.normalize_apply v3 _ _ _ _ _ p x

/-- The normalised rows projected on the columns of the transposed Hebbian block. -/
theorem y1_apply (v3 : Vec Ideal S512x1024 .f32) (v23 : FVec Ideal S1024x256 .f32)
    (h : S1024x256.ShapeCasts S1024x256) (p : Fin 512) (j : Fin 256) :
    matmul (F := Ideal) dot_S512x1024_S1024x256_S512x256_1_0_0_1_n_n none (k0_pay15 (F := Ideal) v3)
        (shapeCast S1024x256 v23 h) (constant (F := Ideal) S512x256 .f32 0x00000000#32) (ix2 p j)
      = yv (m2 v3) (fun j x => m2 v23 x j) p j :=
  (Cert.Tile.matmul_plain_apply none (k0_pay15 (F := Ideal) v3) (shapeCast S1024x256 v23 h) p j).trans
    (Finset.sum_congr rfl fun x _ =>
      congrArg₂ (· * ·) (pay15_apply v3 p x) (congrFun (shapeCast_self v23 h) (ix2 x j)))

/-- The projections, each row divided by its norm. -/
theorem pay16_apply (v3 : Vec Ideal S512x1024 .f32) (v23 : Vec Ideal S1024x256 .f32) (p : Fin 512) (j : Fin 256) :
    k0_pay16 (F := Ideal) v3 v23 (ix2 p j) = yn (m2 v3) (fun j x => m2 v23 x j) p j := by
  unfold k0_pay16
  refine (Cert.Tile.normalize_apply _ _ _ _ _ _ p j).trans ?_
  exact congrArg₂ Ideal.div (y1_apply v3 v23 _ p j)
    (congrArg Ideal.sqrt (Finset.sum_congr rfl fun k _ =>
      congrArg₂ (· * ·) (y1_apply v3 v23 _ p k) (y1_apply v3 v23 _ p k)))

/-- The tile's sum of the squared normalised projections, as a [1, 1] value. -/
theorem pay17_apply (v3 : Vec Ideal S512x1024 .f32) (v23 : Vec Ideal S1024x256 .f32) (u w : Fin 1) :
    k0_pay17 (F := Ideal) v3 v23 (ix2 u w) = sqtot (m2 v3) (fun j x => m2 v23 x j) := by
  unfold k0_pay17
  refine (Cert.Tile.totalSq_apply _ _ _ _ _ _ _ _ _ u w).trans ?_
  exact Finset.sum_congr rfl fun k _ => Finset.sum_congr rfl fun j _ =>
    congrArg₂ (· * ·) (pay16_apply v3 v23 k j) (pay16_apply v3 v23 k j)

/-- The sum-of-squares accumulator's update: the old value plus the tile's. -/
theorem pay18_apply (v36 : FVec Ideal S1x1 .f32) (v37 : Vec Ideal S1x1 .f32) (i : S1x1.Idx) :
    k0_pay18 (F := Ideal) v36 v37 i = v37 i + v36 i := by
  unfold k0_pay18
  exact congrFun (shapeCast_self _ _) i

/-- The row accumulator's update: the old value plus, at column q, the sum over the tile's rows of the
    second operand's entry times the first operand's row sum. -/
theorem pay19_apply (v22 : FVec Ideal S512x1024 .f32) (v31 : FVec Ideal S512x256 .f32) (v44 : Vec Ideal S1x256 .f32)
    (u : Fin 1) (q : Fin 256) :
    k0_pay19 (F := Ideal) v22 v31 v44 (ix2 u q)
      = v44 (ix2 u q) + ∑ k : Fin 512, v31 (ix2 k q) * ∑ x : Fin 1024, v22 (ix2 k x) := by
  unfold k0_pay19
  exact Cert.Tile.sdAcc_apply v22 v31 v44 _ _ _ _ _ _ _ _ _ _ u q

/-- The same when the two operands are the normalised rows and the normalised projections of a tile. -/
theorem pay19_sd (X : Fin 512 → Fin 1024 → EReal) (H : Fin 256 → Fin 1024 → EReal)
    (v22 : FVec Ideal S512x1024 .f32) (v31 : FVec Ideal S512x256 .f32) (v44 : Vec Ideal S1x256 .f32)
    (h22 : ∀ p x, v22 (ix2 p x) = xn X p x) (h31 : ∀ p j, v31 (ix2 p j) = yn X H p j) (u : Fin 1) (q : Fin 256) :
    k0_pay19 (F := Ideal) v22 v31 v44 (ix2 u q) = v44 (ix2 u q) + sd X H q :=
  (pay19_apply v22 v31 v44 u q).trans
    (congrArg (v44 (ix2 u q) + ·) (Finset.sum_congr rfl fun k _ =>
      congrArg₂ (· * ·) (h31 k q) (Finset.sum_congr rfl fun x _ => h22 k x)))

end Cert.KernelIdeal.Pay

end
-- ==== Proof.Pay2.lean ====
/-
  The kernel body's arithmetic for the second and third layers, the output layer and the row broadcasts, read at an
  index over the extended reals: each pure term of the body, at one entry of one tile of 512 rows, is the
  corresponding function of `Spec.lean` — a dense layer `relu (X·Wᵀ + b) * mask`, rows divided by their Euclidean
  norm, the projections on the rows of `H` normalised again, the tile's sum of their squares added to an
  accumulator, and the tile's sums `Σ_p yn p j · Σ_x xn p x` added to an accumulator row.
-/
import proofs.«423609_j13907104104967_3_alg».proof.Proof.Gen.KernelIdeal.Skeleton
import proofs.«423609_j13907104104967_3_alg».proof.Proof.Model
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay.Two

open Cert.KernelIdeal Cert.KernelIdeal.Gen Cert.Spec Idealize.ShloMosaic Idealize.ShloMosaic.ValueIdx

/-! ## Layout operations and sums along one axis, at an index given by coordinates -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` array, read at row `p`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ x : Fin b, src (ix2 p x) := by
  refine (Ideal.multiReduction_add_single src 0x00000000#32 h hφ hacc (ix1 p)).trans ?_
  refine Finset.sum_congr rfl fun x _ => congrArg src ?_
  funext c
  match c with
  | ⟨0, _⟩ => rfl
  | ⟨1, _⟩ => rfl

/-- The sum down the columns of an `[a, b]` array, read at column `q`. -/
theorem colSum_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ r : Fin a, src (ix2 r q) := by
  refine (Ideal.multiReduction_add_single src 0x00000000#32 h hφ hacc (ix1 q)).trans ?_
  refine Finset.sum_congr rfl fun r _ => congrArg src ?_
  funext c
  match c with
  | ⟨0, _⟩ => rfl
  | ⟨1, _⟩ => rfl

/-! ## The body's recurring terms, over any extents -/

/-- Rows divided by their Euclidean norm: `X / sqrt (Σ_x X²)` with the norm kept as a column and broadcast back. -/
theorem normRows_apply {a b : ℕ} (X : FVec Ideal ⟨2, ![a, b]⟩ .f32) (hR : Shape.Reduces ⟨2, ![a, b]⟩ [1] ⟨1, ![a]⟩)
    (hφ : FKind.Formats .f32) (hacc : (0x00000000#32 : BitVec 32) = FKind.add.neutral .f32 hφ)
    (hS : (⟨1, ![a]⟩ : Shape).ShapeCasts ⟨2, ![a, 1]⟩) (hB : (⟨2, ![a, 1]⟩ : Shape).Broadcasts ⟨2, ![a, b]⟩) (p : Fin a) (q : Fin b) :
    divf X (broadcastTo ⟨2, ![a, b]⟩ (sqrt (shapeCast ⟨2, ![a, 1]⟩ (multiReduction .add [1] ⟨1, ![a]⟩ (mulf X X) 0x00000000#32 hR hφ hacc) hS)) hB) (ix2 p q)
      = Cert.Spec.xn (m2 X) p q := by
  show Ideal.div (X (ix2 p q)) (broadcastTo ⟨2, ![a, b]⟩ (sqrt (shapeCast ⟨2, ![a, 1]⟩ (multiReduction .add [1] ⟨1, ![a]⟩ (mulf X X) 0x00000000#32 hR hφ hacc) hS)) hB (ix2 p q))
    = Ideal.div (X (ix2 p q)) (Ideal.sqrt (∑ x : Fin b, X (ix2 p x) * X (ix2 p x)))
  refine congrArg (Ideal.div (X (ix2 p q))) ?_
  refine (broadcastTo_a1_ab_apply _ hB p q).trans ?_
  show Ideal.sqrt (shapeCast ⟨2, ![a, 1]⟩ (multiReduction .add [1] ⟨1, ![a]⟩ (mulf X X) 0x00000000#32 hR hφ hacc) hS (ix2 p (0 : Fin 1))) = _
  refine congrArg Ideal.sqrt ?_
  refine (shapeCast_a_a1_apply _ hS p 0).trans ?_
  exact rowSum_apply (mulf X X) hR hφ hacc p

/-- A layer's entry: `max (M + B) Z * K` with the four terms known at the index. -/
theorem lin_core {s : Shape} (M B Z K : FVec Ideal s .f32) (i : s.Idx) (m b k : EReal)
    (hM : M i = m) (hB : B i = b) (hZ : Z i = 0) (hK : K i = k) :
    mulf (maximumf (addf M B) Z) K i = max (m + b) 0 * k := by
  show max (M i + B i) (Z i) * K i = _
  rw [hM, hB, hZ, hK]

/-- The same with no mask. -/
theorem linOut_core {s : Shape} (M B Z : FVec Ideal s .f32) (i : s.Idx) (m b : EReal)
    (hM : M i = m) (hB : B i = b) (hZ : Z i = 0) :
    maximumf (addf M B) Z i = max (m + b) 0 := by
  show max (M i + B i) (Z i) = _
  rw [hM, hB, hZ]

/-- The zero the body takes its maxima against. -/
theorem zeroSplat_apply {s : Shape} (i : s.Idx) :
    broadcast s (Scalar.ofBits (F := Ideal) .f32 0x00000000#32) i = (0 : EReal) := Ideal.ofBits_zero_f32

/-- The tile's sum of squares added to the `[1, 1]` accumulator. -/
theorem sqAcc_apply {a b : ℕ} (Y : FVec Ideal ⟨2, ![a, b]⟩ .f32) (acc : FVec Ideal ⟨2, ![1, 1]⟩ .f32)
    (hR1 : Shape.Reduces ⟨2, ![a, b]⟩ [1] ⟨1, ![a]⟩) (hφ1 : FKind.Formats .f32) (hacc1 : (0x00000000#32 : BitVec 32) = FKind.add.neutral .f32 hφ1)
    (hS1 : (⟨1, ![a]⟩ : Shape).ShapeCasts ⟨2, ![a, 1]⟩)
    (hR0 : Shape.Reduces ⟨2, ![a, 1]⟩ [0] ⟨1, ![1]⟩) (hφ0 : FKind.Formats .f32) (hacc0 : (0x00000000#32 : BitVec 32) = FKind.add.neutral .f32 hφ0)
    (hS2 : (⟨1, ![1]⟩ : Shape).ShapeCasts ⟨2, ![1, 1]⟩) (hS3 : (⟨2, ![1, 1]⟩ : Shape).ShapeCasts ⟨2, ![1, 1]⟩) (u w : Fin 1) :
    shapeCast ⟨2, ![1, 1]⟩ (addf acc (shapeCast ⟨2, ![1, 1]⟩ (multiReduction .add [0] ⟨1, ![1]⟩
        (shapeCast ⟨2, ![a, 1]⟩ (multiReduction .add [1] ⟨1, ![a]⟩ (mulf Y Y) 0x00000000#32 hR1 hφ1 hacc1) hS1)
        0x00000000#32 hR0 hφ0 hacc0) hS2)) hS3 (ix2 u w)
      = acc (ix2 u w) + ∑ r : Fin a, ∑ j : Fin b, Y (ix2 r j) * Y (ix2 r j) := by
  rw [shapeCast_self]
  show acc (ix2 u w) + shapeCast ⟨2, ![1, 1]⟩ _ hS2 (ix2 u w) = _
  refine congrArg (acc (ix2 u w) + ·) ?_
  refine (shapeCast_a_1a_apply _ hS2 u w).trans ?_
  refine (colSum_apply _ hR0 hφ0 hacc0 w).trans ?_
  refine Finset.sum_congr rfl fun r _ => ?_
  refine (shapeCast_a_a1_apply _ hS1 r w).trans ?_
  exact rowSum_apply (mulf Y Y) hR1 hφ1 hacc1 r

/-- The tile's sums `Σ_r Yn r q · Σ_x Xn r x` added to the `[1, b]` accumulator row. -/
theorem sdAcc_apply {a b c : ℕ} (Xn : FVec Ideal ⟨2, ![a, c]⟩ .f32) (Yn : FVec Ideal ⟨2, ![a, b]⟩ .f32) (acc : FVec Ideal ⟨2, ![1, b]⟩ .f32)
    (hR1 : Shape.Reduces ⟨2, ![a, c]⟩ [1] ⟨1, ![a]⟩) (hφ1 : FKind.Formats .f32) (hacc1 : (0x00000000#32 : BitVec 32) = FKind.add.neutral .f32 hφ1)
    (hS1 : (⟨1, ![a]⟩ : Shape).ShapeCasts ⟨2, ![a, 1]⟩) (hB : (⟨2, ![a, 1]⟩ : Shape).Broadcasts ⟨2, ![a, b]⟩)
    (hR0 : Shape.Reduces ⟨2, ![a, b]⟩ [0] ⟨1, ![b]⟩) (hφ0 : FKind.Formats .f32) (hacc0 : (0x00000000#32 : BitVec 32) = FKind.add.neutral .f32 hφ0)
    (hS2 : (⟨1, ![b]⟩ : Shape).ShapeCasts ⟨2, ![1, b]⟩) (hS3 : (⟨2, ![1, b]⟩ : Shape).ShapeCasts ⟨2, ![1, b]⟩) (u : Fin 1) (q : Fin b) :
    shapeCast ⟨2, ![1, b]⟩ (addf acc (shapeCast ⟨2, ![1, b]⟩ (multiReduction .add [0] ⟨1, ![b]⟩
        (mulf Yn (broadcastTo ⟨2, ![a, b]⟩ (shapeCast ⟨2, ![a, 1]⟩ (multiReduction .add [1] ⟨1, ![a]⟩ Xn 0x00000000#32 hR1 hφ1 hacc1) hS1) hB))
        0x00000000#32 hR0 hφ0 hacc0) hS2)) hS3 (ix2 u q)
      = acc (ix2 u q) + ∑ r : Fin a, Yn (ix2 r q) * ∑ x : Fin c, Xn (ix2 r x) := by
  rw [shapeCast_self]
  show acc (ix2 u q) + shapeCast ⟨2, ![1, b]⟩ _ hS2 (ix2 u q) = _
  refine congrArg (acc (ix2 u q) + ·) ?_
  refine (shapeCast_a_1a_apply _ hS2 u q).trans ?_
  refine (colSum_apply _ hR0 hφ0 hacc0 q).trans ?_
  refine Finset.sum_congr rfl fun r _ => ?_
  show Yn (ix2 r q) * broadcastTo ⟨2, ![a, b]⟩ _ hB (ix2 r q) = _
  refine congrArg (Yn (ix2 r q) * ·) ?_
  refine (broadcastTo_a1_ab_apply _ hB r q).trans ?_
  refine (shapeCast_a_a1_apply _ hS1 r 0).trans ?_
  exact rowSum_apply Xn hR1 hφ1 hacc1 r

/-- A `[1, b]` row, cast to itself and broadcast over `a` rows, reads its entry `(0, q)` at `(p, q)`. -/
theorem rowBcast_apply {α : Type} {a b : ℕ} (v : (⟨2, ![1, b]⟩ : Shape).Idx → α) (hS : (⟨2, ![1, b]⟩ : Shape).ShapeCasts ⟨2, ![1, b]⟩)
    (hB : (⟨2, ![1, b]⟩ : Shape).Broadcasts ⟨2, ![a, b]⟩) (p : Fin a) (q : Fin b) :
    broadcastTo ⟨2, ![a, b]⟩ (shapeCast ⟨2, ![1, b]⟩ v hS) hB (ix2 p q) = v (ix2 (0 : Fin 1) q) :=
  (broadcastTo_1b_ab_apply _ hB p q).trans (congrFun (shapeCast_self v hS) _)

/-! ### The product `[512, 256] · [256, 128]` at an index -/

theorem lhs_512x256x128_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs_512x256x128_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs_512x256x128_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs_512x256x128_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The product into the zero accumulator, at `(p, q)`: `Σ_x lhs (p, x) · rhs (x, q)`. -/
theorem matmul_512x256x128_apply (lhs : FVec Ideal S512x256 .f32) (rhs : FVec Ideal S256x128 .f32) (p : Fin 512) (q : Fin 128) :
    matmul dot_S512x256_S256x128_S512x128_1_0_0_1_n_n none lhs rhs (constant (F := Ideal) S512x128 .f32 0x00000000#32) (ix2 p q)
      = ∑ x : Fin 256, lhs (ix2 p x) * rhs (ix2 x q) := by
  refine (Ideal.matmul_constant_zero_apply dot_S512x256_S256x128_S512x128_1_0_0_1_n_n none lhs rhs (ix2 p q)).trans ?_
  rw [← Equiv.sum_comp (contrEquiv1 dot_S512x256_S256x128_S512x128_1_0_0_1_n_n 256 rfl rfl).symm]
  refine Finset.sum_congr rfl fun x _ => ?_
  have hk := contrEquiv1_symm_val dot_S512x256_S256x128_S512x128_1_0_0_1_n_n 256 rfl rfl x
  have el : dot_S512x256_S256x128_S512x128_1_0_0_1_n_n.lhsIdx (ix2 p q) ((contrEquiv1 dot_S512x256_S256x128_S512x128_1_0_0_1_n_n 256 rfl rfl).symm x) = ix2 p x := funext fun a => Fin.ext (by
    match a with
    | ⟨0, _⟩ => exact lhs_512x256x128_0 _ _
    | ⟨1, _⟩ => exact (lhs_512x256x128_1 _ _).trans hk)
  have er : dot_S512x256_S256x128_S512x128_1_0_0_1_n_n.rhsIdx (ix2 p q) ((contrEquiv1 dot_S512x256_S256x128_S512x128_1_0_0_1_n_n 256 rfl rfl).symm x) = ix2 x q := funext fun a => Fin.ext (by
    match a with
    | ⟨0, _⟩ => exact (rhs_512x256x128_0 _ _).trans hk
    | ⟨1, _⟩ => exact rhs_512x256x128_1 _ _)
  rw [el, er]

/-- The same with the right operand cast to its own shape first. -/
theorem matmul_512x256x128_cast_apply (lhs : FVec Ideal S512x256 .f32) (rhs : FVec Ideal S256x128 .f32) (h : S256x128.ShapeCasts S256x128) (p : Fin 512) (q : Fin 128) :
    matmul dot_S512x256_S256x128_S512x128_1_0_0_1_n_n none lhs (shapeCast S256x128 rhs h) (constant (F := Ideal) S512x128 .f32 0x00000000#32) (ix2 p q)
      = ∑ x : Fin 256, lhs (ix2 p x) * rhs (ix2 x q) := by
  rw [shapeCast_self]
  exact matmul_512x256x128_apply lhs rhs p q

/-! ### The product `[512, 128] · [128, 64]` at an index -/

theorem lhs_512x128x64_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhs_512x128x64_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhs_512x128x64_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhs_512x128x64_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The product into the zero accumulator, at `(p, q)`: `Σ_x lhs (p, x) · rhs (x, q)`. -/
theorem matmul_512x128x64_apply (lhs : FVec Ideal S512x128 .f32) (rhs : FVec Ideal S128x64 .f32) (p : Fin 512) (q : Fin 64) :
    matmul dot_S512x128_S128x64_S512x64_1_0_0_1_n_n none lhs rhs (constant (F := Ideal) S512x64 .f32 0x00000000#32) (ix2 p q)
      = ∑ x : Fin 128, lhs (ix2 p x) * rhs (ix2 x q) := by
  refine (Ideal.matmul_constant_zero_apply dot_S512x128_S128x64_S512x64_1_0_0_1_n_n none lhs rhs (ix2 p q)).trans ?_
  rw [← Equiv.sum_comp (contrEquiv1 dot_S512x128_S128x64_S512x64_1_0_0_1_n_n 128 rfl rfl).symm]
  refine Finset.sum_congr rfl fun x _ => ?_
  have hk := contrEquiv1_symm_val dot_S512x128_S128x64_S512x64_1_0_0_1_n_n 128 rfl rfl x
  have el : dot_S512x128_S128x64_S512x64_1_0_0_1_n_n.lhsIdx (ix2 p q) ((contrEquiv1 dot_S512x128_S128x64_S512x64_1_0_0_1_n_n 128 rfl rfl).symm x) = ix2 p x := funext fun a => Fin.ext (by
    match a with
    | ⟨0, _⟩ => exact lhs_512x128x64_0 _ _
    | ⟨1, _⟩ => exact (lhs_512x128x64_1 _ _).trans hk)
  have er : dot_S512x128_S128x64_S512x64_1_0_0_1_n_n.rhsIdx (ix2 p q) ((contrEquiv1 dot_S512x128_S128x64_S512x64_1_0_0_1_n_n 128 rfl rfl).symm x) = ix2 x q := funext fun a => Fin.ext (by
    match a with
    | ⟨0, _⟩ => exact (rhs_512x128x64_0 _ _).trans hk
    | ⟨1, _⟩ => exact rhs_512x128x64_1 _ _)
  rw [el, er]

/-- The same with the right operand cast to its own shape first. -/
theorem matmul_512x128x64_cast_apply (lhs : FVec Ideal S512x128 .f32) (rhs : FVec Ideal S128x64 .f32) (h : S128x64.ShapeCasts S128x64) (p : Fin 512) (q : Fin 64) :
    matmul dot_S512x128_S128x64_S512x64_1_0_0_1_n_n none lhs (shapeCast S128x64 rhs h) (constant (F := Ideal) S512x64 .f32 0x00000000#32) (ix2 p q)
      = ∑ x : Fin 128, lhs (ix2 p x) * rhs (ix2 x q) := by
  rw [shapeCast_self]
  exact matmul_512x128x64_apply lhs rhs p q

/-! ### The product `[512, 64] · [64, 1000]` at an index -/

theorem lhs_512x64x1000_0 (i : S512x1000.Idx) (q : dot_S512x64_S64x1000_S512x1000_1_0_0_1_n_n.contr.Idx) :
    (dot_S512x64_S64x1000_S512x1000_1_0_0_1_n_n.lhsIdx i q 0).val = (i 0).val := by
  unfold DotDims.lhsIdx
  rw [dif_neg (show ¬(0 : Fin S512x64.rank) ∈ dot_S512x64_S64x1000_S512x1000_1_0_0_1_n_n.lhsBatch by decide), dif_pos (show (0 : Fin S512x64.rank) ∈ dot_S512x64_S64x1000_S512x1000_1_0_0_1_n_n.lhsNonContracting by decide)]
  rfl
theorem lhs_512x64x1000_1 (i : S512x1000.Idx) (q : dot_S512x64_S64x1000_S512x1000_1_0_0_1_n_n.contr.Idx) :
    (dot_S512x64_S64x1000_S512x1000_1_0_0_1_n_n.lhsIdx i q 1).val = (q ⟨0, by decide⟩).val :=
  dot_S512x64_S64x1000_S512x1000_1_0_0_1_n_n.lhsIdx_val_of_single rfl i q
theorem rhs_512x64x1000_0 (i : S512x1000.Idx) (q : dot_S512x64_S64x1000_S512x1000_1_0_0_1_n_n.contr.Idx) :
    (dot_S512x64_S64x1000_S512x1000_1_0_0_1_n_n.rhsIdx i q 0).val = (q ⟨0, by decide⟩).val :=
  dot_S512x64_S64x1000_S512x1000_1_0_0_1_n_n.rhsIdx_val_of_single rfl i q
theorem rhs_512x64x1000_1 (i : S512x1000.Idx) (q : dot_S512x64_S64x1000_S512x1000_1_0_0_1_n_n.contr.Idx) :
    (dot_S512x64_S64x1000_S512x1000_1_0_0_1_n_n.rhsIdx i q 1).val = (i 1).val := by
  unfold DotDims.rhsIdx
  rw [dif_neg (show ¬(1 : Fin S64x1000.rank) ∈ dot_S512x64_S64x1000_S512x1000_1_0_0_1_n_n.rhsBatch by decide), dif_pos (show (1 : Fin S64x1000.rank) ∈ dot_S512x64_S64x1000_S512x1000_1_0_0_1_n_n.rhsNonContracting by decide)]
  rfl

/-- The product into the zero accumulator, at `(p, q)`: `Σ_x lhs (p, x) · rhs (x, q)`. -/
theorem matmul_512x64x1000_apply (lhs : FVec Ideal S512x64 .f32) (rhs : FVec Ideal S64x1000 .f32) (p : Fin 512) (q : Fin 1000) :
    matmul dot_S512x64_S64x1000_S512x1000_1_0_0_1_n_n none lhs rhs (constant (F := Ideal) S512x1000 .f32 0x00000000#32) (ix2 p q)
      = ∑ x : Fin 64, lhs (ix2 p x) * rhs (ix2 x q) := by
  refine (Ideal.matmul_constant_zero_apply dot_S512x64_S64x1000_S512x1000_1_0_0_1_n_n none lhs rhs (ix2 p q)).trans ?_
  rw [← Equiv.sum_comp (contrEquiv1 dot_S512x64_S64x1000_S512x1000_1_0_0_1_n_n 64 rfl rfl).symm]
  refine Finset.sum_congr rfl fun x _ => ?_
  have hk := contrEquiv1_symm_val dot_S512x64_S64x1000_S512x1000_1_0_0_1_n_n 64 rfl rfl x
  have el : dot_S512x64_S64x1000_S512x1000_1_0_0_1_n_n.lhsIdx (ix2 p q) ((contrEquiv1 dot_S512x64_S64x1000_S512x1000_1_0_0_1_n_n 64 rfl rfl).symm x) = ix2 p x := funext fun a => Fin.ext (by
    match a with
    | ⟨0, _⟩ => exact lhs_512x64x1000_0 _ _
    | ⟨1, _⟩ => exact (lhs_512x64x1000_1 _ _).trans hk)
  have er : dot_S512x64_S64x1000_S512x1000_1_0_0_1_n_n.rhsIdx (ix2 p q) ((contrEquiv1 dot_S512x64_S64x1000_S512x1000_1_0_0_1_n_n 64 rfl rfl).symm x) = ix2 x q := funext fun a => Fin.ext (by
    match a with
    | ⟨0, _⟩ => exact (rhs_512x64x1000_0 _ _).trans hk
    | ⟨1, _⟩ => exact rhs_512x64x1000_1 _ _)
  rw [el, er]

/-- The same with the right operand cast to its own shape first. -/
theorem matmul_512x64x1000_cast_apply (lhs : FVec Ideal S512x64 .f32) (rhs : FVec Ideal S64x1000 .f32) (h : S64x1000.ShapeCasts S64x1000) (p : Fin 512) (q : Fin 1000) :
    matmul dot_S512x64_S64x1000_S512x1000_1_0_0_1_n_n none lhs (shapeCast S64x1000 rhs h) (constant (F := Ideal) S512x1000 .f32 0x00000000#32) (ix2 p q)
      = ∑ x : Fin 64, lhs (ix2 p x) * rhs (ix2 x q) := by
  rw [shapeCast_self]
  exact matmul_512x64x1000_apply lhs rhs p q

end Cert.KernelIdeal.Pay.Two

namespace Cert.KernelIdeal.Pay

open Cert.KernelIdeal Cert.KernelIdeal.Gen Cert.Spec Idealize.ShloMosaic Idealize.ShloMosaic.ValueIdx
open Cert.KernelIdeal.Pay.Two

/-! ## The payloads -/

/-- The second layer's block from the first's: `max (X·WT + b) 0 * mask`. -/
theorem pay20_apply (v16 : FVec Ideal S512x256 .f32) (v53 : Vec Ideal S256x128 .f32) (v56 v62 : Vec Ideal S1x128 .f32)
    (p : Fin 512) (q : Fin 128) :
    k0_pay20 (F := Ideal) v16 v53 v56 v62 (ix2 p q)
      = Cert.Spec.lin (m2 v16) (fun j x => m2 v53 x j) (fun j => v56 (ix2 0 j)) (fun j => v62 (ix2 0 j)) p q := by
  unfold k0_pay20
  refine (lin_core _ _ _ _ (ix2 p q) _ _ _ (matmul_512x256x128_cast_apply v16 v53 _ p q)
    (rowBcast_apply v56 _ _ p q) (zeroSplat_apply _) (rowBcast_apply v62 _ _ p q)).trans ?_
  rfl

/-- The first layer's block with each row divided by its norm. -/
theorem pay21_apply (v16 : FVec Ideal S512x256 .f32) (p : Fin 512) (q : Fin 256) :
    k0_pay21 (F := Ideal) v16 (ix2 p q) = Cert.Spec.xn (m2 v16) p q := by
  unfold k0_pay21
  exact normRows_apply v16 _ _ _ _ _ p q

/-- The transposed second Hebbian matrix, cast to its own shape: itself. -/
theorem pay22_eq (v72 : Vec Ideal S256x128 .f32) : k0_pay22 (F := Ideal) v72 = v72 := by
  unfold k0_pay22
  exact shapeCast_self v72 _

/-- The projections of the normalised rows `v71` on the columns of `v73`, each row divided by its norm. -/
theorem pay23_apply (v71 : FVec Ideal S512x256 .f32) (v73 : FVec Ideal S256x128 .f32) (cst_37 : FVec Ideal S512x128 .f32)
    (h37 : cst_37 = constant (F := Ideal) S512x128 .f32 0x00000000#32) (p : Fin 512) (q : Fin 128) :
    k0_pay23 (F := Ideal) v71 v73 cst_37 (ix2 p q)
      = Cert.Spec.xn (fun (r : Fin 512) (j : Fin 128) => ∑ x : Fin 256, m2 v71 r x * m2 v73 x j) p q := by
  subst h37
  unfold k0_pay23
  refine (normRows_apply _ _ _ _ _ _ p q).trans ?_
  have e : m2 (matmul dot_S512x256_S256x128_S512x128_1_0_0_1_n_n none v71 v73 (constant (F := Ideal) S512x128 .f32 0x00000000#32))
      = fun (r : Fin 512) (j : Fin 128) => ∑ x : Fin 256, m2 v71 r x * m2 v73 x j :=
    funext fun r => funext fun j => matmul_512x256x128_apply v71 v73 r j
  exact congrArg (fun Y => Cert.Spec.xn Y p q) e

/-- The second accumulator of squares: the old value plus the tile's sum of the squared normalised projections. -/
theorem pay24_apply (v71 : FVec Ideal S512x256 .f32) (v73 : FVec Ideal S256x128 .f32) (cst_37 : FVec Ideal S512x128 .f32)
    (h37 : cst_37 = constant (F := Ideal) S512x128 .f32 0x00000000#32) (v86 : Vec Ideal S1x1 .f32) (u w : Fin 1) :
    k0_pay24 (F := Ideal) v71 v73 cst_37 v86 (ix2 u w)
      = v86 (ix2 u w) + ∑ r : Fin 512, ∑ j : Fin 128,
          Cert.Spec.xn (fun (r : Fin 512) (j : Fin 128) => ∑ x : Fin 256, m2 v71 r x * m2 v73 x j) r j
            * Cert.Spec.xn (fun (r : Fin 512) (j : Fin 128) => ∑ x : Fin 256, m2 v71 r x * m2 v73 x j) r j := by
  unfold k0_pay24
  refine (sqAcc_apply (k0_pay23 (F := Ideal) v71 v73 cst_37) v86 _ _ _ _ _ _ _ _ _ u w).trans ?_
  refine congrArg (v86 (ix2 u w) + ·) (Finset.sum_congr rfl fun r _ => Finset.sum_congr rfl fun j _ => ?_)
  rw [pay23_apply v71 v73 cst_37 h37 r j]

/-- The second accumulator row: the old row plus the tile's `Σ_r yn r q · Σ_x xn r x`. -/
theorem pay25_apply (v71 : FVec Ideal S512x256 .f32) (v73 : FVec Ideal S256x128 .f32) (cst_37 : FVec Ideal S512x128 .f32)
    (h37 : cst_37 = constant (F := Ideal) S512x128 .f32 0x00000000#32) (v93 : Vec Ideal S1x128 .f32) (u : Fin 1) (q : Fin 128) :
    k0_pay25 (F := Ideal) v71 v73 cst_37 v93 (ix2 u q)
      = v93 (ix2 u q) + ∑ r : Fin 512,
          Cert.Spec.xn (fun (r : Fin 512) (j : Fin 128) => ∑ x : Fin 256, m2 v71 r x * m2 v73 x j) r q
            * ∑ x : Fin 256, m2 v71 r x := by
  unfold k0_pay25
  refine (sdAcc_apply v71 (k0_pay23 (F := Ideal) v71 v73 cst_37) v93 _ _ _ _ _ _ _ _ _ _ u q).trans ?_
  refine congrArg (v93 (ix2 u q) + ·) (Finset.sum_congr rfl fun r _ => ?_)
  rw [pay23_apply v71 v73 cst_37 h37 r q]
  rfl

/-- The third layer's block before its mask: `max (X·WT + b) 0`. -/
theorem pay26_apply (v65 : FVec Ideal S512x128 .f32) (v102 : Vec Ideal S128x64 .f32) (v105 : Vec Ideal S1x64 .f32)
    (p : Fin 512) (q : Fin 64) :
    k0_pay26 (F := Ideal) v65 v102 v105 (ix2 p q)
      = Cert.Spec.linOut (m2 v65) (fun j x => m2 v102 x j) (fun j => v105 (ix2 0 j)) p q := by
  unfold k0_pay26
  refine (linOut_core _ _ _ (ix2 p q) _ _ (matmul_512x128x64_cast_apply v65 v102 _ p q)
    (rowBcast_apply v105 _ _ p q) (zeroSplat_apply _)).trans ?_
  rfl

/-- The mask applied: the entry times the mask row's entry. -/
theorem pay27_apply (v110 : FVec Ideal S512x64 .f32) (v111 : Vec Ideal S1x64 .f32) (p : Fin 512) (q : Fin 64) :
    k0_pay27 (F := Ideal) v110 v111 (ix2 p q) = v110 (ix2 p q) * v111 (ix2 0 q) := by
  unfold k0_pay27
  show v110 (ix2 p q) * broadcastTo S512x64 (shapeCast S1x64 v111 _) _ (ix2 p q) = _
  exact congrArg (v110 (ix2 p q) * ·) (rowBcast_apply v111 _ _ p q)

/-- The third layer's block from the second's, the two steps together. -/
theorem pay27_pay26_apply (v65 : FVec Ideal S512x128 .f32) (v102 : Vec Ideal S128x64 .f32) (v105 v111 : Vec Ideal S1x64 .f32)
    (p : Fin 512) (q : Fin 64) :
    k0_pay27 (F := Ideal) (k0_pay26 (F := Ideal) v65 v102 v105) v111 (ix2 p q)
      = Cert.Spec.lin (m2 v65) (fun j x => m2 v102 x j) (fun j => v105 (ix2 0 j)) (fun j => v111 (ix2 0 j)) p q := by
  rw [pay27_apply, pay26_apply]
  rfl

/-- The second layer's block with each row divided by its norm. -/
theorem pay28_apply (v65 : FVec Ideal S512x128 .f32) (p : Fin 512) (q : Fin 128) :
    k0_pay28 (F := Ideal) v65 (ix2 p q) = Cert.Spec.xn (m2 v65) p q := by
  unfold k0_pay28
  exact normRows_apply v65 _ _ _ _ _ p q

/-- The third layer's normalised projections. -/
theorem pay29_apply (v65 : FVec Ideal S512x128 .f32) (v121 : Vec Ideal S128x64 .f32) (p : Fin 512) (q : Fin 64) :
    k0_pay29 (F := Ideal) v65 v121 (ix2 p q) = Cert.Spec.yn (m2 v65) (fun j x => m2 v121 x j) p q := by
  unfold k0_pay29
  refine (normRows_apply _ _ _ _ _ _ p q).trans ?_
  have e : m2 (matmul dot_S512x128_S128x64_S512x64_1_0_0_1_n_n none (k0_pay28 (F := Ideal) v65) (shapeCast S128x64 v121 shapeCasts_S128x64_S128x64)
        (constant (F := Ideal) S512x64 .f32 0x00000000#32))
      = Cert.Spec.yv (m2 v65) (fun j x => m2 v121 x j) :=
    funext fun r => funext fun j => (matmul_512x128x64_cast_apply (k0_pay28 (F := Ideal) v65) v121 _ r j).trans
      (Finset.sum_congr rfl fun x _ => congrArg (· * v121 (ix2 x j)) (pay28_apply v65 r x))
  exact congrArg (fun Y => Cert.Spec.xn Y p q) e

/-- The third accumulator of squares: the old value plus the tile's `sqtot`. -/
theorem pay30_apply (v65 : FVec Ideal S512x128 .f32) (v121 : Vec Ideal S128x64 .f32) (v135 : Vec Ideal S1x1 .f32) (u w : Fin 1) :
    k0_pay30 (F := Ideal) v65 v121 v135 (ix2 u w)
      = v135 (ix2 u w) + Cert.Spec.sqtot (m2 v65) (fun j x => m2 v121 x j) := by
  unfold k0_pay30
  refine (sqAcc_apply (k0_pay29 (F := Ideal) v65 v121) v135 _ _ _ _ _ _ _ _ _ u w).trans ?_
  refine congrArg (v135 (ix2 u w) + ·) (Finset.sum_congr rfl fun r _ => Finset.sum_congr rfl fun j _ => ?_)
  rw [pay29_apply v65 v121 r j]

/-- The third accumulator row: the old row plus the tile's `sd`. -/
theorem pay31_apply (v65 : FVec Ideal S512x128 .f32) (v121 : Vec Ideal S128x64 .f32) (v142 : Vec Ideal S1x64 .f32) (u : Fin 1) (q : Fin 64) :
    k0_pay31 (F := Ideal) v65 v121 v142 (ix2 u q)
      = v142 (ix2 u q) + Cert.Spec.sd (m2 v65) (fun j x => m2 v121 x j) q := by
  unfold k0_pay31
  refine (sdAcc_apply (k0_pay28 (F := Ideal) v65) (k0_pay29 (F := Ideal) v65 v121) v142 _ _ _ _ _ _ _ _ _ _ u q).trans ?_
  refine congrArg (v142 (ix2 u q) + ·) (Finset.sum_congr rfl fun r _ => ?_)
  rw [pay29_apply v65 v121 r q]
  refine congrArg (Cert.Spec.yn (m2 v65) (fun j x => m2 v121 x j) r q * ·) (Finset.sum_congr rfl fun x _ => ?_)
  exact pay28_apply v65 r x

/-- The output block: `max (X·WT + b) 0`. -/
theorem pay1_apply (v114 : FVec Ideal S512x64 .f32) (v151 : Vec Ideal S64x1000 .f32) (v154 : Vec Ideal S1x1000 .f32)
    (p : Fin 512) (q : Fin 1000) :
    k0_pay1 (F := Ideal) v114 v151 v154 (ix2 p q)
      = Cert.Spec.linOut (m2 v114) (fun j x => m2 v151 x j) (fun j => v154 (ix2 0 j)) p q := by
  unfold k0_pay1
  refine (linOut_core _ _ _ (ix2 p q) _ _ (matmul_512x64x1000_cast_apply v114 v151 _ p q)
    (rowBcast_apply v154 _ _ p q) (zeroSplat_apply _)).trans ?_
  rfl

/-- An accumulator row over the eight rows of its output block: entry `(p, q)` is the row's `(0, q)`. -/
theorem pay2_apply (v164 : Vec Ideal S1x1 .f32) (p : Fin 8) (q : Fin 1) :
    k0_pay2 (F := Ideal) v164 (ix2 p q) = v164 (ix2 0 q) := by
  unfold k0_pay2
  exact rowBcast_apply v164 _ _ p q

/-- An accumulator row over the eight rows of its output block: entry `(p, q)` is the row's `(0, q)`. -/
theorem pay3_apply (v168 : Vec Ideal S1x256 .f32) (p : Fin 8) (q : Fin 256) :
    k0_pay3 (F := Ideal) v168 (ix2 p q) = v168 (ix2 0 q) := by
  unfold k0_pay3
  exact rowBcast_apply v168 _ _ p q

/-- An accumulator row over the eight rows of its output block: entry `(p, q)` is the row's `(0, q)`. -/
theorem pay4_apply (v172 : Vec Ideal S1x1 .f32) (p : Fin 8) (q : Fin 1) :
    k0_pay4 (F := Ideal) v172 (ix2 p q) = v172 (ix2 0 q) := by
  unfold k0_pay4
  exact rowBcast_apply v172 _ _ p q

/-- An accumulator row over the eight rows of its output block: entry `(p, q)` is the row's `(0, q)`. -/
theorem pay5_apply (v176 : Vec Ideal S1x128 .f32) (p : Fin 8) (q : Fin 128) :
    k0_pay5 (F := Ideal) v176 (ix2 p q) = v176 (ix2 0 q) := by
  unfold k0_pay5
  exact rowBcast_apply v176 _ _ p q

/-- An accumulator row over the eight rows of its output block: entry `(p, q)` is the row's `(0, q)`. -/
theorem pay6_apply (v180 : Vec Ideal S1x1 .f32) (p : Fin 8) (q : Fin 1) :
    k0_pay6 (F := Ideal) v180 (ix2 p q) = v180 (ix2 0 q) := by
  unfold k0_pay6
  exact rowBcast_apply v180 _ _ p q

/-- An accumulator row over the eight rows of its output block: entry `(p, q)` is the row's `(0, q)`. -/
theorem pay7_apply (v184 : Vec Ideal S1x64 .f32) (p : Fin 8) (q : Fin 64) :
    k0_pay7 (F := Ideal) v184 (ix2 p q) = v184 (ix2 0 q) := by
  unfold k0_pay7
  exact rowBcast_apply v184 _ _ p q

/-- The second layer's normalised projections, from the first layer's block and the transposed Hebbian matrix. -/
theorem pay23_comp_apply (v16 : FVec Ideal S512x256 .f32) (v72 : Vec Ideal S256x128 .f32) (p : Fin 512) (q : Fin 128) :
    k0_pay23 (F := Ideal) (k0_pay21 (F := Ideal) v16) (k0_pay22 (F := Ideal) v72) (constant (F := Ideal) S512x128 .f32 0x00000000#32) (ix2 p q)
      = Cert.Spec.yn (m2 v16) (fun j x => m2 v72 x j) p q := by
  rw [pay23_apply _ _ _ rfl, pay22_eq]
  have e : m2 (k0_pay21 (F := Ideal) v16) = Cert.Spec.xn (m2 v16) := funext fun r => funext fun x => pay21_apply v16 r x
  rw [e]
  rfl

/-- The second accumulator of squares, likewise: the old value plus the tile's `sqtot`. -/
theorem pay24_comp_apply (v16 : FVec Ideal S512x256 .f32) (v72 : Vec Ideal S256x128 .f32) (v86 : Vec Ideal S1x1 .f32) (u w : Fin 1) :
    k0_pay24 (F := Ideal) (k0_pay21 (F := Ideal) v16) (k0_pay22 (F := Ideal) v72) (constant (F := Ideal) S512x128 .f32 0x00000000#32) v86 (ix2 u w)
      = v86 (ix2 u w) + Cert.Spec.sqtot (m2 v16) (fun j x => m2 v72 x j) := by
  rw [pay24_apply _ _ _ rfl, pay22_eq]
  have e : m2 (k0_pay21 (F := Ideal) v16) = Cert.Spec.xn (m2 v16) := funext fun r => funext fun x => pay21_apply v16 r x
  rw [e]
  rfl

/-- The second accumulator row, likewise: the old row plus the tile's `sd`. -/
theorem pay25_comp_apply (v16 : FVec Ideal S512x256 .f32) (v72 : Vec Ideal S256x128 .f32) (v93 : Vec Ideal S1x128 .f32) (u : Fin 1) (q : Fin 128) :
    k0_pay25 (F := Ideal) (k0_pay21 (F := Ideal) v16) (k0_pay22 (F := Ideal) v72) (constant (F := Ideal) S512x128 .f32 0x00000000#32) v93 (ix2 u q)
      = v93 (ix2 u q) + Cert.Spec.sd (m2 v16) (fun j x => m2 v72 x j) q := by
  rw [pay25_apply _ _ _ rfl, pay22_eq]
  have e : m2 (k0_pay21 (F := Ideal) v16) = Cert.Spec.xn (m2 v16) := funext fun r => funext fun x => pay21_apply v16 r x
  rw [e]
  rfl

end Cert.KernelIdeal.Pay

end
-- ==== Proof.ValOut.lean ====
/-
  The network's output array after the run, at the ideal values.

  At every grid point the body stores ONE whole block into the output window: the four layers
  `relu (X Wᵀ + b) * mask` (the last without a mask) applied in turn to the point's block of 512 rows of the batch,
  over the transposed weight matrices, bias rows and mask rows the constant windows hold. A layer reads its input
  only through the row it is evaluated at, so row `p` of the block at point `t` is row `512 * t + p` of the
  network's output; the sixteen blocks tile the array, which therefore ends holding the network's output everywhere.
-/
import proofs.«423609_j13907104104967_3_alg».proof.Proof.KI.Frame
import proofs.«423609_j13907104104967_3_alg».proof.Proof.KI.PiecesAB
import proofs.«423609_j13907104104967_3_alg».proof.Proof.KI.PiecesC
import proofs.«423609_j13907104104967_3_alg».proof.Proof.Tail
import proofs.«423609_j13907104104967_3_alg».proof.Proof.Pay1
import proofs.«423609_j13907104104967_3_alg».proof.Proof.Pay2
import proofs.«423609_j13907104104967_3_alg».proof.Proof.Model
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.SL.Sem
open Idealize.ShloMosaic.Pipeline (Dat)
open Cert.Spec

/-! ## The output block as a function of the input blocks -/

section Block
variable {F : FTy → Type} [FloatOps F]

/-- What the body stores into the output block: the four layers applied in turn to the block of the batch, each
    over its transposed weights, its bias row and (but for the last) its mask row. -/
def outBlk (x0 : Vec F S512x1024 .f32) (x1 : Vec F S1024x256 .f32) (x2 x3 : Vec F S1x256 .f32)
    (x5 : Vec F S256x128 .f32) (x6 x7 : Vec F S1x128 .f32) (x9 : Vec F S128x64 .f32) (x10 x11 : Vec F S1x64 .f32)
    (x13 : Vec F S64x1000 .f32) (x14 : Vec F S1x1000 .f32) : Vec F S512x1000 .f32 :=
  k0_pay1 (k0_pay27 (k0_pay26 (k0_pay20 (k0_pay14 x0 x1 x2 x3) x5 x6 x7) x9 x10) x11) x13 x14

end Block

/-! ## The layers' payloads at an index (ideal values) -/

theorem pay14_at (v3 : FVec Ideal S512x1024 .f32) (v4 : FVec Ideal S1024x256 .f32) (v7 v13 : FVec Ideal S1x256 .f32)
    (p : Fin 512) (j : Fin 256) :
    k0_pay14 (F := Ideal) v3 v4 v7 v13 (ix2 p j)
      = lin (m2 v3) (fun j x => v4 (ix2 x j)) (fun j => v7 (ix2 (0 : Fin 1) j)) (fun j => v13 (ix2 (0 : Fin 1) j)) p j :=
  Pay.pay14_apply v3 v4 v7 v13 p j

theorem pay20_at (v16 : FVec Ideal S512x256 .f32) (v53 : FVec Ideal S256x128 .f32) (v56 v62 : FVec Ideal S1x128 .f32)
    (p : Fin 512) (j : Fin 128) :
    k0_pay20 (F := Ideal) v16 v53 v56 v62 (ix2 p j)
      = lin (m2 v16) (fun j x => v53 (ix2 x j)) (fun j => v56 (ix2 (0 : Fin 1) j)) (fun j => v62 (ix2 (0 : Fin 1) j)) p j :=
  Pay.pay20_apply v16 v53 v56 v62 p j

theorem pay27_at (v65 : FVec Ideal S512x128 .f32) (v102 : FVec Ideal S128x64 .f32) (v105 v111 : FVec Ideal S1x64 .f32)
    (p : Fin 512) (j : Fin 64) :
    k0_pay27 (F := Ideal) (k0_pay26 (F := Ideal) v65 v102 v105) v111 (ix2 p j)
      = lin (m2 v65) (fun j x => v102 (ix2 x j)) (fun j => v105 (ix2 (0 : Fin 1) j)) (fun j => v111 (ix2 (0 : Fin 1) j)) p j :=
  Pay.pay27_pay26_apply v65 v102 v105 v111 p j

theorem pay1_at (v114 : FVec Ideal S512x64 .f32) (v151 : FVec Ideal S64x1000 .f32) (v154 : FVec Ideal S1x1000 .f32)
    (p : Fin 512) (j : Fin 1000) :
    k0_pay1 (F := Ideal) v114 v151 v154 (ix2 p j)
      = linOut (m2 v114) (fun j x => v151 (ix2 x j)) (fun j => v154 (ix2 (0 : Fin 1) j)) p j :=
  Pay.pay1_apply v114 v151 v154 p j

/-! ## A layer depends on its input only through the row it is read at -/

theorem lin_congr {ι ι' ξ κ : Type} [Fintype ξ] (X : ι → ξ → EReal) (X' : ι' → ξ → EReal) (W W' : κ → ξ → EReal)
    (b b' mk mk' : κ → EReal) (r : ι) (r' : ι') (hX : ∀ x, X r x = X' r' x) (hW : ∀ j x, W j x = W' j x)
    (hb : ∀ j, b j = b' j) (hm : ∀ j, mk j = mk' j) (j : κ) : lin X W b mk r j = lin X' W' b' mk' r' j := by
  unfold lin
  rw [hb j, hm j]
  congr 3
  exact Finset.sum_congr rfl fun x _ => by rw [hX x, hW j x]

theorem linOut_congr {ι ι' ξ κ : Type} [Fintype ξ] (X : ι → ξ → EReal) (X' : ι' → ξ → EReal) (W W' : κ → ξ → EReal)
    (b b' : κ → EReal) (r : ι) (r' : ι') (hX : ∀ x, X r x = X' r' x) (hW : ∀ j x, W j x = W' j x)
    (hb : ∀ j, b j = b' j) (j : κ) : linOut X W b r j = linOut X' W' b' r' j := by
  unfold linOut
  rw [hb j]
  congr 2
  exact Finset.sum_congr rfl fun x _ => by rw [hX x, hW j x]

/-! ## The output block is the network's output on the block's rows -/

section Net
variable (X : FVec Ideal S8192x1024 .f32)
  (mask0 : FVec Ideal S256 .f32) (mask1 : FVec Ideal S128 .f32) (mask2 : FVec Ideal S64 .f32)
  (W1 : FVec Ideal S256x1024 .f32) (b1 : FVec Ideal S256 .f32) (W2 : FVec Ideal S128x256 .f32) (b2 : FVec Ideal S128 .f32)
  (W3 : FVec Ideal S64x128 .f32) (b3 : FVec Ideal S64 .f32) (W4 : FVec Ideal S1000x64 .f32) (b4 : FVec Ideal S1000 .f32)

theorem outBlk_at (R : Fin 8192) (p : Fin 512)
    (x0 : FVec Ideal S512x1024 .f32) (hx0 : ∀ x, x0 (ix2 p x) = X (ix2 R x))
    (x1 : FVec Ideal S1024x256 .f32) (hx1 : ∀ x j, x1 (ix2 x j) = W1 (ix2 j x))
    (x2 : FVec Ideal S1x256 .f32) (hx2 : ∀ j, x2 (ix2 (0 : Fin 1) j) = b1 (ix1 j))
    (x3 : FVec Ideal S1x256 .f32) (hx3 : ∀ j, x3 (ix2 (0 : Fin 1) j) = mask0 (ix1 j))
    (x5 : FVec Ideal S256x128 .f32) (hx5 : ∀ x j, x5 (ix2 x j) = W2 (ix2 j x))
    (x6 : FVec Ideal S1x128 .f32) (hx6 : ∀ j, x6 (ix2 (0 : Fin 1) j) = b2 (ix1 j))
    (x7 : FVec Ideal S1x128 .f32) (hx7 : ∀ j, x7 (ix2 (0 : Fin 1) j) = mask1 (ix1 j))
    (x9 : FVec Ideal S128x64 .f32) (hx9 : ∀ x j, x9 (ix2 x j) = W3 (ix2 j x))
    (x10 : FVec Ideal S1x64 .f32) (hx10 : ∀ j, x10 (ix2 (0 : Fin 1) j) = b3 (ix1 j))
    (x11 : FVec Ideal S1x64 .f32) (hx11 : ∀ j, x11 (ix2 (0 : Fin 1) j) = mask2 (ix1 j))
    (x13 : FVec Ideal S64x1000 .f32) (hx13 : ∀ x j, x13 (ix2 x j) = W4 (ix2 j x))
    (x14 : FVec Ideal S1x1000 .f32) (hx14 : ∀ j, x14 (ix2 (0 : Fin 1) j) = b4 (ix1 j))
    (q : Fin 1000) :
    outBlk (F := Ideal) x0 x1 x2 x3 x5 x6 x7 x9 x10 x11 x13 x14 (ix2 p q)
      = netOut X mask0 mask1 mask2 W1 b1 W2 b2 W3 b3 W4 b4 R q := by
  have L1 : ∀ j, k0_pay14 (F := Ideal) x0 x1 x2 x3 (ix2 p j) = X2 X mask0 W1 b1 R j := fun j =>
    (pay14_at x0 x1 x2 x3 p j).trans
      (lin_congr (m2 x0) (X1 X) (fun j x => x1 (ix2 x j)) (m2 W1) (fun j => x2 (ix2 (0 : Fin 1) j)) (v1 b1)
        (fun j => x3 (ix2 (0 : Fin 1) j)) (v1 mask0) p R hx0 (fun j x => hx1 x j) hx2 hx3 j)
  have L2 : ∀ j, k0_pay20 (F := Ideal) (k0_pay14 (F := Ideal) x0 x1 x2 x3) x5 x6 x7 (ix2 p j)
      = X3 X mask0 mask1 W1 b1 W2 b2 R j := fun j =>
    (pay20_at (k0_pay14 (F := Ideal) x0 x1 x2 x3) x5 x6 x7 p j).trans
      (lin_congr (m2 (k0_pay14 (F := Ideal) x0 x1 x2 x3)) (X2 X mask0 W1 b1) (fun j x => x5 (ix2 x j)) (m2 W2)
        (fun j => x6 (ix2 (0 : Fin 1) j)) (v1 b2) (fun j => x7 (ix2 (0 : Fin 1) j)) (v1 mask1) p R L1 (fun j x => hx5 x j) hx6 hx7 j)
  have L3 : ∀ j, k0_pay27 (F := Ideal) (k0_pay26 (F := Ideal) (k0_pay20 (F := Ideal) (k0_pay14 (F := Ideal) x0 x1 x2 x3) x5 x6 x7) x9 x10) x11 (ix2 p j)
      = X4 X mask0 mask1 mask2 W1 b1 W2 b2 W3 b3 R j := fun j =>
    (pay27_at (k0_pay20 (F := Ideal) (k0_pay14 (F := Ideal) x0 x1 x2 x3) x5 x6 x7) x9 x10 x11 p j).trans
      (lin_congr (m2 (k0_pay20 (F := Ideal) (k0_pay14 (F := Ideal) x0 x1 x2 x3) x5 x6 x7)) (X3 X mask0 mask1 W1 b1 W2 b2)
        (fun j x => x9 (ix2 x j)) (m2 W3) (fun j => x10 (ix2 (0 : Fin 1) j)) (v1 b3) (fun j => x11 (ix2 (0 : Fin 1) j)) (v1 mask2)
        p R L2 (fun j x => hx9 x j) hx10 hx11 j)
  exact (pay1_at (k0_pay27 (F := Ideal) (k0_pay26 (F := Ideal) (k0_pay20 (F := Ideal) (k0_pay14 (F := Ideal) x0 x1 x2 x3) x5 x6 x7) x9 x10) x11) x13 x14 p q).trans
    (linOut_congr (m2 (k0_pay27 (F := Ideal) (k0_pay26 (F := Ideal) (k0_pay20 (F := Ideal) (k0_pay14 (F := Ideal) x0 x1 x2 x3) x5 x6 x7) x9 x10) x11))
      (X4 X mask0 mask1 mask2 W1 b1 W2 b2 W3 b3) (fun j x => x13 (ix2 x j)) (m2 W4) (fun j => x14 (ix2 (0 : Fin 1) j)) (v1 b4)
      p R L3 (fun j x => hx13 x j) hx14 q)

end Net

variable (m : (ℓ : Loc nD τ sig) → Buf (Elt Ideal) ℓ)

/-! ## The input blocks read off their arrays -/

/-- The batch window and the output window walk the sixteen row blocks in step with the grid. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_15 : ∀ t : Fin cfg0.N, win0_15.index t 0 = t.val ∧ win0_15.index t 1 = 0 :=
  (by decide +kernel : ∀ t : Fin grid0.N, win0_15.index t 0 = t.val ∧ win0_15.index t 1 = 0)
/-- The constant windows stay on their one block. -/
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
theorem idx0_7 : ∀ t : Fin cfg0.N, win0_7.index t 0 = 0 ∧ win0_7.index t 1 = 0 :=
  (by decide +kernel : ∀ t : Fin grid0.N, win0_7.index t 0 = 0 ∧ win0_7.index t 1 = 0)
theorem idx0_9 : ∀ t : Fin cfg0.N, win0_9.index t 0 = 0 ∧ win0_9.index t 1 = 0 :=
  (by decide +kernel : ∀ t : Fin grid0.N, win0_9.index t 0 = 0 ∧ win0_9.index t 1 = 0)
theorem idx0_10 : ∀ t : Fin cfg0.N, win0_10.index t 0 = 0 ∧ win0_10.index t 1 = 0 :=
  (by decide +kernel : ∀ t : Fin grid0.N, win0_10.index t 0 = 0 ∧ win0_10.index t 1 = 0)
theorem idx0_11 : ∀ t : Fin cfg0.N, win0_11.index t 0 = 0 ∧ win0_11.index t 1 = 0 :=
  (by decide +kernel : ∀ t : Fin grid0.N, win0_11.index t 0 = 0 ∧ win0_11.index t 1 = 0)
theorem idx0_13 : ∀ t : Fin cfg0.N, win0_13.index t 0 = 0 ∧ win0_13.index t 1 = 0 :=
  (by decide +kernel : ∀ t : Fin grid0.N, win0_13.index t 0 = 0 ∧ win0_13.index t 1 = 0)
theorem idx0_14 : ∀ t : Fin cfg0.N, win0_14.index t 0 = 0 ∧ win0_14.index t 1 = 0 :=
  (by decide +kernel : ∀ t : Fin grid0.N, win0_14.index t 0 = 0 ∧ win0_14.index t 1 = 0)

/-- Row `p` of the batch's block at point `t` is row `512 * t + p` of the batch. -/
theorem iblk0_apply (c : Dev nD) (t : Fin cfg0.N) (p : Fin 512) (x : Fin 1024) (R : Fin 8192) (hR : R.val = 512 * t.val + p.val) :
    (iblk m c 0 t : FVec Ideal S512x1024 .f32) (ix2 p x) = (V m c main_arg0 : FVec Ideal S8192x1024 .f32) (ix2 R x) := by
  unfold iblk
  rw [View.read_apply]
  show V m c main_arg0 _ = V m c main_arg0 _
  congr 1
  funext a
  apply Fin.ext
  match a with
  | ⟨0, _⟩ => show win0_0.index t 0 * 512 + 1 * p.val = R.val; rw [(idx0_0 t).1, hR]; omega
  | ⟨1, _⟩ => show win0_0.index t 1 * 1024 + 1 * x.val = x.val; rw [(idx0_0 t).2]; omega

/-! A constant window's block is its whole array. -/
theorem iblk1_eq (c : Dev nD) (t : Fin cfg0.N) : (iblk m c 1 t : FVec Ideal S1024x256 .f32) = V m c main_v0 := by
  funext j
  unfold iblk
  rw [View.read_apply]
  show V m c main_v0 _ = V m c main_v0 j
  congr 1
  funext a
  apply Fin.ext
  match a with
  | ⟨0, _⟩ => show win0_1.index t 0 * 1024 + 1 * (j 0).val = (j 0).val; rw [(idx0_1 t).1]; omega
  | ⟨1, _⟩ => show win0_1.index t 1 * 256 + 1 * (j 1).val = (j 1).val; rw [(idx0_1 t).2]; omega
theorem iblk2_eq (c : Dev nD) (t : Fin cfg0.N) : (iblk m c 2 t : FVec Ideal S1x256 .f32) = V m c main_v10 := by
  funext j
  unfold iblk
  rw [View.read_apply]
  show V m c main_v10 _ = V m c main_v10 j
  congr 1
  funext a
  apply Fin.ext
  match a with
  | ⟨0, _⟩ => show win0_2.index t 0 * 1 + 1 * (j 0).val = (j 0).val; rw [(idx0_2 t).1]; omega
  | ⟨1, _⟩ => show win0_2.index t 1 * 256 + 1 * (j 1).val = (j 1).val; rw [(idx0_2 t).2]; omega
theorem iblk3_eq (c : Dev nD) (t : Fin cfg0.N) : (iblk m c 3 t : FVec Ideal S1x256 .f32) = V m c main_v11 := by
  funext j
  unfold iblk
  rw [View.read_apply]
  show V m c main_v11 _ = V m c main_v11 j
  congr 1
  funext a
  apply Fin.ext
  match a with
  | ⟨0, _⟩ => show win0_3.index t 0 * 1 + 1 * (j 0).val = (j 0).val; rw [(idx0_3 t).1]; omega
  | ⟨1, _⟩ => show win0_3.index t 1 * 256 + 1 * (j 1).val = (j 1).val; rw [(idx0_3 t).2]; omega
theorem iblk5_eq (c : Dev nD) (t : Fin cfg0.N) : (iblk m c 5 t : FVec Ideal S256x128 .f32) = V m c main_v1 := by
  funext j
  unfold iblk
  rw [View.read_apply]
  show V m c main_v1 _ = V m c main_v1 j
  congr 1
  funext a
  apply Fin.ext
  match a with
  | ⟨0, _⟩ => show win0_5.index t 0 * 256 + 1 * (j 0).val = (j 0).val; rw [(idx0_5 t).1]; omega
  | ⟨1, _⟩ => show win0_5.index t 1 * 128 + 1 * (j 1).val = (j 1).val; rw [(idx0_5 t).2]; omega
theorem iblk6_eq (c : Dev nD) (t : Fin cfg0.N) : (iblk m c 6 t : FVec Ideal S1x128 .f32) = V m c main_v12 := by
  funext j
  unfold iblk
  rw [View.read_apply]
  show V m c main_v12 _ = V m c main_v12 j
  congr 1
  funext a
  apply Fin.ext
  match a with
  | ⟨0, _⟩ => show win0_6.index t 0 * 1 + 1 * (j 0).val = (j 0).val; rw [(idx0_6 t).1]; omega
  | ⟨1, _⟩ => show win0_6.index t 1 * 128 + 1 * (j 1).val = (j 1).val; rw [(idx0_6 t).2]; omega
theorem iblk7_eq (c : Dev nD) (t : Fin cfg0.N) : (iblk m c 7 t : FVec Ideal S1x128 .f32) = V m c main_v13 := by
  funext j
  unfold iblk
  rw [View.read_apply]
  show V m c main_v13 _ = V m c main_v13 j
  congr 1
  funext a
  apply Fin.ext
  match a with
  | ⟨0, _⟩ => show win0_7.index t 0 * 1 + 1 * (j 0).val = (j 0).val; rw [(idx0_7 t).1]; omega
  | ⟨1, _⟩ => show win0_7.index t 1 * 128 + 1 * (j 1).val = (j 1).val; rw [(idx0_7 t).2]; omega
theorem iblk9_eq (c : Dev nD) (t : Fin cfg0.N) : (iblk m c 9 t : FVec Ideal S128x64 .f32) = V m c main_v2 := by
  funext j
  unfold iblk
  rw [View.read_apply]
  show V m c main_v2 _ = V m c main_v2 j
  congr 1
  funext a
  apply Fin.ext
  match a with
  | ⟨0, _⟩ => show win0_9.index t 0 * 128 + 1 * (j 0).val = (j 0).val; rw [(idx0_9 t).1]; omega
  | ⟨1, _⟩ => show win0_9.index t 1 * 64 + 1 * (j 1).val = (j 1).val; rw [(idx0_9 t).2]; omega
theorem iblk10_eq (c : Dev nD) (t : Fin cfg0.N) : (iblk m c 10 t : FVec Ideal S1x64 .f32) = V m c main_v14 := by
  funext j
  unfold iblk
  rw [View.read_apply]
  show V m c main_v14 _ = V m c main_v14 j
  congr 1
  funext a
  apply Fin.ext
  match a with
  | ⟨0, _⟩ => show win0_10.index t 0 * 1 + 1 * (j 0).val = (j 0).val; rw [(idx0_10 t).1]; omega
  | ⟨1, _⟩ => show win0_10.index t 1 * 64 + 1 * (j 1).val = (j 1).val; rw [(idx0_10 t).2]; omega
theorem iblk11_eq (c : Dev nD) (t : Fin cfg0.N) : (iblk m c 11 t : FVec Ideal S1x64 .f32) = V m c main_v15 := by
  funext j
  unfold iblk
  rw [View.read_apply]
  show V m c main_v15 _ = V m c main_v15 j
  congr 1
  funext a
  apply Fin.ext
  match a with
  | ⟨0, _⟩ => show win0_11.index t 0 * 1 + 1 * (j 0).val = (j 0).val; rw [(idx0_11 t).1]; omega
  | ⟨1, _⟩ => show win0_11.index t 1 * 64 + 1 * (j 1).val = (j 1).val; rw [(idx0_11 t).2]; omega
theorem iblk13_eq (c : Dev nD) (t : Fin cfg0.N) : (iblk m c 13 t : FVec Ideal S64x1000 .f32) = V m c main_v3 := by
  funext j
  unfold iblk
  rw [View.read_apply]
  show V m c main_v3 _ = V m c main_v3 j
  congr 1
  funext a
  apply Fin.ext
  match a with
  | ⟨0, _⟩ => show win0_13.index t 0 * 64 + 1 * (j 0).val = (j 0).val; rw [(idx0_13 t).1]; omega
  | ⟨1, _⟩ => show win0_13.index t 1 * 1000 + 1 * (j 1).val = (j 1).val; rw [(idx0_13 t).2]; omega
theorem iblk14_eq (c : Dev nD) (t : Fin cfg0.N) : (iblk m c 14 t : FVec Ideal S1x1000 .f32) = V m c main_v16 := by
  funext j
  unfold iblk
  rw [View.read_apply]
  show V m c main_v16 _ = V m c main_v16 j
  congr 1
  funext a
  apply Fin.ext
  match a with
  | ⟨0, _⟩ => show win0_14.index t 0 * 1 + 1 * (j 0).val = (j 0).val; rw [(idx0_14 t).1]; omega
  | ⟨1, _⟩ => show win0_14.index t 1 * 1000 + 1 * (j 1).val = (j 1).val; rw [(idx0_14 t).2]; omega

/-! ## What every point leaves in the output block -/

/-- After the body at point `t` the output window's staging buffer holds the four layers of the point's input blocks,
    whatever kind of point `t` is: the output does not depend on the accumulators. -/
theorem outs15 (c : Dev nD) (t : Fin cfg0.N) :
    (outsAt0 m c t.val t.isLt).1
      = outBlk (F := Ideal) (iblk m c 0 t) (iblk m c 1 t) (iblk m c 2 t) (iblk m c 3 t) (iblk m c 5 t) (iblk m c 6 t) (iblk m c 7 t) (iblk m c 9 t) (iblk m c 10 t) (iblk m c 11 t) (iblk m c 13 t) (iblk m c 14 t) := by
  by_cases h0 : t.val % 8 = 0
  · have h1 : ¬t.val % 8 = 7 := by omega
    rw [outsAt0_A m c t h0 h1]
    dsimp only
    exact out0_A_15_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  · by_cases h1 : t.val % 8 = 7
    · rw [outsAt0_C m c t h0 h1]
      dsimp only
      exact out0_C_15_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2
    · rw [outsAt0_B m c t h0 h1]
      dsimp only
      exact out0_B_15_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2

/-! ## The output array -/

/-- The network's output as an array over the batch's rows and the 1000 classes. -/
abbrev G15 (c : Dev nD) : FVec Ideal S8192x1000 .f32 := fun i =>
  netOut (arg0 m c) (arg1 m c) (arg2 m c) (arg3 m c) (arg4 m c) (arg5 m c) (arg6 m c) (arg7 m c) (arg8 m c) (arg9 m c)
    (arg10 m c) (arg11 m c) (i 0) (i 1)

/-- Row `p` of the block point `t` stores is row `512 * t + p` of the network's output. -/
theorem blk15_at (c : Dev nD) (t : Fin cfg0.N) (p : Fin 512) (q : Fin 1000) (R : Fin 8192) (hR : R.val = 512 * t.val + p.val) :
    outBlk (F := Ideal) (iblk m c 0 t) (iblk m c 1 t) (iblk m c 2 t) (iblk m c 3 t) (iblk m c 5 t) (iblk m c 6 t) (iblk m c 7 t) (iblk m c 9 t) (iblk m c 10 t) (iblk m c 11 t) (iblk m c 13 t) (iblk m c 14 t) (ix2 p q)
      = netOut (arg0 m c) (arg1 m c) (arg2 m c) (arg3 m c) (arg4 m c) (arg5 m c) (arg6 m c) (arg7 m c) (arg8 m c) (arg9 m c)
          (arg10 m c) (arg11 m c) R q :=
  outBlk_at (arg0 m c) (arg1 m c) (arg2 m c) (arg3 m c) (arg4 m c) (arg5 m c) (arg6 m c) (arg7 m c) (arg8 m c) (arg9 m c)
    (arg10 m c) (arg11 m c) R p
    (iblk m c 0 t) (fun x => (iblk0_apply m c t p x R hR).trans (congrFun (V_main_arg0 m c) (ix2 R x)))
    (iblk m c 1 t) (fun x j => (congrFun (iblk1_eq m c t) (ix2 x j)).trans (congrFun (V_main_v0 m c) (ix2 x j)))
    (iblk m c 2 t) (fun j => (congrFun (iblk2_eq m c t) (ix2 (0 : Fin 1) j)).trans (congrFun (V_main_v10 m c) (ix2 (0 : Fin 1) j)))
    (iblk m c 3 t) (fun j => (congrFun (iblk3_eq m c t) (ix2 (0 : Fin 1) j)).trans (congrFun (V_main_v11 m c) (ix2 (0 : Fin 1) j)))
    (iblk m c 5 t) (fun x j => (congrFun (iblk5_eq m c t) (ix2 x j)).trans (congrFun (V_main_v1 m c) (ix2 x j)))
    (iblk m c 6 t) (fun j => (congrFun (iblk6_eq m c t) (ix2 (0 : Fin 1) j)).trans (congrFun (V_main_v12 m c) (ix2 (0 : Fin 1) j)))
    (iblk m c 7 t) (fun j => (congrFun (iblk7_eq m c t) (ix2 (0 : Fin 1) j)).trans (congrFun (V_main_v13 m c) (ix2 (0 : Fin 1) j)))
    (iblk m c 9 t) (fun x j => (congrFun (iblk9_eq m c t) (ix2 x j)).trans (congrFun (V_main_v2 m c) (ix2 x j)))
    (iblk m c 10 t) (fun j => (congrFun (iblk10_eq m c t) (ix2 (0 : Fin 1) j)).trans (congrFun (V_main_v14 m c) (ix2 (0 : Fin 1) j)))
    (iblk m c 11 t) (fun j => (congrFun (iblk11_eq m c t) (ix2 (0 : Fin 1) j)).trans (congrFun (V_main_v15 m c) (ix2 (0 : Fin 1) j)))
    (iblk m c 13 t) (fun x j => (congrFun (iblk13_eq m c t) (ix2 x j)).trans (congrFun (V_main_v3 m c) (ix2 x j)))
    (iblk m c 14 t) (fun j => (congrFun (iblk14_eq m c t) (ix2 (0 : Fin 1) j)).trans (congrFun (V_main_v16 m c) (ix2 (0 : Fin 1) j)))
    q

/-- WHAT POINT `t` WRITES BACK is block `t` of the network's output. -/
theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15, outs15]
  funext j
  rw [View.read_apply]
  have hN : cfg0.N = 16 := N_0
  have ht : t.val < 16 := hN ▸ t.isLt
  have hj0 : (j 0).val < 512 := (j 0).isLt
  have hemb : ((cfg0.win 15).blk t).view.emb j = ix2 (⟨512 * t.val + (j 0).val, by omega⟩ : Fin 8192) (j 1) := by
    funext a
    apply Fin.ext
    match a with
    | ⟨0, _⟩ => show win0_15.index t 0 * 512 + 1 * (j 0).val = 512 * t.val + (j 0).val; rw [(idx0_15 t).1]; omega
    | ⟨1, _⟩ => show win0_15.index t 1 * 1000 + 1 * (j 1).val = (j 1).val; rw [(idx0_15 t).2]; omega
  rw [hemb]
  exact (congrArg (outBlk (F := Ideal) (iblk m c 0 t) (iblk m c 1 t) (iblk m c 2 t) (iblk m c 3 t) (iblk m c 5 t) (iblk m c 6 t) (iblk m c 7 t) (iblk m c 9 t) (iblk m c 10 t) (iblk m c 11 t) (iblk m c 13 t) (iblk m c 14 t)) (eq_ix2 j)).trans
    (blk15_at m c t (j 0) (j 1) ⟨512 * t.val + (j 0).val, by omega⟩ rfl)

/-- An index of the array is in point `t`'s block iff each coordinate is in the block's range on its axis. -/
theorem mem_blk15 (t : Fin cfg0.N) (i : S8192x1000.Idx) :
    i ∈ ((cfg0.win 15).blk t).view.set ↔ ∀ a : Fin 2, win0_15.index t a * S512x1000.size a ≤ (i a).val ∧ (i a).val < win0_15.index t a * S512x1000.size a + S512x1000.size a := by
  show i ∈ ((View.whole main_v17_0).slice (win0_15.rect t)).set ↔ _
  rw [View.set_slice_whole, Rect.mem_set_unit]
  exact Iff.rfl

/-- The sixteen blocks tile the array: row `r` lies in the block of point `r / 512`. -/
theorem cover15 (i : S8192x1000.Idx) :
    ∃ t : Fin cfg0.N, (cfg0.win 15).flush t = true ∧ i ∈ ((cfg0.win 15).blk t).view.set := by
  have hN : cfg0.N = 16 := N_0
  have hi0 : (i 0).val < 8192 := (i 0).isLt
  have hi1 : (i 1).val < 1000 := (i 1).isLt
  refine ⟨⟨(i 0).val / 512, by omega⟩, flush0_15 _, ?_⟩
  rw [mem_blk15]
  intro a
  match a with
  | ⟨0, _⟩ =>
    show win0_15.index ⟨(i 0).val / 512, _⟩ (0 : Fin 2) * 512 ≤ (i 0).val ∧ (i 0).val < win0_15.index ⟨(i 0).val / 512, _⟩ (0 : Fin 2) * 512 + 512
    rw [(idx0_15 ⟨(i 0).val / 512, by omega⟩).1]
    dsimp only
    omega
  | ⟨1, _⟩ =>
    show win0_15.index ⟨(i 0).val / 512, _⟩ (1 : Fin 2) * 1000 ≤ (i 1).val ∧ (i 1).val < win0_15.index ⟨(i 0).val / 512, _⟩ (1 : Fin 2) * 1000 + 1000
    rw [(idx0_15 ⟨(i 0).val / 512, by omega⟩).2]
    omega

/-- THE OUTPUT ARRAY after the run is the network's output of the argument arrays as launched. -/
theorem arr15 (c : Dev nD) : ((dats m 0 c).arrAt 15 cfg0.N : S8192x1000.Idx → EReal) = fun i =>
    netOut (arg0 m c) (arg1 m c) (arg2 m c) (arg3 m c) (arg4 m c) (arg5 m c) (arg6 m c) (arg7 m c) (arg8 m c) (arg9 m c)
      (arg10 m c) (arg11 m c) (i 0) (i 1) :=
  (dats m 0 c).arrAt_eq_of_cover 15 (G15 m c) (fun t _ => flushed15_eq m c t) (cover15 ·)

end Cert.KernelIdeal.Val

end
-- ==== Proof.ValAcc.lean ====
/-
  The six per-core partial-sum arrays of the fused network's kernel, as values over the extended reals.

  The kernel runs sixteen grid points, eight per core. At every point it adds, to six accumulators it keeps between
  points, what the point's tile of 512 batch rows contributes to the three Hebbian layers: the total of the squared
  doubly normalised projections (one number per layer), and, column by column, the sum over the tile's rows of the
  normalised projection times the row sum of the normalised input (one row per layer). A core's first point starts the
  accumulators from zero; its last point copies them to the core's eight rows of six partial-sum arrays of sixteen rows.

  This module reads that off the run: what each kind of point leaves in the accumulators is the old contents plus the
  tile's term; by induction on the step, after step `i` of core `k` an accumulator holds the running total from zero of
  the terms of the core's tiles `0 … i`; the last point's write-back puts the total of all eight in each of the core's
  rows; and the two cores' blocks tile each array. So after the run row `r` of the arrays holds core `r / 8`'s totals
  `sqC` and `sdC` of the three layers' inputs against the three Hebbian matrices.
-/
import proofs.«423609_j13907104104967_3_alg».proof.Proof.KI.Frame
import proofs.«423609_j13907104104967_3_alg».proof.Proof.KI.PiecesAB
import proofs.«423609_j13907104104967_3_alg».proof.Proof.KI.PiecesC
import proofs.«423609_j13907104104967_3_alg».proof.Proof.Glue
import proofs.«423609_j13907104104967_3_alg».proof.Proof.Tail
import proofs.«423609_j13907104104967_3_alg».proof.Proof.Pay1
import proofs.«423609_j13907104104967_3_alg».proof.Proof.Pay2
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.ShloMosaic.Pipeline (Dat)

variable (m : (ℓ : Loc nD τ sig) → Buf (Elt Ideal) ℓ)

/-! ## The grid points, and what the windows hold there -/

/-- The grid point of core `k`, step `i`: the sixteen points are run in this order. -/
abbrev pt (k : Fin 2) (i : Fin 8) : Fin cfg0.N :=
  ⟨8 * k.val + i.val, by rw [show cfg0.N = 16 from N_0]; have := k.isLt; have := i.isLt; omega⟩

/-- The batch window walks the sixteen row blocks in point order. -/
theorem idx_x : ∀ t : Fin cfg0.N, win0_0.index t 0 = t.val ∧ win0_0.index t 1 = 0 :=
  (by decide +kernel : ∀ t : Fin grid0.N, _)

/-- Window 1 is one block, the whole array, at every point. -/
theorem idx_w1 : ∀ t : Fin cfg0.N, win0_1.index t 0 = 0 ∧ win0_1.index t 1 = 0 :=
  (by decide +kernel : ∀ t : Fin grid0.N, _)

theorem wblk1 (c : Dev nD) (t : Fin cfg0.N) :
    (iblk m c 1 t : Vec Ideal S1024x256 .f32) = (V m c main_v0 : FVec Ideal S1024x256 .f32) := by
  funext j
  unfold iblk
  rw [View.read_apply]
  show V m c main_v0 _ = V m c main_v0 j
  congr 1
  funext a
  apply Fin.ext
  match a with
  | ⟨0, _⟩ => show win0_1.index t 0 * 1024 + 1 * (j 0).val = (j 0).val; rw [(idx_w1 t).1]; omega
  | ⟨1, _⟩ => show win0_1.index t 1 * 256 + 1 * (j 1).val = (j 1).val; rw [(idx_w1 t).2]; omega

/-- Window 2 is one block, the whole array, at every point. -/
theorem idx_w2 : ∀ t : Fin cfg0.N, win0_2.index t 0 = 0 ∧ win0_2.index t 1 = 0 :=
  (by decide +kernel : ∀ t : Fin grid0.N, _)

theorem wblk2 (c : Dev nD) (t : Fin cfg0.N) :
    (iblk m c 2 t : Vec Ideal S1x256 .f32) = (V m c main_v10 : FVec Ideal S1x256 .f32) := by
  funext j
  unfold iblk
  rw [View.read_apply]
  show V m c main_v10 _ = V m c main_v10 j
  congr 1
  funext a
  apply Fin.ext
  match a with
  | ⟨0, _⟩ => show win0_2.index t 0 * 1 + 1 * (j 0).val = (j 0).val; rw [(idx_w2 t).1]; omega
  | ⟨1, _⟩ => show win0_2.index t 1 * 256 + 1 * (j 1).val = (j 1).val; rw [(idx_w2 t).2]; omega

/-- Window 3 is one block, the whole array, at every point. -/
theorem idx_w3 : ∀ t : Fin cfg0.N, win0_3.index t 0 = 0 ∧ win0_3.index t 1 = 0 :=
  (by decide +kernel : ∀ t : Fin grid0.N, _)

theorem wblk3 (c : Dev nD) (t : Fin cfg0.N) :
    (iblk m c 3 t : Vec Ideal S1x256 .f32) = (V m c main_v11 : FVec Ideal S1x256 .f32) := by
  funext j
  unfold iblk
  rw [View.read_apply]
  show V m c main_v11 _ = V m c main_v11 j
  congr 1
  funext a
  apply Fin.ext
  match a with
  | ⟨0, _⟩ => show win0_3.index t 0 * 1 + 1 * (j 0).val = (j 0).val; rw [(idx_w3 t).1]; omega
  | ⟨1, _⟩ => show win0_3.index t 1 * 256 + 1 * (j 1).val = (j 1).val; rw [(idx_w3 t).2]; omega

/-- Window 4 is one block, the whole array, at every point. -/
theorem idx_w4 : ∀ t : Fin cfg0.N, win0_4.index t 0 = 0 ∧ win0_4.index t 1 = 0 :=
  (by decide +kernel : ∀ t : Fin grid0.N, _)

theorem wblk4 (c : Dev nD) (t : Fin cfg0.N) :
    (iblk m c 4 t : Vec Ideal S1024x256 .f32) = (V m c main_v4 : FVec Ideal S1024x256 .f32) := by
  funext j
  unfold iblk
  rw [View.read_apply]
  show V m c main_v4 _ = V m c main_v4 j
  congr 1
  funext a
  apply Fin.ext
  match a with
  | ⟨0, _⟩ => show win0_4.index t 0 * 1024 + 1 * (j 0).val = (j 0).val; rw [(idx_w4 t).1]; omega
  | ⟨1, _⟩ => show win0_4.index t 1 * 256 + 1 * (j 1).val = (j 1).val; rw [(idx_w4 t).2]; omega

/-- Window 5 is one block, the whole array, at every point. -/
theorem idx_w5 : ∀ t : Fin cfg0.N, win0_5.index t 0 = 0 ∧ win0_5.index t 1 = 0 :=
  (by decide +kernel : ∀ t : Fin grid0.N, _)

theorem wblk5 (c : Dev nD) (t : Fin cfg0.N) :
    (iblk m c 5 t : Vec Ideal S256x128 .f32) = (V m c main_v1 : FVec Ideal S256x128 .f32) := by
  funext j
  unfold iblk
  rw [View.read_apply]
  show V m c main_v1 _ = V m c main_v1 j
  congr 1
  funext a
  apply Fin.ext
  match a with
  | ⟨0, _⟩ => show win0_5.index t 0 * 256 + 1 * (j 0).val = (j 0).val; rw [(idx_w5 t).1]; omega
  | ⟨1, _⟩ => show win0_5.index t 1 * 128 + 1 * (j 1).val = (j 1).val; rw [(idx_w5 t).2]; omega

/-- Window 6 is one block, the whole array, at every point. -/
theorem idx_w6 : ∀ t : Fin cfg0.N, win0_6.index t 0 = 0 ∧ win0_6.index t 1 = 0 :=
  (by decide +kernel : ∀ t : Fin grid0.N, _)

theorem wblk6 (c : Dev nD) (t : Fin cfg0.N) :
    (iblk m c 6 t : Vec Ideal S1x128 .f32) = (V m c main_v12 : FVec Ideal S1x128 .f32) := by
  funext j
  unfold iblk
  rw [View.read_apply]
  show V m c main_v12 _ = V m c main_v12 j
  congr 1
  funext a
  apply Fin.ext
  match a with
  | ⟨0, _⟩ => show win0_6.index t 0 * 1 + 1 * (j 0).val = (j 0).val; rw [(idx_w6 t).1]; omega
  | ⟨1, _⟩ => show win0_6.index t 1 * 128 + 1 * (j 1).val = (j 1).val; rw [(idx_w6 t).2]; omega

/-- Window 7 is one block, the whole array, at every point. -/
theorem idx_w7 : ∀ t : Fin cfg0.N, win0_7.index t 0 = 0 ∧ win0_7.index t 1 = 0 :=
  (by decide +kernel : ∀ t : Fin grid0.N, _)

theorem wblk7 (c : Dev nD) (t : Fin cfg0.N) :
    (iblk m c 7 t : Vec Ideal S1x128 .f32) = (V m c main_v13 : FVec Ideal S1x128 .f32) := by
  funext j
  unfold iblk
  rw [View.read_apply]
  show V m c main_v13 _ = V m c main_v13 j
  congr 1
  funext a
  apply Fin.ext
  match a with
  | ⟨0, _⟩ => show win0_7.index t 0 * 1 + 1 * (j 0).val = (j 0).val; rw [(idx_w7 t).1]; omega
  | ⟨1, _⟩ => show win0_7.index t 1 * 128 + 1 * (j 1).val = (j 1).val; rw [(idx_w7 t).2]; omega

/-- Window 8 is one block, the whole array, at every point. -/
theorem idx_w8 : ∀ t : Fin cfg0.N, win0_8.index t 0 = 0 ∧ win0_8.index t 1 = 0 :=
  (by decide +kernel : ∀ t : Fin grid0.N, _)

theorem wblk8 (c : Dev nD) (t : Fin cfg0.N) :
    (iblk m c 8 t : Vec Ideal S256x128 .f32) = (V m c main_v5 : FVec Ideal S256x128 .f32) := by
  funext j
  unfold iblk
  rw [View.read_apply]
  show V m c main_v5 _ = V m c main_v5 j
  congr 1
  funext a
  apply Fin.ext
  match a with
  | ⟨0, _⟩ => show win0_8.index t 0 * 256 + 1 * (j 0).val = (j 0).val; rw [(idx_w8 t).1]; omega
  | ⟨1, _⟩ => show win0_8.index t 1 * 128 + 1 * (j 1).val = (j 1).val; rw [(idx_w8 t).2]; omega

/-- Window 12 is one block, the whole array, at every point. -/
theorem idx_w12 : ∀ t : Fin cfg0.N, win0_12.index t 0 = 0 ∧ win0_12.index t 1 = 0 :=
  (by decide +kernel : ∀ t : Fin grid0.N, _)

theorem wblk12 (c : Dev nD) (t : Fin cfg0.N) :
    (iblk m c 12 t : Vec Ideal S128x64 .f32) = (V m c main_v6 : FVec Ideal S128x64 .f32) := by
  funext j
  unfold iblk
  rw [View.read_apply]
  show V m c main_v6 _ = V m c main_v6 j
  congr 1
  funext a
  apply Fin.ext
  match a with
  | ⟨0, _⟩ => show win0_12.index t 0 * 128 + 1 * (j 0).val = (j 0).val; rw [(idx_w12 t).1]; omega
  | ⟨1, _⟩ => show win0_12.index t 1 * 64 + 1 * (j 1).val = (j 1).val; rw [(idx_w12 t).2]; omega

/-- The batch window's block at a point: the point's 512 rows of the batch. -/
theorem xblk_apply (c : Dev nD) (t : Fin cfg0.N) (p : Fin 512) (x : Fin 1024) (hr : 512 * t.val + p.val < 8192) :
    (iblk m c 0 t : Vec Ideal S512x1024 .f32) (ix2 p x) = arg0 m c (ix2 ⟨512 * t.val + p.val, hr⟩ x) := by
  unfold iblk
  rw [View.read_apply]
  show V m c main_arg0 _ = m ((c : Thread nD τ).loc main_arg0) _
  rw [V_main_arg0 m c]
  congr 1
  funext a
  apply Fin.ext
  match a with
  | ⟨0, _⟩ => show win0_0.index t 0 * 512 + 1 * p.val = 512 * t.val + p.val; rw [(idx_x t).1]; omega
  | ⟨1, _⟩ => show win0_0.index t 1 * 1024 + 1 * x.val = x.val; rw [(idx_x t).2]; omega

/-- So the block at the point of core `k`, step `i` is the tile's rows of the first layer's input. -/
theorem x_tile (c : Dev nD) (k : Fin 2) (i : Fin 8) :
    m2 (iblk m c 0 (pt k i) : Vec Ideal S512x1024 .f32) = tileRows (X1 (arg0 m c)) k i := by
  funext p x
  show (iblk m c 0 (pt k i) : Vec Ideal S512x1024 .f32) (ix2 p x) = arg0 m c (ix2 (rowOf k i p) x)
  exact xblk_apply m c (pt k i) p x _

/-- Window 1 holds a matrix transposed: read column by column it is the matrix. -/
theorem w1_T (c : Dev nD) (t : Fin cfg0.N) :
    (fun (j : Fin 256) (x : Fin 1024) => m2 (iblk m c 1 t : Vec Ideal S1024x256 .f32) x j) = m2 (arg4 m c) := by
  funext j x
  exact (congrFun (wblk1 m c t) (ix2 x j)).trans (congrFun (V_main_v0 m c) (ix2 x j))

/-- Window 4 holds a matrix transposed: read column by column it is the matrix. -/
theorem h1_T (c : Dev nD) (t : Fin cfg0.N) :
    (fun (j : Fin 256) (x : Fin 1024) => m2 (iblk m c 4 t : Vec Ideal S1024x256 .f32) x j) = m2 (arg12 m c) := by
  funext j x
  exact (congrFun (wblk4 m c t) (ix2 x j)).trans (congrFun (V_main_v4 m c) (ix2 x j))

/-- Window 5 holds a matrix transposed: read column by column it is the matrix. -/
theorem w2_T (c : Dev nD) (t : Fin cfg0.N) :
    (fun (j : Fin 128) (x : Fin 256) => m2 (iblk m c 5 t : Vec Ideal S256x128 .f32) x j) = m2 (arg6 m c) := by
  funext j x
  exact (congrFun (wblk5 m c t) (ix2 x j)).trans (congrFun (V_main_v1 m c) (ix2 x j))

/-- Window 8 holds a matrix transposed: read column by column it is the matrix. -/
theorem h2_T (c : Dev nD) (t : Fin cfg0.N) :
    (fun (j : Fin 128) (x : Fin 256) => m2 (iblk m c 8 t : Vec Ideal S256x128 .f32) x j) = m2 (arg13 m c) := by
  funext j x
  exact (congrFun (wblk8 m c t) (ix2 x j)).trans (congrFun (V_main_v5 m c) (ix2 x j))

/-- Window 12 holds a matrix transposed: read column by column it is the matrix. -/
theorem h3_T (c : Dev nD) (t : Fin cfg0.N) :
    (fun (j : Fin 64) (x : Fin 128) => m2 (iblk m c 12 t : Vec Ideal S128x64 .f32) x j) = m2 (arg14 m c) := by
  funext j x
  exact (congrFun (wblk12 m c t) (ix2 x j)).trans (congrFun (V_main_v6 m c) (ix2 x j))

/-- Window 2 holds a vector as a one-row matrix. -/
theorem b1_row (c : Dev nD) (t : Fin cfg0.N) :
    (fun (j : Fin 256) => (iblk m c 2 t : Vec Ideal S1x256 .f32) (ix2 0 j)) = v1 (arg5 m c) := by
  funext j
  exact (congrFun (wblk2 m c t) (ix2 0 j)).trans (congrFun (V_main_v10 m c) (ix2 0 j))

/-- Window 3 holds a vector as a one-row matrix. -/
theorem mask0_row (c : Dev nD) (t : Fin cfg0.N) :
    (fun (j : Fin 256) => (iblk m c 3 t : Vec Ideal S1x256 .f32) (ix2 0 j)) = v1 (arg1 m c) := by
  funext j
  exact (congrFun (wblk3 m c t) (ix2 0 j)).trans (congrFun (V_main_v11 m c) (ix2 0 j))

/-- Window 6 holds a vector as a one-row matrix. -/
theorem b2_row (c : Dev nD) (t : Fin cfg0.N) :
    (fun (j : Fin 128) => (iblk m c 6 t : Vec Ideal S1x128 .f32) (ix2 0 j)) = v1 (arg7 m c) := by
  funext j
  exact (congrFun (wblk6 m c t) (ix2 0 j)).trans (congrFun (V_main_v12 m c) (ix2 0 j))

/-- Window 7 holds a vector as a one-row matrix. -/
theorem mask1_row (c : Dev nD) (t : Fin cfg0.N) :
    (fun (j : Fin 128) => (iblk m c 7 t : Vec Ideal S1x128 .f32) (ix2 0 j)) = v1 (arg2 m c) := by
  funext j
  exact (congrFun (wblk7 m c t) (ix2 0 j)).trans (congrFun (V_main_v13 m c) (ix2 0 j))

/-- The first layer of the tile is the tile's rows of the second layer's input. -/
theorem in2_tile (c : Dev nD) (k : Fin 2) (i : Fin 8) :
    m2 (k0_pay14 (F := Ideal) (iblk m c 0 (pt k i)) (iblk m c 1 (pt k i)) (iblk m c 2 (pt k i)) (iblk m c 3 (pt k i))) = tileRows (X2 (arg0 m c) (arg1 m c) (arg4 m c) (arg5 m c)) k i := by
  funext p q
  refine (Pay.pay14_apply (iblk m c 0 (pt k i)) (iblk m c 1 (pt k i)) (iblk m c 2 (pt k i)) (iblk m c 3 (pt k i)) p q).trans ?_
  rw [x_tile m c k i, w1_T m c (pt k i), b1_row m c (pt k i), mask0_row m c (pt k i)]
  rfl

/-- The second layer of that is the tile's rows of the third layer's input. -/
theorem in3_tile (c : Dev nD) (k : Fin 2) (i : Fin 8) :
    m2 (k0_pay20 (F := Ideal) (k0_pay14 (F := Ideal) (iblk m c 0 (pt k i)) (iblk m c 1 (pt k i)) (iblk m c 2 (pt k i)) (iblk m c 3 (pt k i))) (iblk m c 5 (pt k i)) (iblk m c 6 (pt k i)) (iblk m c 7 (pt k i))) = tileRows (X3 (arg0 m c) (arg1 m c) (arg2 m c) (arg4 m c) (arg5 m c) (arg6 m c) (arg7 m c)) k i := by
  funext p q
  refine (Pay.pay20_apply (k0_pay14 (F := Ideal) (iblk m c 0 (pt k i)) (iblk m c 1 (pt k i)) (iblk m c 2 (pt k i)) (iblk m c 3 (pt k i))) (iblk m c 5 (pt k i)) (iblk m c 6 (pt k i)) (iblk m c 7 (pt k i)) p q).trans ?_
  rw [in2_tile m c k i, w2_T m c (pt k i), b2_row m c (pt k i), mask1_row m c (pt k i)]
  rfl

/-! ## The six accumulator updates at a point, as values -/

/-- Accumulator 0's update adds the tile's total of squares of the first layer. -/
theorem val0 (c : Dev nD) (k : Fin 2) (i : Fin 8) (a : Vec Ideal S1x1 .f32) :
    k0_pay18 (F := Ideal) (k0_pay17 (F := Ideal) (iblk m c 0 (pt k i)) (iblk m c 4 (pt k i))) a (ix2 0 0) = a (ix2 0 0) + sqtot (tileRows (X1 (arg0 m c)) k i) (m2 (arg12 m c)) := by
  refine (Pay.pay18_apply _ a (ix2 0 0)).trans ?_
  refine congrArg (a (ix2 0 0) + ·) ?_
  refine (Pay.pay17_apply (iblk m c 0 (pt k i)) (iblk m c 4 (pt k i)) 0 0).trans ?_
  rw [x_tile m c k i, h1_T m c (pt k i)]

/-- Accumulator 1's update adds, column by column, the tile's sums of products of the first layer. -/
theorem val1 (c : Dev nD) (k : Fin 2) (i : Fin 8) (a : Vec Ideal S1x256 .f32) (j : Fin 256) :
    k0_pay19 (F := Ideal) (k0_pay15 (F := Ideal) (iblk m c 0 (pt k i))) (k0_pay16 (F := Ideal) (iblk m c 0 (pt k i)) (iblk m c 4 (pt k i))) a (ix2 0 j) = a (ix2 0 j) + sd (tileRows (X1 (arg0 m c)) k i) (m2 (arg12 m c)) j := by
  refine Pay.pay19_sd (tileRows (X1 (arg0 m c)) k i) (m2 (arg12 m c)) _ _ a (fun p x => ?_) (fun p q => ?_) 0 j
  · refine (Pay.pay15_apply (iblk m c 0 (pt k i)) p x).trans ?_
    rw [x_tile m c k i]
  · refine (Pay.pay16_apply (iblk m c 0 (pt k i)) (iblk m c 4 (pt k i)) p q).trans ?_
    rw [x_tile m c k i, h1_T m c (pt k i)]

/-- Accumulator 2's update adds the tile's total of squares of the second layer. -/
theorem val2 (c : Dev nD) (k : Fin 2) (i : Fin 8) (a : Vec Ideal S1x1 .f32) :
    k0_pay24 (F := Ideal) (k0_pay21 (F := Ideal) (k0_pay14 (F := Ideal) (iblk m c 0 (pt k i)) (iblk m c 1 (pt k i)) (iblk m c 2 (pt k i)) (iblk m c 3 (pt k i)))) (k0_pay22 (F := Ideal) (iblk m c 8 (pt k i))) (constant (F := Ideal) S512x128 .f32 0x00000000#32) a (ix2 0 0) = a (ix2 0 0) + sqtot (tileRows (X2 (arg0 m c) (arg1 m c) (arg4 m c) (arg5 m c)) k i) (m2 (arg13 m c)) := by
  refine (Pay.pay24_comp_apply (k0_pay14 (F := Ideal) (iblk m c 0 (pt k i)) (iblk m c 1 (pt k i)) (iblk m c 2 (pt k i)) (iblk m c 3 (pt k i))) (iblk m c 8 (pt k i)) a 0 0).trans ?_
  rw [in2_tile m c k i, h2_T m c (pt k i)]

/-- Accumulator 3's update adds, column by column, the tile's sums of products of the second layer. -/
theorem val3 (c : Dev nD) (k : Fin 2) (i : Fin 8) (a : Vec Ideal S1x128 .f32) (j : Fin 128) :
    k0_pay25 (F := Ideal) (k0_pay21 (F := Ideal) (k0_pay14 (F := Ideal) (iblk m c 0 (pt k i)) (iblk m c 1 (pt k i)) (iblk m c 2 (pt k i)) (iblk m c 3 (pt k i)))) (k0_pay22 (F := Ideal) (iblk m c 8 (pt k i))) (constant (F := Ideal) S512x128 .f32 0x00000000#32) a (ix2 0 j) = a (ix2 0 j) + sd (tileRows (X2 (arg0 m c) (arg1 m c) (arg4 m c) (arg5 m c)) k i) (m2 (arg13 m c)) j := by
  refine (Pay.pay25_comp_apply (k0_pay14 (F := Ideal) (iblk m c 0 (pt k i)) (iblk m c 1 (pt k i)) (iblk m c 2 (pt k i)) (iblk m c 3 (pt k i))) (iblk m c 8 (pt k i)) a 0 j).trans ?_
  rw [in2_tile m c k i, h2_T m c (pt k i)]

/-- Accumulator 4's update adds the tile's total of squares of the third layer. -/
theorem val4 (c : Dev nD) (k : Fin 2) (i : Fin 8) (a : Vec Ideal S1x1 .f32) :
    k0_pay30 (F := Ideal) (k0_pay20 (F := Ideal) (k0_pay14 (F := Ideal) (iblk m c 0 (pt k i)) (iblk m c 1 (pt k i)) (iblk m c 2 (pt k i)) (iblk m c 3 (pt k i))) (iblk m c 5 (pt k i)) (iblk m c 6 (pt k i)) (iblk m c 7 (pt k i))) (iblk m c 12 (pt k i)) a (ix2 0 0) = a (ix2 0 0) + sqtot (tileRows (X3 (arg0 m c) (arg1 m c) (arg2 m c) (arg4 m c) (arg5 m c) (arg6 m c) (arg7 m c)) k i) (m2 (arg14 m c)) := by
  refine (Pay.pay30_apply (k0_pay20 (F := Ideal) (k0_pay14 (F := Ideal) (iblk m c 0 (pt k i)) (iblk m c 1 (pt k i)) (iblk m c 2 (pt k i)) (iblk m c 3 (pt k i))) (iblk m c 5 (pt k i)) (iblk m c 6 (pt k i)) (iblk m c 7 (pt k i))) (iblk m c 12 (pt k i)) a 0 0).trans ?_
  rw [in3_tile m c k i, h3_T m c (pt k i)]

/-- Accumulator 5's update adds, column by column, the tile's sums of products of the third layer. -/
theorem val5 (c : Dev nD) (k : Fin 2) (i : Fin 8) (a : Vec Ideal S1x64 .f32) (j : Fin 64) :
    k0_pay31 (F := Ideal) (k0_pay20 (F := Ideal) (k0_pay14 (F := Ideal) (iblk m c 0 (pt k i)) (iblk m c 1 (pt k i)) (iblk m c 2 (pt k i)) (iblk m c 3 (pt k i))) (iblk m c 5 (pt k i)) (iblk m c 6 (pt k i)) (iblk m c 7 (pt k i))) (iblk m c 12 (pt k i)) a (ix2 0 j) = a (ix2 0 j) + sd (tileRows (X3 (arg0 m c) (arg1 m c) (arg2 m c) (arg4 m c) (arg5 m c) (arg6 m c) (arg7 m c)) k i) (m2 (arg14 m c)) j := by
  refine (Pay.pay31_apply (k0_pay20 (F := Ideal) (k0_pay14 (F := Ideal) (iblk m c 0 (pt k i)) (iblk m c 1 (pt k i)) (iblk m c 2 (pt k i)) (iblk m c 3 (pt k i))) (iblk m c 5 (pt k i)) (iblk m c 6 (pt k i)) (iblk m c 7 (pt k i))) (iblk m c 12 (pt k i)) a 0 j).trans ?_
  rw [in3_tile m c k i, h3_T m c (pt k i)]

/-! ## What each kind of point leaves in the accumulators and writes out, as values -/

theorem stepA_0 (c : Dev nD) (k : Fin 2) (i : Fin 8) (hc0 : cond0_0 (grid0.coords (pt k i))) (hc1 : ¬cond0_1 (grid0.coords (pt k i))) :
    (sout0_A_0 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) : FVec Ideal S1x1 .f32) (ix2 0 0) = 0 + sqtot (tileRows (X1 (arg0 m c)) k i) (m2 (arg12 m c)) :=
  (congrFun (sout0_A_0_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i))) (ix2 0 0)).trans
    ((val0 m c k i (k0_pay8 (F := Ideal))).trans (congrArg (· + sqtot (tileRows (X1 (arg0 m c)) k i) (m2 (arg12 m c))) (Pay.pay8_apply (ix2 0 0))))

theorem stepA_1 (c : Dev nD) (k : Fin 2) (i : Fin 8) (hc0 : cond0_0 (grid0.coords (pt k i))) (hc1 : ¬cond0_1 (grid0.coords (pt k i))) (j : Fin 256) :
    (sout0_A_1 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) : FVec Ideal S1x256 .f32) (ix2 0 j) = 0 + sd (tileRows (X1 (arg0 m c)) k i) (m2 (arg12 m c)) j :=
  (congrFun (sout0_A_1_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i))) (ix2 0 j)).trans
    ((val1 m c k i (k0_pay9 (F := Ideal)) j).trans (congrArg (· + sd (tileRows (X1 (arg0 m c)) k i) (m2 (arg12 m c)) j) (Pay.pay9_apply (ix2 0 j))))

theorem stepA_2 (c : Dev nD) (k : Fin 2) (i : Fin 8) (hc0 : cond0_0 (grid0.coords (pt k i))) (hc1 : ¬cond0_1 (grid0.coords (pt k i))) :
    (sout0_A_2 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) : FVec Ideal S1x1 .f32) (ix2 0 0) = 0 + sqtot (tileRows (X2 (arg0 m c) (arg1 m c) (arg4 m c) (arg5 m c)) k i) (m2 (arg13 m c)) :=
  (congrFun (sout0_A_2_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i))) (ix2 0 0)).trans
    ((val2 m c k i (k0_pay10 (F := Ideal))).trans (congrArg (· + sqtot (tileRows (X2 (arg0 m c) (arg1 m c) (arg4 m c) (arg5 m c)) k i) (m2 (arg13 m c))) (Pay.pay10_apply (ix2 0 0))))

theorem stepA_3 (c : Dev nD) (k : Fin 2) (i : Fin 8) (hc0 : cond0_0 (grid0.coords (pt k i))) (hc1 : ¬cond0_1 (grid0.coords (pt k i))) (j : Fin 128) :
    (sout0_A_3 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) : FVec Ideal S1x128 .f32) (ix2 0 j) = 0 + sd (tileRows (X2 (arg0 m c) (arg1 m c) (arg4 m c) (arg5 m c)) k i) (m2 (arg13 m c)) j :=
  (congrFun (sout0_A_3_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i))) (ix2 0 j)).trans
    ((val3 m c k i (k0_pay11 (F := Ideal)) j).trans (congrArg (· + sd (tileRows (X2 (arg0 m c) (arg1 m c) (arg4 m c) (arg5 m c)) k i) (m2 (arg13 m c)) j) (Pay.pay11_apply (ix2 0 j))))

theorem stepA_4 (c : Dev nD) (k : Fin 2) (i : Fin 8) (hc0 : cond0_0 (grid0.coords (pt k i))) (hc1 : ¬cond0_1 (grid0.coords (pt k i))) :
    (sout0_A_4 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) : FVec Ideal S1x1 .f32) (ix2 0 0) = 0 + sqtot (tileRows (X3 (arg0 m c) (arg1 m c) (arg2 m c) (arg4 m c) (arg5 m c) (arg6 m c) (arg7 m c)) k i) (m2 (arg14 m c)) :=
  (congrFun (sout0_A_4_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i))) (ix2 0 0)).trans
    ((val4 m c k i (k0_pay12 (F := Ideal))).trans (congrArg (· + sqtot (tileRows (X3 (arg0 m c) (arg1 m c) (arg2 m c) (arg4 m c) (arg5 m c) (arg6 m c) (arg7 m c)) k i) (m2 (arg14 m c))) (Pay.pay12_apply (ix2 0 0))))

theorem stepA_5 (c : Dev nD) (k : Fin 2) (i : Fin 8) (hc0 : cond0_0 (grid0.coords (pt k i))) (hc1 : ¬cond0_1 (grid0.coords (pt k i))) (j : Fin 64) :
    (sout0_A_5 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) : FVec Ideal S1x64 .f32) (ix2 0 j) = 0 + sd (tileRows (X3 (arg0 m c) (arg1 m c) (arg2 m c) (arg4 m c) (arg5 m c) (arg6 m c) (arg7 m c)) k i) (m2 (arg14 m c)) j :=
  (congrFun (sout0_A_5_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i))) (ix2 0 j)).trans
    ((val5 m c k i (k0_pay13 (F := Ideal)) j).trans (congrArg (· + sd (tileRows (X3 (arg0 m c) (arg1 m c) (arg2 m c) (arg4 m c) (arg5 m c) (arg6 m c) (arg7 m c)) k i) (m2 (arg14 m c)) j) (Pay.pay13_apply (ix2 0 j))))

theorem stepB_0 (c : Dev nD) (k : Fin 2) (i : Fin 8) (hc0 : ¬cond0_0 (grid0.coords (pt k i))) (hc1 : ¬cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) :
    (sout0_B_0 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 0) = xs0 (ix2 0 0) + sqtot (tileRows (X1 (arg0 m c)) k i) (m2 (arg12 m c)) :=
  (congrFun (sout0_B_0_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 0)).trans
    (val0 m c k i xs0)

theorem stepB_1 (c : Dev nD) (k : Fin 2) (i : Fin 8) (hc0 : ¬cond0_0 (grid0.coords (pt k i))) (hc1 : ¬cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (j : Fin 256) :
    (sout0_B_1 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x256 .f32) (ix2 0 j) = xs1 (ix2 0 j) + sd (tileRows (X1 (arg0 m c)) k i) (m2 (arg12 m c)) j :=
  (congrFun (sout0_B_1_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 j)).trans
    (val1 m c k i xs1 j)

theorem stepB_2 (c : Dev nD) (k : Fin 2) (i : Fin 8) (hc0 : ¬cond0_0 (grid0.coords (pt k i))) (hc1 : ¬cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) :
    (sout0_B_2 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 0) = xs2 (ix2 0 0) + sqtot (tileRows (X2 (arg0 m c) (arg1 m c) (arg4 m c) (arg5 m c)) k i) (m2 (arg13 m c)) :=
  (congrFun (sout0_B_2_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 0)).trans
    (val2 m c k i xs2)

theorem stepB_3 (c : Dev nD) (k : Fin 2) (i : Fin 8) (hc0 : ¬cond0_0 (grid0.coords (pt k i))) (hc1 : ¬cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (j : Fin 128) :
    (sout0_B_3 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x128 .f32) (ix2 0 j) = xs3 (ix2 0 j) + sd (tileRows (X2 (arg0 m c) (arg1 m c) (arg4 m c) (arg5 m c)) k i) (m2 (arg13 m c)) j :=
  (congrFun (sout0_B_3_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 j)).trans
    (val3 m c k i xs3 j)

theorem stepB_4 (c : Dev nD) (k : Fin 2) (i : Fin 8) (hc0 : ¬cond0_0 (grid0.coords (pt k i))) (hc1 : ¬cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) :
    (sout0_B_4 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 0) = xs4 (ix2 0 0) + sqtot (tileRows (X3 (arg0 m c) (arg1 m c) (arg2 m c) (arg4 m c) (arg5 m c) (arg6 m c) (arg7 m c)) k i) (m2 (arg14 m c)) :=
  (congrFun (sout0_B_4_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 0)).trans
    (val4 m c k i xs4)

theorem stepB_5 (c : Dev nD) (k : Fin 2) (i : Fin 8) (hc0 : ¬cond0_0 (grid0.coords (pt k i))) (hc1 : ¬cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (j : Fin 64) :
    (sout0_B_5 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x64 .f32) (ix2 0 j) = xs5 (ix2 0 j) + sd (tileRows (X3 (arg0 m c) (arg1 m c) (arg2 m c) (arg4 m c) (arg5 m c) (arg6 m c) (arg7 m c)) k i) (m2 (arg14 m c)) j :=
  (congrFun (sout0_B_5_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 j)).trans
    (val5 m c k i xs5 j)

theorem stepC_0 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) :
    (sout0_C_0 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 0) = xs0 (ix2 0 0) + sqtot (tileRows (X1 (arg0 m c)) k i) (m2 (arg12 m c)) :=
  (congrFun (sout0_C_0_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 0)).trans
    (val0 m c k i xs0)

theorem stepC_1 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (j : Fin 256) :
    (sout0_C_1 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x256 .f32) (ix2 0 j) = xs1 (ix2 0 j) + sd (tileRows (X1 (arg0 m c)) k i) (m2 (arg12 m c)) j :=
  (congrFun (sout0_C_1_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 j)).trans
    (val1 m c k i xs1 j)

theorem stepC_2 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) :
    (sout0_C_2 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 0) = xs2 (ix2 0 0) + sqtot (tileRows (X2 (arg0 m c) (arg1 m c) (arg4 m c) (arg5 m c)) k i) (m2 (arg13 m c)) :=
  (congrFun (sout0_C_2_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 0)).trans
    (val2 m c k i xs2)

theorem stepC_3 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (j : Fin 128) :
    (sout0_C_3 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x128 .f32) (ix2 0 j) = xs3 (ix2 0 j) + sd (tileRows (X2 (arg0 m c) (arg1 m c) (arg4 m c) (arg5 m c)) k i) (m2 (arg13 m c)) j :=
  (congrFun (sout0_C_3_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 j)).trans
    (val3 m c k i xs3 j)

theorem stepC_4 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) :
    (sout0_C_4 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 0) = xs4 (ix2 0 0) + sqtot (tileRows (X3 (arg0 m c) (arg1 m c) (arg2 m c) (arg4 m c) (arg5 m c) (arg6 m c) (arg7 m c)) k i) (m2 (arg14 m c)) :=
  (congrFun (sout0_C_4_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 0)).trans
    (val4 m c k i xs4)

theorem stepC_5 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (j : Fin 64) :
    (sout0_C_5 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x64 .f32) (ix2 0 j) = xs5 (ix2 0 j) + sd (tileRows (X3 (arg0 m c) (arg1 m c) (arg2 m c) (arg4 m c) (arg5 m c) (arg6 m c) (arg7 m c)) k i) (m2 (arg14 m c)) j :=
  (congrFun (sout0_C_5_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 j)).trans
    (val5 m c k i xs5 j)

/-- At a writing-out point each of the eight rows of partial-sum block 16 is accumulator 0's new contents. -/
theorem outC_16 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (q : Fin 8) (y : Fin 1) :
    (out0_C_16 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S8x1 .f32) (ix2 q y)
      = (sout0_C_0 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 y) :=
  (congrFun (out0_C_16_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 q y)).trans
    ((Pay.pay2_apply _ q y).trans (congrFun (sout0_C_0_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 y)).symm)

/-- At a writing-out point each of the eight rows of partial-sum block 17 is accumulator 1's new contents. -/
theorem outC_17 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (q : Fin 8) (y : Fin 256) :
    (out0_C_17 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S8x256 .f32) (ix2 q y)
      = (sout0_C_1 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x256 .f32) (ix2 0 y) :=
  (congrFun (out0_C_17_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 q y)).trans
    ((Pay.pay3_apply _ q y).trans (congrFun (sout0_C_1_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 y)).symm)

/-- At a writing-out point each of the eight rows of partial-sum block 18 is accumulator 2's new contents. -/
theorem outC_18 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (q : Fin 8) (y : Fin 1) :
    (out0_C_18 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S8x1 .f32) (ix2 q y)
      = (sout0_C_2 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 y) :=
  (congrFun (out0_C_18_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 q y)).trans
    ((Pay.pay4_apply _ q y).trans (congrFun (sout0_C_2_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 y)).symm)

/-- At a writing-out point each of the eight rows of partial-sum block 19 is accumulator 3's new contents. -/
theorem outC_19 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (q : Fin 8) (y : Fin 128) :
    (out0_C_19 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S8x128 .f32) (ix2 q y)
      = (sout0_C_3 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x128 .f32) (ix2 0 y) :=
  (congrFun (out0_C_19_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 q y)).trans
    ((Pay.pay5_apply _ q y).trans (congrFun (sout0_C_3_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 y)).symm)

/-- At a writing-out point each of the eight rows of partial-sum block 20 is accumulator 4's new contents. -/
theorem outC_20 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (q : Fin 8) (y : Fin 1) :
    (out0_C_20 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S8x1 .f32) (ix2 q y)
      = (sout0_C_4 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x1 .f32) (ix2 0 y) :=
  (congrFun (out0_C_20_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 q y)).trans
    ((Pay.pay6_apply _ q y).trans (congrFun (sout0_C_4_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 y)).symm)

/-- At a writing-out point each of the eight rows of partial-sum block 21 is accumulator 5's new contents. -/
theorem outC_21 (c : Dev nD) (k : Fin 2) (i : Fin 8) (hc0 : ¬cond0_0 (grid0.coords (pt k i))) (hc1 : cond0_1 (grid0.coords (pt k i)))
    (xs0 : Vec Ideal S1x1 .f32) (xs1 : Vec Ideal S1x256 .f32) (xs2 : Vec Ideal S1x1 .f32) (xs3 : Vec Ideal S1x128 .f32) (xs4 : Vec Ideal S1x1 .f32) (xs5 : Vec Ideal S1x64 .f32) (q : Fin 8) (y : Fin 64) :
    (out0_C_21 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S8x64 .f32) (ix2 q y)
      = (sout0_C_5 (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5 : FVec Ideal S1x64 .f32) (ix2 0 y) :=
  (congrFun (out0_C_21_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 q y)).trans
    ((Pay.pay7_apply _ q y).trans (congrFun (sout0_C_5_eq (F := Ideal) c (grid0.coords (pt k i)) (ms0_0 (pt k i)) (hs0_0 (pt k i)) (ms0_1 (pt k i)) (hs0_1 (pt k i)) (ms0_2 (pt k i)) (hs0_2 (pt k i)) (ms0_3 (pt k i)) (hs0_3 (pt k i)) (ms0_4 (pt k i)) (hs0_4 (pt k i)) (ms0_5 (pt k i)) (hs0_5 (pt k i)) (ms0_6 (pt k i)) (hs0_6 (pt k i)) (ms0_7 (pt k i)) (hs0_7 (pt k i)) (ms0_8 (pt k i)) (hs0_8 (pt k i)) (ms0_9 (pt k i)) (hs0_9 (pt k i)) (ms0_10 (pt k i)) (hs0_10 (pt k i)) (ms0_11 (pt k i)) (hs0_11 (pt k i)) (ms0_12 (pt k i)) (hs0_12 (pt k i)) (ms0_13 (pt k i)) (hs0_13 (pt k i)) (ms0_14 (pt k i)) (hs0_14 (pt k i)) (ms0_15 (pt k i)) (hs0_15 (pt k i)) (ms0_16 (pt k i)) (hs0_16 (pt k i)) (ms0_17 (pt k i)) (hs0_17 (pt k i)) (ms0_18 (pt k i)) (hs0_18 (pt k i)) (ms0_19 (pt k i)) (hs0_19 (pt k i)) (ms0_20 (pt k i)) (hs0_20 (pt k i)) (ms0_21 (pt k i)) (hs0_21 (pt k i)) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 (pt k i)) (iblk m c 1 (pt k i)) (iblk m c 2 (pt k i)) (iblk m c 3 (pt k i)) (iblk m c 4 (pt k i)) (iblk m c 5 (pt k i)) (iblk m c 6 (pt k i)) (iblk m c 7 (pt k i)) (iblk m c 8 (pt k i)) (iblk m c 9 (pt k i)) (iblk m c 10 (pt k i)) (iblk m c 11 (pt k i)) (iblk m c 12 (pt k i)) (iblk m c 13 (pt k i)) (iblk m c 14 (pt k i)) xs0 xs1 xs2 xs3 xs4 xs5) (ix2 0 y)).symm)

/-! ## The accumulators point by point -/

/-- After the point of core `k`, step `i`, each accumulator holds the running total, from zero, of the terms of the
    core's tiles up to step `i`: the total of squares (accumulators 0, 2, 4) and, column by column, the sums of products
    (accumulators 1, 3, 5) of the three layers. By induction on the step: step 0 stores zero and adds; every later step
    adds to what the step before left. -/
theorem scr_inv (c : Dev nD) (k : Fin 2) : ∀ (i : ℕ) (hi : i < 8),
    ((outsAt0 m c (pt k ⟨i, hi⟩).val (pt k ⟨i, hi⟩).isLt).2.2.2.2.2.2.2.1 : FVec Ideal S1x1 .f32) (ix2 0 0) = accFrom (stepFn (fun s => sqtot (tileRows (X1 (arg0 m c)) k s) (m2 (arg12 m c)))) i
    ∧ (∀ j : Fin 256, ((outsAt0 m c (pt k ⟨i, hi⟩).val (pt k ⟨i, hi⟩).isLt).2.2.2.2.2.2.2.2.1 : FVec Ideal S1x256 .f32) (ix2 0 j) = accFrom (stepFn (fun s => sd (tileRows (X1 (arg0 m c)) k s) (m2 (arg12 m c)) j)) i)
    ∧ ((outsAt0 m c (pt k ⟨i, hi⟩).val (pt k ⟨i, hi⟩).isLt).2.2.2.2.2.2.2.2.2.1 : FVec Ideal S1x1 .f32) (ix2 0 0) = accFrom (stepFn (fun s => sqtot (tileRows (X2 (arg0 m c) (arg1 m c) (arg4 m c) (arg5 m c)) k s) (m2 (arg13 m c)))) i
    ∧ (∀ j : Fin 128, ((outsAt0 m c (pt k ⟨i, hi⟩).val (pt k ⟨i, hi⟩).isLt).2.2.2.2.2.2.2.2.2.2.1 : FVec Ideal S1x128 .f32) (ix2 0 j) = accFrom (stepFn (fun s => sd (tileRows (X2 (arg0 m c) (arg1 m c) (arg4 m c) (arg5 m c)) k s) (m2 (arg13 m c)) j)) i)
    ∧ ((outsAt0 m c (pt k ⟨i, hi⟩).val (pt k ⟨i, hi⟩).isLt).2.2.2.2.2.2.2.2.2.2.2.1 : FVec Ideal S1x1 .f32) (ix2 0 0) = accFrom (stepFn (fun s => sqtot (tileRows (X3 (arg0 m c) (arg1 m c) (arg2 m c) (arg4 m c) (arg5 m c) (arg6 m c) (arg7 m c)) k s) (m2 (arg14 m c)))) i
    ∧ (∀ j : Fin 64, ((outsAt0 m c (pt k ⟨i, hi⟩).val (pt k ⟨i, hi⟩).isLt).2.2.2.2.2.2.2.2.2.2.2.2 : FVec Ideal S1x64 .f32) (ix2 0 j) = accFrom (stepFn (fun s => sd (tileRows (X3 (arg0 m c) (arg1 m c) (arg2 m c) (arg4 m c) (arg5 m c) (arg6 m c) (arg7 m c)) k s) (m2 (arg14 m c)) j)) i)
  | 0, hi => by
    have h0 : (pt k ⟨0, hi⟩).val % 8 = 0 := by show (8 * k.val + 0) % 8 = 0; omega
    have h1 : ¬(pt k ⟨0, hi⟩).val % 8 = 7 := by show ¬(8 * k.val + 0) % 8 = 7; omega
    rw [outsAt0_A m c (pt k ⟨0, hi⟩) h0 h1]
    dsimp only
    refine ⟨?_, fun j => ?_, ?_, fun j => ?_, ?_, fun j => ?_⟩
    · exact (stepA_0 m c k ⟨0, hi⟩ ((hcond0_0 (pt k ⟨0, hi⟩)).mpr h0) (fun h => h1 ((hcond0_1 (pt k ⟨0, hi⟩)).mp h))).trans
        (congrArg (0 + ·) (stepFn_val (fun s => sqtot (tileRows (X1 (arg0 m c)) k s) (m2 (arg12 m c))) ⟨0, hi⟩).symm)
    · exact (stepA_1 m c k ⟨0, hi⟩ ((hcond0_0 (pt k ⟨0, hi⟩)).mpr h0) (fun h => h1 ((hcond0_1 (pt k ⟨0, hi⟩)).mp h)) j).trans
        (congrArg (0 + ·) (stepFn_val (fun s => sd (tileRows (X1 (arg0 m c)) k s) (m2 (arg12 m c)) j) ⟨0, hi⟩).symm)
    · exact (stepA_2 m c k ⟨0, hi⟩ ((hcond0_0 (pt k ⟨0, hi⟩)).mpr h0) (fun h => h1 ((hcond0_1 (pt k ⟨0, hi⟩)).mp h))).trans
        (congrArg (0 + ·) (stepFn_val (fun s => sqtot (tileRows (X2 (arg0 m c) (arg1 m c) (arg4 m c) (arg5 m c)) k s) (m2 (arg13 m c))) ⟨0, hi⟩).symm)
    · exact (stepA_3 m c k ⟨0, hi⟩ ((hcond0_0 (pt k ⟨0, hi⟩)).mpr h0) (fun h => h1 ((hcond0_1 (pt k ⟨0, hi⟩)).mp h)) j).trans
        (congrArg (0 + ·) (stepFn_val (fun s => sd (tileRows (X2 (arg0 m c) (arg1 m c) (arg4 m c) (arg5 m c)) k s) (m2 (arg13 m c)) j) ⟨0, hi⟩).symm)
    · exact (stepA_4 m c k ⟨0, hi⟩ ((hcond0_0 (pt k ⟨0, hi⟩)).mpr h0) (fun h => h1 ((hcond0_1 (pt k ⟨0, hi⟩)).mp h))).trans
        (congrArg (0 + ·) (stepFn_val (fun s => sqtot (tileRows (X3 (arg0 m c) (arg1 m c) (arg2 m c) (arg4 m c) (arg5 m c) (arg6 m c) (arg7 m c)) k s) (m2 (arg14 m c))) ⟨0, hi⟩).symm)
    · exact (stepA_5 m c k ⟨0, hi⟩ ((hcond0_0 (pt k ⟨0, hi⟩)).mpr h0) (fun h => h1 ((hcond0_1 (pt k ⟨0, hi⟩)).mp h)) j).trans
        (congrArg (0 + ·) (stepFn_val (fun s => sd (tileRows (X3 (arg0 m c) (arg1 m c) (arg2 m c) (arg4 m c) (arg5 m c) (arg6 m c) (arg7 m c)) k s) (m2 (arg14 m c)) j) ⟨0, hi⟩).symm)
  | i + 1, hi => by
    have h0 : ¬(pt k ⟨i + 1, hi⟩).val % 8 = 0 := by show ¬(8 * k.val + (i + 1)) % 8 = 0; omega
    obtain ⟨ih0, ih1, ih2, ih3, ih4, ih5⟩ := scr_inv c k i (Nat.lt_of_succ_lt hi)
    by_cases h1 : (pt k ⟨i + 1, hi⟩).val % 8 = 7
    · rw [outsAt0_C m c (pt k ⟨i + 1, hi⟩) h0 h1]
      dsimp only
      refine ⟨?_, fun j => ?_, ?_, fun j => ?_, ?_, fun j => ?_⟩
      · exact (stepC_0 m c k ⟨i + 1, hi⟩ (fun h => h0 ((hcond0_0 (pt k ⟨i + 1, hi⟩)).mp h)) ((hcond0_1 (pt k ⟨i + 1, hi⟩)).mpr h1)
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2).trans
          (congrArg₂ (· + ·) (ih0) (stepFn_val (fun s => sqtot (tileRows (X1 (arg0 m c)) k s) (m2 (arg12 m c))) ⟨i + 1, hi⟩).symm)
      · exact (stepC_1 m c k ⟨i + 1, hi⟩ (fun h => h0 ((hcond0_0 (pt k ⟨i + 1, hi⟩)).mp h)) ((hcond0_1 (pt k ⟨i + 1, hi⟩)).mpr h1)
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2 j).trans
          (congrArg₂ (· + ·) (ih1 j) (stepFn_val (fun s => sd (tileRows (X1 (arg0 m c)) k s) (m2 (arg12 m c)) j) ⟨i + 1, hi⟩).symm)
      · exact (stepC_2 m c k ⟨i + 1, hi⟩ (fun h => h0 ((hcond0_0 (pt k ⟨i + 1, hi⟩)).mp h)) ((hcond0_1 (pt k ⟨i + 1, hi⟩)).mpr h1)
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2).trans
          (congrArg₂ (· + ·) (ih2) (stepFn_val (fun s => sqtot (tileRows (X2 (arg0 m c) (arg1 m c) (arg4 m c) (arg5 m c)) k s) (m2 (arg13 m c))) ⟨i + 1, hi⟩).symm)
      · exact (stepC_3 m c k ⟨i + 1, hi⟩ (fun h => h0 ((hcond0_0 (pt k ⟨i + 1, hi⟩)).mp h)) ((hcond0_1 (pt k ⟨i + 1, hi⟩)).mpr h1)
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2 j).trans
          (congrArg₂ (· + ·) (ih3 j) (stepFn_val (fun s => sd (tileRows (X2 (arg0 m c) (arg1 m c) (arg4 m c) (arg5 m c)) k s) (m2 (arg13 m c)) j) ⟨i + 1, hi⟩).symm)
      · exact (stepC_4 m c k ⟨i + 1, hi⟩ (fun h => h0 ((hcond0_0 (pt k ⟨i + 1, hi⟩)).mp h)) ((hcond0_1 (pt k ⟨i + 1, hi⟩)).mpr h1)
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2).trans
          (congrArg₂ (· + ·) (ih4) (stepFn_val (fun s => sqtot (tileRows (X3 (arg0 m c) (arg1 m c) (arg2 m c) (arg4 m c) (arg5 m c) (arg6 m c) (arg7 m c)) k s) (m2 (arg14 m c))) ⟨i + 1, hi⟩).symm)
      · exact (stepC_5 m c k ⟨i + 1, hi⟩ (fun h => h0 ((hcond0_0 (pt k ⟨i + 1, hi⟩)).mp h)) ((hcond0_1 (pt k ⟨i + 1, hi⟩)).mpr h1)
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2 j).trans
          (congrArg₂ (· + ·) (ih5 j) (stepFn_val (fun s => sd (tileRows (X3 (arg0 m c) (arg1 m c) (arg2 m c) (arg4 m c) (arg5 m c) (arg6 m c) (arg7 m c)) k s) (m2 (arg14 m c)) j) ⟨i + 1, hi⟩).symm)
    · rw [outsAt0_B m c (pt k ⟨i + 1, hi⟩) h0 h1]
      dsimp only
      refine ⟨?_, fun j => ?_, ?_, fun j => ?_, ?_, fun j => ?_⟩
      · exact (stepB_0 m c k ⟨i + 1, hi⟩ (fun h => h0 ((hcond0_0 (pt k ⟨i + 1, hi⟩)).mp h)) (fun h => h1 ((hcond0_1 (pt k ⟨i + 1, hi⟩)).mp h))
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2).trans
          (congrArg₂ (· + ·) (ih0) (stepFn_val (fun s => sqtot (tileRows (X1 (arg0 m c)) k s) (m2 (arg12 m c))) ⟨i + 1, hi⟩).symm)
      · exact (stepB_1 m c k ⟨i + 1, hi⟩ (fun h => h0 ((hcond0_0 (pt k ⟨i + 1, hi⟩)).mp h)) (fun h => h1 ((hcond0_1 (pt k ⟨i + 1, hi⟩)).mp h))
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2 j).trans
          (congrArg₂ (· + ·) (ih1 j) (stepFn_val (fun s => sd (tileRows (X1 (arg0 m c)) k s) (m2 (arg12 m c)) j) ⟨i + 1, hi⟩).symm)
      · exact (stepB_2 m c k ⟨i + 1, hi⟩ (fun h => h0 ((hcond0_0 (pt k ⟨i + 1, hi⟩)).mp h)) (fun h => h1 ((hcond0_1 (pt k ⟨i + 1, hi⟩)).mp h))
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2).trans
          (congrArg₂ (· + ·) (ih2) (stepFn_val (fun s => sqtot (tileRows (X2 (arg0 m c) (arg1 m c) (arg4 m c) (arg5 m c)) k s) (m2 (arg13 m c))) ⟨i + 1, hi⟩).symm)
      · exact (stepB_3 m c k ⟨i + 1, hi⟩ (fun h => h0 ((hcond0_0 (pt k ⟨i + 1, hi⟩)).mp h)) (fun h => h1 ((hcond0_1 (pt k ⟨i + 1, hi⟩)).mp h))
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2 j).trans
          (congrArg₂ (· + ·) (ih3 j) (stepFn_val (fun s => sd (tileRows (X2 (arg0 m c) (arg1 m c) (arg4 m c) (arg5 m c)) k s) (m2 (arg13 m c)) j) ⟨i + 1, hi⟩).symm)
      · exact (stepB_4 m c k ⟨i + 1, hi⟩ (fun h => h0 ((hcond0_0 (pt k ⟨i + 1, hi⟩)).mp h)) (fun h => h1 ((hcond0_1 (pt k ⟨i + 1, hi⟩)).mp h))
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2).trans
          (congrArg₂ (· + ·) (ih4) (stepFn_val (fun s => sqtot (tileRows (X3 (arg0 m c) (arg1 m c) (arg2 m c) (arg4 m c) (arg5 m c) (arg6 m c) (arg7 m c)) k s) (m2 (arg14 m c))) ⟨i + 1, hi⟩).symm)
      · exact (stepB_5 m c k ⟨i + 1, hi⟩ (fun h => h0 ((hcond0_0 (pt k ⟨i + 1, hi⟩)).mp h)) (fun h => h1 ((hcond0_1 (pt k ⟨i + 1, hi⟩)).mp h))
          (outsAt0 m c ((pt k ⟨i + 1, hi⟩).val - 1) (Nat.lt_of_le_of_lt (Nat.sub_le _ _) (pt k ⟨i + 1, hi⟩).isLt)).2.2.2.2.2.2.2.1 (outsAt0 m c ((pt k ⟨i + 1, hi⟩).val - 1) (Nat.lt_of_le_of_lt (Nat.sub_le _ _) (pt k ⟨i + 1, hi⟩).isLt)).2.2.2.2.2.2.2.2.1 (outsAt0 m c ((pt k ⟨i + 1, hi⟩).val - 1) (Nat.lt_of_le_of_lt (Nat.sub_le _ _) (pt k ⟨i + 1, hi⟩).isLt)).2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.1 (outsAt0 m c ((pt k ⟨i + 1, hi⟩).val - 1) (Nat.lt_of_le_of_lt (Nat.sub_le _ _) (pt k ⟨i + 1, hi⟩).isLt)).2.2.2.2.2.2.2.2.2.2.2.2 j).trans
          (congrArg₂ (· + ·) (ih5 j) (stepFn_val (fun s => sd (tileRows (X3 (arg0 m c) (arg1 m c) (arg2 m c) (arg4 m c) (arg5 m c) (arg6 m c) (arg7 m c)) k s) (m2 (arg14 m c)) j) ⟨i + 1, hi⟩).symm)

/-! ## The partial sums a core writes out at its last step -/

/-- At its last step core `k` leaves in each of the eight rows of partial-sum block 16 its total over its eight tiles. -/
theorem out16_val (c : Dev nD) (k : Fin 2) (q : Fin 8) (y : Fin 1) :
    ((outsAt0 m c (pt k ⟨7, by decide⟩).val (pt k ⟨7, by decide⟩).isLt).2.1 : FVec Ideal S8x1 .f32) (ix2 q y) = sqC (X1 (arg0 m c)) (m2 (arg12 m c)) k := by
  have h0 : ¬(pt k ⟨7, by decide⟩).val % 8 = 0 := by show ¬(8 * k.val + 7) % 8 = 0; omega
  have h1 : (pt k ⟨7, by decide⟩).val % 8 = 7 := by show (8 * k.val + 7) % 8 = 7; omega
  obtain rfl : y = 0 := Subsingleton.elim _ _
  have e := (scr_inv m c k 7 (by decide)).1
  refine Eq.trans ?_ e
  rw [outsAt0_C m c (pt k ⟨7, by decide⟩) h0 h1]
  dsimp only
  exact outC_16 m c k ⟨7, by decide⟩ (fun h => h0 ((hcond0_0 (pt k ⟨7, by decide⟩)).mp h)) ((hcond0_1 (pt k ⟨7, by decide⟩)).mpr h1)
    (outsAt0 m c ((pt k ⟨7, by decide⟩).val - 1) (Nat.lt_of_le_of_lt (Nat.sub_le _ _) (pt k ⟨7, by decide⟩).isLt)).2.2.2.2.2.2.2.1 (outsAt0 m c ((pt k ⟨7, by decide⟩).val - 1) (Nat.lt_of_le_of_lt (Nat.sub_le _ _) (pt k ⟨7, by decide⟩).isLt)).2.2.2.2.2.2.2.2.1 (outsAt0 m c ((pt k ⟨7, by decide⟩).val - 1) (Nat.lt_of_le_of_lt (Nat.sub_le _ _) (pt k ⟨7, by decide⟩).isLt)).2.2.2.2.2.2.2.2.2.1 (outsAt0 m c ((pt k ⟨7, by decide⟩).val - 1) (Nat.lt_of_le_of_lt (Nat.sub_le _ _) (pt k ⟨7, by decide⟩).isLt)).2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.2 q 0

/-- At its last step core `k` leaves in each of the eight rows of partial-sum block 17 its total over its eight tiles. -/
theorem out17_val (c : Dev nD) (k : Fin 2) (q : Fin 8) (y : Fin 256) :
    ((outsAt0 m c (pt k ⟨7, by decide⟩).val (pt k ⟨7, by decide⟩).isLt).2.2.1 : FVec Ideal S8x256 .f32) (ix2 q y) = sdC (X1 (arg0 m c)) (m2 (arg12 m c)) k y := by
  have h0 : ¬(pt k ⟨7, by decide⟩).val % 8 = 0 := by show ¬(8 * k.val + 7) % 8 = 0; omega
  have h1 : (pt k ⟨7, by decide⟩).val % 8 = 7 := by show (8 * k.val + 7) % 8 = 7; omega
  have e := (scr_inv m c k 7 (by decide)).2.1 y
  refine Eq.trans ?_ e
  rw [outsAt0_C m c (pt k ⟨7, by decide⟩) h0 h1]
  dsimp only
  exact outC_17 m c k ⟨7, by decide⟩ (fun h => h0 ((hcond0_0 (pt k ⟨7, by decide⟩)).mp h)) ((hcond0_1 (pt k ⟨7, by decide⟩)).mpr h1)
    (outsAt0 m c ((pt k ⟨7, by decide⟩).val - 1) (Nat.lt_of_le_of_lt (Nat.sub_le _ _) (pt k ⟨7, by decide⟩).isLt)).2.2.2.2.2.2.2.1 (outsAt0 m c ((pt k ⟨7, by decide⟩).val - 1) (Nat.lt_of_le_of_lt (Nat.sub_le _ _) (pt k ⟨7, by decide⟩).isLt)).2.2.2.2.2.2.2.2.1 (outsAt0 m c ((pt k ⟨7, by decide⟩).val - 1) (Nat.lt_of_le_of_lt (Nat.sub_le _ _) (pt k ⟨7, by decide⟩).isLt)).2.2.2.2.2.2.2.2.2.1 (outsAt0 m c ((pt k ⟨7, by decide⟩).val - 1) (Nat.lt_of_le_of_lt (Nat.sub_le _ _) (pt k ⟨7, by decide⟩).isLt)).2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.2 q y

/-- At its last step core `k` leaves in each of the eight rows of partial-sum block 18 its total over its eight tiles. -/
theorem out18_val (c : Dev nD) (k : Fin 2) (q : Fin 8) (y : Fin 1) :
    ((outsAt0 m c (pt k ⟨7, by decide⟩).val (pt k ⟨7, by decide⟩).isLt).2.2.2.1 : FVec Ideal S8x1 .f32) (ix2 q y) = sqC (X2 (arg0 m c) (arg1 m c) (arg4 m c) (arg5 m c)) (m2 (arg13 m c)) k := by
  have h0 : ¬(pt k ⟨7, by decide⟩).val % 8 = 0 := by show ¬(8 * k.val + 7) % 8 = 0; omega
  have h1 : (pt k ⟨7, by decide⟩).val % 8 = 7 := by show (8 * k.val + 7) % 8 = 7; omega
  obtain rfl : y = 0 := Subsingleton.elim _ _
  have e := (scr_inv m c k 7 (by decide)).2.2.1
  refine Eq.trans ?_ e
  rw [outsAt0_C m c (pt k ⟨7, by decide⟩) h0 h1]
  dsimp only
  exact outC_18 m c k ⟨7, by decide⟩ (fun h => h0 ((hcond0_0 (pt k ⟨7, by decide⟩)).mp h)) ((hcond0_1 (pt k ⟨7, by decide⟩)).mpr h1)
    (outsAt0 m c ((pt k ⟨7, by decide⟩).val - 1) (Nat.lt_of_le_of_lt (Nat.sub_le _ _) (pt k ⟨7, by decide⟩).isLt)).2.2.2.2.2.2.2.1 (outsAt0 m c ((pt k ⟨7, by decide⟩).val - 1) (Nat.lt_of_le_of_lt (Nat.sub_le _ _) (pt k ⟨7, by decide⟩).isLt)).2.2.2.2.2.2.2.2.1 (outsAt0 m c ((pt k ⟨7, by decide⟩).val - 1) (Nat.lt_of_le_of_lt (Nat.sub_le _ _) (pt k ⟨7, by decide⟩).isLt)).2.2.2.2.2.2.2.2.2.1 (outsAt0 m c ((pt k ⟨7, by decide⟩).val - 1) (Nat.lt_of_le_of_lt (Nat.sub_le _ _) (pt k ⟨7, by decide⟩).isLt)).2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.2 q 0

/-- At its last step core `k` leaves in each of the eight rows of partial-sum block 19 its total over its eight tiles. -/
theorem out19_val (c : Dev nD) (k : Fin 2) (q : Fin 8) (y : Fin 128) :
    ((outsAt0 m c (pt k ⟨7, by decide⟩).val (pt k ⟨7, by decide⟩).isLt).2.2.2.2.1 : FVec Ideal S8x128 .f32) (ix2 q y) = sdC (X2 (arg0 m c) (arg1 m c) (arg4 m c) (arg5 m c)) (m2 (arg13 m c)) k y := by
  have h0 : ¬(pt k ⟨7, by decide⟩).val % 8 = 0 := by show ¬(8 * k.val + 7) % 8 = 0; omega
  have h1 : (pt k ⟨7, by decide⟩).val % 8 = 7 := by show (8 * k.val + 7) % 8 = 7; omega
  have e := (scr_inv m c k 7 (by decide)).2.2.2.1 y
  refine Eq.trans ?_ e
  rw [outsAt0_C m c (pt k ⟨7, by decide⟩) h0 h1]
  dsimp only
  exact outC_19 m c k ⟨7, by decide⟩ (fun h => h0 ((hcond0_0 (pt k ⟨7, by decide⟩)).mp h)) ((hcond0_1 (pt k ⟨7, by decide⟩)).mpr h1)
    (outsAt0 m c ((pt k ⟨7, by decide⟩).val - 1) (Nat.lt_of_le_of_lt (Nat.sub_le _ _) (pt k ⟨7, by decide⟩).isLt)).2.2.2.2.2.2.2.1 (outsAt0 m c ((pt k ⟨7, by decide⟩).val - 1) (Nat.lt_of_le_of_lt (Nat.sub_le _ _) (pt k ⟨7, by decide⟩).isLt)).2.2.2.2.2.2.2.2.1 (outsAt0 m c ((pt k ⟨7, by decide⟩).val - 1) (Nat.lt_of_le_of_lt (Nat.sub_le _ _) (pt k ⟨7, by decide⟩).isLt)).2.2.2.2.2.2.2.2.2.1 (outsAt0 m c ((pt k ⟨7, by decide⟩).val - 1) (Nat.lt_of_le_of_lt (Nat.sub_le _ _) (pt k ⟨7, by decide⟩).isLt)).2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.2 q y

/-- At its last step core `k` leaves in each of the eight rows of partial-sum block 20 its total over its eight tiles. -/
theorem out20_val (c : Dev nD) (k : Fin 2) (q : Fin 8) (y : Fin 1) :
    ((outsAt0 m c (pt k ⟨7, by decide⟩).val (pt k ⟨7, by decide⟩).isLt).2.2.2.2.2.1 : FVec Ideal S8x1 .f32) (ix2 q y) = sqC (X3 (arg0 m c) (arg1 m c) (arg2 m c) (arg4 m c) (arg5 m c) (arg6 m c) (arg7 m c)) (m2 (arg14 m c)) k := by
  have h0 : ¬(pt k ⟨7, by decide⟩).val % 8 = 0 := by show ¬(8 * k.val + 7) % 8 = 0; omega
  have h1 : (pt k ⟨7, by decide⟩).val % 8 = 7 := by show (8 * k.val + 7) % 8 = 7; omega
  obtain rfl : y = 0 := Subsingleton.elim _ _
  have e := (scr_inv m c k 7 (by decide)).2.2.2.2.1
  refine Eq.trans ?_ e
  rw [outsAt0_C m c (pt k ⟨7, by decide⟩) h0 h1]
  dsimp only
  exact outC_20 m c k ⟨7, by decide⟩ (fun h => h0 ((hcond0_0 (pt k ⟨7, by decide⟩)).mp h)) ((hcond0_1 (pt k ⟨7, by decide⟩)).mpr h1)
    (outsAt0 m c ((pt k ⟨7, by decide⟩).val - 1) (Nat.lt_of_le_of_lt (Nat.sub_le _ _) (pt k ⟨7, by decide⟩).isLt)).2.2.2.2.2.2.2.1 (outsAt0 m c ((pt k ⟨7, by decide⟩).val - 1) (Nat.lt_of_le_of_lt (Nat.sub_le _ _) (pt k ⟨7, by decide⟩).isLt)).2.2.2.2.2.2.2.2.1 (outsAt0 m c ((pt k ⟨7, by decide⟩).val - 1) (Nat.lt_of_le_of_lt (Nat.sub_le _ _) (pt k ⟨7, by decide⟩).isLt)).2.2.2.2.2.2.2.2.2.1 (outsAt0 m c ((pt k ⟨7, by decide⟩).val - 1) (Nat.lt_of_le_of_lt (Nat.sub_le _ _) (pt k ⟨7, by decide⟩).isLt)).2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.2 q 0

/-- At its last step core `k` leaves in each of the eight rows of partial-sum block 21 its total over its eight tiles. -/
theorem out21_val (c : Dev nD) (k : Fin 2) (q : Fin 8) (y : Fin 64) :
    ((outsAt0 m c (pt k ⟨7, by decide⟩).val (pt k ⟨7, by decide⟩).isLt).2.2.2.2.2.2.1 : FVec Ideal S8x64 .f32) (ix2 q y) = sdC (X3 (arg0 m c) (arg1 m c) (arg2 m c) (arg4 m c) (arg5 m c) (arg6 m c) (arg7 m c)) (m2 (arg14 m c)) k y := by
  have h0 : ¬(pt k ⟨7, by decide⟩).val % 8 = 0 := by show ¬(8 * k.val + 7) % 8 = 0; omega
  have h1 : (pt k ⟨7, by decide⟩).val % 8 = 7 := by show (8 * k.val + 7) % 8 = 7; omega
  have e := (scr_inv m c k 7 (by decide)).2.2.2.2.2 y
  refine Eq.trans ?_ e
  rw [outsAt0_C m c (pt k ⟨7, by decide⟩) h0 h1]
  dsimp only
  exact outC_21 m c k ⟨7, by decide⟩ (fun h => h0 ((hcond0_0 (pt k ⟨7, by decide⟩)).mp h)) ((hcond0_1 (pt k ⟨7, by decide⟩)).mpr h1)
    (outsAt0 m c ((pt k ⟨7, by decide⟩).val - 1) (Nat.lt_of_le_of_lt (Nat.sub_le _ _) (pt k ⟨7, by decide⟩).isLt)).2.2.2.2.2.2.2.1 (outsAt0 m c ((pt k ⟨7, by decide⟩).val - 1) (Nat.lt_of_le_of_lt (Nat.sub_le _ _) (pt k ⟨7, by decide⟩).isLt)).2.2.2.2.2.2.2.2.1 (outsAt0 m c ((pt k ⟨7, by decide⟩).val - 1) (Nat.lt_of_le_of_lt (Nat.sub_le _ _) (pt k ⟨7, by decide⟩).isLt)).2.2.2.2.2.2.2.2.2.1 (outsAt0 m c ((pt k ⟨7, by decide⟩).val - 1) (Nat.lt_of_le_of_lt (Nat.sub_le _ _) (pt k ⟨7, by decide⟩).isLt)).2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.1 (outsAt0 m c ((pt k ⟨7, by decide⟩).val - 1) (Nat.lt_of_le_of_lt (Nat.sub_le _ _) (pt k ⟨7, by decide⟩).isLt)).2.2.2.2.2.2.2.2.2.2.2.2 q y

/-! ## The six partial-sum arrays after the run -/

/-- The core that wrote row `r` of a two-core partial-sum array: rows 0 to 7 are core 0's, rows 8 to 15 core 1's. -/
def coreOf (r : Fin 16) : Fin 2 := ⟨r.val / 8, by have := r.isLt; omega⟩

theorem coreOf_mk (k : Fin 2) (q : Fin 8) (h : 8 * k.val + q.val < 16) : coreOf ⟨8 * k.val + q.val, h⟩ = k :=
  Fin.ext (by show (8 * k.val + q.val) / 8 = k.val; have := q.isLt; omega)

/-- Partial-sum array 16: every row holds its core's total over the core's eight tiles. -/
def sqArr1 (c : Dev nD) : FVec Ideal S16x1 .f32 := fun i =>
  sqC (X1 (arg0 m c)) (m2 (arg12 m c)) (coreOf (i 0))

theorem sqArr1_apply (c : Dev nD) (r : Fin 16) (y : Fin 1) :
    sqArr1 m c (ix2 r y) = sqC (X1 (arg0 m c)) (m2 (arg12 m c)) ⟨r.val / 8, by have := r.isLt; omega⟩ := rfl

/-- Partial-sum array 17: every row holds its core's total over the core's eight tiles, column by column. -/
def sdArr1 (c : Dev nD) : FVec Ideal S16x256 .f32 := fun i =>
  sdC (X1 (arg0 m c)) (m2 (arg12 m c)) (coreOf (i 0)) (i 1)

theorem sdArr1_apply (c : Dev nD) (r : Fin 16) (y : Fin 256) :
    sdArr1 m c (ix2 r y) = sdC (X1 (arg0 m c)) (m2 (arg12 m c)) ⟨r.val / 8, by have := r.isLt; omega⟩ y := rfl

/-- Partial-sum array 18: every row holds its core's total over the core's eight tiles. -/
def sqArr2 (c : Dev nD) : FVec Ideal S16x1 .f32 := fun i =>
  sqC (X2 (arg0 m c) (arg1 m c) (arg4 m c) (arg5 m c)) (m2 (arg13 m c)) (coreOf (i 0))

theorem sqArr2_apply (c : Dev nD) (r : Fin 16) (y : Fin 1) :
    sqArr2 m c (ix2 r y) = sqC (X2 (arg0 m c) (arg1 m c) (arg4 m c) (arg5 m c)) (m2 (arg13 m c)) ⟨r.val / 8, by have := r.isLt; omega⟩ := rfl

/-- Partial-sum array 19: every row holds its core's total over the core's eight tiles, column by column. -/
def sdArr2 (c : Dev nD) : FVec Ideal S16x128 .f32 := fun i =>
  sdC (X2 (arg0 m c) (arg1 m c) (arg4 m c) (arg5 m c)) (m2 (arg13 m c)) (coreOf (i 0)) (i 1)

theorem sdArr2_apply (c : Dev nD) (r : Fin 16) (y : Fin 128) :
    sdArr2 m c (ix2 r y) = sdC (X2 (arg0 m c) (arg1 m c) (arg4 m c) (arg5 m c)) (m2 (arg13 m c)) ⟨r.val / 8, by have := r.isLt; omega⟩ y := rfl

/-- Partial-sum array 20: every row holds its core's total over the core's eight tiles. -/
def sqArr3 (c : Dev nD) : FVec Ideal S16x1 .f32 := fun i =>
  sqC (X3 (arg0 m c) (arg1 m c) (arg2 m c) (arg4 m c) (arg5 m c) (arg6 m c) (arg7 m c)) (m2 (arg14 m c)) (coreOf (i 0))

theorem sqArr3_apply (c : Dev nD) (r : Fin 16) (y : Fin 1) :
    sqArr3 m c (ix2 r y) = sqC (X3 (arg0 m c) (arg1 m c) (arg2 m c) (arg4 m c) (arg5 m c) (arg6 m c) (arg7 m c)) (m2 (arg14 m c)) ⟨r.val / 8, by have := r.isLt; omega⟩ := rfl

/-- Partial-sum array 21: every row holds its core's total over the core's eight tiles, column by column. -/
def sdArr3 (c : Dev nD) : FVec Ideal S16x64 .f32 := fun i =>
  sdC (X3 (arg0 m c) (arg1 m c) (arg2 m c) (arg4 m c) (arg5 m c) (arg6 m c) (arg7 m c)) (m2 (arg14 m c)) (coreOf (i 0)) (i 1)

theorem sdArr3_apply (c : Dev nD) (r : Fin 16) (y : Fin 64) :
    sdArr3 m c (ix2 r y) = sdC (X3 (arg0 m c) (arg1 m c) (arg2 m c) (arg4 m c) (arg5 m c) (arg6 m c) (arg7 m c)) (m2 (arg14 m c)) ⟨r.val / 8, by have := r.isLt; omega⟩ y := rfl

/-- Block 16's index: the core, and the one column block. -/
theorem idx_o16 : ∀ t : Fin cfg0.N, win0_16.index t 0 = t.val / 8 ∧ win0_16.index t 1 = 0 :=
  (by decide +kernel : ∀ t : Fin grid0.N, _)

/-- What core `k`'s last point writes back of window 16 is its block of the array of totals. -/
theorem flushedK16 (c : Dev nD) (k : Fin 2) :
    (dats m 0 c).flushed 16 (pt k ⟨7, by decide⟩) = ((cfg0.win 16).blk (pt k ⟨7, by decide⟩)).view.read (Elt Ideal) (sqArr1 m c) := by
  obtain ⟨e0, e1⟩ := idx_o16 (pt k ⟨7, by decide⟩)
  show (cfg0.win 16).cut (grid0.coords (pt k ⟨7, by decide⟩)) ((dats m 0 c).after 16 (pt k ⟨7, by decide⟩)) = _
  rw [after0_16]
  funext jj
  obtain ⟨q, y, rfl⟩ : ∃ (q : Fin 8) (y : Fin 1), jj = ix2 q y := ⟨jj 0, jj 1, eq_ix2 jj⟩
  refine (out16_val m c k q y).trans ?_
  rw [View.read_apply]
  have hq : 8 * k.val + q.val < 16 := by have := k.isLt; have := q.isLt; omega
  refine Eq.trans (?_ : _ = sqArr1 m c (ix2 (⟨8 * k.val + q.val, hq⟩ : Fin 16) y)) (congrArg (sqArr1 m c) ?_)
  · show _ = sqC (X1 (arg0 m c)) (m2 (arg12 m c)) (coreOf ⟨8 * k.val + q.val, hq⟩)
    rw [coreOf_mk k q hq]
  · funext a
    apply Fin.ext
    match a with
    | ⟨0, _⟩ =>
      show 8 * k.val + q.val = win0_16.index (pt k ⟨7, by decide⟩) 0 * 8 + 1 * q.val
      rw [e0]
      show 8 * k.val + q.val = (8 * k.val + 7) / 8 * 8 + 1 * q.val
      omega
    | ⟨1, _⟩ =>
      show y.val = win0_16.index (pt k ⟨7, by decide⟩) 1 * 1 + 1 * y.val
      rw [e1]
      omega

/-- What a flushing point writes back of window 16 is its block of the array of totals: the flushing points are the
    cores' last. -/
theorem flushed16_eq (c : Dev nD) (t : Fin cfg0.N) (hf : (cfg0.win 16).flush t = true) :
    (dats m 0 c).flushed 16 t = ((cfg0.win 16).blk t).view.read (Elt Ideal) (sqArr1 m c) := by
  have h7 : t.val % 8 = 7 := (flush0_16 t).mp hf
  have hN : cfg0.N = 16 := N_0
  obtain ⟨k, rfl⟩ : ∃ k : Fin 2, t = pt k ⟨7, by decide⟩ :=
    ⟨⟨t.val / 8, by have := t.isLt; omega⟩, Fin.ext (by show t.val = 8 * (t.val / 8) + 7; omega)⟩
  exact flushedK16 m c k

/-- An index of array 16 is in a point's block when each coordinate is in the block's range on its axis. -/
theorem mem_blk16 (t : Fin cfg0.N) (i : S16x1.Idx) :
    i ∈ ((cfg0.win 16).blk t).view.set ↔ ∀ a : Fin 2, win0_16.index t a * S8x1.size a ≤ (i a).val ∧ (i a).val < win0_16.index t a * S8x1.size a + S8x1.size a := by
  show i ∈ ((View.whole main_v17_1).slice (win0_16.rect t)).set ↔ _
  rw [View.set_slice_whole, Rect.mem_set_unit]
  exact Iff.rfl

/-- The two cores' blocks of window 16 tile the array. -/
theorem cover16 (i : S16x1.Idx) :
    ∃ t : Fin cfg0.N, (cfg0.win 16).flush t = true ∧ i ∈ ((cfg0.win 16).blk t).view.set := by
  have h0 : (i 0).val < 16 := (i 0).isLt
  have h1 : (i 1).val < 1 := (i 1).isLt
  obtain ⟨e0, e1⟩ := idx_o16 (pt ⟨(i 0).val / 8, by omega⟩ ⟨7, by decide⟩)
  refine ⟨pt ⟨(i 0).val / 8, by omega⟩ ⟨7, by decide⟩, (flush0_16 _).mpr (by show (8 * ((i 0).val / 8) + 7) % 8 = 7; omega), ?_⟩
  rw [mem_blk16]
  intro a
  match a with
  | ⟨0, _⟩ =>
    show win0_16.index (pt ⟨(i 0).val / 8, by omega⟩ ⟨7, by decide⟩) 0 * 8 ≤ (i 0).val ∧ (i 0).val < win0_16.index (pt ⟨(i 0).val / 8, by omega⟩ ⟨7, by decide⟩) 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_16.index (pt ⟨(i 0).val / 8, by omega⟩ ⟨7, by decide⟩) 1 * 1 ≤ (i 1).val ∧ (i 1).val < win0_16.index (pt ⟨(i 0).val / 8, by omega⟩ ⟨7, by decide⟩) 1 * 1 + 1
    rw [e1]
    omega

/-- Partial-sum array 16 after the run: every row at its core's total. -/
theorem arr16_eq (c : Dev nD) : (dats m 0 c).arrAt 16 cfg0.N = sqArr1 m c :=
  (dats m 0 c).arrAt_eq_of_cover 16 (sqArr1 m c) (flushed16_eq m c) cover16

/-- Block 17's index: the core, and the one column block. -/
theorem idx_o17 : ∀ t : Fin cfg0.N, win0_17.index t 0 = t.val / 8 ∧ win0_17.index t 1 = 0 :=
  (by decide +kernel : ∀ t : Fin grid0.N, _)

/-- What core `k`'s last point writes back of window 17 is its block of the array of totals. -/
theorem flushedK17 (c : Dev nD) (k : Fin 2) :
    (dats m 0 c).flushed 17 (pt k ⟨7, by decide⟩) = ((cfg0.win 17).blk (pt k ⟨7, by decide⟩)).view.read (Elt Ideal) (sdArr1 m c) := by
  obtain ⟨e0, e1⟩ := idx_o17 (pt k ⟨7, by decide⟩)
  show (cfg0.win 17).cut (grid0.coords (pt k ⟨7, by decide⟩)) ((dats m 0 c).after 17 (pt k ⟨7, by decide⟩)) = _
  rw [after0_17]
  funext jj
  obtain ⟨q, y, rfl⟩ : ∃ (q : Fin 8) (y : Fin 256), jj = ix2 q y := ⟨jj 0, jj 1, eq_ix2 jj⟩
  refine (out17_val m c k q y).trans ?_
  rw [View.read_apply]
  have hq : 8 * k.val + q.val < 16 := by have := k.isLt; have := q.isLt; omega
  refine Eq.trans (?_ : _ = sdArr1 m c (ix2 (⟨8 * k.val + q.val, hq⟩ : Fin 16) y)) (congrArg (sdArr1 m c) ?_)
  · show _ = sdC (X1 (arg0 m c)) (m2 (arg12 m c)) (coreOf ⟨8 * k.val + q.val, hq⟩) y
    rw [coreOf_mk k q hq]
  · funext a
    apply Fin.ext
    match a with
    | ⟨0, _⟩ =>
      show 8 * k.val + q.val = win0_17.index (pt k ⟨7, by decide⟩) 0 * 8 + 1 * q.val
      rw [e0]
      show 8 * k.val + q.val = (8 * k.val + 7) / 8 * 8 + 1 * q.val
      omega
    | ⟨1, _⟩ =>
      show y.val = win0_17.index (pt k ⟨7, by decide⟩) 1 * 256 + 1 * y.val
      rw [e1]
      omega

/-- What a flushing point writes back of window 17 is its block of the array of totals: the flushing points are the
    cores' last. -/
theorem flushed17_eq (c : Dev nD) (t : Fin cfg0.N) (hf : (cfg0.win 17).flush t = true) :
    (dats m 0 c).flushed 17 t = ((cfg0.win 17).blk t).view.read (Elt Ideal) (sdArr1 m c) := by
  have h7 : t.val % 8 = 7 := (flush0_17 t).mp hf
  have hN : cfg0.N = 16 := N_0
  obtain ⟨k, rfl⟩ : ∃ k : Fin 2, t = pt k ⟨7, by decide⟩ :=
    ⟨⟨t.val / 8, by have := t.isLt; omega⟩, Fin.ext (by show t.val = 8 * (t.val / 8) + 7; omega)⟩
  exact flushedK17 m c k

/-- An index of array 17 is in a point's block when each coordinate is in the block's range on its axis. -/
theorem mem_blk17 (t : Fin cfg0.N) (i : S16x256.Idx) :
    i ∈ ((cfg0.win 17).blk t).view.set ↔ ∀ a : Fin 2, win0_17.index t a * S8x256.size a ≤ (i a).val ∧ (i a).val < win0_17.index t a * S8x256.size a + S8x256.size a := by
  show i ∈ ((View.whole main_v17_2).slice (win0_17.rect t)).set ↔ _
  rw [View.set_slice_whole, Rect.mem_set_unit]
  exact Iff.rfl

/-- The two cores' blocks of window 17 tile the array. -/
theorem cover17 (i : S16x256.Idx) :
    ∃ t : Fin cfg0.N, (cfg0.win 17).flush t = true ∧ i ∈ ((cfg0.win 17).blk t).view.set := by
  have h0 : (i 0).val < 16 := (i 0).isLt
  have h1 : (i 1).val < 256 := (i 1).isLt
  obtain ⟨e0, e1⟩ := idx_o17 (pt ⟨(i 0).val / 8, by omega⟩ ⟨7, by decide⟩)
  refine ⟨pt ⟨(i 0).val / 8, by omega⟩ ⟨7, by decide⟩, (flush0_17 _).mpr (by show (8 * ((i 0).val / 8) + 7) % 8 = 7; omega), ?_⟩
  rw [mem_blk17]
  intro a
  match a with
  | ⟨0, _⟩ =>
    show win0_17.index (pt ⟨(i 0).val / 8, by omega⟩ ⟨7, by decide⟩) 0 * 8 ≤ (i 0).val ∧ (i 0).val < win0_17.index (pt ⟨(i 0).val / 8, by omega⟩ ⟨7, by decide⟩) 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_17.index (pt ⟨(i 0).val / 8, by omega⟩ ⟨7, by decide⟩) 1 * 256 ≤ (i 1).val ∧ (i 1).val < win0_17.index (pt ⟨(i 0).val / 8, by omega⟩ ⟨7, by decide⟩) 1 * 256 + 256
    rw [e1]
    omega

/-- Partial-sum array 17 after the run: every row at its core's total. -/
theorem arr17_eq (c : Dev nD) : (dats m 0 c).arrAt 17 cfg0.N = sdArr1 m c :=
  (dats m 0 c).arrAt_eq_of_cover 17 (sdArr1 m c) (flushed17_eq m c) cover17

/-- Block 18's index: the core, and the one column block. -/
theorem idx_o18 : ∀ t : Fin cfg0.N, win0_18.index t 0 = t.val / 8 ∧ win0_18.index t 1 = 0 :=
  (by decide +kernel : ∀ t : Fin grid0.N, _)

/-- What core `k`'s last point writes back of window 18 is its block of the array of totals. -/
theorem flushedK18 (c : Dev nD) (k : Fin 2) :
    (dats m 0 c).flushed 18 (pt k ⟨7, by decide⟩) = ((cfg0.win 18).blk (pt k ⟨7, by decide⟩)).view.read (Elt Ideal) (sqArr2 m c) := by
  obtain ⟨e0, e1⟩ := idx_o18 (pt k ⟨7, by decide⟩)
  show (cfg0.win 18).cut (grid0.coords (pt k ⟨7, by decide⟩)) ((dats m 0 c).after 18 (pt k ⟨7, by decide⟩)) = _
  rw [after0_18]
  funext jj
  obtain ⟨q, y, rfl⟩ : ∃ (q : Fin 8) (y : Fin 1), jj = ix2 q y := ⟨jj 0, jj 1, eq_ix2 jj⟩
  refine (out18_val m c k q y).trans ?_
  rw [View.read_apply]
  have hq : 8 * k.val + q.val < 16 := by have := k.isLt; have := q.isLt; omega
  refine Eq.trans (?_ : _ = sqArr2 m c (ix2 (⟨8 * k.val + q.val, hq⟩ : Fin 16) y)) (congrArg (sqArr2 m c) ?_)
  · show _ = sqC (X2 (arg0 m c) (arg1 m c) (arg4 m c) (arg5 m c)) (m2 (arg13 m c)) (coreOf ⟨8 * k.val + q.val, hq⟩)
    rw [coreOf_mk k q hq]
  · funext a
    apply Fin.ext
    match a with
    | ⟨0, _⟩ =>
      show 8 * k.val + q.val = win0_18.index (pt k ⟨7, by decide⟩) 0 * 8 + 1 * q.val
      rw [e0]
      show 8 * k.val + q.val = (8 * k.val + 7) / 8 * 8 + 1 * q.val
      omega
    | ⟨1, _⟩ =>
      show y.val = win0_18.index (pt k ⟨7, by decide⟩) 1 * 1 + 1 * y.val
      rw [e1]
      omega

/-- What a flushing point writes back of window 18 is its block of the array of totals: the flushing points are the
    cores' last. -/
theorem flushed18_eq (c : Dev nD) (t : Fin cfg0.N) (hf : (cfg0.win 18).flush t = true) :
    (dats m 0 c).flushed 18 t = ((cfg0.win 18).blk t).view.read (Elt Ideal) (sqArr2 m c) := by
  have h7 : t.val % 8 = 7 := (flush0_18 t).mp hf
  have hN : cfg0.N = 16 := N_0
  obtain ⟨k, rfl⟩ : ∃ k : Fin 2, t = pt k ⟨7, by decide⟩ :=
    ⟨⟨t.val / 8, by have := t.isLt; omega⟩, Fin.ext (by show t.val = 8 * (t.val / 8) + 7; omega)⟩
  exact flushedK18 m c k

/-- An index of array 18 is in a point's block when each coordinate is in the block's range on its axis. -/
theorem mem_blk18 (t : Fin cfg0.N) (i : S16x1.Idx) :
    i ∈ ((cfg0.win 18).blk t).view.set ↔ ∀ a : Fin 2, win0_18.index t a * S8x1.size a ≤ (i a).val ∧ (i a).val < win0_18.index t a * S8x1.size a + S8x1.size a := by
  show i ∈ ((View.whole main_v17_3).slice (win0_18.rect t)).set ↔ _
  rw [View.set_slice_whole, Rect.mem_set_unit]
  exact Iff.rfl

/-- The two cores' blocks of window 18 tile the array. -/
theorem cover18 (i : S16x1.Idx) :
    ∃ t : Fin cfg0.N, (cfg0.win 18).flush t = true ∧ i ∈ ((cfg0.win 18).blk t).view.set := by
  have h0 : (i 0).val < 16 := (i 0).isLt
  have h1 : (i 1).val < 1 := (i 1).isLt
  obtain ⟨e0, e1⟩ := idx_o18 (pt ⟨(i 0).val / 8, by omega⟩ ⟨7, by decide⟩)
  refine ⟨pt ⟨(i 0).val / 8, by omega⟩ ⟨7, by decide⟩, (flush0_18 _).mpr (by show (8 * ((i 0).val / 8) + 7) % 8 = 7; omega), ?_⟩
  rw [mem_blk18]
  intro a
  match a with
  | ⟨0, _⟩ =>
    show win0_18.index (pt ⟨(i 0).val / 8, by omega⟩ ⟨7, by decide⟩) 0 * 8 ≤ (i 0).val ∧ (i 0).val < win0_18.index (pt ⟨(i 0).val / 8, by omega⟩ ⟨7, by decide⟩) 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_18.index (pt ⟨(i 0).val / 8, by omega⟩ ⟨7, by decide⟩) 1 * 1 ≤ (i 1).val ∧ (i 1).val < win0_18.index (pt ⟨(i 0).val / 8, by omega⟩ ⟨7, by decide⟩) 1 * 1 + 1
    rw [e1]
    omega

/-- Partial-sum array 18 after the run: every row at its core's total. -/
theorem arr18_eq (c : Dev nD) : (dats m 0 c).arrAt 18 cfg0.N = sqArr2 m c :=
  (dats m 0 c).arrAt_eq_of_cover 18 (sqArr2 m c) (flushed18_eq m c) cover18

/-- Block 19's index: the core, and the one column block. -/
theorem idx_o19 : ∀ t : Fin cfg0.N, win0_19.index t 0 = t.val / 8 ∧ win0_19.index t 1 = 0 :=
  (by decide +kernel : ∀ t : Fin grid0.N, _)

/-- What core `k`'s last point writes back of window 19 is its block of the array of totals. -/
theorem flushedK19 (c : Dev nD) (k : Fin 2) :
    (dats m 0 c).flushed 19 (pt k ⟨7, by decide⟩) = ((cfg0.win 19).blk (pt k ⟨7, by decide⟩)).view.read (Elt Ideal) (sdArr2 m c) := by
  obtain ⟨e0, e1⟩ := idx_o19 (pt k ⟨7, by decide⟩)
  show (cfg0.win 19).cut (grid0.coords (pt k ⟨7, by decide⟩)) ((dats m 0 c).after 19 (pt k ⟨7, by decide⟩)) = _
  rw [after0_19]
  funext jj
  obtain ⟨q, y, rfl⟩ : ∃ (q : Fin 8) (y : Fin 128), jj = ix2 q y := ⟨jj 0, jj 1, eq_ix2 jj⟩
  refine (out19_val m c k q y).trans ?_
  rw [View.read_apply]
  have hq : 8 * k.val + q.val < 16 := by have := k.isLt; have := q.isLt; omega
  refine Eq.trans (?_ : _ = sdArr2 m c (ix2 (⟨8 * k.val + q.val, hq⟩ : Fin 16) y)) (congrArg (sdArr2 m c) ?_)
  · show _ = sdC (X2 (arg0 m c) (arg1 m c) (arg4 m c) (arg5 m c)) (m2 (arg13 m c)) (coreOf ⟨8 * k.val + q.val, hq⟩) y
    rw [coreOf_mk k q hq]
  · funext a
    apply Fin.ext
    match a with
    | ⟨0, _⟩ =>
      show 8 * k.val + q.val = win0_19.index (pt k ⟨7, by decide⟩) 0 * 8 + 1 * q.val
      rw [e0]
      show 8 * k.val + q.val = (8 * k.val + 7) / 8 * 8 + 1 * q.val
      omega
    | ⟨1, _⟩ =>
      show y.val = win0_19.index (pt k ⟨7, by decide⟩) 1 * 128 + 1 * y.val
      rw [e1]
      omega

/-- What a flushing point writes back of window 19 is its block of the array of totals: the flushing points are the
    cores' last. -/
theorem flushed19_eq (c : Dev nD) (t : Fin cfg0.N) (hf : (cfg0.win 19).flush t = true) :
    (dats m 0 c).flushed 19 t = ((cfg0.win 19).blk t).view.read (Elt Ideal) (sdArr2 m c) := by
  have h7 : t.val % 8 = 7 := (flush0_19 t).mp hf
  have hN : cfg0.N = 16 := N_0
  obtain ⟨k, rfl⟩ : ∃ k : Fin 2, t = pt k ⟨7, by decide⟩ :=
    ⟨⟨t.val / 8, by have := t.isLt; omega⟩, Fin.ext (by show t.val = 8 * (t.val / 8) + 7; omega)⟩
  exact flushedK19 m c k

/-- An index of array 19 is in a point's block when each coordinate is in the block's range on its axis. -/
theorem mem_blk19 (t : Fin cfg0.N) (i : S16x128.Idx) :
    i ∈ ((cfg0.win 19).blk t).view.set ↔ ∀ a : Fin 2, win0_19.index t a * S8x128.size a ≤ (i a).val ∧ (i a).val < win0_19.index t a * S8x128.size a + S8x128.size a := by
  show i ∈ ((View.whole main_v17_4).slice (win0_19.rect t)).set ↔ _
  rw [View.set_slice_whole, Rect.mem_set_unit]
  exact Iff.rfl

/-- The two cores' blocks of window 19 tile the array. -/
theorem cover19 (i : S16x128.Idx) :
    ∃ t : Fin cfg0.N, (cfg0.win 19).flush t = true ∧ i ∈ ((cfg0.win 19).blk t).view.set := by
  have h0 : (i 0).val < 16 := (i 0).isLt
  have h1 : (i 1).val < 128 := (i 1).isLt
  obtain ⟨e0, e1⟩ := idx_o19 (pt ⟨(i 0).val / 8, by omega⟩ ⟨7, by decide⟩)
  refine ⟨pt ⟨(i 0).val / 8, by omega⟩ ⟨7, by decide⟩, (flush0_19 _).mpr (by show (8 * ((i 0).val / 8) + 7) % 8 = 7; omega), ?_⟩
  rw [mem_blk19]
  intro a
  match a with
  | ⟨0, _⟩ =>
    show win0_19.index (pt ⟨(i 0).val / 8, by omega⟩ ⟨7, by decide⟩) 0 * 8 ≤ (i 0).val ∧ (i 0).val < win0_19.index (pt ⟨(i 0).val / 8, by omega⟩ ⟨7, by decide⟩) 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_19.index (pt ⟨(i 0).val / 8, by omega⟩ ⟨7, by decide⟩) 1 * 128 ≤ (i 1).val ∧ (i 1).val < win0_19.index (pt ⟨(i 0).val / 8, by omega⟩ ⟨7, by decide⟩) 1 * 128 + 128
    rw [e1]
    omega

/-- Partial-sum array 19 after the run: every row at its core's total. -/
theorem arr19_eq (c : Dev nD) : (dats m 0 c).arrAt 19 cfg0.N = sdArr2 m c :=
  (dats m 0 c).arrAt_eq_of_cover 19 (sdArr2 m c) (flushed19_eq m c) cover19

/-- Block 20's index: the core, and the one column block. -/
theorem idx_o20 : ∀ t : Fin cfg0.N, win0_20.index t 0 = t.val / 8 ∧ win0_20.index t 1 = 0 :=
  (by decide +kernel : ∀ t : Fin grid0.N, _)

/-- What core `k`'s last point writes back of window 20 is its block of the array of totals. -/
theorem flushedK20 (c : Dev nD) (k : Fin 2) :
    (dats m 0 c).flushed 20 (pt k ⟨7, by decide⟩) = ((cfg0.win 20).blk (pt k ⟨7, by decide⟩)).view.read (Elt Ideal) (sqArr3 m c) := by
  obtain ⟨e0, e1⟩ := idx_o20 (pt k ⟨7, by decide⟩)
  show (cfg0.win 20).cut (grid0.coords (pt k ⟨7, by decide⟩)) ((dats m 0 c).after 20 (pt k ⟨7, by decide⟩)) = _
  rw [after0_20]
  funext jj
  obtain ⟨q, y, rfl⟩ : ∃ (q : Fin 8) (y : Fin 1), jj = ix2 q y := ⟨jj 0, jj 1, eq_ix2 jj⟩
  refine (out20_val m c k q y).trans ?_
  rw [View.read_apply]
  have hq : 8 * k.val + q.val < 16 := by have := k.isLt; have := q.isLt; omega
  refine Eq.trans (?_ : _ = sqArr3 m c (ix2 (⟨8 * k.val + q.val, hq⟩ : Fin 16) y)) (congrArg (sqArr3 m c) ?_)
  · show _ = sqC (X3 (arg0 m c) (arg1 m c) (arg2 m c) (arg4 m c) (arg5 m c) (arg6 m c) (arg7 m c)) (m2 (arg14 m c)) (coreOf ⟨8 * k.val + q.val, hq⟩)
    rw [coreOf_mk k q hq]
  · funext a
    apply Fin.ext
    match a with
    | ⟨0, _⟩ =>
      show 8 * k.val + q.val = win0_20.index (pt k ⟨7, by decide⟩) 0 * 8 + 1 * q.val
      rw [e0]
      show 8 * k.val + q.val = (8 * k.val + 7) / 8 * 8 + 1 * q.val
      omega
    | ⟨1, _⟩ =>
      show y.val = win0_20.index (pt k ⟨7, by decide⟩) 1 * 1 + 1 * y.val
      rw [e1]
      omega

/-- What a flushing point writes back of window 20 is its block of the array of totals: the flushing points are the
    cores' last. -/
theorem flushed20_eq (c : Dev nD) (t : Fin cfg0.N) (hf : (cfg0.win 20).flush t = true) :
    (dats m 0 c).flushed 20 t = ((cfg0.win 20).blk t).view.read (Elt Ideal) (sqArr3 m c) := by
  have h7 : t.val % 8 = 7 := (flush0_20 t).mp hf
  have hN : cfg0.N = 16 := N_0
  obtain ⟨k, rfl⟩ : ∃ k : Fin 2, t = pt k ⟨7, by decide⟩ :=
    ⟨⟨t.val / 8, by have := t.isLt; omega⟩, Fin.ext (by show t.val = 8 * (t.val / 8) + 7; omega)⟩
  exact flushedK20 m c k

/-- An index of array 20 is in a point's block when each coordinate is in the block's range on its axis. -/
theorem mem_blk20 (t : Fin cfg0.N) (i : S16x1.Idx) :
    i ∈ ((cfg0.win 20).blk t).view.set ↔ ∀ a : Fin 2, win0_20.index t a * S8x1.size a ≤ (i a).val ∧ (i a).val < win0_20.index t a * S8x1.size a + S8x1.size a := by
  show i ∈ ((View.whole main_v17_5).slice (win0_20.rect t)).set ↔ _
  rw [View.set_slice_whole, Rect.mem_set_unit]
  exact Iff.rfl

/-- The two cores' blocks of window 20 tile the array. -/
theorem cover20 (i : S16x1.Idx) :
    ∃ t : Fin cfg0.N, (cfg0.win 20).flush t = true ∧ i ∈ ((cfg0.win 20).blk t).view.set := by
  have h0 : (i 0).val < 16 := (i 0).isLt
  have h1 : (i 1).val < 1 := (i 1).isLt
  obtain ⟨e0, e1⟩ := idx_o20 (pt ⟨(i 0).val / 8, by omega⟩ ⟨7, by decide⟩)
  refine ⟨pt ⟨(i 0).val / 8, by omega⟩ ⟨7, by decide⟩, (flush0_20 _).mpr (by show (8 * ((i 0).val / 8) + 7) % 8 = 7; omega), ?_⟩
  rw [mem_blk20]
  intro a
  match a with
  | ⟨0, _⟩ =>
    show win0_20.index (pt ⟨(i 0).val / 8, by omega⟩ ⟨7, by decide⟩) 0 * 8 ≤ (i 0).val ∧ (i 0).val < win0_20.index (pt ⟨(i 0).val / 8, by omega⟩ ⟨7, by decide⟩) 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_20.index (pt ⟨(i 0).val / 8, by omega⟩ ⟨7, by decide⟩) 1 * 1 ≤ (i 1).val ∧ (i 1).val < win0_20.index (pt ⟨(i 0).val / 8, by omega⟩ ⟨7, by decide⟩) 1 * 1 + 1
    rw [e1]
    omega

/-- Partial-sum array 20 after the run: every row at its core's total. -/
theorem arr20_eq (c : Dev nD) : (dats m 0 c).arrAt 20 cfg0.N = sqArr3 m c :=
  (dats m 0 c).arrAt_eq_of_cover 20 (sqArr3 m c) (flushed20_eq m c) cover20

/-- Block 21's index: the core, and the one column block. -/
theorem idx_o21 : ∀ t : Fin cfg0.N, win0_21.index t 0 = t.val / 8 ∧ win0_21.index t 1 = 0 :=
  (by decide +kernel : ∀ t : Fin grid0.N, _)

/-- What core `k`'s last point writes back of window 21 is its block of the array of totals. -/
theorem flushedK21 (c : Dev nD) (k : Fin 2) :
    (dats m 0 c).flushed 21 (pt k ⟨7, by decide⟩) = ((cfg0.win 21).blk (pt k ⟨7, by decide⟩)).view.read (Elt Ideal) (sdArr3 m c) := by
  obtain ⟨e0, e1⟩ := idx_o21 (pt k ⟨7, by decide⟩)
  show (cfg0.win 21).cut (grid0.coords (pt k ⟨7, by decide⟩)) ((dats m 0 c).after 21 (pt k ⟨7, by decide⟩)) = _
  rw [after0_21]
  funext jj
  obtain ⟨q, y, rfl⟩ : ∃ (q : Fin 8) (y : Fin 64), jj = ix2 q y := ⟨jj 0, jj 1, eq_ix2 jj⟩
  refine (out21_val m c k q y).trans ?_
  rw [View.read_apply]
  have hq : 8 * k.val + q.val < 16 := by have := k.isLt; have := q.isLt; omega
  refine Eq.trans (?_ : _ = sdArr3 m c (ix2 (⟨8 * k.val + q.val, hq⟩ : Fin 16) y)) (congrArg (sdArr3 m c) ?_)
  · show _ = sdC (X3 (arg0 m c) (arg1 m c) (arg2 m c) (arg4 m c) (arg5 m c) (arg6 m c) (arg7 m c)) (m2 (arg14 m c)) (coreOf ⟨8 * k.val + q.val, hq⟩) y
    rw [coreOf_mk k q hq]
  · funext a
    apply Fin.ext
    match a with
    | ⟨0, _⟩ =>
      show 8 * k.val + q.val = win0_21.index (pt k ⟨7, by decide⟩) 0 * 8 + 1 * q.val
      rw [e0]
      show 8 * k.val + q.val = (8 * k.val + 7) / 8 * 8 + 1 * q.val
      omega
    | ⟨1, _⟩ =>
      show y.val = win0_21.index (pt k ⟨7, by decide⟩) 1 * 64 + 1 * y.val
      rw [e1]
      omega

/-- What a flushing point writes back of window 21 is its block of the array of totals: the flushing points are the
    cores' last. -/
theorem flushed21_eq (c : Dev nD) (t : Fin cfg0.N) (hf : (cfg0.win 21).flush t = true) :
    (dats m 0 c).flushed 21 t = ((cfg0.win 21).blk t).view.read (Elt Ideal) (sdArr3 m c) := by
  have h7 : t.val % 8 = 7 := (flush0_21 t).mp hf
  have hN : cfg0.N = 16 := N_0
  obtain ⟨k, rfl⟩ : ∃ k : Fin 2, t = pt k ⟨7, by decide⟩ :=
    ⟨⟨t.val / 8, by have := t.isLt; omega⟩, Fin.ext (by show t.val = 8 * (t.val / 8) + 7; omega)⟩
  exact flushedK21 m c k

/-- An index of array 21 is in a point's block when each coordinate is in the block's range on its axis. -/
theorem mem_blk21 (t : Fin cfg0.N) (i : S16x64.Idx) :
    i ∈ ((cfg0.win 21).blk t).view.set ↔ ∀ a : Fin 2, win0_21.index t a * S8x64.size a ≤ (i a).val ∧ (i a).val < win0_21.index t a * S8x64.size a + S8x64.size a := by
  show i ∈ ((View.whole main_v17_6).slice (win0_21.rect t)).set ↔ _
  rw [View.set_slice_whole, Rect.mem_set_unit]
  exact Iff.rfl

/-- The two cores' blocks of window 21 tile the array. -/
theorem cover21 (i : S16x64.Idx) :
    ∃ t : Fin cfg0.N, (cfg0.win 21).flush t = true ∧ i ∈ ((cfg0.win 21).blk t).view.set := by
  have h0 : (i 0).val < 16 := (i 0).isLt
  have h1 : (i 1).val < 64 := (i 1).isLt
  obtain ⟨e0, e1⟩ := idx_o21 (pt ⟨(i 0).val / 8, by omega⟩ ⟨7, by decide⟩)
  refine ⟨pt ⟨(i 0).val / 8, by omega⟩ ⟨7, by decide⟩, (flush0_21 _).mpr (by show (8 * ((i 0).val / 8) + 7) % 8 = 7; omega), ?_⟩
  rw [mem_blk21]
  intro a
  match a with
  | ⟨0, _⟩ =>
    show win0_21.index (pt ⟨(i 0).val / 8, by omega⟩ ⟨7, by decide⟩) 0 * 8 ≤ (i 0).val ∧ (i 0).val < win0_21.index (pt ⟨(i 0).val / 8, by omega⟩ ⟨7, by decide⟩) 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_21.index (pt ⟨(i 0).val / 8, by omega⟩ ⟨7, by decide⟩) 1 * 64 ≤ (i 1).val ∧ (i 1).val < win0_21.index (pt ⟨(i 0).val / 8, by omega⟩ ⟨7, by decide⟩) 1 * 64 + 64
    rw [e1]
    omega

/-- Partial-sum array 21 after the run: every row at its core's total. -/
theorem arr21_eq (c : Dev nD) : (dats m 0 c).arrAt 21 cfg0.N = sdArr3 m c :=
  (dats m 0 c).arrAt_eq_of_cover 21 (sdArr3 m c) (flushed21_eq m c) cover21

/-- Entry `(r, y)` of partial-sum array 16 after the run: the total of the core that owns row `r`. -/
theorem arr16 (c : Dev nD) (r : Fin 16) (y : Fin 1) :
    ((dats m 0 c).arrAt 16 cfg0.N : FVec Ideal S16x1 .f32) (ix2 r y)
      = sqC (X1 (arg0 m c)) (m2 (arg12 m c)) ⟨r.val / 8, by have := r.isLt; omega⟩ :=
  (congrFun (arr16_eq m c) (ix2 r y)).trans (sqArr1_apply m c r y)

/-- Entry `(r, y)` of partial-sum array 17 after the run: the total of the core that owns row `r`. -/
theorem arr17 (c : Dev nD) (r : Fin 16) (y : Fin 256) :
    ((dats m 0 c).arrAt 17 cfg0.N : FVec Ideal S16x256 .f32) (ix2 r y)
      = sdC (X1 (arg0 m c)) (m2 (arg12 m c)) ⟨r.val / 8, by have := r.isLt; omega⟩ y :=
  (congrFun (arr17_eq m c) (ix2 r y)).trans (sdArr1_apply m c r y)

/-- Entry `(r, y)` of partial-sum array 18 after the run: the total of the core that owns row `r`. -/
theorem arr18 (c : Dev nD) (r : Fin 16) (y : Fin 1) :
    ((dats m 0 c).arrAt 18 cfg0.N : FVec Ideal S16x1 .f32) (ix2 r y)
      = sqC (X2 (arg0 m c) (arg1 m c) (arg4 m c) (arg5 m c)) (m2 (arg13 m c)) ⟨r.val / 8, by have := r.isLt; omega⟩ :=
  (congrFun (arr18_eq m c) (ix2 r y)).trans (sqArr2_apply m c r y)

/-- Entry `(r, y)` of partial-sum array 19 after the run: the total of the core that owns row `r`. -/
theorem arr19 (c : Dev nD) (r : Fin 16) (y : Fin 128) :
    ((dats m 0 c).arrAt 19 cfg0.N : FVec Ideal S16x128 .f32) (ix2 r y)
      = sdC (X2 (arg0 m c) (arg1 m c) (arg4 m c) (arg5 m c)) (m2 (arg13 m c)) ⟨r.val / 8, by have := r.isLt; omega⟩ y :=
  (congrFun (arr19_eq m c) (ix2 r y)).trans (sdArr2_apply m c r y)

/-- Entry `(r, y)` of partial-sum array 20 after the run: the total of the core that owns row `r`. -/
theorem arr20 (c : Dev nD) (r : Fin 16) (y : Fin 1) :
    ((dats m 0 c).arrAt 20 cfg0.N : FVec Ideal S16x1 .f32) (ix2 r y)
      = sqC (X3 (arg0 m c) (arg1 m c) (arg2 m c) (arg4 m c) (arg5 m c) (arg6 m c) (arg7 m c)) (m2 (arg14 m c)) ⟨r.val / 8, by have := r.isLt; omega⟩ :=
  (congrFun (arr20_eq m c) (ix2 r y)).trans (sqArr3_apply m c r y)

/-- Entry `(r, y)` of partial-sum array 21 after the run: the total of the core that owns row `r`. -/
theorem arr21 (c : Dev nD) (r : Fin 16) (y : Fin 64) :
    ((dats m 0 c).arrAt 21 cfg0.N : FVec Ideal S16x64 .f32) (ix2 r y)
      = sdC (X3 (arg0 m c) (arg1 m c) (arg2 m c) (arg4 m c) (arg5 m c) (arg6 m c) (arg7 m c)) (m2 (arg14 m c)) ⟨r.val / 8, by have := r.isLt; omega⟩ y :=
  (congrFun (arr21_eq m c) (ix2 r y)).trans (sdArr3_apply m c r y)

end Cert.KernelIdeal.Val

end
-- ==== Proof.KValue.lean ====
/-
  The value of the kernel program at the ideal values: started from a memory whose fifteen argument arrays satisfy the
  precondition, the run ends with the network's output in the first result, with the three masks — the closing chain
  (least and greatest entry, min-max normalisation, comparison with one half) of the three layers' Hebbian scores,
  the row sum taken last — in the other three, and with the arguments unchanged. The pieces: the frame run; the
  output array and the six partial arrays as the region leaves them; the operations after the region; the score
  composed from the two cores' totals; and the facts the precondition gives.
-/
import proofs.«423609_j13907104104967_3_alg».proof.Proof.KValueCore
import proofs.«423609_j13907104104967_3_alg».proof.Proof.KI.Frame
import proofs.«423609_j13907104104967_3_alg».proof.Proof.KI.FrameRun
import proofs.«423609_j13907104104967_3_alg».proof.Proof.Tail
import proofs.«423609_j13907104104967_3_alg».proof.Proof.FinEq
import proofs.«423609_j13907104104967_3_alg».proof.Proof.GlueLayers
import proofs.«423609_j13907104104967_3_alg».proof.Proof.ValOut
import proofs.«423609_j13907104104967_3_alg».proof.Proof.ValAcc
import proofs.«423609_j13907104104967_3_alg».proof.Proof.Gen.Pre_finite_inputs
import proofs.«423609_j13907104104967_3_alg».proof.Defs

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)
open Cert.Spec

variable (m : (ℓ : Loc nD τ sig) → Buf (Elt Ideal) ℓ) (ρ : Dev nD → PrngReg)

/-! ## The precondition gives the facts the algebra uses -/

/-- On every core the fifteen argument arrays hold real numbers and the six families of norms are positive. -/
theorem good_of (hpre : Cert.Pre_KernelIdeal m) (c : Dev nD) : Cert.PreV.Good (arg0 m c) (arg1 m c) (arg2 m c) (arg3 m c) (arg4 m c) (arg5 m c) (arg6 m c) (arg7 m c) (arg8 m c) (arg9 m c) (arg10 m c) (arg11 m c) (arg12 m c) (arg13 m c) (arg14 m c) :=
  Cert.PreV.decode _ _ _ _ _ _ _ _ _ _ _ _ _ _ _ (hpre c)

/-! ## The three masks from the region's partial arrays -/

section Masks

variable (c : Dev nD) (A : (w : Fin 22) → Buf (Elt Ideal) ((spec0 w).arr.view.loc (c.tc : Thread nD τ)))

/-- The mask of the layer of width 256: from the two cores' totals in the partial arrays, the closing chain of the
    layer's score. -/
theorem mask0_of (g : Cert.PreV.Good (arg0 m c) (arg1 m c) (arg2 m c) (arg3 m c) (arg4 m c) (arg5 m c) (arg6 m c) (arg7 m c) (arg8 m c) (arg9 m c) (arg10 m c) (arg11 m c) (arg12 m c) (arg13 m c) (arg14 m c))
    (hsq : ∀ (r : Fin 16) (u : Fin 1), P16 c A (ix2 r u) = sqC (X1 (arg0 m c)) (m2 (arg12 m c)) ⟨r.val / 8, by omega⟩)
    (hsd : ∀ (r : Fin 16) (j : Fin 256), P17 c A (ix2 r j) = sdC (X1 (arg0 m c)) (m2 (arg12 m c)) ⟨r.val / 8, by omega⟩ j) :
    StableHlo.after (tailOps (F := Ideal)).flatten (Wx m c A) (Proc.devRef .tc main_v50)
      = Cert.RefV.fin256 (fun j => scoreR (X1 (arg0 m c)) (m2 (arg12 m c)) (cnt1 : EReal) (j 0)) := by
  refine (tail_hm0 m c A).trans ?_
  rw [finK256_eq]
  refine congrArg Cert.RefV.fin256 (funext fun j => ?_)
  have hs : P16 c A (ix2 0 0) + P16 c A (ix2 8 0) = sqtot (X1 (arg0 m c)) (m2 (arg12 m c)) := by
    rw [hsq 0 0, hsq 8 0]
    exact sqC_add (X1 (arg0 m c)) (m2 (arg12 m c))
  have hd : P17 c A (ix2 0 (j 0)) + P17 c A (ix2 8 (j 0)) = sd (X1 (arg0 m c)) (m2 (arg12 m c)) (j 0) := by
    rw [hsd 0 (j 0), hsd 8 (j 0)]
    exact sdC_add (X1 (arg0 m c)) (m2 (arg12 m c)) (j 0)
  exact score_of_totals (X1 (arg0 m c)) (m2 (arg12 m c)) cnt1 Cert.PreV.cnt1_ne g.realX1 g.real12 g.nx1 g.ny1 (j 0) _ _ _ _ hs hd

/-- The mask of the layer of width 128: from the two cores' totals in the partial arrays, the closing chain of the
    layer's score. -/
theorem mask1_of (g : Cert.PreV.Good (arg0 m c) (arg1 m c) (arg2 m c) (arg3 m c) (arg4 m c) (arg5 m c) (arg6 m c) (arg7 m c) (arg8 m c) (arg9 m c) (arg10 m c) (arg11 m c) (arg12 m c) (arg13 m c) (arg14 m c))
    (hsq : ∀ (r : Fin 16) (u : Fin 1), P18 c A (ix2 r u) = sqC (X2 (arg0 m c) (arg1 m c) (arg4 m c) (arg5 m c)) (m2 (arg13 m c)) ⟨r.val / 8, by omega⟩)
    (hsd : ∀ (r : Fin 16) (j : Fin 128), P19 c A (ix2 r j) = sdC (X2 (arg0 m c) (arg1 m c) (arg4 m c) (arg5 m c)) (m2 (arg13 m c)) ⟨r.val / 8, by omega⟩ j) :
    StableHlo.after (tailOps (F := Ideal)).flatten (Wx m c A) (Proc.devRef .tc main_v83)
      = Cert.RefV.fin128 (fun j => scoreR (X2 (arg0 m c) (arg1 m c) (arg4 m c) (arg5 m c)) (m2 (arg13 m c)) (cnt2 : EReal) (j 0)) := by
  refine (tail_hm1 m c A).trans ?_
  rw [finK128_eq]
  refine congrArg Cert.RefV.fin128 (funext fun j => ?_)
  have hs : P18 c A (ix2 0 0) + P18 c A (ix2 8 0) = sqtot (X2 (arg0 m c) (arg1 m c) (arg4 m c) (arg5 m c)) (m2 (arg13 m c)) := by
    rw [hsq 0 0, hsq 8 0]
    exact sqC_add (X2 (arg0 m c) (arg1 m c) (arg4 m c) (arg5 m c)) (m2 (arg13 m c))
  have hd : P19 c A (ix2 0 (j 0)) + P19 c A (ix2 8 (j 0)) = sd (X2 (arg0 m c) (arg1 m c) (arg4 m c) (arg5 m c)) (m2 (arg13 m c)) (j 0) := by
    rw [hsd 0 (j 0), hsd 8 (j 0)]
    exact sdC_add (X2 (arg0 m c) (arg1 m c) (arg4 m c) (arg5 m c)) (m2 (arg13 m c)) (j 0)
  exact score_of_totals (X2 (arg0 m c) (arg1 m c) (arg4 m c) (arg5 m c)) (m2 (arg13 m c)) cnt2 Cert.PreV.cnt2_ne g.realX2 g.real13 g.nx2 g.ny2 (j 0) _ _ _ _ hs hd

/-- The mask of the layer of width 64: from the two cores' totals in the partial arrays, the closing chain of the
    layer's score. -/
theorem mask2_of (g : Cert.PreV.Good (arg0 m c) (arg1 m c) (arg2 m c) (arg3 m c) (arg4 m c) (arg5 m c) (arg6 m c) (arg7 m c) (arg8 m c) (arg9 m c) (arg10 m c) (arg11 m c) (arg12 m c) (arg13 m c) (arg14 m c))
    (hsq : ∀ (r : Fin 16) (u : Fin 1), P20 c A (ix2 r u) = sqC (X3 (arg0 m c) (arg1 m c) (arg2 m c) (arg4 m c) (arg5 m c) (arg6 m c) (arg7 m c)) (m2 (arg14 m c)) ⟨r.val / 8, by omega⟩)
    (hsd : ∀ (r : Fin 16) (j : Fin 64), P21 c A (ix2 r j) = sdC (X3 (arg0 m c) (arg1 m c) (arg2 m c) (arg4 m c) (arg5 m c) (arg6 m c) (arg7 m c)) (m2 (arg14 m c)) ⟨r.val / 8, by omega⟩ j) :
    StableHlo.after (tailOps (F := Ideal)).flatten (Wx m c A) (Proc.devRef .tc main_v116)
      = Cert.RefV.fin64 (fun j => scoreR (X3 (arg0 m c) (arg1 m c) (arg2 m c) (arg4 m c) (arg5 m c) (arg6 m c) (arg7 m c)) (m2 (arg14 m c)) (cnt3 : EReal) (j 0)) := by
  refine (tail_hm2 m c A).trans ?_
  rw [finK64_eq]
  refine congrArg Cert.RefV.fin64 (funext fun j => ?_)
  have hs : P20 c A (ix2 0 0) + P20 c A (ix2 8 0) = sqtot (X3 (arg0 m c) (arg1 m c) (arg2 m c) (arg4 m c) (arg5 m c) (arg6 m c) (arg7 m c)) (m2 (arg14 m c)) := by
    rw [hsq 0 0, hsq 8 0]
    exact sqC_add (X3 (arg0 m c) (arg1 m c) (arg2 m c) (arg4 m c) (arg5 m c) (arg6 m c) (arg7 m c)) (m2 (arg14 m c))
  have hd : P21 c A (ix2 0 (j 0)) + P21 c A (ix2 8 (j 0)) = sd (X3 (arg0 m c) (arg1 m c) (arg2 m c) (arg4 m c) (arg5 m c) (arg6 m c) (arg7 m c)) (m2 (arg14 m c)) (j 0) := by
    rw [hsd 0 (j 0), hsd 8 (j 0)]
    exact sdC_add (X3 (arg0 m c) (arg1 m c) (arg2 m c) (arg4 m c) (arg5 m c) (arg6 m c) (arg7 m c)) (m2 (arg14 m c)) (j 0)
  exact score_of_totals (X3 (arg0 m c) (arg1 m c) (arg2 m c) (arg4 m c) (arg5 m c) (arg6 m c) (arg7 m c)) (m2 (arg14 m c)) cnt3 Cert.PreV.cnt3_ne g.realX3 g.real14 g.nx3 g.ny3 (j 0) _ _ _ _ hs hd

end Masks

/-! ## The value of the kernel program -/

/-- The run of the kernel program ends with the network's output, the three masks as the closing chain of the three
    layers' scores, and the arguments unchanged — given, for each layer, that the two partial arrays hold the two
    cores' totals (rows 0 to 7 the first core's, rows 8 to 15 the second's). -/
theorem kernel_value_of (hpre : Cert.Pre_KernelIdeal m)
    (H16 : ∀ (c : Dev nD) (r : Fin 16) (u : Fin 1), ((dats m 0 c).arrAt 16 cfg0.N : FVec Ideal S16x1 .f32) (ix2 r u)
      = sqC (X1 (arg0 m c)) (m2 (arg12 m c)) ⟨r.val / 8, by omega⟩)
    (H17 : ∀ (c : Dev nD) (r : Fin 16) (j : Fin 256), ((dats m 0 c).arrAt 17 cfg0.N : FVec Ideal S16x256 .f32) (ix2 r j)
      = sdC (X1 (arg0 m c)) (m2 (arg12 m c)) ⟨r.val / 8, by omega⟩ j)
    (H18 : ∀ (c : Dev nD) (r : Fin 16) (u : Fin 1), ((dats m 0 c).arrAt 18 cfg0.N : FVec Ideal S16x1 .f32) (ix2 r u)
      = sqC (X2 (arg0 m c) (arg1 m c) (arg4 m c) (arg5 m c)) (m2 (arg13 m c)) ⟨r.val / 8, by omega⟩)
    (H19 : ∀ (c : Dev nD) (r : Fin 16) (j : Fin 128), ((dats m 0 c).arrAt 19 cfg0.N : FVec Ideal S16x128 .f32) (ix2 r j)
      = sdC (X2 (arg0 m c) (arg1 m c) (arg4 m c) (arg5 m c)) (m2 (arg13 m c)) ⟨r.val / 8, by omega⟩ j)
    (H20 : ∀ (c : Dev nD) (r : Fin 16) (u : Fin 1), ((dats m 0 c).arrAt 20 cfg0.N : FVec Ideal S16x1 .f32) (ix2 r u)
      = sqC (X3 (arg0 m c) (arg1 m c) (arg2 m c) (arg4 m c) (arg5 m c) (arg6 m c) (arg7 m c)) (m2 (arg14 m c)) ⟨r.val / 8, by omega⟩)
    (H21 : ∀ (c : Dev nD) (r : Fin 16) (j : Fin 64), ((dats m 0 c).arrAt 21 cfg0.N : FVec Ideal S16x64 .f32) (ix2 r j)
      = sdC (X3 (arg0 m c) (arg1 m c) (arg2 m c) (arg4 m c) (arg5 m c) (arg6 m c) (arg7 m c)) (m2 (arg14 m c)) ⟨r.val / 8, by omega⟩ j) :
    θ_run (defs (F := Ideal)) (onTc (τ := τ) (main (F := Ideal))) ⟨m, fun _ => 0, ρ⟩ (fun r => ∀ c : Dev nD,
      r.2.mem ((c.tc : Thread nD τ).loc main_v17_0)
          = (fun i => netOut (arg0 m c) (arg1 m c) (arg2 m c) (arg3 m c) (arg4 m c) (arg5 m c) (arg6 m c) (arg7 m c) (arg8 m c) (arg9 m c) (arg10 m c) (arg11 m c) (i 0) (i 1))
      ∧ r.2.mem ((c.tc : Thread nD τ).loc main_v50)
          = Cert.RefV.fin256 (fun j => scoreR (X1 (arg0 m c)) (m2 (arg12 m c)) (cnt1 : EReal) (j 0))
      ∧ r.2.mem ((c.tc : Thread nD τ).loc main_v83)
          = Cert.RefV.fin128 (fun j => scoreR (X2 (arg0 m c) (arg1 m c) (arg4 m c) (arg5 m c)) (m2 (arg13 m c)) (cnt2 : EReal) (j 0))
      ∧ r.2.mem ((c.tc : Thread nD τ).loc main_v116)
          = Cert.RefV.fin64 (fun j => scoreR (X3 (arg0 m c) (arg1 m c) (arg2 m c) (arg4 m c) (arg5 m c) (arg6 m c) (arg7 m c)) (m2 (arg14 m c)) (cnt3 : EReal) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  value_of m ρ (dats m) (A_eq m) (run_main m ρ) _ _ _ _
    (fun c => arr15 m c)
    (fun c => mask0_of m c _ (good_of m hpre c) (H16 c) (H17 c))
    (fun c => mask1_of m c _ (good_of m hpre c) (H18 c) (H19 c))
    (fun c => mask2_of m c _ (good_of m hpre c) (H20 c) (H21 c))

/-- THE VALUE of the kernel program. -/
theorem kernel_value (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v17_0)
          = (fun i => netOut (arg0 m c) (arg1 m c) (arg2 m c) (arg3 m c) (arg4 m c) (arg5 m c) (arg6 m c) (arg7 m c) (arg8 m c) (arg9 m c) (arg10 m c) (arg11 m c) (i 0) (i 1))
      ∧ r.2.mem ((c.tc : Thread nD τ).loc main_v50)
          = Cert.RefV.fin256 (fun j => scoreR (X1 (arg0 m c)) (m2 (arg12 m c)) (cnt1 : EReal) (j 0))
      ∧ r.2.mem ((c.tc : Thread nD τ).loc main_v83)
          = Cert.RefV.fin128 (fun j => scoreR (X2 (arg0 m c) (arg1 m c) (arg4 m c) (arg5 m c)) (m2 (arg13 m c)) (cnt2 : EReal) (j 0))
      ∧ r.2.mem ((c.tc : Thread nD τ).loc main_v116)
          = Cert.RefV.fin64 (fun j => scoreR (X3 (arg0 m c) (arg1 m c) (arg2 m c) (arg4 m c) (arg5 m c) (arg6 m c) (arg7 m c)) (m2 (arg14 m c)) (cnt3 : EReal) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  kernel_value_of m ρ hpre (arr16 m) (arr17 m) (arr18 m) (arr19 m) (arr20 m) (arr21 m)

end Cert.KernelIdeal.Val

end
-- ==== Proof.lean ====
/-
  The five claims of this certificate, for a network of four dense layers over a batch of 8192 rows of 1024
  features: three layers `relu (X Wᵀ + b) * mask` of widths 256, 128 and 64, a last layer `relu (X Wᵀ + b)` of
  width 1000, and for each of the first three layers the Hebbian score of the layer's INPUT against a matrix `H` —
  the rows normalised to unit length, projected on the rows of `H`, normalised again; `θ` the mean square of the
  result; the row sums of `H + (ynᵀ·xn − θ·H)` — whose min-max normalisation, thresholded at one half, is a mask.

  • Three frames. Each of the three programs (the kernel program at the bit-exact values, the same text at the
    extended reals, and the reference at the extended reals) runs to completion and leaves its fifteen argument arrays
    as it found them.
  • The reading at the extended reals rewrote no operation of the kernel program, so what it preserves is `True`.
  • The algebraic claim. At the extended reals, from memories that agree on the fifteen arguments, and under the
    precondition that every input is finite and every row norm the reference divides by is positive, the two programs
    end with the same four results: the network's output and the three masks. The kernel forms each score with the row
    sum distributed over its three terms, `(1 − θ) · Σₓ H j x + Σᵣ yn r j · Σₓ xn r x`, its sums over the batch rows
    accumulated tile by tile; the reference takes the row sum last, `Σₓ (H j x + (Σᵣ yn r j · xn r x − θ · H j x))`.
    Over the extended reals the two differ at infinities; under the precondition every quantity involved is a real
    number, where finite sums distribute and reorder, so the two scores are equal. Both programs' results are brought
    to one expression each — the network's output, and the threshold chain applied to the row-sum score of the layer's
    input — the reference's arguments identified with the kernel's by the agreement.
-/
import proofs.«423609_j13907104104967_3_alg».proof.Defs
import proofs.«423609_j13907104104967_3_alg».proof.Proof.Gen.Kernel
import proofs.«423609_j13907104104967_3_alg».proof.Proof.Gen.Kernel.Skeleton
import proofs.«423609_j13907104104967_3_alg».proof.Proof.Gen.Kernel.Launch
import proofs.«423609_j13907104104967_3_alg».proof.Proof.Gen.Kernel.Points
import proofs.«423609_j13907104104967_3_alg».proof.Proof.Gen.KernelIdeal
import proofs.«423609_j13907104104967_3_alg».proof.Proof.Gen.KernelIdeal.Skeleton
import proofs.«423609_j13907104104967_3_alg».proof.Proof.Gen.KernelIdeal.Launch
import proofs.«423609_j13907104104967_3_alg».proof.Proof.Gen.KernelIdeal.Points
import proofs.«423609_j13907104104967_3_alg».proof.Proof.Gen.ReferenceIdeal
import proofs.«423609_j13907104104967_3_alg».proof.Proof.Gen.ReferenceIdeal.Run
import proofs.«423609_j13907104104967_3_alg».proof.Proof.Gen.ReferenceIdeal.Read
import proofs.«423609_j13907104104967_3_alg».proof.Proof.Gen.Pre_finite_inputs
import proofs.«423609_j13907104104967_3_alg».proof.Proof.K.Frame
import proofs.«423609_j13907104104967_3_alg».proof.Proof.K.FrameRun
import proofs.«423609_j13907104104967_3_alg».proof.Proof.KI.Frame
import proofs.«423609_j13907104104967_3_alg».proof.Proof.KI.FrameRun
import proofs.«423609_j13907104104967_3_alg».proof.Proof.KValue
import proofs.«423609_j13907104104967_3_alg».proof.Proof.Ref1
import proofs.«423609_j13907104104967_3_alg».proof.Proof.Ref2
import Idealize.ShloMosaic.Adequacy
import Idealize.ShloMosaic.Init

noncomputable section

namespace Cert.Proof

open Idealize.ShloMosaic Idealize.SL.Sem

/-- The kernel program, at the bit-exact values, runs and leaves its fifteen arguments as it found them. -/
theorem frame_k : Cert.frame_Kernel := fun m ρ _ => Cert.Kernel.Fr.frame (F := Bits) m ρ

/-- The same text at the extended reals likewise. -/
theorem frame_ki : Cert.frame_KernelIdeal := fun m ρ _ => Cert.KernelIdeal.Fr.frame (F := Ideal) m ρ

/-- The reference at the extended reals likewise: the last fifteen conjuncts of what its run ends with. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- At the extended reals, from memories that agree on the arguments, both programs end with the network's
    output and, for each of the three layers, the threshold chain applied to the row-sum score of the layer's
    input: the kernel's value is stated in those terms, and the reference's four results are brought to the
    same terms, its arguments replaced by the kernel's through the agreement. -/
theorem algebraic : Cert.algebraic_KernelIdeal_ReferenceIdeal := by
  intro m g m' g' hpre hagree
  refine ⟨_, _, _, _, Cert.KernelIdeal.Val.kernel_value m g hpre, ?_⟩
  refine (θ_run Cert.ReferenceIdeal.defs _ _).mono (fun _ h c => ⟨?_, ?_, ?_, ?_, (h c).2.2.2.2⟩)
    (Cert.ReferenceIdeal.Value.run (F := Ideal) m' g')
  · obtain ⟨e0, e1, e2, e3, e4, e5, e6, e7, e8, e9, e10, e11, e12, e13, e14⟩ := hagree c
    refine (h c).1.trans ((Cert.ReferenceIdeal.Read.val_main_v128_eq _ _ _ _ _ _ _ _ _ _ _ _).trans
      ((Cert.RefV.ref_out _ _ _ _ _ _ _ _ _ _ _ _).trans ?_))
    rw [e0, e1, e2, e3, e4, e5, e6, e7, e8, e9, e10, e11] <;> rfl
  · obtain ⟨e0, e1, e2, e3, e4, e5, e6, e7, e8, e9, e10, e11, e12, e13, e14⟩ := hagree c
    refine (h c).2.1.trans ((Cert.ReferenceIdeal.Read.val_main_v31_eq m' c).trans ((Cert.RefV.ref_hm0 _ _).trans ?_))
    rw [e0, e12] <;> rfl
  · obtain ⟨e0, e1, e2, e3, e4, e5, e6, e7, e8, e9, e10, e11, e12, e13, e14⟩ := hagree c
    refine (h c).2.2.1.trans ((Cert.ReferenceIdeal.Read.val_main_v72_eq m' c).trans
      ((Cert.RefV.ref_hm1 _ _ _ _ _).trans ?_))
    rw [e0, e1, e4, e5, e13] <;> rfl
  · obtain ⟨e0, e1, e2, e3, e4, e5, e6, e7, e8, e9, e10, e11, e12, e13, e14⟩ := hagree c
    refine (h c).2.2.2.1.trans ((Cert.ReferenceIdeal.Read.val_main_v113_eq m' c).trans
      ((Cert.RefV.ref_hm2 _ _ _ _ _ _ _ _).trans ?_))
    rw [e0, e1, e2, e4, e5, e6, e7, e14] <;> rfl

theorem claim : Cert.Claim := ⟨Cert.Kernel.Gen.facts, Cert.KernelIdeal.Gen.facts, Cert.ReferenceIdeal.Gen.facts, Cert.Pre_finite_inputs.Gen.facts, frame_k, frame_ki, frame_ri, trivial, algebraic⟩

end Cert.Proof

end
